-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v37)) (v1 : (c : Dev Cert.KernelIdeal.nD) → Buf (Elt Ideal) ((c.tc : Thread Cert.KernelIdeal.nD Cert.KernelIdeal.τ).loc Cert.KernelIdeal.main_v40)) (v2 : (c : Dev Cert.KernelIdeal.nD) → Buf (Elt Ideal) ((c.tc : Thread Cert.KernelIdeal.nD Cert.KernelIdeal.τ).loc Cert.KernelIdeal.main_v0_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_v40) = v1 c
          ∧ r.2.mem ((c.tc : Thread Cert.KernelIdeal.nD Cert.KernelIdeal.τ).loc Cert.KernelIdeal.main_v0_4) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v161) = v0 c
          ∧ r.2.mem ((c.tc : Thread Cert.ReferenceIdeal.nD Cert.ReferenceIdeal.τ).loc Cert.ReferenceIdeal.main_v162) = v1 c
          ∧ r.2.mem ((c.tc : Thread Cert.ReferenceIdeal.nD Cert.ReferenceIdeal.τ).loc Cert.ReferenceIdeal.main_v39) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000x64 : Shape := ⟨2, ![800000, 64]⟩
abbrev S800000 : Shape := ⟨1, ![800000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S32x64 : Shape := ⟨2, ![32, 64]⟩
abbrev S_ : Shape := ⟨0, ![]⟩
abbrev S1x64 : Shape := ⟨2, ![1, 64]⟩
abbrev S50000x32 : Shape := ⟨2, ![50000, 32]⟩
abbrev S1x32 : Shape := ⟨2, ![1, 32]⟩
abbrev S50000 : Shape := ⟨1, ![50000]⟩
abbrev S50000x1 : Shape := ⟨2, ![50000, 1]⟩
abbrev S800000x1 : Shape := ⟨2, ![800000, 1]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x64 : S_.BroadcastsInDim S32x64 (![] : Fin 0 → Fin S32x64.rank)
  reducesTo_S32x64_S_d0_1 : S32x64.ReducesTo [0, 1] S_
  bcast_S_S800000 : S_.BroadcastsInDim S800000 (![] : Fin 0 → Fin S800000.rank)
  reducesTo_S800000_S_d0 : S800000.ReducesTo [0] S_
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S1x64_S800000x64_0_1 : S1x64.BroadcastsInDim S800000x64 (![0, 1] : Fin 2 → Fin S800000x64.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  reducesTo_S50000x32_S50000_d1 : S50000x32.ReducesTo [1] S50000
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x32_0_1 : S50000x1.BroadcastsInDim S50000x32 (![0, 1] : Fin 2 → Fin S50000x32.rank)
  bcast_S800000_S800000x1_0 : S800000.BroadcastsInDim S800000x1 (![0] : Fin 1 → Fin S800000x1.rank)
  reducesTo_S800000x64_S800000_d1 : S800000x64.ReducesTo [1] S800000
  bcast_S800000x1_S800000x64_0_1 : S800000x1.BroadcastsInDim S800000x64 (![0, 1] : Fin 2 → Fin S800000x64.rank)
  dot_S50000x64_S64x64_S50000x64_1_0_0_1_n_n_wf : DotDims.WF S50000x64 S64x64 S50000x64 [1] [0] [0] [1] [] []
  dot_S800000x64_S64x64_S800000x64_1_0_0_1_n_n_wf : DotDims.WF S800000x64 S64x64 S800000x64 [1] [0] [0] [1] [] []
  dot_S50000x64_S64x32_S50000x32_1_0_0_1_n_n_wf : DotDims.WF S50000x64 S64x32 S50000x32 [1] [0] [0] [1] [] []
  gather_S50000x64_S800000x1_S800000x64_1_0_n_n_0_1_164_wf : GatherDims.WF S50000x64 S800000x1 S800000x64 [1] [0] [] [0] [] 1 ![1, 64]
  dot_S50000x32_S32x64_S50000x64_1_0_0_1_n_n_wf : DotDims.WF S50000x32 S32x64 S50000x64 [1] [0] [0] [1] [] []
  scatter_S50000x64_S800000x1_S800000x64_1_0_0_1_wf : ScatterDims.WF S50000x64 S800000x1 S800000x64 [1] [0] [0] 1

variable [Facts]

def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S800000x64_S64x64_S800000x64_1_0_0_1_n_n : DotDims S800000x64 S64x64 S800000x64 where
  lhsContracting := [1]
  rhsContracting := [0]
  lhsNonContracting := [0]
  rhsNonContracting := [1]
  lhsBatch := []
  rhsBatch := []
  wf := dot_S800000x64_S64x64_S800000x64_1_0_0_1_n_n_wf
def dot_S50000x64_S64x32_S50000x32_1_0_0_1_n_n : DotDims S50000x64 S64x32 S50000x32 where
  lhsContracting := [1]
  rhsContracting := [0]
  lhsNonContracting := [0]
  rhsNonContracting := [1]
  lhsBatch := []
  rhsBatch := []
  wf := dot_S50000x64_S64x32_S50000x32_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S50000x32_S32x64_S50000x64_1_0_0_1_n_n : DotDims S50000x32 S32x64 S50000x64 where
  lhsContracting := [1]
  rhsContracting := [0]
  lhsNonContracting := [0]
  rhsNonContracting := [1]
  lhsBatch := []
  rhsBatch := []
  wf := dot_S50000x32_S32x64_S50000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def fn_part12 {F : FTy → Type} [FloatOps F] (main_arg3 : IVec S800000 32) (main_v132 : IVec S_ 1) (main_v216 : FVec F S800000x64 .f32) (main_cst_68 : FVec F S_ .f32) : IVec S_ 1 :=
  let main_v217 : FVec F S50000x64 .f32 := broadcastInDim S50000x64 ![] bcast_S_S50000x64 main_cst_68
  let main_v218 : IVec S800000x1 32 := broadcastInDim S800000x1 ![0] bcast_S800000_S800000x1_0 main_arg3
  let main_v219 : FVec F S50000x64 .f32 := (fun x i u => Host.scatterAdd scatter_S50000x64_S800000x1_S800000x64_1_0_0_1 x i u) main_v217 main_v218 main_v216
  let main_cst_69 : FVec F S_ .f32 := constant S_ .f32 0x358637BD#32
  let main_v220 : FVec F S50000x64 .f32 := broadcastInDim S50000x64 ![] bcast_S_S50000x64 main_cst_69
  let main_v221 : FVec F S50000x64 .f32 := addf main_v219 main_v220
  let main_cst_70 : FVec F S_ .f32 := constant S_ .f32 0x00000000#32
  let main_v222 : FVec F S50000x64 .f32 := broadcastInDim S50000x64 ![] bcast_S_S50000x64 main_cst_70
  let main_v223 : IVec S50000x64 1 := cmpf .une main_v221 main_v222
  let main_c_71 : IVec S_ 1 := constantI S_ 1 1#1
  let main_v224 : IVec S_ 1 := (fun x v => Host.reduce IntOp.andi x v reducesTo_S50000x64_S_d0_1 h_S_) main_v223 main_c_71
  let main_v225 : IVec S_ 1 := andi main_v132 main_v224
  main_v225

def fn_part11 {F : FTy → Type} [FloatOps F] (main_arg2 : IVec S800000 32) (main_arg3 : IVec S800000 32) (main_v132 : IVec S_ 1) (main_v187 : FVec F S800000x64 .f32) (main_v191 : FVec F S50000x64 .f32) (main_v195 : FVec F S50000x64 .f32) (main_v197 : IVec S800000 1) (main_c_63 : IVec S_ 32) : IVec S_ 1 :=
  let main_v198 : IVec S800000 32 := broadcastInDim S800000 ![] bcast_S_S800000 main_c_63
  let main_v199 : IVec S800000 32 := addi main_arg2 main_v198
  let main_v200 : IVec S800000 32 := select main_v197 main_v199 main_arg2
  let main_v201 : IVec S800000x1 32 := broadcastInDim S800000x1 ![0] bcast_S800000_S800000x1_0 main_v200
  let main_v202 : FVec F S800000x64 .f32 := (fun x i => Host.gather gather_S50000x64_S800000x1_S800000x64_1_0_n_n_0_1_164 x i) main_v195 main_v201
  let main_c_64 : IVec S_ 32 := constantI S_ 32 0#32
  let main_v203 : IVec S800000 32 := broadcastInDim S800000 ![] bcast_S_S800000 main_c_64
  let main_v204 : IVec S800000 1 := cmpi .slt main_arg3 main_v203
  let main_c_65 : IVec S_ 32 := constantI S_ 32 50000#32
  let main_v205 : IVec S800000 32 := broadcastInDim S800000 ![] bcast_S_S800000 main_c_65
  let main_v206 : IVec S800000 32 := addi main_arg3 main_v205
  let main_v207 : IVec S800000 32 := select main_v204 main_v206 main_arg3
  let main_v208 : IVec S800000x1 32 := broadcastInDim S800000x1 ![0] bcast_S800000_S800000x1_0 main_v207
  let main_v209 : FVec F S800000x64 .f32 := (fun x i => Host.gather gather_S50000x64_S800000x1_S800000x64_1_0_n_n_0_1_164 x i) main_v191 main_v208
  let main_v210 : FVec F S800000x64 .f32 := mulf main_v202 main_v209
  let main_cst_66 : FVec F S_ .f32 := constant S_ .f32 0x00000000#32
  let main_v211 : FVec F S800000 .f32 := (fun x v => Host.reduceAdd x v reducesTo_S800000x64_S800000_d1 h_S_) main_v210 main_cst_66
  let main_cst_67 : FVec F S_ .f32 := constant S_ .f32 0x42800000#32
  let main_v212 : FVec F S800000 .f32 := broadcastInDim S800000 ![] bcast_S_S800000 main_cst_67
  let main_v213 : FVec F S800000 .f32 := Host.divf main_v211 main_v212
  let main_v214 : FVec F S800000x1 .f32 := broadcastInDim S800000x1 ![0] bcast_S800000_S800000x1_0 main_v213
  let main_v215 : FVec F S800000x64 .f32 := broadcastInDim S800000x64 ![0, 1] bcast_S800000x1_S800000x64_0_1 main_v214
  let main_v216 : FVec F S800000x64 .f32 := mulf main_v187 main_v215
  let main_cst_68 : FVec F S_ .f32 := constant S_ .f32 0x00000000#32
  fn_part12 (F := F) main_arg3 main_v132 main_v216 main_cst_68

def fn_part10 {F : FTy → Type} [FloatOps F] (main_arg2 : IVec S800000 32) (main_arg3 : IVec S800000 32) (main_arg18 : FVec F S32x64 .f32) (main_arg19 : FVec F S64 .f32) (main_arg20 : FVec F S32x64 .f32) (main_arg21 : FVec F S64 .f32) (main_v132 : IVec S_ 1) (main_v140 : FVec F S50000x64 .f32) (main_v144 : FVec F S800000x64 .f32) (main_v165 : FVec F S50000x32 .f32) (main_v172 : FVec F S800000x64 .f32) (main_v177 : IVec S800000 32) : IVec S_ 1 :=
  let main_v178 : IVec S800000x1 32 := broadcastInDim S800000x1 ![0] bcast_S800000_S800000x1_0 main_v177
  let main_v179 : FVec F S800000x64 .f32 := (fun x i => Host.gather gather_S50000x64_S800000x1_S800000x64_1_0_n_n_0_1_164 x i) main_v140 main_v178
  let main_v180 : FVec F S800000x64 .f32 := addf main_v172 main_v179
  let main_v181 : FVec F S800000x64 .f32 := addf main_v180 main_v144
  let main_v182 : FVec F S800000x64 .f32 := Host.negf main_v181
  let main_v183 : FVec F S800000x64 .f32 := Host.exp main_v182
  let main_cst_60 : FVec F S_ .f32 := constant S_ .f32 0x3F800000#32
  let main_v184 : FVec F S800000x64 .f32 := broadcastInDim S800000x64 ![] bcast_S_S800000x64 main_cst_60
  let main_v185 : FVec F S800000x64 .f32 := addf main_v184 main_v183
  let main_cst_61 : FVec F S_ .f32 := constant S_ .f32 0x3F800000#32
  let main_v186 : FVec F S800000x64 .f32 := broadcastInDim S800000x64 ![] bcast_S_S800000x64 main_cst_61
  let main_v187 : FVec F S800000x64 .f32 := Host.divf main_v186 main_v185
  let main_v188 : FVec F S50000x64 .f32 := (fun l r => Host.dotGeneral dot_S50000x32_S32x64_S50000x64_1_0_0_1_n_n none l r) main_v165 main_arg18
  let main_v189 : FVec F S1x64 .f32 := broadcastInDim S1x64 ![1] bcast_S64_S1x64_1 main_arg19
  let main_v190 : FVec F S50000x64 .f32 := broadcastInDim S50000x64 ![0, 1] bcast_S1x64_S50000x64_0_1 main_v189
  let main_v191 : FVec F S50000x64 .f32 := addf main_v188 main_v190
  let main_v192 : FVec F S50000x64 .f32 := (fun l r => Host.dotGeneral dot_S50000x32_S32x64_S50000x64_1_0_0_1_n_n none l r) main_v165 main_arg20
  let main_v193 : FVec F S1x64 .f32 := broadcastInDim S1x64 ![1] bcast_S64_S1x64_1 main_arg21
  let main_v194 : FVec F S50000x64 .f32 := broadcastInDim S50000x64 ![0, 1] bcast_S1x64_S50000x64_0_1 main_v193
  let main_v195 : FVec F S50000x64 .f32 := addf main_v192 main_v194
  let main_c_62 : IVec S_ 32 := constantI S_ 32 0#32
  let main_v196 : IVec S800000 32 := broadcastInDim S800000 ![] bcast_S_S800000 main_c_62
  let main_v197 : IVec S800000 1 := cmpi .slt main_arg2 main_v196
  let main_c_63 : IVec S_ 32 := constantI S_ 32 50000#32
  fn_part11 (F := F) main_arg2 main_arg3 main_v132 main_v187 main_v191 main_v195 main_v197 main_c_63

def fn_part9 {F : FTy → Type} [FloatOps F] (main_arg2 : IVec S800000 32) (main_arg3 : IVec S800000 32) (main_arg18 : FVec F S32x64 .f32) (main_arg19 : FVec F S64 .f32) (main_arg20 : FVec F S32x64 .f32) (main_arg21 : FVec F S64 .f32) (main_v132 : IVec S_ 1) (main_v136 : FVec F S50000x64 .f32) (main_v140 : FVec F S50000x64 .f32) (main_v144 : FVec F S800000x64 .f32) (main_v154 : FVec F S50000x32 .f32) (main_v158 : FVec F S50000x1 .f32) : IVec S_ 1 :=
  let main_v159 : FVec F S50000x32 .f32 := broadcastInDim S50000x32 ![0, 1] bcast_S50000x1_S50000x32_0_1 main_v158
  let main_v160 : FVec F S50000x32 .f32 := subf main_v154 main_v159
  let main_v161 : FVec F S50000x32 .f32 := Host.exp main_v160
  let main_cst_55 : FVec F S_ .f32 := constant S_ .f32 0x00000000#32
  let main_v162 : FVec F S50000 .f32 := (fun x v => Host.reduceAdd x v reducesTo_S50000x32_S50000_d1 h_S_) main_v161 main_cst_55
  let main_v163 : FVec F S50000x1 .f32 := broadcastInDim S50000x1 ![0] bcast_S50000_S50000x1_0 main_v162
  let main_v164 : FVec F S50000x32 .f32 := broadcastInDim S50000x32 ![0, 1] bcast_S50000x1_S50000x32_0_1 main_v163
  let main_v165 : FVec F S50000x32 .f32 := Host.divf main_v161 main_v164
  let main_c_56 : IVec S_ 32 := constantI S_ 32 0#32
  let main_v166 : IVec S800000 32 := broadcastInDim S800000 ![] bcast_S_S800000 main_c_56
  let main_v167 : IVec S800000 1 := cmpi .slt main_arg2 main_v166
  let main_c_57 : IVec S_ 32 := constantI S_ 32 50000#32
  let main_v168 : IVec S800000 32 := broadcastInDim S800000 ![] bcast_S_S800000 main_c_57
  let main_v169 : IVec S800000 32 := addi main_arg2 main_v168
  let main_v170 : IVec S800000 32 := select main_v167 main_v169 main_arg2
  let main_v171 : IVec S800000x1 32 := broadcastInDim S800000x1 ![0] bcast_S800000_S800000x1_0 main_v170
  let main_v172 : FVec F S800000x64 .f32 := (fun x i => Host.gather gather_S50000x64_S800000x1_S800000x64_1_0_n_n_0_1_164 x i) main_v136 main_v171
  let main_c_58 : IVec S_ 32 := constantI S_ 32 0#32
  let main_v173 : IVec S800000 32 := broadcastInDim S800000 ![] bcast_S_S800000 main_c_58
  let main_v174 : IVec S800000 1 := cmpi .slt main_arg3 main_v173
  let main_c_59 : IVec S_ 32 := constantI S_ 32 50000#32
  let main_v175 : IVec S800000 32 := broadcastInDim S800000 ![] bcast_S_S800000 main_c_59
  let main_v176 : IVec S800000 32 := addi main_arg3 main_v175
  let main_v177 : IVec S800000 32 := select main_v174 main_v176 main_arg3
  fn_part10 (F := F) main_arg2 main_arg3 main_arg18 main_arg19 main_arg20 main_arg21 main_v132 main_v140 main_v144 main_v165 main_v172 main_v177

def fn_part8 {F : FTy → Type} [FloatOps F] (main_arg0 : FVec F S50000x64 .f32) (main_arg1 : FVec F S800000x64 .f32) (main_arg2 : IVec S800000 32) (main_arg3 : IVec S800000 32) (main_arg8 : FVec F S64x64 .f32) (main_arg9 : FVec F S64 .f32) (main_arg13 : FVec F S64 .f32) (main_arg14 : FVec F S64x64 .f32) (main_arg15 : FVec F S64 .f32) (main_arg16 : FVec F S64x32 .f32) (main_arg17 : FVec F S32 .f32) (main_arg18 : FVec F S32x64 .f32) (main_arg19 : FVec F S64 .f32) (main_arg20 : FVec F S32x64 .f32) (main_arg21 : FVec F S64 .f32) (main_v132 : IVec S_ 1) (main_v136 : FVec F S50000x64 .f32) (main_v137 : FVec F S50000x64 .f32) : IVec S_ 1 :=
  let main_v138 : FVec F S1x64 .f32 := broadcastInDim S1x64 ![1] bcast_S64_S1x64_1 main_arg13
  let main_v139 : FVec F S50000x64 .f32 := broadcastInDim S50000x64 ![0, 1] bcast_S1x64_S50000x64_0_1 main_v138
  let main_v140 : FVec F S50000x64 .f32 := addf main_v137 main_v139
  let main_v141 : FVec F S800000x64 .f32 := (fun l r => Host.dotGeneral dot_S800000x64_S64x64_S800000x64_1_0_0_1_n_n none l r) main_arg1 main_arg8
  let main_v142 : FVec F S1x64 .f32 := broadcastInDim S1x64 ![1] bcast_S64_S1x64_1 main_arg9
  let main_v143 : FVec F S800000x64 .f32 := broadcastInDim S800000x64 ![0, 1] bcast_S1x64_S800000x64_0_1 main_v142
  let main_v144 : FVec F S800000x64 .f32 := addf main_v141 main_v143
  let main_v145 : FVec F S50000x64 .f32 := (fun l r => Host.dotGeneral dot_S50000x64_S64x64_S50000x64_1_0_0_1_n_n none l r) main_arg0 main_arg14
  let main_v146 : FVec F S1x64 .f32 := broadcastInDim S1x64 ![1] bcast_S64_S1x64_1 main_arg15
  let main_v147 : FVec F S50000x64 .f32 := broadcastInDim S50000x64 ![0, 1] bcast_S1x64_S50000x64_0_1 main_v146
  let main_v148 : FVec F S50000x64 .f32 := addf main_v145 main_v147
  let main_cst_52 : FVec F S_ .f32 := constant S_ .f32 0x00000000#32
  let main_v149 : FVec F S50000x64 .f32 := broadcastInDim S50000x64 ![] bcast_S_S50000x64 main_cst_52
  let main_v150 : FVec F S50000x64 .f32 := maximumf main_v148 main_v149
  let main_v151 : FVec F S50000x32 .f32 := (fun l r => Host.dotGeneral dot_S50000x64_S64x32_S50000x32_1_0_0_1_n_n none l r) main_v150 main_arg16
  let main_v152 : FVec F S1x32 .f32 := broadcastInDim S1x32 ![1] bcast_S32_S1x32_1 main_arg17
  let main_v153 : FVec F S50000x32 .f32 := broadcastInDim S50000x32 ![0, 1] bcast_S1x32_S50000x32_0_1 main_v152
  let main_v154 : FVec F S50000x32 .f32 := addf main_v151 main_v153
  let main_cst_53 : FVec F S_ .f32 := constant S_ .f32 0xFF800000#32
  let main_v155 : FVec F S50000 .f32 := (fun x v => Host.reduce FloatOps.maximumf x v reducesTo_S50000x32_S50000_d1 h_S_) main_v154 main_cst_53
  let main_cst_54 : FVec F S_ .f32 := constant S_ .f32 0xFF800000#32
  let main_v156 : FVec F S50000 .f32 := broadcastInDim S50000 ![] bcast_S_S50000 main_cst_54
  let main_v157 : FVec F S50000 .f32 := maximumf main_v156 main_v155
  let main_v158 : FVec F S50000x1 .f32 := broadcastInDim S50000x1 ![0] bcast_S50000_S50000x1_0 main_v157
  fn_part9 (F := F) main_arg2 main_arg3 main_arg18 main_arg19 main_arg20 main_arg21 main_v132 main_v136 main_v140 main_v144 main_v154 main_v158

def fn_part7 {F : FTy → Type} [FloatOps F] (main_arg0 : FVec F S50000x64 .f32) (main_arg1 : FVec F S800000x64 .f32) (main_arg2 : IVec S800000 32) (main_arg3 : IVec S800000 32) (main_arg8 : FVec F S64x64 .f32) (main_arg9 : FVec F S64 .f32) (main_arg10 : FVec F S64x64 .f32) (main_arg11 : FVec F S64 .f32) (main_arg12 : FVec F S64x64 .f32) (main_arg13 : FVec F S64 .f32) (main_arg14 : FVec F S64x64 .f32) (main_arg15 : FVec F S64 .f32) (main_arg16 : FVec F S64x32 .f32) (main_arg17 : FVec F S32 .f32) (main_arg18 : FVec F S32x64 .f32) (main_arg19 : FVec F S64 .f32) (main_arg20 : FVec F S32x64 .f32) (main_arg21 : FVec F S64 .f32) (main_v118 : IVec S_ 1) (main_c_46 : IVec S_ 32) : IVec S_ 1 :=
  let main_v119 : IVec S800000 32 := broadcastInDim S800000 ![] bcast_S_S800000 main_c_46
  let main_v120 : IVec S800000 1 := cmpi .sge main_arg2 main_v119
  let main_c_47 : IVec S_ 32 := constantI S_ 32 50000#32
  let main_v121 : IVec S800000 32 := broadcastInDim S800000 ![] bcast_S_S800000 main_c_47
  let main_v122 : IVec S800000 1 := cmpi .slt main_arg2 main_v121
  let main_v123 : IVec S800000 1 := andi main_v120 main_v122
  let main_c_48 : IVec S_ 1 := constantI S_ 1 1#1
  let main_v124 : IVec S_ 1 := (fun x v => Host.reduce IntOp.andi x v reducesTo_S800000_S_d0 h_S_) main_v123 main_c_48
  let main_v125 : IVec S_ 1 := andi main_v118 main_v124
  let main_c_49 : IVec S_ 32 := constantI S_ 32 4294917296#32
  let main_v126 : IVec S800000 32 := broadcastInDim S800000 ![] bcast_S_S800000 main_c_49
  let main_v127 : IVec S800000 1 := cmpi .sge main_arg3 main_v126
  let main_c_50 : IVec S_ 32 := constantI S_ 32 50000#32
  let main_v128 : IVec S800000 32 := broadcastInDim S800000 ![] bcast_S_S800000 main_c_50
  let main_v129 : IVec S800000 1 := cmpi .slt main_arg3 main_v128
  let main_v130 : IVec S800000 1 := andi main_v127 main_v129
  let main_c_51 : IVec S_ 1 := constantI S_ 1 1#1
  let main_v131 : IVec S_ 1 := (fun x v => Host.reduce IntOp.andi x v reducesTo_S800000_S_d0 h_S_) main_v130 main_c_51
  let main_v132 : IVec S_ 1 := andi main_v125 main_v131
  let main_v133 : FVec F S50000x64 .f32 := (fun l r => Host.dotGeneral dot_S50000x64_S64x64_S50000x64_1_0_0_1_n_n none l r) main_arg0 main_arg10
  let main_v134 : FVec F S1x64 .f32 := broadcastInDim S1x64 ![1] bcast_S64_S1x64_1 main_arg11
  let main_v135 : FVec F S50000x64 .f32 := broadcastInDim S50000x64 ![0, 1] bcast_S1x64_S50000x64_0_1 main_v134
  let main_v136 : FVec F S50000x64 .f32 := addf main_v133 main_v135
  let main_v137 : FVec F S50000x64 .f32 := (fun l r => Host.dotGeneral dot_S50000x64_S64x64_S50000x64_1_0_0_1_n_n none l r) main_arg0 main_arg12
  fn_part8 (F := F) main_arg0 main_arg1 main_arg2 main_arg3 main_arg8 main_arg9 main_arg13 main_arg14 main_arg15 main_arg16 main_arg17 main_arg18 main_arg19 main_arg20 main_arg21 main_v132 main_v136 main_v137

def fn_part6 {F : FTy → Type} [FloatOps F] (main_arg0 : FVec F S50000x64 .f32) (main_arg1 : FVec F S800000x64 .f32) (main_arg2 : IVec S800000 32) (main_arg3 : IVec S800000 32) (main_arg8 : FVec F S64x64 .f32) (main_arg9 : FVec F S64 .f32) (main_arg10 : FVec F S64x64 .f32) (main_arg11 : FVec F S64 .f32) (main_arg12 : FVec F S64x64 .f32) (main_arg13 : FVec F S64 .f32) (main_arg14 : FVec F S64x64 .f32) (main_arg15 : FVec F S64 .f32) (main_arg16 : FVec F S64x32 .f32) (main_arg17 : FVec F S32 .f32) (main_arg18 : FVec F S32x64 .f32) (main_arg19 : FVec F S64 .f32) (main_arg20 : FVec F S32x64 .f32) (main_arg21 : FVec F S64 .f32) (main_arg23 : FVec F S64 .f32) (main_arg24 : FVec F S64 .f32) (main_arg25 : FVec F S64 .f32) (main_v98 : IVec S_ 1) (main_v101 : IVec S64 1) (main_c_39 : IVec S_ 1) : IVec S_ 1 :=
  let main_v102 : IVec S_ 1 := (fun x v => Host.reduce IntOp.andi x v reducesTo_S64_S_d0 h_S_) main_v101 main_c_39
  let main_v103 : IVec S_ 1 := andi main_v98 main_v102
  let main_v104 : FVec F S64 .f32 := Host.absf main_arg23
  let main_cst_40 : FVec F S_ .f32 := constant S_ .f32 0x7F800000#32
  let main_v105 : FVec F S64 .f32 := broadcastInDim S64 ![] bcast_S_S64 main_cst_40
  let main_v106 : IVec S64 1 := cmpf .olt main_v104 main_v105
  let main_c_41 : IVec S_ 1 := constantI S_ 1 1#1
  let main_v107 : IVec S_ 1 := (fun x v => Host.reduce IntOp.andi x v reducesTo_S64_S_d0 h_S_) main_v106 main_c_41
  let main_v108 : IVec S_ 1 := andi main_v103 main_v107
  let main_v109 : FVec F S64 .f32 := Host.absf main_arg24
  let main_cst_42 : FVec F S_ .f32 := constant S_ .f32 0x7F800000#32
  let main_v110 : FVec F S64 .f32 := broadcastInDim S64 ![] bcast_S_S64 main_cst_42
  let main_v111 : IVec S64 1 := cmpf .olt main_v109 main_v110
  let main_c_43 : IVec S_ 1 := constantI S_ 1 1#1
  let main_v112 : IVec S_ 1 := (fun x v => Host.reduce IntOp.andi x v reducesTo_S64_S_d0 h_S_) main_v111 main_c_43
  let main_v113 : IVec S_ 1 := andi main_v108 main_v112
  let main_v114 : FVec F S64 .f32 := Host.absf main_arg25
  let main_cst_44 : FVec F S_ .f32 := constant S_ .f32 0x7F800000#32
  let main_v115 : FVec F S64 .f32 := broadcastInDim S64 ![] bcast_S_S64 main_cst_44
  let main_v116 : IVec S64 1 := cmpf .olt main_v114 main_v115
  let main_c_45 : IVec S_ 1 := constantI S_ 1 1#1
  let main_v117 : IVec S_ 1 := (fun x v => Host.reduce IntOp.andi x v reducesTo_S64_S_d0 h_S_) main_v116 main_c_45
  let main_v118 : IVec S_ 1 := andi main_v113 main_v117
  let main_c_46 : IVec S_ 32 := constantI S_ 32 4294917296#32
  fn_part7 (F := F) main_arg0 main_arg1 main_arg2 main_arg3 main_arg8 main_arg9 main_arg10 main_arg11 main_arg12 main_arg13 main_arg14 main_arg15 main_arg16 main_arg17 main_arg18 main_arg19 main_arg20 main_arg21 main_v118 main_c_46

def fn_part5 {F : FTy → Type} [FloatOps F] (main_arg0 : FVec F S50000x64 .f32) (main_arg1 : FVec F S800000x64 .f32) (main_arg2 : IVec S800000 32) (main_arg3 : IVec S800000 32) (main_arg8 : FVec F S64x64 .f32) (main_arg9 : FVec F S64 .f32) (main_arg10 : FVec F S64x64 .f32) (main_arg11 : FVec F S64 .f32) (main_arg12 : FVec F S64x64 .f32) (main_arg13 : FVec F S64 .f32) (main_arg14 : FVec F S64x64 .f32) (main_arg15 : FVec F S64 .f32) (main_arg16 : FVec F S64x32 .f32) (main_arg17 : FVec F S32 .f32) (main_arg18 : FVec F S32x64 .f32) (main_arg19 : FVec F S64 .f32) (main_arg20 : FVec F S32x64 .f32) (main_arg21 : FVec F S64 .f32) (main_arg22 : FVec F S64 .f32) (main_arg23 : FVec F S64 .f32) (main_arg24 : FVec F S64 .f32) (main_arg25 : FVec F S64 .f32) (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  let main_v89 : FVec F S32x64 .f32 := Host.absf main_arg20
  let main_cst_34 : FVec F S_ .f32 := constant S_ .f32 0x7F800000#32
  let main_v90 : FVec F S32x64 .f32 := broadcastInDim S32x64 ![] bcast_S_S32x64 main_cst_34
  let main_v91 : IVec S32x64 1 := cmpf .olt main_v89 main_v90
  let main_c_35 : IVec S_ 1 := constantI S_ 1 1#1
  let main_v92 : IVec S_ 1 := (fun x v => Host.reduce IntOp.andi x v reducesTo_S32x64_S_d0_1 h_S_) main_v91 main_c_35
  let main_v93 : IVec S_ 1 := andi main_v88 main_v92
  let main_v94 : FVec F S64 .f32 := Host.absf main_arg21
  let main_cst_36 : FVec F S_ .f32 := constant S_ .f32 0x7F800000#32
  let main_v95 : FVec F S64 .f32 := broadcastInDim S64 ![] bcast_S_S64 main_cst_36
  let main_v96 : IVec S64 1 := cmpf .olt main_v94 main_v95
  let main_c_37 : IVec S_ 1 := constantI S_ 1 1#1
  let main_v97 : IVec S_ 1 := (fun x v => Host.reduce IntOp.andi x v reducesTo_S64_S_d0 h_S_) main_v96 main_c_37
  let main_v98 : IVec S_ 1 := andi main_v93 main_v97
  let main_v99 : FVec F S64 .f32 := Host.absf main_arg22
  let main_cst_38 : FVec F S_ .f32 := constant S_ .f32 0x7F800000#32
  let main_v100 : FVec F S64 .f32 := broadcastInDim S64 ![] bcast_S_S64 main_cst_38
  let main_v101 : IVec S64 1 := cmpf .olt main_v99 main_v100
  let main_c_39 : IVec S_ 1 := constantI S_ 1 1#1
  fn_part6 (F := F) main_arg0 main_arg1 main_arg2 main_arg3 main_arg8 main_arg9 main_arg10 main_arg11 main_arg12 main_arg13 main_arg14 main_arg15 main_arg16 main_arg17 main_arg18 main_arg19 main_arg20 main_arg21 main_arg23 main_arg24 main_arg25 main_v98 main_v101 main_c_39

def fn_part4 {F : FTy → Type} [FloatOps F] (main_arg0 : FVec F S50000x64 .f32) (main_arg1 : FVec F S800000x64 .f32) (main_arg2 : IVec S800000 32) (main_arg3 : IVec S800000 32) (main_arg8 : FVec F S64x64 .f32) (main_arg9 : FVec F S64 .f32) (main_arg10 : FVec F S64x64 .f32) (main_arg11 : FVec F S64 .f32) (main_arg12 : FVec F S64x64 .f32) (main_arg13 : FVec F S64 .f32) (main_arg14 : FVec F S64x64 .f32) (main_arg15 : FVec F S64 .f32) (main_arg16 : FVec F S64x32 .f32) (main_arg17 : FVec F S32 .f32) (main_arg18 : FVec F S32x64 .f32) (main_arg19 : FVec F S64 .f32) (main_arg20 : FVec F S32x64 .f32) (main_arg21 : FVec F S64 .f32) (main_arg22 : FVec F S64 .f32) (main_arg23 : FVec F S64 .f32) (main_arg24 : FVec F S64 .f32) (main_arg25 : FVec F S64 .f32) (main_v63 : IVec S_ 1) (main_v67 : IVec S_ 1) : IVec S_ 1 :=
  let main_v68 : IVec S_ 1 := andi main_v63 main_v67
  let main_v69 : FVec F S64x32 .f32 := Host.absf main_arg16
  let main_cst_26 : FVec F S_ .f32 := constant S_ .f32 0x7F800000#32
  let main_v70 : FVec F S64x32 .f32 := broadcastInDim S64x32 ![] bcast_S_S64x32 main_cst_26
  let main_v71 : IVec S64x32 1 := cmpf .olt main_v69 main_v70
  let main_c_27 : IVec S_ 1 := constantI S_ 1 1#1
  let main_v72 : IVec S_ 1 := (fun x v => Host.reduce IntOp.andi x v reducesTo_S64x32_S_d0_1 h_S_) main_v71 main_c_27
  let main_v73 : IVec S_ 1 := andi main_v68 main_v72
  let main_v74 : FVec F S32 .f32 := Host.absf main_arg17
  let main_cst_28 : FVec F S_ .f32 := constant S_ .f32 0x7F800000#32
  let main_v75 : FVec F S32 .f32 := broadcastInDim S32 ![] bcast_S_S32 main_cst_28
  let main_v76 : IVec S32 1 := cmpf .olt main_v74 main_v75
  let main_c_29 : IVec S_ 1 := constantI S_ 1 1#1
  let main_v77 : IVec S_ 1 := (fun x v => Host.reduce IntOp.andi x v reducesTo_S32_S_d0 h_S_) main_v76 main_c_29
  let main_v78 : IVec S_ 1 := andi main_v73 main_v77
  let main_v79 : FVec F S32x64 .f32 := Host.absf main_arg18
  let main_cst_30 : FVec F S_ .f32 := constant S_ .f32 0x7F800000#32
  let main_v80 : FVec F S32x64 .f32 := broadcastInDim S32x64 ![] bcast_S_S32x64 main_cst_30
  let main_v81 : IVec S32x64 1 := cmpf .olt main_v79 main_v80
  let main_c_31 : IVec S_ 1 := constantI S_ 1 1#1
  let main_v82 : IVec S_ 1 := (fun x v => Host.reduce IntOp.andi x v reducesTo_S32x64_S_d0_1 h_S_) main_v81 main_c_31
  let main_v83 : IVec S_ 1 := andi main_v78 main_v82
  let main_v84 : FVec F S64 .f32 := Host.absf main_arg19
  let main_cst_32 : FVec F S_ .f32 := constant S_ .f32 0x7F800000#32
  fn_part5 (F := F) main_arg0 main_arg1 main_arg2 main_arg3 main_arg8 main_arg9 main_arg10 main_arg11 main_arg12 main_arg13 main_arg14 main_arg15 main_arg16 main_arg17 main_arg18 main_arg19 main_arg20 main_arg21 main_arg22 main_arg23 main_arg24 main_arg25 main_v83 main_v84 main_cst_32

def fn_part3 {F : FTy → Type} [FloatOps F] (main_arg0 : FVec F S50000x64 .f32) (main_arg1 : FVec F S800000x64 .f32) (main_arg2 : IVec S800000 32) (main_arg3 : IVec S800000 32) (main_arg8 : FVec F S64x64 .f32) (main_arg9 : FVec F S64 .f32) (main_arg10 : FVec F S64x64 .f32) (main_arg11 : FVec F S64 .f32) (main_arg12 : FVec F S64x64 .f32) (main_arg13 : FVec F S64 .f32) (main_arg14 : FVec F S64x64 .f32) (main_arg15 : FVec F S64 .f32) (main_arg16 : FVec F S64x32 .f32) (main_arg17 : FVec F S32 .f32) (main_arg18 : FVec F S32x64 .f32) (main_arg19 : FVec F S64 .f32) (main_arg20 : FVec F S32x64 .f32) (main_arg21 : FVec F S64 .f32) (main_arg22 : FVec F S64 .f32) (main_arg23 : FVec F S64 .f32) (main_arg24 : FVec F S64 .f32) (main_arg25 : FVec F S64 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x64 .f32 := Host.absf main_arg14
  let main_cst_22 : FVec F S_ .f32 := constant S_ .f32 0x7F800000#32
  let main_v60 : FVec F S64x64 .f32 := broadcastInDim S64x64 ![] bcast_S_S64x64 main_cst_22
  let main_v61 : IVec S64x64 1 := cmpf .olt main_v59 main_v60
  let main_c_23 : IVec S_ 1 := constantI S_ 1 1#1
  let main_v62 : IVec S_ 1 := (fun x v => Host.reduce IntOp.andi x v reducesTo_S64x64_S_d0_1 h_S_) main_v61 main_c_23
  let main_v63 : IVec S_ 1 := andi main_v58 main_v62
  let main_v64 : FVec F S64 .f32 := Host.absf main_arg15
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg0 main_arg1 main_arg2 main_arg3 main_arg8 main_arg9 main_arg10 main_arg11 main_arg12 main_arg13 main_arg14 main_arg15 main_arg16 main_arg17 main_arg18 main_arg19 main_arg20 main_arg21 main_arg22 main_arg23 main_arg24 main_arg25 main_v63 main_v67

def fn_part2 {F : FTy → Type} [FloatOps F] (main_arg0 : FVec F S50000x64 .f32) (main_arg1 : FVec F S800000x64 .f32) (main_arg2 : IVec S800000 32) (main_arg3 : IVec S800000 32) (main_arg8 : FVec F S64x64 .f32) (main_arg9 : FVec F S64 .f32) (main_arg10 : FVec F S64x64 .f32) (main_arg11 : FVec F S64 .f32) (main_arg12 : FVec F S64x64 .f32) (main_arg13 : FVec F S64 .f32) (main_arg14 : FVec F S64x64 .f32) (main_arg15 : FVec F S64 .f32) (main_arg16 : FVec F S64x32 .f32) (main_arg17 : FVec F S32 .f32) (main_arg18 : FVec F S32x64 .f32) (main_arg19 : FVec F S64 .f32) (main_arg20 : FVec F S32x64 .f32) (main_arg21 : FVec F S64 .f32) (main_arg22 : FVec F S64 .f32) (main_arg23 : FVec F S64 .f32) (main_arg24 : FVec F S64 .f32) (main_arg25 : FVec F S64 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg10
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg12
  let main_cst_18 : FVec F S_ .f32 := constant S_ .f32 0x7F800000#32
  let main_v50 : FVec F S64x64 .f32 := broadcastInDim S64x64 ![] bcast_S_S64x64 main_cst_18
  fn_part3 (F := F) main_arg0 main_arg1 main_arg2 main_arg3 main_arg8 main_arg9 main_arg10 main_arg11 main_arg12 main_arg13 main_arg14 main_arg15 main_arg16 main_arg17 main_arg18 main_arg19 main_arg20 main_arg21 main_arg22 main_arg23 main_arg24 main_arg25 main_v48 main_v49 main_v50

def fn_part1 {F : FTy → Type} [FloatOps F] (main_arg0 : FVec F S50000x64 .f32) (main_arg1 : FVec F S800000x64 .f32) (main_arg2 : IVec S800000 32) (main_arg3 : IVec S800000 32) (main_arg6 : FVec F S64x64 .f32) (main_arg7 : FVec F S64 .f32) (main_arg8 : FVec F S64x64 .f32) (main_arg9 : FVec F S64 .f32) (main_arg10 : FVec F S64x64 .f32) (main_arg11 : FVec F S64 .f32) (main_arg12 : FVec F S64x64 .f32) (main_arg13 : FVec F S64 .f32) (main_arg14 : FVec F S64x64 .f32) (main_arg15 : FVec F S64 .f32) (main_arg16 : FVec F S64x32 .f32) (main_arg17 : FVec F S32 .f32) (main_arg18 : FVec F S32x64 .f32) (main_arg19 : FVec F S64 .f32) (main_arg20 : FVec F S32x64 .f32) (main_arg21 : FVec F S64 .f32) (main_arg22 : FVec F S64 .f32) (main_arg23 : FVec F S64 .f32) (main_arg24 : FVec F S64 .f32) (main_arg25 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg0 main_arg1 main_arg2 main_arg3 main_arg8 main_arg9 main_arg10 main_arg11 main_arg12 main_arg13 main_arg14 main_arg15 main_arg16 main_arg17 main_arg18 main_arg19 main_arg20 main_arg21 main_arg22 main_arg23 main_arg24 main_arg25 main_v33

def fn {F : FTy → Type} [FloatOps F] (main_arg0 : FVec F S50000x64 .f32) (main_arg1 : FVec F S800000x64 .f32) (main_arg2 : IVec S800000 32) (main_arg3 : IVec S800000 32) (main_arg4 : FVec F S64x64 .f32) (main_arg5 : FVec F S64 .f32) (main_arg6 : FVec F S64x64 .f32) (main_arg7 : FVec F S64 .f32) (main_arg8 : FVec F S64x64 .f32) (main_arg9 : FVec F S64 .f32) (main_arg10 : FVec F S64x64 .f32) (main_arg11 : FVec F S64 .f32) (main_arg12 : FVec F S64x64 .f32) (main_arg13 : FVec F S64 .f32) (main_arg14 : FVec F S64x64 .f32) (main_arg15 : FVec F S64 .f32) (main_arg16 : FVec F S64x32 .f32) (main_arg17 : FVec F S32 .f32) (main_arg18 : FVec F S32x64 .f32) (main_arg19 : FVec F S64 .f32) (main_arg20 : FVec F S32x64 .f32) (main_arg21 : FVec F S64 .f32) (main_arg22 : FVec F S64 .f32) (main_arg23 : FVec F S64 .f32) (main_arg24 : FVec F S64 .f32) (main_arg25 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x64 .f32 := Host.absf main_arg1
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg0 main_arg1 main_arg2 main_arg3 main_arg6 main_arg7 main_arg8 main_arg9 main_arg10 main_arg11 main_arg12 main_arg13 main_arg14 main_arg15 main_arg16 main_arg17 main_arg18 main_arg19 main_arg20 main_arg21 main_arg22 main_arg23 main_arg24 main_arg25 main_v13 main_v16
-- ==== Kernel.lean ====
abbrev S50000x64 : Shape := ⟨2, ![50000, 64]⟩
abbrev S800000x64 : Shape := ⟨2, ![800000, 64]⟩
abbrev S800000 : Shape := ⟨1, ![800000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S32x64 : Shape := ⟨2, ![32, 64]⟩
abbrev S50000x32 : Shape := ⟨2, ![50000, 32]⟩
abbrev S5000x64 : Shape := ⟨2, ![5000, 64]⟩
abbrev S5000x32 : Shape := ⟨2, ![5000, 32]⟩
abbrev S1x64 : Shape := ⟨2, ![1, 64]⟩
abbrev S1x32 : Shape := ⟨2, ![1, 32]⟩
abbrev S5000 : Shape := ⟨1, ![5000]⟩
abbrev S5000x1 : Shape := ⟨2, ![5000, 1]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S20000x64 : Shape := ⟨2, ![20000, 64]⟩
abbrev S10000x64 : Shape := ⟨2, ![10000, 64]⟩

abbrev nBuf : Space → Nat
  | .hbm => 194
  | .vmem => 80
  | .smem => 0
  | _ => 0

abbrev hbmTy0_0 (i : Nat) : BufTy := match i % 128 with
  | 0 => ⟨S50000x64, .f32⟩
  | 1 => ⟨S800000x64, .f32⟩
  | 2 => ⟨S800000, .i32⟩
  | 3 => ⟨S800000, .i32⟩
  | 4 => ⟨S64x64, .f32⟩
  | 5 => ⟨S64, .f32⟩
  | 6 => ⟨S64x64, .f32⟩
  | 7 => ⟨S64, .f32⟩
  | 8 => ⟨S64x64, .f32⟩
  | 9 => ⟨S64, .f32⟩
  | 10 => ⟨S64x64, .f32⟩
  | 11 => ⟨S64, .f32⟩
  | 12 => ⟨S64x64, .f32⟩
  | 13 => ⟨S64, .f32⟩
  | 14 => ⟨S64x64, .f32⟩
  | 15 => ⟨S64, .f32⟩
  | 16 => ⟨S64x32, .f32⟩
  | 17 => ⟨S32, .f32⟩
  | 18 => ⟨S32x64, .f32⟩
  | 19 => ⟨S64, .f32⟩
  | 20 => ⟨S32x64, .f32⟩
  | 21 => ⟨S64, .f32⟩
  | 22 => ⟨S64, .f32⟩
  | 23 => ⟨S64, .f32⟩
  | 24 => ⟨S64, .f32⟩
  | 25 => ⟨S64, .f32⟩
  | 26 => ⟨S50000x64, .f32⟩
  | 27 => ⟨S50000x64, .f32⟩
  | 28 => ⟨S50000x64, .f32⟩
  | 29 => ⟨S50000x64, .f32⟩
  | 30 => ⟨S50000x32, .f32⟩
  | 31 => ⟨S50000x64, .f32⟩
  | 32 => ⟨S50000x64, .f32⟩
  | 33 => ⟨S_, .i32⟩
  | 34 => ⟨S800000, .i32⟩
  | 35 => ⟨S800000, .i1⟩
  | 36 => ⟨S_, .i32⟩
  | 37 => ⟨S800000, .i32⟩
  | 38 => ⟨S800000, .i32⟩
  | 39 => ⟨S800000, .i32⟩
  | 40 => ⟨S800000x1, .i32⟩
  | 41 => ⟨S1, .i32⟩
  | 42 => ⟨S_, .i32⟩
  | 43 => ⟨S800000x1, .i32⟩
  | 44 => ⟨S800000x1, .i1⟩
  | 45 => ⟨S1x1, .i32⟩
  | 46 => ⟨S800000x1, .i32⟩
  | 47 => ⟨S800000x1, .i1⟩
  | 48 => ⟨S800000x1, .i1⟩
  | 49 => ⟨S_, .i1⟩
  | 50 => ⟨S800000, .i1⟩
  | 51 => ⟨S800000x64, .f32⟩
  | 52 => ⟨S800000x64, .i1⟩
  | 53 => ⟨S_, .f32⟩
  | 54 => ⟨S800000x64, .f32⟩
  | 55 => ⟨S800000x64, .f32⟩
  | 56 => ⟨S_, .i32⟩
  | 57 => ⟨S800000, .i32⟩
  | 58 => ⟨S800000, .i1⟩
  | 59 => ⟨S_, .i32⟩
  | 60 => ⟨S800000, .i32⟩
  | 61 => ⟨S800000, .i32⟩
  | 62 => ⟨S800000, .i32⟩
  | 63 => ⟨S800000x1, .i32⟩
  | 64 => ⟨S1, .i32⟩
  | 65 => ⟨S_, .i32⟩
  | 66 => ⟨S800000x1, .i32⟩
  | 67 => ⟨S800000x1, .i1⟩
  | 68 => ⟨S1x1, .i32⟩
  | 69 => ⟨S800000x1, .i32⟩
  | 70 => ⟨S800000x1, .i1⟩
  | 71 => ⟨S800000x1, .i1⟩
  | 72 => ⟨S_, .i1⟩
  | 73 => ⟨S800000, .i1⟩
  | 74 => ⟨S800000x64, .f32⟩
  | 75 => ⟨S800000x64, .i1⟩
  | 76 => ⟨S_, .f32⟩
  | 77 => ⟨S800000x64, .f32⟩
  | 78 => ⟨S800000x64, .f32⟩
  | 79 => ⟨S_, .i32⟩
  | 80 => ⟨S800000, .i32⟩
  | 81 => ⟨S800000, .i1⟩
  | 82 => ⟨S_, .i32⟩
  | 83 => ⟨S800000, .i32⟩
  | 84 => ⟨S800000, .i32⟩
  | 85 => ⟨S800000, .i32⟩
  | 86 => ⟨S800000x1, .i32⟩
  | 87 => ⟨S1, .i32⟩
  | 88 => ⟨S_, .i32⟩
  | 89 => ⟨S800000x1, .i32⟩
  | 90 => ⟨S800000x1, .i1⟩
  | 91 => ⟨S1x1, .i32⟩
  | 92 => ⟨S800000x1, .i32⟩
  | 93 => ⟨S800000x1, .i1⟩
  | 94 => ⟨S800000x1, .i1⟩
  | 95 => ⟨S_, .i1⟩
  | 96 => ⟨S800000, .i1⟩
  | 97 => ⟨S800000x64, .f32⟩
  | 98 => ⟨S800000x64, .i1⟩
  | 99 => ⟨S_, .f32⟩
  | 100 => ⟨S800000x64, .f32⟩
  | 101 => ⟨S800000x64, .f32⟩
  | 102 => ⟨S_, .i32⟩
  | 103 => ⟨S800000, .i32⟩
  | 104 => ⟨S800000, .i1⟩
  | 105 => ⟨S_, .i32⟩
  | 106 => ⟨S800000, .i32⟩
  | 107 => ⟨S800000, .i32⟩
  | 108 => ⟨S800000, .i32⟩
  | 109 => ⟨S800000x1, .i32⟩
  | 110 => ⟨S1, .i32⟩
  | 111 => ⟨S_, .i32⟩
  | 112 => ⟨S800000x1, .i32⟩
  | 113 => ⟨S800000x1, .i1⟩
  | 114 => ⟨S1x1, .i32⟩
  | 115 => ⟨S800000x1, .i32⟩
  | 116 => ⟨S800000x1, .i1⟩
  | 117 => ⟨S800000x1, .i1⟩
  | 118 => ⟨S_, .i1⟩
  | 119 => ⟨S800000, .i1⟩
  | 120 => ⟨S800000x64, .f32⟩
  | 121 => ⟨S800000x64, .i1⟩
  | 122 => ⟨S_, .f32⟩
  | 123 => ⟨S800000x64, .f32⟩
  | 124 => ⟨S800000x64, .f32⟩
  | 125 => ⟨S_, .i32⟩
  | 126 => ⟨S800000, .i32⟩
  | 127 => ⟨S800000, .i1⟩
  | _ => ⟨S50000x64, .f32⟩

abbrev hbmTy0_1 (i : Nat) : BufTy := match i % 128 with
  | 0 => ⟨S_, .i32⟩
  | 1 => ⟨S800000, .i32⟩
  | 2 => ⟨S800000, .i32⟩
  | 3 => ⟨S800000, .i32⟩
  | 4 => ⟨S800000x1, .i32⟩
  | 5 => ⟨S1, .i32⟩
  | 6 => ⟨S_, .i32⟩
  | 7 => ⟨S800000x1, .i32⟩
  | 8 => ⟨S800000x1, .i1⟩
  | 9 => ⟨S1x1, .i32⟩
  | 10 => ⟨S800000x1, .i32⟩
  | 11 => ⟨S800000x1, .i1⟩
  | 12 => ⟨S800000x1, .i1⟩
  | 13 => ⟨S_, .i1⟩
  | 14 => ⟨S800000, .i1⟩
  | 15 => ⟨S800000x64, .f32⟩
  | 16 => ⟨S800000x64, .i1⟩
  | 17 => ⟨S_, .f32⟩
  | 18 => ⟨S800000x64, .f32⟩
  | 19 => ⟨S800000x64, .f32⟩
  | 20 => ⟨S800000x64, .f32⟩
  | 21 => ⟨S800000x64, .f32⟩
  | 22 => ⟨S800000x64, .f32⟩
  | 23 => ⟨S_, .f32⟩
  | 24 => ⟨S50000x64, .f32⟩
  | 25 => ⟨S800000x1, .i32⟩
  | 26 => ⟨S50000x64, .f32⟩
  | 27 => ⟨S_, .f32⟩
  | 28 => ⟨S50000x64, .f32⟩
  | 29 => ⟨S800000x1, .i32⟩
  | 30 => ⟨S50000x64, .f32⟩
  | 31 => ⟨S_, .f32⟩
  | 32 => ⟨S50000x64, .f32⟩
  | 33 => ⟨S50000x64, .f32⟩
  | 34 => ⟨S50000x64, .f32⟩
  | 35 => ⟨S50000x64, .f32⟩
  | 36 => ⟨S1x64, .f32⟩
  | 37 => ⟨S1x64, .f32⟩
  | 38 => ⟨S64, .f32⟩
  | 39 => ⟨S_, .f32⟩
  | 40 => ⟨S64, .f32⟩
  | 41 => ⟨S64, .f32⟩
  | 42 => ⟨S64, .f32⟩
  | 43 => ⟨S_, .f32⟩
  | 44 => ⟨S64, .f32⟩
  | 45 => ⟨S64, .f32⟩
  | 46 => ⟨S64, .f32⟩
  | 47 => ⟨S64, .f32⟩
  | 48 => ⟨S1x64, .f32⟩
  | 49 => ⟨S1x64, .f32⟩
  | 50 => ⟨S64, .f32⟩
  | 51 => ⟨S_, .f32⟩
  | 52 => ⟨S64, .f32⟩
  | 53 => ⟨S64, .f32⟩
  | 54 => ⟨S64, .f32⟩
  | 55 => ⟨S_, .f32⟩
  | 56 => ⟨S64, .f32⟩
  | 57 => ⟨S64, .f32⟩
  | 58 => ⟨S64, .f32⟩
  | 59 => ⟨S64, .f32⟩
  | 60 => ⟨S1x64, .f32⟩
  | 61 => ⟨S1x64, .f32⟩
  | 62 => ⟨S50000x64, .f32⟩
  | 63 => ⟨S1x64, .f32⟩
  | 64 => ⟨S1x64, .f32⟩
  | 65 => ⟨S800000x64, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S64, .f32⟩
  | .local _ .vmem, ⟨4, _⟩ => ⟨S64x64, .f32⟩
  | .local _ .vmem, ⟨5, _⟩ => ⟨S64, .f32⟩
  | .local _ .vmem, ⟨6, _⟩ => ⟨S64x64, .f32⟩
  | .local _ .vmem, ⟨7, _⟩ => ⟨S64, .f32⟩
  | .local _ .vmem, ⟨8, _⟩ => ⟨S64x64, .f32⟩
  | .local _ .vmem, ⟨9, _⟩ => ⟨S64, .f32⟩
  | .local _ .vmem, ⟨10, _⟩ => ⟨S64x64, .f32⟩
  | .local _ .vmem, ⟨11, _⟩ => ⟨S64, .f32⟩
  | .local _ .vmem, ⟨12, _⟩ => ⟨S64x32, .f32⟩
  | .local _ .vmem, ⟨13, _⟩ => ⟨S32, .f32⟩
  | .local _ .vmem, ⟨14, _⟩ => ⟨S32x64, .f32⟩
  | .local _ .vmem, ⟨15, _⟩ => ⟨S64, .f32⟩
  | .local _ .vmem, ⟨16, _⟩ => ⟨S32x64, .f32⟩
  | .local _ .vmem, ⟨17, _⟩ => ⟨S64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x32, .f32⟩
  | .local _ .vmem, ⟨27, _⟩ => ⟨S5000x32, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S5000x64, .f32⟩
  | .local _ .vmem, ⟨32, _⟩ => ⟨S5000x64, .f32⟩
  | .local _ .vmem, ⟨33, _⟩ => ⟨S5000x64, .f32⟩
  | .local _ .vmem, ⟨34, _⟩ => ⟨S5000x64, .f32⟩
  | .local _ .vmem, ⟨35, _⟩ => ⟨S5000x64, .f32⟩
  | .local _ .vmem, ⟨36, _⟩ => ⟨S5000x64, .f32⟩
  | .local _ .vmem, ⟨37, _⟩ => ⟨S5000x64, .f32⟩
  | .local _ .vmem, ⟨38, _⟩ => ⟨S5000x64, .f32⟩
  | .local _ .vmem, ⟨39, _⟩ => ⟨S5000x64, .f32⟩
  | .local _ .vmem, ⟨40, _⟩ => ⟨S5000x64, .f32⟩
  | .local _ .vmem, ⟨41, _⟩ => ⟨S5000x64, .f32⟩
  | .local _ .vmem, ⟨42, _⟩ => ⟨S5000x64, .f32⟩
  | .local _ .vmem, ⟨43, _⟩ => ⟨S5000x64, .f32⟩
  | .local _ .vmem, ⟨44, _⟩ => ⟨S64x64, .f32⟩
  | .local _ .vmem, ⟨45, _⟩ => ⟨S64, .f32⟩
  | .local _ .vmem, ⟨46, _⟩ => ⟨S5000x64, .f32⟩
  | .local _ .vmem, ⟨47, _⟩ => ⟨S5000x64, .f32⟩
  | .local _ .vmem, ⟨48, _⟩ => ⟨S5000x64, .f32⟩
  | .local _ .vmem, ⟨49, _⟩ => ⟨S5000x64, .f32⟩
  | .local _ .vmem, ⟨50, _⟩ => ⟨S5000x64, .f32⟩
  | .local _ .vmem, ⟨51, _⟩ => ⟨S5000x64, .f32⟩
  | .local _ .vmem, ⟨52, _⟩ => ⟨S5000x64, .f32⟩
  | .local _ .vmem, ⟨53, _⟩ => ⟨S5000x64, .f32⟩
  | .local _ .vmem, ⟨54, _⟩ => ⟨S1x64, .f32⟩
  | .local _ .vmem, ⟨55, _⟩ => ⟨S1x64, .f32⟩
  | .local _ .vmem, ⟨56, _⟩ => ⟨S20000x64, .f32⟩
  | .local _ .vmem, ⟨57, _⟩ => ⟨S20000x64, .f32⟩
  | .local _ .vmem, ⟨58, _⟩ => ⟨S1x64, .f32⟩
  | .local _ .vmem, ⟨59, _⟩ => ⟨S1x64, .f32⟩
  | .local _ .vmem, ⟨60, _⟩ => ⟨S5000x64, .f32⟩
  | .local _ .vmem, ⟨61, _⟩ => ⟨S5000x64, .f32⟩
  | .local _ .vmem, ⟨62, _⟩ => ⟨S5000x64, .f32⟩
  | .local _ .vmem, ⟨63, _⟩ => ⟨S5000x64, .f32⟩
  | .local _ .vmem, ⟨64, _⟩ => ⟨S64, .f32⟩
  | .local _ .vmem, ⟨65, _⟩ => ⟨S64, .f32⟩
  | .local _ .vmem, ⟨66, _⟩ => ⟨S1x64, .f32⟩
  | .local _ .vmem, ⟨67, _⟩ => ⟨S1x64, .f32⟩
  | .local _ .vmem, ⟨68, _⟩ => ⟨S5000x64, .f32⟩
  | .local _ .vmem, ⟨69, _⟩ => ⟨S5000x64, .f32⟩
  | .local _ .vmem, ⟨70, _⟩ => ⟨S10000x64, .f32⟩
  | .local _ .vmem, ⟨71, _⟩ => ⟨S10000x64, .f32⟩
  | .local _ .vmem, ⟨72, _⟩ => ⟨S10000x64, .f32⟩
  | .local _ .vmem, ⟨73, _⟩ => ⟨S10000x64, .f32⟩
  | .local _ .vmem, ⟨74, _⟩ => ⟨S64, .f32⟩
  | .local _ .vmem, ⟨75, _⟩ => ⟨S64, .f32⟩
  | .local _ .vmem, ⟨76, _⟩ => ⟨S1x64, .f32⟩
  | .local _ .vmem, ⟨77, _⟩ => ⟨S1x64, .f32⟩
  | .local _ .vmem, ⟨78, _⟩ => ⟨S10000x64, .f32⟩
  | .local _ .vmem, ⟨79, _⟩ => ⟨S10000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | _, _ => false

abbrev semScoped : Fin 0 → Bool
  | ⟨_, h⟩ => absurd h (Nat.not_lt_zero _)

abbrev dmaSemScoped : Fin 80 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | _ => false

abbrev sig : RefSig :=
  ofTc nBuf bufTy 0 80 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0_0 : Ref sig .tc := ⟨.hbm, 26, rfl⟩
abbrev main_v0_1 : Ref sig .tc := ⟨.hbm, 27, rfl⟩
abbrev main_v0_2 : Ref sig .tc := ⟨.hbm, 28, rfl⟩
abbrev main_v0_3 : Ref sig .tc := ⟨.hbm, 29, rfl⟩
abbrev main_v0_4 : Ref sig .tc := ⟨.hbm, 30, rfl⟩
abbrev main_v0_5 : Ref sig .tc := ⟨.hbm, 31, rfl⟩
abbrev main_v0_6 : Ref sig .tc := ⟨.hbm, 32, rfl⟩
abbrev main_call0_c : Ref sig .tc := ⟨.hbm, 33, rfl⟩
abbrev main_call0_v0 : Ref sig .tc := ⟨.hbm, 34, rfl⟩
abbrev main_call0_v1 : Ref sig .tc := ⟨.hbm, 35, rfl⟩
abbrev main_call0_c_0 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_v5 : Ref sig .tc := ⟨.hbm, 40, rfl⟩
abbrev main_call0_c_1 : Ref sig .tc := ⟨.hbm, 41, rfl⟩
abbrev main_call0_c_2 : Ref sig .tc := ⟨.hbm, 42, rfl⟩
abbrev main_call0_v6 : Ref sig .tc := ⟨.hbm, 43, rfl⟩
abbrev main_call0_v7 : Ref sig .tc := ⟨.hbm, 44, rfl⟩
abbrev main_call0_v8 : Ref sig .tc := ⟨.hbm, 45, rfl⟩
abbrev main_call0_v9 : Ref sig .tc := ⟨.hbm, 46, rfl⟩
abbrev main_call0_v10 : Ref sig .tc := ⟨.hbm, 47, rfl⟩
abbrev main_call0_v11 : Ref sig .tc := ⟨.hbm, 48, rfl⟩
abbrev main_call0_c_3 : Ref sig .tc := ⟨.hbm, 49, rfl⟩
abbrev main_call0_v12 : Ref sig .tc := ⟨.hbm, 50, rfl⟩
abbrev main_call0_v13 : Ref sig .tc := ⟨.hbm, 51, rfl⟩
abbrev main_call0_v14 : Ref sig .tc := ⟨.hbm, 52, rfl⟩
abbrev main_call0_cst : Ref sig .tc := ⟨.hbm, 53, rfl⟩
abbrev main_call0_v15 : Ref sig .tc := ⟨.hbm, 54, rfl⟩
abbrev main_v1 : Ref sig .tc := ⟨.hbm, 55, rfl⟩
abbrev main_call1_c : Ref sig .tc := ⟨.hbm, 56, rfl⟩
abbrev main_call1_v0 : Ref sig .tc := ⟨.hbm, 57, rfl⟩
abbrev main_call1_v1 : Ref sig .tc := ⟨.hbm, 58, rfl⟩
abbrev main_call1_c_0 : Ref sig .tc := ⟨.hbm, 59, rfl⟩
abbrev main_call1_v2 : Ref sig .tc := ⟨.hbm, 60, rfl⟩
abbrev main_call1_v3 : Ref sig .tc := ⟨.hbm, 61, rfl⟩
abbrev main_call1_v4 : Ref sig .tc := ⟨.hbm, 62, rfl⟩
abbrev main_call1_v5 : Ref sig .tc := ⟨.hbm, 63, rfl⟩
abbrev main_call1_c_1 : Ref sig .tc := ⟨.hbm, 64, rfl⟩
abbrev main_call1_c_2 : Ref sig .tc := ⟨.hbm, 65, rfl⟩
abbrev main_call1_v6 : Ref sig .tc := ⟨.hbm, 66, rfl⟩
abbrev main_call1_v7 : Ref sig .tc := ⟨.hbm, 67, rfl⟩
abbrev main_call1_v8 : Ref sig .tc := ⟨.hbm, 68, rfl⟩
abbrev main_call1_v9 : Ref sig .tc := ⟨.hbm, 69, rfl⟩
abbrev main_call1_v10 : Ref sig .tc := ⟨.hbm, 70, rfl⟩
abbrev main_call1_v11 : Ref sig .tc := ⟨.hbm, 71, rfl⟩
abbrev main_call1_c_3 : Ref sig .tc := ⟨.hbm, 72, rfl⟩
abbrev main_call1_v12 : Ref sig .tc := ⟨.hbm, 73, rfl⟩
abbrev main_call1_v13 : Ref sig .tc := ⟨.hbm, 74, rfl⟩
abbrev main_call1_v14 : Ref sig .tc := ⟨.hbm, 75, rfl⟩
abbrev main_call1_cst : Ref sig .tc := ⟨.hbm, 76, rfl⟩
abbrev main_call1_v15 : Ref sig .tc := ⟨.hbm, 77, rfl⟩
abbrev main_v2 : Ref sig .tc := ⟨.hbm, 78, rfl⟩
abbrev main_call2_c : Ref sig .tc := ⟨.hbm, 79, rfl⟩
abbrev main_call2_v0 : Ref sig .tc := ⟨.hbm, 80, rfl⟩
abbrev main_call2_v1 : Ref sig .tc := ⟨.hbm, 81, rfl⟩
abbrev main_call2_c_0 : Ref sig .tc := ⟨.hbm, 82, rfl⟩
abbrev main_call2_v2 : Ref sig .tc := ⟨.hbm, 83, rfl⟩
abbrev main_call2_v3 : Ref sig .tc := ⟨.hbm, 84, rfl⟩
abbrev main_call2_v4 : Ref sig .tc := ⟨.hbm, 85, rfl⟩
abbrev main_call2_v5 : Ref sig .tc := ⟨.hbm, 86, rfl⟩
abbrev main_call2_c_1 : Ref sig .tc := ⟨.hbm, 87, rfl⟩
abbrev main_call2_c_2 : Ref sig .tc := ⟨.hbm, 88, rfl⟩
abbrev main_call2_v6 : Ref sig .tc := ⟨.hbm, 89, rfl⟩
abbrev main_call2_v7 : Ref sig .tc := ⟨.hbm, 90, rfl⟩
abbrev main_call2_v8 : Ref sig .tc := ⟨.hbm, 91, rfl⟩
abbrev main_call2_v9 : Ref sig .tc := ⟨.hbm, 92, rfl⟩
abbrev main_call2_v10 : Ref sig .tc := ⟨.hbm, 93, rfl⟩
abbrev main_call2_v11 : Ref sig .tc := ⟨.hbm, 94, rfl⟩
abbrev main_call2_c_3 : Ref sig .tc := ⟨.hbm, 95, rfl⟩
abbrev main_call2_v12 : Ref sig .tc := ⟨.hbm, 96, rfl⟩
abbrev main_call2_v13 : Ref sig .tc := ⟨.hbm, 97, rfl⟩
abbrev main_call2_v14 : Ref sig .tc := ⟨.hbm, 98, rfl⟩
abbrev main_call2_cst : Ref sig .tc := ⟨.hbm, 99, rfl⟩
abbrev main_call2_v15 : Ref sig .tc := ⟨.hbm, 100, rfl⟩
abbrev main_v3 : Ref sig .tc := ⟨.hbm, 101, rfl⟩
abbrev main_call3_c : Ref sig .tc := ⟨.hbm, 102, rfl⟩
abbrev main_call3_v0 : Ref sig .tc := ⟨.hbm, 103, rfl⟩
abbrev main_call3_v1 : Ref sig .tc := ⟨.hbm, 104, rfl⟩
abbrev main_call3_c_0 : Ref sig .tc := ⟨.hbm, 105, rfl⟩
abbrev main_call3_v2 : Ref sig .tc := ⟨.hbm, 106, rfl⟩
abbrev main_call3_v3 : Ref sig .tc := ⟨.hbm, 107, rfl⟩
abbrev main_call3_v4 : Ref sig .tc := ⟨.hbm, 108, rfl⟩
abbrev main_call3_v5 : Ref sig .tc := ⟨.hbm, 109, rfl⟩
abbrev main_call3_c_1 : Ref sig .tc := ⟨.hbm, 110, rfl⟩
abbrev main_call3_c_2 : Ref sig .tc := ⟨.hbm, 111, rfl⟩
abbrev main_call3_v6 : Ref sig .tc := ⟨.hbm, 112, rfl⟩
abbrev main_call3_v7 : Ref sig .tc := ⟨.hbm, 113, rfl⟩
abbrev main_call3_v8 : Ref sig .tc := ⟨.hbm, 114, rfl⟩
abbrev main_call3_v9 : Ref sig .tc := ⟨.hbm, 115, rfl⟩
abbrev main_call3_v10 : Ref sig .tc := ⟨.hbm, 116, rfl⟩
abbrev main_call3_v11 : Ref sig .tc := ⟨.hbm, 117, rfl⟩
abbrev main_call3_c_3 : Ref sig .tc := ⟨.hbm, 118, rfl⟩
abbrev main_call3_v12 : Ref sig .tc := ⟨.hbm, 119, rfl⟩
abbrev main_call3_v13 : Ref sig .tc := ⟨.hbm, 120, rfl⟩
abbrev main_call3_v14 : Ref sig .tc := ⟨.hbm, 121, rfl⟩
abbrev main_call3_cst : Ref sig .tc := ⟨.hbm, 122, rfl⟩
abbrev main_call3_v15 : Ref sig .tc := ⟨.hbm, 123, rfl⟩
abbrev main_v4 : Ref sig .tc := ⟨.hbm, 124, rfl⟩
abbrev main_call4_c : Ref sig .tc := ⟨.hbm, 125, rfl⟩
abbrev main_call4_v0 : Ref sig .tc := ⟨.hbm, 126, rfl⟩
abbrev main_call4_v1 : Ref sig .tc := ⟨.hbm, 127, rfl⟩
abbrev main_call4_c_0 : Ref sig .tc := ⟨.hbm, 128, rfl⟩
abbrev main_call4_v2 : Ref sig .tc := ⟨.hbm, 129, rfl⟩
abbrev main_call4_v3 : Ref sig .tc := ⟨.hbm, 130, rfl⟩
abbrev main_call4_v4 : Ref sig .tc := ⟨.hbm, 131, rfl⟩
abbrev main_call4_v5 : Ref sig .tc := ⟨.hbm, 132, rfl⟩
abbrev main_call4_c_1 : Ref sig .tc := ⟨.hbm, 133, rfl⟩
abbrev main_call4_c_2 : Ref sig .tc := ⟨.hbm, 134, rfl⟩
abbrev main_call4_v6 : Ref sig .tc := ⟨.hbm, 135, rfl⟩
abbrev main_call4_v7 : Ref sig .tc := ⟨.hbm, 136, rfl⟩
abbrev main_call4_v8 : Ref sig .tc := ⟨.hbm, 137, rfl⟩
abbrev main_call4_v9 : Ref sig .tc := ⟨.hbm, 138, rfl⟩
abbrev main_call4_v10 : Ref sig .tc := ⟨.hbm, 139, rfl⟩
abbrev main_call4_v11 : Ref sig .tc := ⟨.hbm, 140, rfl⟩
abbrev main_call4_c_3 : Ref sig .tc := ⟨.hbm, 141, rfl⟩
abbrev main_call4_v12 : Ref sig .tc := ⟨.hbm, 142, rfl⟩
abbrev main_call4_v13 : Ref sig .tc := ⟨.hbm, 143, rfl⟩
abbrev main_call4_v14 : Ref sig .tc := ⟨.hbm, 144, rfl⟩
abbrev main_call4_cst : Ref sig .tc := ⟨.hbm, 145, rfl⟩
abbrev main_call4_v15 : Ref sig .tc := ⟨.hbm, 146, rfl⟩
abbrev main_v5 : Ref sig .tc := ⟨.hbm, 147, rfl⟩
abbrev main_v6_0 : Ref sig .tc := ⟨.hbm, 148, rfl⟩
abbrev main_v6_1 : Ref sig .tc := ⟨.hbm, 149, rfl⟩
abbrev main_v6_2 : Ref sig .tc := ⟨.hbm, 150, rfl⟩
abbrev main_cst : Ref sig .tc := ⟨.hbm, 151, rfl⟩
abbrev main_v7 : Ref sig .tc := ⟨.hbm, 152, rfl⟩
abbrev main_v8 : Ref sig .tc := ⟨.hbm, 153, rfl⟩
abbrev main_v9 : Ref sig .tc := ⟨.hbm, 154, rfl⟩
abbrev main_cst_0 : Ref sig .tc := ⟨.hbm, 155, rfl⟩
abbrev main_v10 : Ref sig .tc := ⟨.hbm, 156, rfl⟩
abbrev main_v11 : Ref sig .tc := ⟨.hbm, 157, rfl⟩
abbrev main_v12 : Ref sig .tc := ⟨.hbm, 158, rfl⟩
abbrev main_cst_1 : Ref sig .tc := ⟨.hbm, 159, rfl⟩
abbrev main_v13 : Ref sig .tc := ⟨.hbm, 160, rfl⟩
abbrev main_v14 : Ref sig .tc := ⟨.hbm, 161, rfl⟩
abbrev main_v15 : Ref sig .tc := ⟨.hbm, 162, rfl⟩
abbrev main_v16 : Ref sig .tc := ⟨.hbm, 163, rfl⟩
abbrev main_v17_0 : Ref sig .tc := ⟨.hbm, 164, rfl⟩
abbrev main_v17_1 : Ref sig .tc := ⟨.hbm, 165, rfl⟩
abbrev main_v18 : Ref sig .tc := ⟨.hbm, 166, rfl⟩
abbrev main_cst_2 : Ref sig .tc := ⟨.hbm, 167, rfl⟩
abbrev main_v19 : Ref sig .tc := ⟨.hbm, 168, rfl⟩
abbrev main_v20 : Ref sig .tc := ⟨.hbm, 169, rfl⟩
abbrev main_v21 : Ref sig .tc := ⟨.hbm, 170, rfl⟩
abbrev main_cst_3 : Ref sig .tc := ⟨.hbm, 171, rfl⟩
abbrev main_v22 : Ref sig .tc := ⟨.hbm, 172, rfl⟩
abbrev main_v23 : Ref sig .tc := ⟨.hbm, 173, rfl⟩
abbrev main_v24 : Ref sig .tc := ⟨.hbm, 174, rfl⟩
abbrev main_v25 : Ref sig .tc := ⟨.hbm, 175, rfl⟩
abbrev main_v26_0 : Ref sig .tc := ⟨.hbm, 176, rfl⟩
abbrev main_v26_1 : Ref sig .tc := ⟨.hbm, 177, rfl⟩
abbrev main_v27 : Ref sig .tc := ⟨.hbm, 178, rfl⟩
abbrev main_cst_4 : Ref sig .tc := ⟨.hbm, 179, rfl⟩
abbrev main_v28 : Ref sig .tc := ⟨.hbm, 180, rfl⟩
abbrev main_v29 : Ref sig .tc := ⟨.hbm, 181, rfl⟩
abbrev main_v30 : Ref sig .tc := ⟨.hbm, 182, rfl⟩
abbrev main_cst_5 : Ref sig .tc := ⟨.hbm, 183, rfl⟩
abbrev main_v31 : Ref sig .tc := ⟨.hbm, 184, rfl⟩
abbrev main_v32 : Ref sig .tc := ⟨.hbm, 185, rfl⟩
abbrev main_v33 : Ref sig .tc := ⟨.hbm, 186, rfl⟩
abbrev main_v34 : Ref sig .tc := ⟨.hbm, 187, rfl⟩
abbrev main_v35 : Ref sig .tc := ⟨.hbm, 188, rfl⟩
abbrev main_v36 : Ref sig .tc := ⟨.hbm, 189, rfl⟩
abbrev main_v37 : Ref sig .tc := ⟨.hbm, 190, rfl⟩
abbrev main_v38 : Ref sig .tc := ⟨.hbm, 191, rfl⟩
abbrev main_v39 : Ref sig .tc := ⟨.hbm, 192, rfl⟩
abbrev main_v40 : Ref sig .tc := ⟨.hbm, 193, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg17_1 : Ref sig .tc := ⟨.vmem, 19, rfl⟩
abbrev cc0_stg18_0 : Ref sig .tc := ⟨.vmem, 20, rfl⟩
abbrev cc0_stg18_1 : Ref sig .tc := ⟨.vmem, 21, rfl⟩
abbrev cc0_stg19_0 : Ref sig .tc := ⟨.vmem, 22, rfl⟩
abbrev cc0_stg19_1 : Ref sig .tc := ⟨.vmem, 23, rfl⟩
abbrev cc0_stg20_0 : Ref sig .tc := ⟨.vmem, 24, rfl⟩
abbrev cc0_stg20_1 : Ref sig .tc := ⟨.vmem, 25, rfl⟩
abbrev cc0_stg21_0 : Ref sig .tc := ⟨.vmem, 26, rfl⟩
abbrev cc0_stg21_1 : Ref sig .tc := ⟨.vmem, 27, rfl⟩
abbrev cc0_stg22_0 : Ref sig .tc := ⟨.vmem, 28, rfl⟩
abbrev cc0_stg22_1 : Ref sig .tc := ⟨.vmem, 29, rfl⟩
abbrev cc0_stg23_0 : Ref sig .tc := ⟨.vmem, 30, rfl⟩
abbrev cc0_stg23_1 : Ref sig .tc := ⟨.vmem, 31, rfl⟩
abbrev cc1_stg0_0 : Ref sig .tc := ⟨.vmem, 32, rfl⟩
abbrev cc1_stg0_1 : Ref sig .tc := ⟨.vmem, 33, rfl⟩
abbrev cc1_stg1_0 : Ref sig .tc := ⟨.vmem, 34, rfl⟩
abbrev cc1_stg1_1 : Ref sig .tc := ⟨.vmem, 35, rfl⟩
abbrev cc1_stg2_0 : Ref sig .tc := ⟨.vmem, 36, rfl⟩
abbrev cc1_stg2_1 : Ref sig .tc := ⟨.vmem, 37, rfl⟩
abbrev cc1_stg3_0 : Ref sig .tc := ⟨.vmem, 38, rfl⟩
abbrev cc1_stg3_1 : Ref sig .tc := ⟨.vmem, 39, rfl⟩
abbrev cc1_stg4_0 : Ref sig .tc := ⟨.vmem, 40, rfl⟩
abbrev cc1_stg4_1 : Ref sig .tc := ⟨.vmem, 41, rfl⟩
abbrev cc1_stg5_0 : Ref sig .tc := ⟨.vmem, 42, rfl⟩
abbrev cc1_stg5_1 : Ref sig .tc := ⟨.vmem, 43, rfl⟩
abbrev cc1_stg6_0 : Ref sig .tc := ⟨.vmem, 44, rfl⟩
abbrev cc1_stg7_0 : Ref sig .tc := ⟨.vmem, 45, rfl⟩
abbrev cc1_stg8_0 : Ref sig .tc := ⟨.vmem, 46, rfl⟩
abbrev cc1_stg8_1 : Ref sig .tc := ⟨.vmem, 47, rfl⟩
abbrev cc1_stg9_0 : Ref sig .tc := ⟨.vmem, 48, rfl⟩
abbrev cc1_stg9_1 : Ref sig .tc := ⟨.vmem, 49, rfl⟩
abbrev cc1_stg10_0 : Ref sig .tc := ⟨.vmem, 50, rfl⟩
abbrev cc1_stg10_1 : Ref sig .tc := ⟨.vmem, 51, rfl⟩
abbrev cc2_stg0_0 : Ref sig .tc := ⟨.vmem, 52, rfl⟩
abbrev cc2_stg0_1 : Ref sig .tc := ⟨.vmem, 53, rfl⟩
abbrev cc2_stg1_0 : Ref sig .tc := ⟨.vmem, 54, rfl⟩
abbrev cc2_stg2_0 : Ref sig .tc := ⟨.vmem, 55, rfl⟩
abbrev cc3_stg0_0 : Ref sig .tc := ⟨.vmem, 56, rfl⟩
abbrev cc3_stg0_1 : Ref sig .tc := ⟨.vmem, 57, rfl⟩
abbrev cc3_stg1_0 : Ref sig .tc := ⟨.vmem, 58, rfl⟩
abbrev cc3_stg2_0 : Ref sig .tc := ⟨.vmem, 59, rfl⟩
abbrev cc4_stg0_0 : Ref sig .tc := ⟨.vmem, 60, rfl⟩
abbrev cc4_stg0_1 : Ref sig .tc := ⟨.vmem, 61, rfl⟩
abbrev cc4_stg1_0 : Ref sig .tc := ⟨.vmem, 62, rfl⟩
abbrev cc4_stg1_1 : Ref sig .tc := ⟨.vmem, 63, rfl⟩
abbrev cc4_stg2_0 : Ref sig .tc := ⟨.vmem, 64, rfl⟩
abbrev cc4_stg3_0 : Ref sig .tc := ⟨.vmem, 65, rfl⟩
abbrev cc4_stg4_0 : Ref sig .tc := ⟨.vmem, 66, rfl⟩
abbrev cc4_stg5_0 : Ref sig .tc := ⟨.vmem, 67, rfl⟩
abbrev cc4_stg6_0 : Ref sig .tc := ⟨.vmem, 68, rfl⟩
abbrev cc4_stg6_1 : Ref sig .tc := ⟨.vmem, 69, rfl⟩
abbrev cc5_stg0_0 : Ref sig .tc := ⟨.vmem, 70, rfl⟩
abbrev cc5_stg0_1 : Ref sig .tc := ⟨.vmem, 71, rfl⟩
abbrev cc5_stg1_0 : Ref sig .tc := ⟨.vmem, 72, rfl⟩
abbrev cc5_stg1_1 : Ref sig .tc := ⟨.vmem, 73, rfl⟩
abbrev cc5_stg2_0 : Ref sig .tc := ⟨.vmem, 74, rfl⟩
abbrev cc5_stg3_0 : Ref sig .tc := ⟨.vmem, 75, rfl⟩
abbrev cc5_stg4_0 : Ref sig .tc := ⟨.vmem, 76, rfl⟩
abbrev cc5_stg5_0 : Ref sig .tc := ⟨.vmem, 77, rfl⟩
abbrev cc5_stg6_0 : Ref sig .tc := ⟨.vmem, 78, rfl⟩
abbrev cc5_stg6_1 : Ref sig .tc := ⟨.vmem, 79, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem17_1 : DmaSem sig := 19
abbrev cc0_sem18_0 : DmaSem sig := 20
abbrev cc0_sem18_1 : DmaSem sig := 21
abbrev cc0_sem19_0 : DmaSem sig := 22
abbrev cc0_sem19_1 : DmaSem sig := 23
abbrev cc0_sem20_0 : DmaSem sig := 24
abbrev cc0_sem20_1 : DmaSem sig := 25
abbrev cc0_sem21_0 : DmaSem sig := 26
abbrev cc0_sem21_1 : DmaSem sig := 27
abbrev cc0_sem22_0 : DmaSem sig := 28
abbrev cc0_sem22_1 : DmaSem sig := 29
abbrev cc0_sem23_0 : DmaSem sig := 30
abbrev cc0_sem23_1 : DmaSem sig := 31
abbrev cc1_sem0_0 : DmaSem sig := 32
abbrev cc1_sem0_1 : DmaSem sig := 33
abbrev cc1_sem1_0 : DmaSem sig := 34
abbrev cc1_sem1_1 : DmaSem sig := 35
abbrev cc1_sem2_0 : DmaSem sig := 36
abbrev cc1_sem2_1 : DmaSem sig := 37
abbrev cc1_sem3_0 : DmaSem sig := 38
abbrev cc1_sem3_1 : DmaSem sig := 39
abbrev cc1_sem4_0 : DmaSem sig := 40
abbrev cc1_sem4_1 : DmaSem sig := 41
abbrev cc1_sem5_0 : DmaSem sig := 42
abbrev cc1_sem5_1 : DmaSem sig := 43
abbrev cc1_sem6_0 : DmaSem sig := 44
abbrev cc1_sem7_0 : DmaSem sig := 45
abbrev cc1_sem8_0 : DmaSem sig := 46
abbrev cc1_sem8_1 : DmaSem sig := 47
abbrev cc1_sem9_0 : DmaSem sig := 48
abbrev cc1_sem9_1 : DmaSem sig := 49
abbrev cc1_sem10_0 : DmaSem sig := 50
abbrev cc1_sem10_1 : DmaSem sig := 51
abbrev cc2_sem0_0 : DmaSem sig := 52
abbrev cc2_sem0_1 : DmaSem sig := 53
abbrev cc2_sem1_0 : DmaSem sig := 54
abbrev cc2_sem2_0 : DmaSem sig := 55
abbrev cc3_sem0_0 : DmaSem sig := 56
abbrev cc3_sem0_1 : DmaSem sig := 57
abbrev cc3_sem1_0 : DmaSem sig := 58
abbrev cc3_sem2_0 : DmaSem sig := 59
abbrev cc4_sem0_0 : DmaSem sig := 60
abbrev cc4_sem0_1 : DmaSem sig := 61
abbrev cc4_sem1_0 : DmaSem sig := 62
abbrev cc4_sem1_1 : DmaSem sig := 63
abbrev cc4_sem2_0 : DmaSem sig := 64
abbrev cc4_sem3_0 : DmaSem sig := 65
abbrev cc4_sem4_0 : DmaSem sig := 66
abbrev cc4_sem5_0 : DmaSem sig := 67
abbrev cc4_sem6_0 : DmaSem sig := 68
abbrev cc4_sem6_1 : DmaSem sig := 69
abbrev cc5_sem0_0 : DmaSem sig := 70
abbrev cc5_sem0_1 : DmaSem sig := 71
abbrev cc5_sem1_0 : DmaSem sig := 72
abbrev cc5_sem1_1 : DmaSem sig := 73
abbrev cc5_sem2_0 : DmaSem sig := 74
abbrev cc5_sem3_0 : DmaSem sig := 75
abbrev cc5_sem4_0 : DmaSem sig := 76
abbrev cc5_sem5_0 : DmaSem sig := 77
abbrev cc5_sem6_0 : DmaSem sig := 78
abbrev cc5_sem6_1 : DmaSem sig := 79

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S32 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S32x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S32x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S64 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S5000x64 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S5000x64 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S5000x64 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S5000x64 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S5000x32 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S5000x64 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S5000x64 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev grid1 : Pipeline.Grid := ⟨1, ![160], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S64x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S5000x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S5000x64 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S5000x64 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev grid3 : Pipeline.Grid := ⟨1, ![40], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S20000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S5000x64 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![80], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_3 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S10000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x64 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S10000x64 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

class Facts₀ : Prop where
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S64x32_S64x32_0_0 : ∀ a, (![0, 0] : Fin 2 → Nat) a + S64x32.size a ≤ S64x32.size a
  h_S64x32 : 0 < S64x32.numel
  inb_S32_S32_0 : ∀ a, (![0] : Fin 1 → Nat) a + S32.size a ≤ S32.size a
  h_S32 : 0 < S32.numel
  shapeCasts_S32_S1x32 : S32.ShapeCasts S1x32
  broadcasts_S1x32_S5000x32 : S1x32.Broadcasts S5000x32
  reduces_S5000x32_S5000 : S5000x32.Reduces [1] S5000
  shapeCasts_S5000_S5000x1 : S5000.ShapeCasts S5000x1
  broadcasts_S5000x1_S5000x32 : S5000x1.Broadcasts S5000x32
  inb_S5000x32_S5000x32_0_0 : ∀ a, (![0, 0] : Fin 2 → Nat) a + S5000x32.size a ≤ S5000x32.size a
  h_S5000x32 : 0 < S5000x32.numel
  inb_S32x64_S32x64_0_0 : ∀ a, (![0, 0] : Fin 2 → Nat) a + S32x64.size a ≤ S32x64.size a
  h_S32x64 : 0 < S32x64.numel
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x64_0 : S800000.BroadcastsInDim S800000x64 (![0] : Fin 1 → Fin S800000x64.rank)
  bcast_S_S800000x64 : S_.BroadcastsInDim S800000x64 (![] : Fin 0 → Fin S800000x64.rank)
  shapeCasts_S5000x64_S5000x64 : S5000x64.ShapeCasts S5000x64
  reduces_S5000x64_S5000 : S5000x64.Reduces [1] S5000
  broadcasts_S5000x1_S5000x64 : S5000x1.Broadcasts S5000x64
  bcast_S_S50000x64 : S_.BroadcastsInDim S50000x64 (![] : Fin 0 → Fin S50000x64.rank)
  inb_S1x64_S1x64_0_0 : ∀ a, (![0, 0] : Fin 2 → Nat) a + S1x64.size a ≤ S1x64.size a
  h_S1x64 : 0 < S1x64.numel
  shapeCasts_S1x64_S1x64 : S1x64.ShapeCasts S1x64
  reduces_S5000x64_S64 : S5000x64.Reduces [0] S64
  shapeCasts_S1x64_S64 : S1x64.ShapeCasts S64
  bcast_S_S64 : S_.BroadcastsInDim S64 (![] : Fin 0 → Fin S64.rank)
  inb_S20000x64_S20000x64_0_0 : ∀ a, (![0, 0] : Fin 2 → Nat) a + S20000x64.size a ≤ S20000x64.size a
  h_S20000x64 : 0 < S20000x64.numel
  shapeCasts_S20000x64_S20000x64 : S20000x64.ShapeCasts S20000x64
  reduces_S20000x64_S64 : S20000x64.Reduces [0] S64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  broadcasts_S1x64_S10000x64 : S1x64.Broadcasts S10000x64
  dot_S5000x64_S64x64_S5000x64_1_0_0_1_n_n_wf : DotDims.WF S5000x64 S64x64 S5000x64 [1] [0] [0] [1] [] []
  dot_S5000x64_S64x32_S5000x32_1_0_0_1_n_n_wf : DotDims.WF S5000x64 S64x32 S5000x32 [1] [0] [0] [1] [] []
  dot_S5000x32_S32x64_S5000x64_1_0_0_1_n_n_wf : DotDims.WF S5000x32 S32x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x64.size a ≤ S64x64.size a
  hwx0_7 : ∀ i : grid0.Coords, EltTy.bits .f32 = 32 ∨ (Rect.block (s := S64x64) S64x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64.size a ≤ S64.size a
  hwx0_8 : ∀ i : grid0.Coords, EltTy.bits .f32 = 32 ∨ (Rect.block (s := S64) S64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x64.size a ≤ S64x64.size a
  hwx0_9 : ∀ i : grid0.Coords, EltTy.bits .f32 = 32 ∨ (Rect.block (s := S64x64) S64x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S64.size a ≤ S64.size a
  hwx0_10 : ∀ i : grid0.Coords, EltTy.bits .f32 = 32 ∨ (Rect.block (s := S64) S64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S64x32.size a ≤ S64x32.size a
  hwx0_11 : ∀ i : grid0.Coords, EltTy.bits .f32 = 32 ∨ (Rect.block (s := S64x32) S64x32.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S32.size a ≤ S32.size a
  hwx0_12 : ∀ i : grid0.Coords, EltTy.bits .f32 = 32 ∨ (Rect.block (s := S32) S32.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S32x64.size a ≤ S32x64.size a
  hwx0_13 : ∀ i : grid0.Coords, EltTy.bits .f32 = 32 ∨ (Rect.block (s := S32x64) S32x64.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S64.size a ≤ S64.size a
  hwx0_14 : ∀ i : grid0.Coords, EltTy.bits .f32 = 32 ∨ (Rect.block (s := S64) S64.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S32x64.size a ≤ S32x64.size a
  hwx0_15 : ∀ i : grid0.Coords, EltTy.bits .f32 = 32 ∨ (Rect.block (s := S32x64) S32x64.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S64.size a ≤ S64.size a
  hwx0_16 : ∀ i : grid0.Coords, EltTy.bits .f32 = 32 ∨ (Rect.block (s := S64) S64.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S5000x64.size a ≤ S50000x64.size a
  hwx0_17 : ∀ i : grid0.Coords, EltTy.bits .f32 = 32 ∨ (Rect.block (s := S50000x64) S5000x64.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S5000x64.size a ≤ S50000x64.size a
  hwx0_18 : ∀ i : grid0.Coords, EltTy.bits .f32 = 32 ∨ (Rect.block (s := S50000x64) S5000x64.size (cc0_transform_18 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S5000x64.size a ≤ S50000x64.size a
  hwx0_19 : ∀ i : grid0.Coords, EltTy.bits .f32 = 32 ∨ (Rect.block (s := S50000x64) S5000x64.size (cc0_transform_19 i) (hinb0_19 i)).WholeWords (EltTy.packing .f32)
  hstage0_20 : ∀ j, (stage0_20 j).IsWhole
  nbuf0_20 : grid0.bufCount reads0_20 false = 2
  hreads0_20 : ∀ i i' : grid0.Coords, (∀ a, reads0_20 a = true → i a = i' a) → cc0_transform_20 i = cc0_transform_20 i'
  hinb0_20 : ∀ (i : grid0.Coords) a, (cc0_transform_20 i a + 1) * S5000x64.size a ≤ S50000x64.size a
  hwx0_20 : ∀ i : grid0.Coords, EltTy.bits .f32 = 32 ∨ (Rect.block (s := S50000x64) S5000x64.size (cc0_transform_20 i) (hinb0_20 i)).WholeWords (EltTy.packing .f32)
  hstage0_21 : ∀ j, (stage0_21 j).IsWhole
  nbuf0_21 : grid0.bufCount reads0_21 false = 2
  hreads0_21 : ∀ i i' : grid0.Coords, (∀ a, reads0_21 a = true → i a = i' a) → cc0_transform_21 i = cc0_transform_21 i'
  hinb0_21 : ∀ (i : grid0.Coords) a, (cc0_transform_21 i a + 1) * S5000x32.size a ≤ S50000x32.size a
  hwx0_21 : ∀ i : grid0.Coords, EltTy.bits .f32 = 32 ∨ (Rect.block (s := S50000x32) S5000x32.size (cc0_transform_21 i) (hinb0_21 i)).WholeWords (EltTy.packing .f32)
  hstage0_22 : ∀ j, (stage0_22 j).IsWhole
  nbuf0_22 : grid0.bufCount reads0_22 false = 2
  hreads0_22 : ∀ i i' : grid0.Coords, (∀ a, reads0_22 a = true → i a = i' a) → cc0_transform_22 i = cc0_transform_22 i'
  hinb0_22 : ∀ (i : grid0.Coords) a, (cc0_transform_22 i a + 1) * S5000x64.size a ≤ S50000x64.size a
  hwx0_22 : ∀ i : grid0.Coords, EltTy.bits .f32 = 32 ∨ (Rect.block (s := S50000x64) S5000x64.size (cc0_transform_22 i) (hinb0_22 i)).WholeWords (EltTy.packing .f32)
  hstage0_23 : ∀ j, (stage0_23 j).IsWhole
  nbuf0_23 : grid0.bufCount reads0_23 false = 2
  hreads0_23 : ∀ i i' : grid0.Coords, (∀ a, reads0_23 a = true → i a = i' a) → cc0_transform_23 i = cc0_transform_23 i'
  hinb0_23 : ∀ (i : grid0.Coords) a, (cc0_transform_23 i a + 1) * S5000x64.size a ≤ S50000x64.size a
  hwx0_23 : ∀ i : grid0.Coords, EltTy.bits .f32 = 32 ∨ (Rect.block (s := S50000x64) S5000x64.size (cc0_transform_23 i) (hinb0_23 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S800000x64.size a
  hwx1_0 : ∀ i : grid1.Coords, EltTy.bits .f32 = 32 ∨ (Rect.block (s := S800000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S800000x64.size a
  hwx1_1 : ∀ i : grid1.Coords, EltTy.bits .f32 = 32 ∨ (Rect.block (s := S800000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S800000x64.size a
  hwx1_2 : ∀ i : grid1.Coords, EltTy.bits .f32 = 32 ∨ (Rect.block (s := S800000x64) S5000x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S800000x64.size a
  hwx1_3 : ∀ i : grid1.Coords, EltTy.bits .f32 = 32 ∨ (Rect.block (s := S800000x64) S5000x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S800000x64.size a
  hwx1_4 : ∀ i : grid1.Coords, EltTy.bits .f32 = 32 ∨ (Rect.block (s := S800000x64) S5000x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S800000x64.size a
  hwx1_5 : ∀ i : grid1.Coords, EltTy.bits .f32 = 32 ∨ (Rect.block (s := S800000x64) S5000x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64x64.size a ≤ S64x64.size a
  hwx1_6 : ∀ i : grid1.Coords, EltTy.bits .f32 = 32 ∨ (Rect.block (s := S64x64) S64x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64.size a ≤ S64.size a
  hwx1_7 : ∀ i : grid1.Coords, EltTy.bits .f32 = 32 ∨ (Rect.block (s := S64) S64.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x64.size a ≤ S800000x64.size a
  hwx1_8 : ∀ i : grid1.Coords, EltTy.bits .f32 = 32 ∨ (Rect.block (s := S800000x64) S5000x64.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S5000x64.size a ≤ S800000x64.size a
  hwx1_9 : ∀ i : grid1.Coords, EltTy.bits .f32 = 32 ∨ (Rect.block (s := S800000x64) S5000x64.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S5000x64.size a ≤ S800000x64.size a
  hwx1_10 : ∀ i : grid1.Coords, EltTy.bits .f32 = 32 ∨ (Rect.block (s := S800000x64) S5000x64.size (cc1_transform_10 i) (hinb1_10 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S20000x64.size a ≤ S800000x64.size a
  hwx3_0 : ∀ i : grid3.Coords, EltTy.bits .f32 = 32 ∨ (Rect.block (s := S800000x64) S20000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x64.size a ≤ S50000x64.size a
  hwx4_1 : ∀ i : grid4.Coords, EltTy.bits .f32 = 32 ∨ (Rect.block (s := S50000x64) S5000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64.size a ≤ S64.size a
  hwx4_2 : ∀ i : grid4.Coords, EltTy.bits .f32 = 32 ∨ (Rect.block (s := S64) S64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64.size a ≤ S64.size a
  hwx4_3 : ∀ i : grid4.Coords, EltTy.bits .f32 = 32 ∨ (Rect.block (s := S64) S64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x64.size a ≤ S1x64.size a
  hwx4_5 : ∀ i : grid4.Coords, EltTy.bits .f32 = 32 ∨ (Rect.block (s := S1x64) S1x64.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x64.size a ≤ S50000x64.size a
  hwx4_6 : ∀ i : grid4.Coords, EltTy.bits .f32 = 32 ∨ (Rect.block (s := S50000x64) S5000x64.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S800000x64.size a
  hwx5_0 : ∀ i : grid5.Coords, EltTy.bits .f32 = 32 ∨ (Rect.block (s := S800000x64) S10000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S10000x64.size a ≤ S800000x64.size a
  hwx5_1 : ∀ i : grid5.Coords, EltTy.bits .f32 = 32 ∨ (Rect.block (s := S800000x64) S10000x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64.size a ≤ S64.size a
  hwx5_2 : ∀ i : grid5.Coords, EltTy.bits .f32 = 32 ∨ (Rect.block (s := S64) S64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S64.size a ≤ S64.size a
  hwx5_3 : ∀ i : grid5.Coords, EltTy.bits .f32 = 32 ∨ (Rect.block (s := S64) S64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x64.size a ≤ S1x64.size a
  hwx5_5 : ∀ i : grid5.Coords, EltTy.bits .f32 = 32 ∨ (Rect.block (s := S1x64) S1x64.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S10000x64.size a ≤ S800000x64.size a
  hwx5_6 : ∀ i : grid5.Coords, EltTy.bits .f32 = 32 ∨ (Rect.block (s := S800000x64) S10000x64.size (cc5_transform_6 i) (hinb5_6 i)).WholeWords (EltTy.packing .f32)

variable [Facts₀]

def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def dot_S5000x32_S32x64_S5000x64_1_0_0_1_n_n : DotDims S5000x32 S32x64 S5000x64 where
  lhsContracting := [1]
  rhsContracting := [0]
  lhsNonContracting := [0]
  rhsNonContracting := [1]
  lhsBatch := []
  rhsBatch := []
  wf := dot_S5000x32_S32x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg10) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg11) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg12) S64x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg13) S64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg14) S64x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg15) S64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg16) S64x32.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg17) S32.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg18) S32x64.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg19) S64.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg20) S32x64.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg21) S64.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v0_0) S5000x64.size cc0_transform_17 reads0_17 true false 2 stage0_17 sem0_17
    hrank0 hreads0_17 hinb0_17 nbuf0_17 (Memref.isWhole_whole _) hwx0_17 hstage0_17

abbrev win0_18 : Pipeline.Window sig grid0 :=
  Pipeline.Window.ofSpec (Memref.whole main_v0_1) S5000x64.size cc0_transform_18 reads0_18 true false 2 stage0_18 sem0_18
    hrank0 hreads0_18 hinb0_18 nbuf0_18 (Memref.isWhole_whole _) hwx0_18 hstage0_18

abbrev win0_19 : Pipeline.Window sig grid0 :=
  Pipeline.Window.ofSpec (Memref.whole main_v0_2) S5000x64.size cc0_transform_19 reads0_19 true false 2 stage0_19 sem0_19
    hrank0 hreads0_19 hinb0_19 nbuf0_19 (Memref.isWhole_whole _) hwx0_19 hstage0_19

abbrev win0_20 : Pipeline.Window sig grid0 :=
  Pipeline.Window.ofSpec (Memref.whole main_v0_3) S5000x64.size cc0_transform_20 reads0_20 true false 2 stage0_20 sem0_20
    hrank0 hreads0_20 hinb0_20 nbuf0_20 (Memref.isWhole_whole _) hwx0_20 hstage0_20

abbrev win0_21 : Pipeline.Window sig grid0 :=
  Pipeline.Window.ofSpec (Memref.whole main_v0_4) S5000x32.size cc0_transform_21 reads0_21 true false 2 stage0_21 sem0_21
    hrank0 hreads0_21 hinb0_21 nbuf0_21 (Memref.isWhole_whole _) hwx0_21 hstage0_21

abbrev win0_22 : Pipeline.Window sig grid0 :=
  Pipeline.Window.ofSpec (Memref.whole main_v0_5) S5000x64.size cc0_transform_22 reads0_22 true false 2 stage0_22 sem0_22
    hrank0 hreads0_22 hinb0_22 nbuf0_22 (Memref.isWhole_whole _) hwx0_22 hstage0_22

abbrev win0_23 : Pipeline.Window sig grid0 :=
  Pipeline.Window.ofSpec (Memref.whole main_v0_6) S5000x64.size cc0_transform_23 reads0_23 true false 2 stage0_23 sem0_23
    hrank0 hreads0_23 hinb0_23 nbuf0_23 (Memref.isWhole_whole _) hwx0_23 hstage0_23

abbrev win0 : Fin 24 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | ⟨_ + 24, h⟩ => absurd h (Nat.not_lt.2 (Nat.le_add_left _ _))
abbrev spec0 : Fin 24 → Pipeline.WinSpec sig grid0.rank := fun w => (win0 w).toWinSpec

abbrev win1_0 : Pipeline.Window sig grid1 :=
  Pipeline.Window.ofSpec (Memref.whole main_arg1) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S5000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S5000x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v4) S5000x64.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v5) S5000x64.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_arg8) S64x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg9) S64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v6_0) S5000x64.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v6_1) S5000x64.size cc1_transform_9 reads1_9 true false 2 stage1_9 sem1_9
    hrank1 hreads1_9 hinb1_9 nbuf1_9 (Memref.isWhole_whole _) hwx1_9 hstage1_9

abbrev win1_10 : Pipeline.Window sig grid1 :=
  Pipeline.Window.ofSpec (Memref.whole main_v6_2) S5000x64.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev win2_0 : Pipeline.Window sig grid2 :=
  Pipeline.Window.ofSpec (Memref.whole main_v16) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17_0) S1x64.size cc2_transform_1 reads2_1 true true 1 stage2_1 sem2_1
    hrank2 hreads2_1 hinb2_1 nbuf2_1 (Memref.isWhole_whole _) hwx2_1 hstage2_1

abbrev win2_2 : Pipeline.Window sig grid2 :=
  Pipeline.Window.ofSpec (Memref.whole main_v17_1) S1x64.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v6_0) S20000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v26_0) S1x64.size cc3_transform_1 reads3_1 true true 1 stage3_1 sem3_1
    hrank3 hreads3_1 hinb3_1 nbuf3_1 (Memref.isWhole_whole _) hwx3_1 hstage3_1

abbrev win3_2 : Pipeline.Window sig grid3 :=
  Pipeline.Window.ofSpec (Memref.whole main_v26_1) S1x64.size cc3_transform_2 reads3_2 true true 1 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v16) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg0) S5000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg22) S64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg23) S64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v35) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v36) S1x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v37) S5000x64.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v6_0) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg1) S10000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg24) S64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg25) S64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v38) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v39) S1x64.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v40) S10000x64.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

class Facts : Prop extends Facts₀ where

variable [Facts]
-- ==== ReferenceIdeal.lean ====
abbrev S50000x64 : Shape := ⟨2, ![50000, 64]⟩
abbrev S800000x64 : Shape := ⟨2, ![800000, 64]⟩
abbrev S800000 : Shape := ⟨1, ![800000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S32x64 : Shape := ⟨2, ![32, 64]⟩
abbrev S1x64 : Shape := ⟨2, ![1, 64]⟩
abbrev S_ : Shape := ⟨0, ![]⟩
abbrev S50000x32 : Shape := ⟨2, ![50000, 32]⟩
abbrev S1x32 : Shape := ⟨2, ![1, 32]⟩
abbrev S50000 : Shape := ⟨1, ![50000]⟩
abbrev S50000x1 : Shape := ⟨2, ![50000, 1]⟩
abbrev S800000x1 : Shape := ⟨2, ![800000, 1]⟩

abbrev nBuf : Space → Nat
  | .hbm => 225
  | .vmem => 0
  | .smem => 0
  | _ => 0

abbrev hbmTy0_0 (i : Nat) : BufTy := match i % 128 with
  | 0 => ⟨S50000x64, .f32⟩
  | 1 => ⟨S800000x64, .f32⟩
  | 2 => ⟨S800000, .i32⟩
  | 3 => ⟨S800000, .i32⟩
  | 4 => ⟨S64x64, .f32⟩
  | 5 => ⟨S64, .f32⟩
  | 6 => ⟨S64x64, .f32⟩
  | 7 => ⟨S64, .f32⟩
  | 8 => ⟨S64x64, .f32⟩
  | 9 => ⟨S64, .f32⟩
  | 10 => ⟨S64x64, .f32⟩
  | 11 => ⟨S64, .f32⟩
  | 12 => ⟨S64x64, .f32⟩
  | 13 => ⟨S64, .f32⟩
  | 14 => ⟨S64x64, .f32⟩
  | 15 => ⟨S64, .f32⟩
  | 16 => ⟨S64x32, .f32⟩
  | 17 => ⟨S32, .f32⟩
  | 18 => ⟨S32x64, .f32⟩
  | 19 => ⟨S64, .f32⟩
  | 20 => ⟨S32x64, .f32⟩
  | 21 => ⟨S64, .f32⟩
  | 22 => ⟨S64, .f32⟩
  | 23 => ⟨S64, .f32⟩
  | 24 => ⟨S64, .f32⟩
  | 25 => ⟨S64, .f32⟩
  | 26 => ⟨S50000x64, .f32⟩
  | 27 => ⟨S1x64, .f32⟩
  | 28 => ⟨S50000x64, .f32⟩
  | 29 => ⟨S50000x64, .f32⟩
  | 30 => ⟨S50000x64, .f32⟩
  | 31 => ⟨S1x64, .f32⟩
  | 32 => ⟨S50000x64, .f32⟩
  | 33 => ⟨S50000x64, .f32⟩
  | 34 => ⟨S50000x64, .f32⟩
  | 35 => ⟨S1x64, .f32⟩
  | 36 => ⟨S50000x64, .f32⟩
  | 37 => ⟨S50000x64, .f32⟩
  | 38 => ⟨S50000x64, .f32⟩
  | 39 => ⟨S1x64, .f32⟩
  | 40 => ⟨S50000x64, .f32⟩
  | 41 => ⟨S50000x64, .f32⟩
  | 42 => ⟨S800000x64, .f32⟩
  | 43 => ⟨S1x64, .f32⟩
  | 44 => ⟨S800000x64, .f32⟩
  | 45 => ⟨S800000x64, .f32⟩
  | 46 => ⟨S50000x64, .f32⟩
  | 47 => ⟨S1x64, .f32⟩
  | 48 => ⟨S50000x64, .f32⟩
  | 49 => ⟨S50000x64, .f32⟩
  | 50 => ⟨S_, .f32⟩
  | 51 => ⟨S50000x64, .f32⟩
  | 52 => ⟨S50000x64, .f32⟩
  | 53 => ⟨S50000x32, .f32⟩
  | 54 => ⟨S1x32, .f32⟩
  | 55 => ⟨S50000x32, .f32⟩
  | 56 => ⟨S50000x32, .f32⟩
  | 57 => ⟨S_, .f32⟩
  | 58 => ⟨S50000, .f32⟩
  | 59 => ⟨S_, .f32⟩
  | 60 => ⟨S50000, .f32⟩
  | 61 => ⟨S50000, .f32⟩
  | 62 => ⟨S50000x1, .f32⟩
  | 63 => ⟨S50000x32, .f32⟩
  | 64 => ⟨S50000x32, .f32⟩
  | 65 => ⟨S50000x32, .f32⟩
  | 66 => ⟨S_, .f32⟩
  | 67 => ⟨S50000, .f32⟩
  | 68 => ⟨S50000x1, .f32⟩
  | 69 => ⟨S50000x32, .f32⟩
  | 70 => ⟨S50000x32, .f32⟩
  | 71 => ⟨S_, .i32⟩
  | 72 => ⟨S800000, .i32⟩
  | 73 => ⟨S800000, .i1⟩
  | 74 => ⟨S_, .i32⟩
  | 75 => ⟨S800000, .i32⟩
  | 76 => ⟨S800000, .i32⟩
  | 77 => ⟨S800000, .i32⟩
  | 78 => ⟨S800000x1, .i32⟩
  | 79 => ⟨S800000x64, .f32⟩
  | 80 => ⟨S_, .i32⟩
  | 81 => ⟨S800000, .i32⟩
  | 82 => ⟨S800000, .i1⟩
  | 83 => ⟨S_, .i32⟩
  | 84 => ⟨S800000, .i32⟩
  | 85 => ⟨S800000, .i32⟩
  | 86 => ⟨S800000, .i32⟩
  | 87 => ⟨S800000x1, .i32⟩
  | 88 => ⟨S800000x64, .f32⟩
  | 89 => ⟨S800000x64, .f32⟩
  | 90 => ⟨S800000x64, .f32⟩
  | 91 => ⟨S800000x64, .f32⟩
  | 92 => ⟨S800000x64, .f32⟩
  | 93 => ⟨S_, .f32⟩
  | 94 => ⟨S800000x64, .f32⟩
  | 95 => ⟨S800000x64, .f32⟩
  | 96 => ⟨S_, .f32⟩
  | 97 => ⟨S800000x64, .f32⟩
  | 98 => ⟨S800000x64, .f32⟩
  | 99 => ⟨S50000x64, .f32⟩
  | 100 => ⟨S1x64, .f32⟩
  | 101 => ⟨S50000x64, .f32⟩
  | 102 => ⟨S50000x64, .f32⟩
  | 103 => ⟨S50000x64, .f32⟩
  | 104 => ⟨S1x64, .f32⟩
  | 105 => ⟨S50000x64, .f32⟩
  | 106 => ⟨S50000x64, .f32⟩
  | 107 => ⟨S_, .i32⟩
  | 108 => ⟨S800000, .i32⟩
  | 109 => ⟨S800000, .i1⟩
  | 110 => ⟨S_, .i32⟩
  | 111 => ⟨S800000, .i32⟩
  | 112 => ⟨S800000, .i32⟩
  | 113 => ⟨S800000, .i32⟩
  | 114 => ⟨S800000x1, .i32⟩
  | 115 => ⟨S800000x64, .f32⟩
  | 116 => ⟨S_, .i32⟩
  | 117 => ⟨S800000, .i32⟩
  | 118 => ⟨S800000, .i1⟩
  | 119 => ⟨S_, .i32⟩
  | 120 => ⟨S800000, .i32⟩
  | 121 => ⟨S800000, .i32⟩
  | 122 => ⟨S800000, .i32⟩
  | 123 => ⟨S800000x1, .i32⟩
  | 124 => ⟨S800000x64, .f32⟩
  | 125 => ⟨S800000x64, .f32⟩
  | 126 => ⟨S_, .f32⟩
  | 127 => ⟨S800000, .f32⟩
  | _ => ⟨S50000x64, .f32⟩

abbrev hbmTy0_1 (i : Nat) : BufTy := match i % 128 with
  | 0 => ⟨S_, .f32⟩
  | 1 => ⟨S800000, .f32⟩
  | 2 => ⟨S800000, .f32⟩
  | 3 => ⟨S800000x1, .f32⟩
  | 4 => ⟨S800000x64, .f32⟩
  | 5 => ⟨S800000x64, .f32⟩
  | 6 => ⟨S_, .i32⟩
  | 7 => ⟨S800000, .i32⟩
  | 8 => ⟨S800000, .i1⟩
  | 9 => ⟨S_, .i32⟩
  | 10 => ⟨S800000, .i32⟩
  | 11 => ⟨S800000, .i32⟩
  | 12 => ⟨S800000, .i32⟩
  | 13 => ⟨S800000x1, .i32⟩
  | 14 => ⟨S800000x64, .f32⟩
  | 15 => ⟨S800000x64, .f32⟩
  | 16 => ⟨S_, .f32⟩
  | 17 => ⟨S50000x64, .f32⟩
  | 18 => ⟨S800000x1, .i32⟩
  | 19 => ⟨S50000x64, .f32⟩
  | 20 => ⟨S_, .f32⟩
  | 21 => ⟨S50000x64, .f32⟩
  | 22 => ⟨S800000x1, .i32⟩
  | 23 => ⟨S50000x64, .f32⟩
  | 24 => ⟨S_, .f32⟩
  | 25 => ⟨S50000x64, .f32⟩
  | 26 => ⟨S50000x64, .f32⟩
  | 27 => ⟨S50000x64, .f32⟩
  | 28 => ⟨S50000x64, .f32⟩
  | 29 => ⟨S_, .f32⟩
  | 30 => ⟨S64, .f32⟩
  | 31 => ⟨S_, .f32⟩
  | 32 => ⟨S64, .f32⟩
  | 33 => ⟨S64, .f32⟩
  | 34 => ⟨S1x64, .f32⟩
  | 35 => ⟨S50000x64, .f32⟩
  | 36 => ⟨S50000x64, .f32⟩
  | 37 => ⟨S50000x64, .f32⟩
  | 38 => ⟨S_, .f32⟩
  | 39 => ⟨S64, .f32⟩
  | 40 => ⟨S_, .f32⟩
  | 41 => ⟨S64, .f32⟩
  | 42 => ⟨S64, .f32⟩
  | 43 => ⟨S1x64, .f32⟩
  | 44 => ⟨S50000x64, .f32⟩
  | 45 => ⟨S50000x64, .f32⟩
  | 46 => ⟨S_, .f32⟩
  | 47 => ⟨S64, .f32⟩
  | 48 => ⟨S64, .f32⟩
  | 49 => ⟨S64, .f32⟩
  | 50 => ⟨S1x64, .f32⟩
  | 51 => ⟨S50000x64, .f32⟩
  | 52 => ⟨S50000x64, .f32⟩
  | 53 => ⟨S1x64, .f32⟩
  | 54 => ⟨S50000x64, .f32⟩
  | 55 => ⟨S50000x64, .f32⟩
  | 56 => ⟨S1x64, .f32⟩
  | 57 => ⟨S50000x64, .f32⟩
  | 58 => ⟨S50000x64, .f32⟩
  | 59 => ⟨S_, .f32⟩
  | 60 => ⟨S50000x64, .f32⟩
  | 61 => ⟨S50000x64, .f32⟩
  | 62 => ⟨S_, .f32⟩
  | 63 => ⟨S64, .f32⟩
  | 64 => ⟨S_, .f32⟩
  | 65 => ⟨S64, .f32⟩
  | 66 => ⟨S64, .f32⟩
  | 67 => ⟨S1x64, .f32⟩
  | 68 => ⟨S800000x64, .f32⟩
  | 69 => ⟨S800000x64, .f32⟩
  | 70 => ⟨S800000x64, .f32⟩
  | 71 => ⟨S_, .f32⟩
  | 72 => ⟨S64, .f32⟩
  | 73 => ⟨S_, .f32⟩
  | 74 => ⟨S64, .f32⟩
  | 75 => ⟨S64, .f32⟩
  | 76 => ⟨S1x64, .f32⟩
  | 77 => ⟨S800000x64, .f32⟩
  | 78 => ⟨S800000x64, .f32⟩
  | 79 => ⟨S_, .f32⟩
  | 80 => ⟨S64, .f32⟩
  | 81 => ⟨S64, .f32⟩
  | 82 => ⟨S64, .f32⟩
  | 83 => ⟨S1x64, .f32⟩
  | 84 => ⟨S800000x64, .f32⟩
  | 85 => ⟨S800000x64, .f32⟩
  | 86 => ⟨S1x64, .f32⟩
  | 87 => ⟨S800000x64, .f32⟩
  | 88 => ⟨S800000x64, .f32⟩
  | 89 => ⟨S1x64, .f32⟩
  | 90 => ⟨S800000x64, .f32⟩
  | 91 => ⟨S800000x64, .f32⟩
  | 92 => ⟨S_, .f32⟩
  | 93 => ⟨S800000x64, .f32⟩
  | 94 => ⟨S800000x64, .f32⟩
  | 95 => ⟨S50000x64, .f32⟩
  | 96 => ⟨S800000x64, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_call0_cst : Ref sig .tc := ⟨.hbm, 50, rfl⟩
abbrev main_call0_v0 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_cst : Ref sig .tc := ⟨.hbm, 57, rfl⟩
abbrev main_v29 : Ref sig .tc := ⟨.hbm, 58, rfl⟩
abbrev main_cst_0 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_cst_1 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_c : Ref sig .tc := ⟨.hbm, 71, rfl⟩
abbrev main_v40 : Ref sig .tc := ⟨.hbm, 72, rfl⟩
abbrev main_v41 : Ref sig .tc := ⟨.hbm, 73, rfl⟩
abbrev main_c_2 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_c_3 : Ref sig .tc := ⟨.hbm, 80, rfl⟩
abbrev main_v47 : Ref sig .tc := ⟨.hbm, 81, rfl⟩
abbrev main_v48 : Ref sig .tc := ⟨.hbm, 82, rfl⟩
abbrev main_c_4 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_cst_5 : Ref sig .tc := ⟨.hbm, 93, rfl⟩
abbrev main_v58 : Ref sig .tc := ⟨.hbm, 94, rfl⟩
abbrev main_v59 : Ref sig .tc := ⟨.hbm, 95, rfl⟩
abbrev main_cst_6 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_c_7 : Ref sig .tc := ⟨.hbm, 107, rfl⟩
abbrev main_v70 : Ref sig .tc := ⟨.hbm, 108, rfl⟩
abbrev main_v71 : Ref sig .tc := ⟨.hbm, 109, rfl⟩
abbrev main_c_8 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_c_9 : Ref sig .tc := ⟨.hbm, 116, rfl⟩
abbrev main_v77 : Ref sig .tc := ⟨.hbm, 117, rfl⟩
abbrev main_v78 : Ref sig .tc := ⟨.hbm, 118, rfl⟩
abbrev main_c_10 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_cst_11 : Ref sig .tc := ⟨.hbm, 126, rfl⟩
abbrev main_v85 : Ref sig .tc := ⟨.hbm, 127, rfl⟩
abbrev main_cst_12 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_c_13 : Ref sig .tc := ⟨.hbm, 134, rfl⟩
abbrev main_v91 : Ref sig .tc := ⟨.hbm, 135, rfl⟩
abbrev main_v92 : Ref sig .tc := ⟨.hbm, 136, rfl⟩
abbrev main_c_14 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_cst_15 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_cst_16 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_cst_17 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_cst_18 : Ref sig .tc := ⟨.hbm, 157, rfl⟩
abbrev main_v109 : Ref sig .tc := ⟨.hbm, 158, rfl⟩
abbrev main_cst_19 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_cst_20 : Ref sig .tc := ⟨.hbm, 166, rfl⟩
abbrev main_v116 : Ref sig .tc := ⟨.hbm, 167, rfl⟩
abbrev main_cst_21 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_cst_22 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_call1_cst : Ref sig .tc := ⟨.hbm, 187, rfl⟩
abbrev main_call1_v0 : Ref sig .tc := ⟨.hbm, 188, rfl⟩
abbrev main_v134 : Ref sig .tc := ⟨.hbm, 189, rfl⟩
abbrev main_cst_23 : Ref sig .tc := ⟨.hbm, 190, rfl⟩
abbrev main_v135 : Ref sig .tc := ⟨.hbm, 191, rfl⟩
abbrev main_cst_24 : Ref sig .tc := ⟨.hbm, 192, rfl⟩
abbrev main_v136 : Ref sig .tc := ⟨.hbm, 193, rfl⟩
abbrev main_v137 : Ref sig .tc := ⟨.hbm, 194, rfl⟩
abbrev main_v138 : Ref sig .tc := ⟨.hbm, 195, rfl⟩
abbrev main_v139 : Ref sig .tc := ⟨.hbm, 196, rfl⟩
abbrev main_v140 : Ref sig .tc := ⟨.hbm, 197, rfl⟩
abbrev main_v141 : Ref sig .tc := ⟨.hbm, 198, rfl⟩
abbrev main_cst_25 : Ref sig .tc := ⟨.hbm, 199, rfl⟩
abbrev main_v142 : Ref sig .tc := ⟨.hbm, 200, rfl⟩
abbrev main_cst_26 : Ref sig .tc := ⟨.hbm, 201, rfl⟩
abbrev main_v143 : Ref sig .tc := ⟨.hbm, 202, rfl⟩
abbrev main_v144 : Ref sig .tc := ⟨.hbm, 203, rfl⟩
abbrev main_v145 : Ref sig .tc := ⟨.hbm, 204, rfl⟩
abbrev main_v146 : Ref sig .tc := ⟨.hbm, 205, rfl⟩
abbrev main_v147 : Ref sig .tc := ⟨.hbm, 206, rfl⟩
abbrev main_cst_27 : Ref sig .tc := ⟨.hbm, 207, rfl⟩
abbrev main_v148 : Ref sig .tc := ⟨.hbm, 208, rfl⟩
abbrev main_v149 : Ref sig .tc := ⟨.hbm, 209, rfl⟩
abbrev main_v150 : Ref sig .tc := ⟨.hbm, 210, rfl⟩
abbrev main_v151 : Ref sig .tc := ⟨.hbm, 211, rfl⟩
abbrev main_v152 : Ref sig .tc := ⟨.hbm, 212, rfl⟩
abbrev main_v153 : Ref sig .tc := ⟨.hbm, 213, rfl⟩
abbrev main_v154 : Ref sig .tc := ⟨.hbm, 214, rfl⟩
abbrev main_v155 : Ref sig .tc := ⟨.hbm, 215, rfl⟩
abbrev main_v156 : Ref sig .tc := ⟨.hbm, 216, rfl⟩
abbrev main_v157 : Ref sig .tc := ⟨.hbm, 217, rfl⟩
abbrev main_v158 : Ref sig .tc := ⟨.hbm, 218, rfl⟩
abbrev main_v159 : Ref sig .tc := ⟨.hbm, 219, rfl⟩
abbrev main_call2_cst : Ref sig .tc := ⟨.hbm, 220, rfl⟩
abbrev main_call2_v0 : Ref sig .tc := ⟨.hbm, 221, rfl⟩
abbrev main_v160 : Ref sig .tc := ⟨.hbm, 222, rfl⟩
abbrev main_v161 : Ref sig .tc := ⟨.hbm, 223, rfl⟩
abbrev main_v162 : Ref sig .tc := ⟨.hbm, 224, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S1x64_S800000x64_0_1 : S1x64.BroadcastsInDim S800000x64 (![0, 1] : Fin 2 → Fin S800000x64.rank)
  bcast_S_S50000x64 : S_.BroadcastsInDim S50000x64 (![] : Fin 0 → Fin S50000x64.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  reducesTo_S50000x32_S50000_d1 : S50000x32.ReducesTo [1] S50000
  h_S_ : 0 < S_.numel
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x32_0_1 : S50000x1.BroadcastsInDim S50000x32 (![0, 1] : Fin 2 → Fin S50000x32.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S800000x64 : S_.BroadcastsInDim S800000x64 (![] : Fin 0 → Fin S800000x64.rank)
  reducesTo_S800000x64_S800000_d1 : S800000x64.ReducesTo [1] S800000
  bcast_S800000x1_S800000x64_0_1 : S800000x1.BroadcastsInDim S800000x64 (![0, 1] : Fin 2 → Fin S800000x64.rank)
  reducesTo_S50000x64_S64_d0 : S50000x64.ReducesTo [0] S64
  bcast_S_S64 : S_.BroadcastsInDim S64 (![] : Fin 0 → Fin S64.rank)
  reducesTo_S800000x64_S64_d0 : S800000x64.ReducesTo [0] S64
  dot_S50000x64_S64x64_S50000x64_1_0_0_1_n_n_wf : DotDims.WF S50000x64 S64x64 S50000x64 [1] [0] [0] [1] [] []
  dot_S800000x64_S64x64_S800000x64_1_0_0_1_n_n_wf : DotDims.WF S800000x64 S64x64 S800000x64 [1] [0] [0] [1] [] []
  dot_S50000x64_S64x32_S50000x32_1_0_0_1_n_n_wf : DotDims.WF S50000x64 S64x32 S50000x32 [1] [0] [0] [1] [] []
  gather_S50000x64_S800000x1_S800000x64_1_0_n_n_0_1_164_wf : GatherDims.WF S50000x64 S800000x1 S800000x64 [1] [0] [] [0] [] 1 ![1, 64]
  dot_S50000x32_S32x64_S50000x64_1_0_0_1_n_n_wf : DotDims.WF S50000x32 S32x64 S50000x64 [1] [0] [0] [1] [] []
  scatter_S50000x64_S800000x1_S800000x64_1_0_0_1_wf : ScatterDims.WF S50000x64 S800000x1 S800000x64 [1] [0] [0] 1

variable [Facts₀]

def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S800000x64_S64x64_S800000x64_1_0_0_1_n_n : DotDims S800000x64 S64x64 S800000x64 where
  lhsContracting := [1]
  rhsContracting := [0]
  lhsNonContracting := [0]
  rhsNonContracting := [1]
  lhsBatch := []
  rhsBatch := []
  wf := dot_S800000x64_S64x64_S800000x64_1_0_0_1_n_n_wf
def dot_S50000x64_S64x32_S50000x32_1_0_0_1_n_n : DotDims S50000x64 S64x32 S50000x32 where
  lhsContracting := [1]
  rhsContracting := [0]
  lhsNonContracting := [0]
  rhsNonContracting := [1]
  lhsBatch := []
  rhsBatch := []
  wf := dot_S50000x64_S64x32_S50000x32_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S50000x32_S32x64_S50000x64_1_0_0_1_n_n : DotDims S50000x32 S32x64 S50000x64 where
  lhsContracting := [1]
  rhsContracting := [0]
  lhsNonContracting := [0]
  rhsNonContracting := [1]
  lhsBatch := []
  rhsBatch := []
  wf := dot_S50000x32_S32x64_S50000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.Args.lean ====
/-
  Names for the reference's stages, read at the kernel program's own argument arrays.

  The reference computes a gated graph-convolution layer in stages: dense transforms of the node table, a row softmax,
  per-edge gathers, an edge update with a sigmoid gate scaled by a per-edge attention mean, two scatter-sums into the
  destination nodes, a guarded quotient, and a batch normalisation (column mean and variance) of the node and edge
  updates followed by relu and a residual sum.  Each stage below is the reference's own stage function (the generated
  read-back of its run), applied to the argument arrays as the KERNEL program's launch memory holds them, so that a
  statement "the kernel's buffer holds the reference's stage" can be written in one line.
-/
import proofs.«412482_j67259187855861_1_alg».proof.KernelIdeal
import proofs.«412482_j67259187855861_1_alg».proof.Proof.Gen.ReferenceIdeal.Read

noncomputable section

namespace Cert.Bridge

open Idealize.ShloMosaic Idealize.ShloMosaic.TcCoe Idealize.SL.Sem
open Cert.KernelIdeal

variable (m : (ℓ : Loc nD τ sig) → Buf (Elt Ideal) ℓ) (c : Dev nD)

/-- Argument 0 of the kernel program, as launched on core `c`. -/
def a0 : (⟨S50000x64, .f32⟩ : BufTy).Contents (Elt Ideal) := m ((c : Thread nD τ).loc main_arg0)
/-- Argument 1 of the kernel program, as launched on core `c`. -/
def a1 : (⟨S800000x64, .f32⟩ : BufTy).Contents (Elt Ideal) := m ((c : Thread nD τ).loc main_arg1)
/-- Argument 2 of the kernel program, as launched on core `c`. -/
def a2 : (⟨S800000, .i32⟩ : BufTy).Contents (Elt Ideal) := m ((c : Thread nD τ).loc main_arg2)
/-- Argument 3 of the kernel program, as launched on core `c`. -/
def a3 : (⟨S800000, .i32⟩ : BufTy).Contents (Elt Ideal) := m ((c : Thread nD τ).loc main_arg3)
/-- Argument 4 of the kernel program, as launched on core `c`. -/
def a4 : (⟨S64x64, .f32⟩ : BufTy).Contents (Elt Ideal) := m ((c : Thread nD τ).loc main_arg4)
/-- Argument 5 of the kernel program, as launched on core `c`. -/
def a5 : (⟨S64, .f32⟩ : BufTy).Contents (Elt Ideal) := m ((c : Thread nD τ).loc main_arg5)
/-- Argument 6 of the kernel program, as launched on core `c`. -/
def a6 : (⟨S64x64, .f32⟩ : BufTy).Contents (Elt Ideal) := m ((c : Thread nD τ).loc main_arg6)
/-- Argument 7 of the kernel program, as launched on core `c`. -/
def a7 : (⟨S64, .f32⟩ : BufTy).Contents (Elt Ideal) := m ((c : Thread nD τ).loc main_arg7)
/-- Argument 8 of the kernel program, as launched on core `c`. -/
def a8 : (⟨S64x64, .f32⟩ : BufTy).Contents (Elt Ideal) := m ((c : Thread nD τ).loc main_arg8)
/-- Argument 9 of the kernel program, as launched on core `c`. -/
def a9 : (⟨S64, .f32⟩ : BufTy).Contents (Elt Ideal) := m ((c : Thread nD τ).loc main_arg9)
/-- Argument 10 of the kernel program, as launched on core `c`. -/
def a10 : (⟨S64x64, .f32⟩ : BufTy).Contents (Elt Ideal) := m ((c : Thread nD τ).loc main_arg10)
/-- Argument 11 of the kernel program, as launched on core `c`. -/
def a11 : (⟨S64, .f32⟩ : BufTy).Contents (Elt Ideal) := m ((c : Thread nD τ).loc main_arg11)
/-- Argument 12 of the kernel program, as launched on core `c`. -/
def a12 : (⟨S64x64, .f32⟩ : BufTy).Contents (Elt Ideal) := m ((c : Thread nD τ).loc main_arg12)
/-- Argument 13 of the kernel program, as launched on core `c`. -/
def a13 : (⟨S64, .f32⟩ : BufTy).Contents (Elt Ideal) := m ((c : Thread nD τ).loc main_arg13)
/-- Argument 14 of the kernel program, as launched on core `c`. -/
def a14 : (⟨S64x64, .f32⟩ : BufTy).Contents (Elt Ideal) := m ((c : Thread nD τ).loc main_arg14)
/-- Argument 15 of the kernel program, as launched on core `c`. -/
def a15 : (⟨S64, .f32⟩ : BufTy).Contents (Elt Ideal) := m ((c : Thread nD τ).loc main_arg15)
/-- Argument 16 of the kernel program, as launched on core `c`. -/
def a16 : (⟨S64x32, .f32⟩ : BufTy).Contents (Elt Ideal) := m ((c : Thread nD τ).loc main_arg16)
/-- Argument 17 of the kernel program, as launched on core `c`. -/
def a17 : (⟨S32, .f32⟩ : BufTy).Contents (Elt Ideal) := m ((c : Thread nD τ).loc main_arg17)
/-- Argument 18 of the kernel program, as launched on core `c`. -/
def a18 : (⟨S32x64, .f32⟩ : BufTy).Contents (Elt Ideal) := m ((c : Thread nD τ).loc main_arg18)
/-- Argument 19 of the kernel program, as launched on core `c`. -/
def a19 : (⟨S64, .f32⟩ : BufTy).Contents (Elt Ideal) := m ((c : Thread nD τ).loc main_arg19)
/-- Argument 20 of the kernel program, as launched on core `c`. -/
def a20 : (⟨S32x64, .f32⟩ : BufTy).Contents (Elt Ideal) := m ((c : Thread nD τ).loc main_arg20)
/-- Argument 21 of the kernel program, as launched on core `c`. -/
def a21 : (⟨S64, .f32⟩ : BufTy).Contents (Elt Ideal) := m ((c : Thread nD τ).loc main_arg21)
/-- Argument 22 of the kernel program, as launched on core `c`. -/
def a22 : (⟨S64, .f32⟩ : BufTy).Contents (Elt Ideal) := m ((c : Thread nD τ).loc main_arg22)
/-- Argument 23 of the kernel program, as launched on core `c`. -/
def a23 : (⟨S64, .f32⟩ : BufTy).Contents (Elt Ideal) := m ((c : Thread nD τ).loc main_arg23)
/-- Argument 24 of the kernel program, as launched on core `c`. -/
def a24 : (⟨S64, .f32⟩ : BufTy).Contents (Elt Ideal) := m ((c : Thread nD τ).loc main_arg24)
/-- Argument 25 of the kernel program, as launched on core `c`. -/
def a25 : (⟨S64, .f32⟩ : BufTy).Contents (Elt Ideal) := m ((c : Thread nD τ).loc main_arg25)

/-- A_h = h·W_A + b_A: the reference's stage, at the kernel's arguments. -/
def rAh := Cert.ReferenceIdeal.Read.val_main_v3 (F := Ideal) (a0 m c) (a4 m c) (a5 m c)
/-- B_h = h·W_B + b_B: the reference's stage, at the kernel's arguments. -/
def rBh := Cert.ReferenceIdeal.Read.val_main_v7 (F := Ideal) (a0 m c) (a6 m c) (a7 m c)
/-- D_h = h·W_D + b_D: the reference's stage, at the kernel's arguments. -/
def rDh := Cert.ReferenceIdeal.Read.val_main_v11 (F := Ideal) (a0 m c) (a10 m c) (a11 m c)
/-- E_h = h·W_E + b_E: the reference's stage, at the kernel's arguments. -/
def rEh := Cert.ReferenceIdeal.Read.val_main_v15 (F := Ideal) (a0 m c) (a12 m c) (a13 m c)
/-- S_h = softmax(relu(h·W_s1 + b_s1)·W_s2 + b_s2), row by row: the reference's stage, at the kernel's arguments. -/
def rSh := Cert.ReferenceIdeal.Read.val_main_v39 (F := Ideal) (a0 m c) (a14 m c) (a15 m c) (a16 m c) (a17 m c)
/-- the rows D_h[src]: the reference's stage, at the kernel's arguments. -/
def rDhSrc := Cert.ReferenceIdeal.Read.val_main_v46 (F := Ideal) (a0 m c) (a2 m c) (a10 m c) (a11 m c)
/-- the rows E_h[dst]: the reference's stage, at the kernel's arguments. -/
def rEhDst := Cert.ReferenceIdeal.Read.val_main_v53 (F := Ideal) (a0 m c) (a3 m c) (a12 m c) (a13 m c)
/-- e' = D_h[src] + E_h[dst] + (e·W_C + b_C): the reference's stage, at the kernel's arguments. -/
def rEnew := Cert.ReferenceIdeal.Read.val_main_v55 (F := Ideal) (a0 m c) (a1 m c) (a2 m c) (a3 m c) (a8 m c) (a9 m c) (a10 m c) (a11 m c) (a12 m c) (a13 m c)
/-- S_q = S_h·W_Q + b_Q: the reference's stage, at the kernel's arguments. -/
def rSq := Cert.ReferenceIdeal.Read.val_main_v65 (F := Ideal) (a0 m c) (a14 m c) (a15 m c) (a16 m c) (a17 m c) (a18 m c) (a19 m c)
/-- S_k = S_h·W_K + b_K: the reference's stage, at the kernel's arguments. -/
def rSk := Cert.ReferenceIdeal.Read.val_main_v69 (F := Ideal) (a0 m c) (a14 m c) (a15 m c) (a16 m c) (a17 m c) (a20 m c) (a21 m c)
/-- the rows S_k[src]: the reference's stage, at the kernel's arguments. -/
def rSkSrc := Cert.ReferenceIdeal.Read.val_main_v76 (F := Ideal) (a0 m c) (a2 m c) (a14 m c) (a15 m c) (a16 m c) (a17 m c) (a20 m c) (a21 m c)
/-- the rows S_q[dst]: the reference's stage, at the kernel's arguments. -/
def rSqDst := Cert.ReferenceIdeal.Read.val_main_v83 (F := Ideal) (a0 m c) (a3 m c) (a14 m c) (a15 m c) (a16 m c) (a17 m c) (a18 m c) (a19 m c)
/-- sigma = sigmoid(e') · (the row mean of S_k[src]·S_q[dst]): the reference's stage, at the kernel's arguments. -/
def rSigma := Cert.ReferenceIdeal.Read.val_main_v90 (F := Ideal) (a0 m c) (a1 m c) (a2 m c) (a3 m c) (a8 m c) (a9 m c) (a10 m c) (a11 m c) (a12 m c) (a13 m c) (a14 m c) (a15 m c) (a16 m c) (a17 m c) (a18 m c) (a19 m c) (a20 m c) (a21 m c)
/-- the rows B_h[src]: the reference's stage, at the kernel's arguments. -/
def rBhSrc := Cert.ReferenceIdeal.Read.val_main_v97 (F := Ideal) (a0 m c) (a2 m c) (a6 m c) (a7 m c)
/-- B_h[src] · sigma: the reference's stage, at the kernel's arguments. -/
def rOut1 := Cert.ReferenceIdeal.Read.val_main_v98 (F := Ideal) (a0 m c) (a1 m c) (a2 m c) (a3 m c) (a6 m c) (a7 m c) (a8 m c) (a9 m c) (a10 m c) (a11 m c) (a12 m c) (a13 m c) (a14 m c) (a15 m c) (a16 m c) (a17 m c) (a18 m c) (a19 m c) (a20 m c) (a21 m c)
/-- the sum of sigma's rows into their destination nodes: the reference's stage, at the kernel's arguments. -/
def rSumSigma := Cert.ReferenceIdeal.Read.val_main_v104 (F := Ideal) (a0 m c) (a1 m c) (a2 m c) (a3 m c) (a8 m c) (a9 m c) (a10 m c) (a11 m c) (a12 m c) (a13 m c) (a14 m c) (a15 m c) (a16 m c) (a17 m c) (a18 m c) (a19 m c) (a20 m c) (a21 m c)
/-- that sum plus the guard constant: the divisor of h': the reference's stage, at the kernel's arguments. -/
def rDen := Cert.ReferenceIdeal.Read.val_main_v106 (F := Ideal) (a0 m c) (a1 m c) (a2 m c) (a3 m c) (a8 m c) (a9 m c) (a10 m c) (a11 m c) (a12 m c) (a13 m c) (a14 m c) (a15 m c) (a16 m c) (a17 m c) (a18 m c) (a19 m c) (a20 m c) (a21 m c)
/-- h' = A_h + (sum of B_h[src]·sigma into destinations) / (sum of sigma into destinations + guard): the reference's stage, at the kernel's arguments. -/
def rHnew := Cert.ReferenceIdeal.Read.val_main_v108 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) (a19 m c) (a20 m c) (a21 m c)
/-- the column means of h': the reference's stage, at the kernel's arguments. -/
def rMeanH := Cert.ReferenceIdeal.Read.val_main_v111 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) (a19 m c) (a20 m c) (a21 m c)
/-- the column variances of h' (mean of squared deviations): the reference's stage, at the kernel's arguments. -/
def rVarH := Cert.ReferenceIdeal.Read.val_main_v118 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) (a19 m c) (a20 m c) (a21 m c)
/-- the column means of e': the reference's stage, at the kernel's arguments. -/
def rMeanE := Cert.ReferenceIdeal.Read.val_main_v137 (F := Ideal) (a0 m c) (a1 m c) (a2 m c) (a3 m c) (a8 m c) (a9 m c) (a10 m c) (a11 m c) (a12 m c) (a13 m c)
/-- the column variances of e': the reference's stage, at the kernel's arguments. -/
def rVarE := Cert.ReferenceIdeal.Read.val_main_v144 (F := Ideal) (a0 m c) (a1 m c) (a2 m c) (a3 m c) (a8 m c) (a9 m c) (a10 m c) (a11 m c) (a12 m c) (a13 m c)
/-- h + relu(batch-normalised h'): the reference's stage, at the kernel's arguments. -/
def rHout := Cert.ReferenceIdeal.Read.val_main_v161 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) (a19 m c) (a20 m c) (a21 m c) (a22 m c) (a23 m c)
/-- e + relu(batch-normalised e'): the reference's stage, at the kernel's arguments. -/
def rEout := Cert.ReferenceIdeal.Read.val_main_v162 (F := Ideal) (a0 m c) (a1 m c) (a2 m c) (a3 m c) (a8 m c) (a9 m c) (a10 m c) (a11 m c) (a12 m c) (a13 m c) (a24 m c) (a25 m c)

/-- An array of extended reals all of whose entries are real numbers. -/
def AllReal {ι : Type} (f : ι → EReal) : Prop := ∀ i, ∃ r : ℝ, f i = (r : EReal)

/-- The domain the certificate is stated on, read off the precondition: every float argument holds real numbers, every
    source and destination index word lies in [-50000, 50000) (the range in which numpy-style indexing of a
    50000-row table is defined), and no entry of the guarded divisor of h' is zero. -/
structure Dom : Prop where
  real0 : AllReal (a0 m c)
  real1 : AllReal (a1 m c)
  real4 : AllReal (a4 m c)
  real5 : AllReal (a5 m c)
  real6 : AllReal (a6 m c)
  real7 : AllReal (a7 m c)
  real8 : AllReal (a8 m c)
  real9 : AllReal (a9 m c)
  real10 : AllReal (a10 m c)
  real11 : AllReal (a11 m c)
  real12 : AllReal (a12 m c)
  real13 : AllReal (a13 m c)
  real14 : AllReal (a14 m c)
  real15 : AllReal (a15 m c)
  real16 : AllReal (a16 m c)
  real17 : AllReal (a17 m c)
  real18 : AllReal (a18 m c)
  real19 : AllReal (a19 m c)
  real20 : AllReal (a20 m c)
  real21 : AllReal (a21 m c)
  real22 : AllReal (a22 m c)
  real23 : AllReal (a23 m c)
  real24 : AllReal (a24 m c)
  real25 : AllReal (a25 m c)
  src : ∀ i, -50000 ≤ (a2 m c i).toInt ∧ (a2 m c i).toInt < 50000
  dst : ∀ i, -50000 ≤ (a3 m c i).toInt ∧ (a3 m c i).toInt < 50000
  den : ∀ i, rDen m c i ≠ 0

end Cert.Bridge

end
-- ==== Proof.Stage0a.lean ====
/-
  The four linear outputs of the node-transform region.

  The region runs over 10 grid points; point `t` reads rows `5000 t … 5000 t + 4999` of the node table `h` (50000 × 64)
  and, for each of the four outputs, writes the same rows of `h · W + b` for that output's 64 × 64 matrix `W` and vector `b`
  (A, B, D, E). Entry (r, c) of `h · W + b` depends on row `r` of `h` only, so a block of rows of the result is the same map of
  the block of rows of `h`; the ten blocks fill the array; hence after the region each output array is `h · W + b`. The
  reference computes the product and the broadcast bias as two stages and adds them, which read at an index is the same
  sum. Over the extended reals the narrowing of the operands is the identity and the product into a zero accumulator is
  the plain sum over the contraction coordinate, so the two sides are equal entry by entry.
-/
import proofs.«412482_j67259187855861_1_alg».proof.Proof.Gen.KernelIdeal.Frame
import proofs.«412482_j67259187855861_1_alg».proof.Proof.Args
import Idealize.ShloMosaic.Lib.Pipeline.Value
import Idealize.ShloMosaic.Lib.ValueIdx
import Idealize.ShloMosaic.PureOps.Ideal.Laws

noncomputable section

namespace Cert.Bridge

open Idealize.ShloMosaic Idealize.ShloMosaic.TcCoe Idealize.SL.Sem Cert.KernelIdeal Cert.KernelIdeal.Gen

namespace Stage0a

open Idealize.ShloMosaic.ValueIdx

/-! ## The affine map of a table's rows

For a table `x` of `n` rows and 64 columns, a 64 × 64 matrix `W` and a vector `b` of 64 entries, `lin x W b` is the
table whose entry (r, c) is `∑ k, x (r, k) * W (k, c) + b c`: row `r` of `x` times `W`, plus `b`. Entry (r, c) depends on
row `r` of `x` only, which is why a block of rows of the result is the same map of the block of rows of `x`. -/

/-- Entry (r, c) of `x · W + b`. -/
def lin {n : Nat} (x : (⟨2, ![n, 64]⟩ : Shape).Idx → EReal) (W : S64x64.Idx → EReal) (b : S64.Idx → EReal) :
    (⟨2, ![n, 64]⟩ : Shape).Idx → EReal :=
  fun i => (∑ k : Fin 64, x (ix2 (n0 := n) (n1 := 64) (i 0) k) * W (ix2 (n0 := 64) (n1 := 64) k (i 1)))
    + b (ix1 (n := 64) (i 1))

/-! ## The block product's operand indices

The 5000 × 64 by 64 × 64 product contracts the left operand's axis 1 with the right operand's axis 0: at output index
(r, c) and contraction coordinate k the operands are read at (r, k) and (k, c). One lemma per operand axis. -/

theorem dotL0 (j : S5000x64.Idx) (q : dot_S5000x64_S64x64_S5000x64_1_0_0_1_n_n.contr.Idx) :
    (dot_S5000x64_S64x64_S5000x64_1_0_0_1_n_n.lhsIdx j q 0).val = (j 0).val := by
  unfold DotDims.lhsIdx
  rw [dif_neg (show ¬(0 : Fin S5000x64.rank) ∈ dot_S5000x64_S64x64_S5000x64_1_0_0_1_n_n.lhsBatch by decide),
    dif_pos (show (0 : Fin S5000x64.rank) ∈ dot_S5000x64_S64x64_S5000x64_1_0_0_1_n_n.lhsNonContracting by decide)]
  rfl
theorem dotL1 (j : S5000x64.Idx) (q : dot_S5000x64_S64x64_S5000x64_1_0_0_1_n_n.contr.Idx) :
    (dot_S5000x64_S64x64_S5000x64_1_0_0_1_n_n.lhsIdx j q 1).val = (q ⟨0, by decide⟩).val :=
  dot_S5000x64_S64x64_S5000x64_1_0_0_1_n_n.lhsIdx_val_of_single rfl j q
theorem dotR0 (j : S5000x64.Idx) (q : dot_S5000x64_S64x64_S5000x64_1_0_0_1_n_n.contr.Idx) :
    (dot_S5000x64_S64x64_S5000x64_1_0_0_1_n_n.rhsIdx j q 0).val = (q ⟨0, by decide⟩).val :=
  dot_S5000x64_S64x64_S5000x64_1_0_0_1_n_n.rhsIdx_val_of_single rfl j q
theorem dotR1 (j : S5000x64.Idx) (q : dot_S5000x64_S64x64_S5000x64_1_0_0_1_n_n.contr.Idx) :
    (dot_S5000x64_S64x64_S5000x64_1_0_0_1_n_n.rhsIdx j q 1).val = (j 1).val := by
  unfold DotDims.rhsIdx
  rw [dif_neg (show ¬(1 : Fin S64x64.rank) ∈ dot_S5000x64_S64x64_S5000x64_1_0_0_1_n_n.rhsBatch by decide),
    dif_pos (show (1 : Fin S64x64.rank) ∈ dot_S5000x64_S64x64_S5000x64_1_0_0_1_n_n.rhsNonContracting by decide)]
  rfl

/-! ## The body's payload is the affine map of its block

The body narrows the block of `x` and the matrix (the identity on extended reals), multiplies them into a zero
accumulator, and adds the vector broadcast down the rows. -/

/-- The product into the zero accumulator, at (r, c): the sum over the contraction coordinate. -/
theorem blockProduct_apply (x : Vec Ideal S5000x64 .f32) (W : Vec Ideal S64x64 .f32) (j : S5000x64.Idx) :
    (matmul dot_S5000x64_S64x64_S5000x64_1_0_0_1_n_n none (k0_pay3 x) (truncf .bf16 W Facts₀.bitsLt_bf16_f32)
        (constant S5000x64 .f32 0x00000000#32) : FVec Ideal S5000x64 .f32) j
      = ∑ k : Fin 64, x (ix2 (n0 := 5000) (n1 := 64) (j 0) k) * W (ix2 (n0 := 64) (n1 := 64) k (j 1)) := by
  simp only [matmul]
  rw [Ideal.matmul_constant_zero_apply,
    ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx j
      ((contrEquiv1 dot_S5000x64_S64x64_S5000x64_1_0_0_1_n_n 64 rfl rfl).symm k)
        = ix2 (n0 := 5000) (n1 := 64) (j 0) k := funext fun a => Fin.ext (by
    match a with
    | ⟨0, _⟩ => exact dotL0 _ _
    | ⟨1, _⟩ => exact (dotL1 _ _).trans hk)
  have er : dot_S5000x64_S64x64_S5000x64_1_0_0_1_n_n.rhsIdx j
      ((contrEquiv1 dot_S5000x64_S64x64_S5000x64_1_0_0_1_n_n 64 rfl rfl).symm k)
        = ix2 (n0 := 64) (n1 := 64) k (j 1) := funext fun a => Fin.ext (by
    match a with
    | ⟨0, _⟩ => exact (dotR0 _ _).trans hk
    | ⟨1, _⟩ => exact dotR1 _ _)
  show x (dot_S5000x64_S64x64_S5000x64_1_0_0_1_n_n.lhsIdx j _) * W (dot_S5000x64_S64x64_S5000x64_1_0_0_1_n_n.rhsIdx j _) = _
  rw [el, er]

/-- The vector, given a leading unit axis and broadcast down the 5000 rows, at (r, c): its entry c. -/
theorem rowBroadcast_apply (b : Vec Ideal S64 .f32) (j : S5000x64.Idx) :
    (broadcastTo S5000x64 (shapeCast S1x64 b Facts₀.shapeCasts_S64_S1x64) Facts₀.broadcasts_S1x64_S5000x64
        : FVec Ideal S5000x64 .f32) j = b (ix1 (n := 64) (j 1)) := by
  refine (broadcastTo_apply _ Facts₀.broadcasts_S1x64_S5000x64 j (ix2 (n0 := 1) (n1 := 64) ⟨0, Nat.one_pos⟩ (j 1))
    (fun a => match a with
      | ⟨0, _⟩ => by show 0 = if (1 : Nat) = 1 then 0 else _; rw [if_pos rfl]
      | ⟨1, _⟩ => by show (j 1).val = if (64 : Nat) = 1 then 0 else (j 1).val; rw [if_neg (by decide)])).trans ?_
  refine (shapeCast_addUnit_apply ![64] b Facts₀.shapeCasts_S64_S1x64 _).trans ?_
  exact congrArg b (funext fun a => match a with | ⟨0, _⟩ => rfl)

/-- The payload of the first linear output, at (r, c). -/
theorem pay_apply (x : Vec Ideal S5000x64 .f32) (W : Vec Ideal S64x64 .f32) (b : Vec Ideal S64 .f32) (j : S5000x64.Idx) :
    k0_pay4 x W b j = lin (n := 5000) x W b j := by
  show (matmul dot_S5000x64_S64x64_S5000x64_1_0_0_1_n_n none (k0_pay3 x) (truncf .bf16 W Facts₀.bitsLt_bf16_f32)
        (constant S5000x64 .f32 0x00000000#32) : FVec Ideal S5000x64 .f32) j
      + (broadcastTo S5000x64 (shapeCast S1x64 b Facts₀.shapeCasts_S64_S1x64) Facts₀.broadcasts_S1x64_S5000x64
        : FVec Ideal S5000x64 .f32) j = _
  rw [blockProduct_apply, rowBroadcast_apply]
  rfl

/-! ## Where a block's entries sit in its table

The grid has 10 points; point `t` stages rows `5000 t … 5000 t + 4999` of the 50000-row table and all 64 columns, for the
input table and for each of the four outputs alike; the matrices and vectors are staged whole at every point. -/

theorem hz2 : (![0, 0] : Fin 2 → Nat) = fun _ => 0 := funext fun a => by fin_cases a <;> rfl
theorem hz1 : (![0] : Fin 1 → Nat) = fun _ => 0 := funext fun a => by fin_cases a <;> rfl

/-- A point of the grid is below 10. -/
theorem point_lt (t : Fin cfg0.N) : t.val < 10 := t.isLt.trans_eq N_0

/-- Entry (r, c) of block `t` is entry (5000 t + r, c) of the table. -/
def rowsAt (t : Fin cfg0.N) (y : S5000x64.Idx) : S50000x64.Idx :=
  ix2 (n0 := 50000) (n1 := 64) ⟨t.val * 5000 + (y 0).val, by have := point_lt t; have := idx2_lt0 y; omega⟩ (y 1)

/-- The printed index maps, decided over the grid's 10 points: the row-blocked windows are at block (t, 0), the
    whole-array windows at block 0. -/
theorem idx_rows : ∀ t : Fin cfg0.N,
    (win0_0.index t (0 : Fin 2) = t.val ∧ win0_0.index t (1 : Fin 2) = 0)
    ∧ (win0_17.index t (0 : Fin 2) = t.val ∧ win0_17.index t (1 : Fin 2) = 0)
    ∧ (win0_18.index t (0 : Fin 2) = t.val ∧ win0_18.index t (1 : Fin 2) = 0)
    ∧ (win0_19.index t (0 : Fin 2) = t.val ∧ win0_19.index t (1 : Fin 2) = 0)
    ∧ (win0_20.index t (0 : Fin 2) = t.val ∧ win0_20.index t (1 : Fin 2) = 0) :=
  (by decide +kernel : ∀ t : Fin grid0.N, _)

theorem idx_whole : ∀ t : Fin cfg0.N,
    (win0_1.index t (0 : Fin 2) = 0 ∧ win0_1.index t (1 : Fin 2) = 0 ∧ win0_2.index t (0 : Fin 1) = 0)
    ∧ (win0_3.index t (0 : Fin 2) = 0 ∧ win0_3.index t (1 : Fin 2) = 0 ∧ win0_4.index t (0 : Fin 1) = 0)
    ∧ (win0_5.index t (0 : Fin 2) = 0 ∧ win0_5.index t (1 : Fin 2) = 0 ∧ win0_6.index t (0 : Fin 1) = 0)
    ∧ (win0_7.index t (0 : Fin 2) = 0 ∧ win0_7.index t (1 : Fin 2) = 0 ∧ win0_8.index t (0 : Fin 1) = 0) :=
  (by decide +kernel : ∀ t : Fin grid0.N, _)

/-! ## A block of rows of the affine map -/

/-- If a block holds rows `5000 t …` of `X` (`hx`) and the staged matrix and vector are `Wt` and `bs`, the body's payload at
    (r, c) is entry (5000 t + r, c) of `X · Wt + bs`: both are the sum over k of `X (5000 t + r, k) * Wt (k, c)`, plus `bs c`. -/
theorem lin_rows (X : S50000x64.Idx → EReal) (Wt : S64x64.Idx → EReal) (bs : S64.Idx → EReal)
    (xb : S5000x64.Idx → EReal) (wb : S64x64.Idx → EReal) (bb : S64.Idx → EReal) (t : Fin cfg0.N)
    (hx : ∀ y, xb y = X (rowsAt t y)) (hw : ∀ z, wb z = Wt z) (hb : ∀ z, bb z = bs z) (j : S5000x64.Idx) :
    k0_pay4 (F := Ideal) xb wb bb j = lin (n := 50000) X Wt bs (rowsAt t j) := by
  rw [pay_apply]
  unfold lin
  congr 1
  · refine Finset.sum_congr rfl fun k _ => ?_
    rw [hx, hw]
    rfl
  · rw [hb]
    rfl

section Region0
variable (V : (c : Dev nD) → (b : Ref sig .tc) → Buf (Elt Ideal) ((c : Thread nD τ).loc b))

/-- Every entry of the 50000-row table is in some point's block of rows: row `i` is row `i % 5000` of block `i / 5000`. -/
theorem rowsAt_onto (i : S50000x64.Idx) : ∃ (t : Fin cfg0.N) (y : S5000x64.Idx), rowsAt t y = i := by
  have h0 := idx2_lt0 i
  refine ⟨⟨(i 0).val / 5000, by show _ < grid0.N; rw [N_0]; omega⟩,
    ix2 (n0 := 5000) (n1 := 64) ⟨(i 0).val % 5000, Nat.mod_lt _ (by decide)⟩ (i 1), ?_⟩
  funext a
  apply Fin.ext
  match a with
  | ⟨0, _⟩ => show (i 0).val / 5000 * 5000 + (i 0).val % 5000 = (i 0).val; omega
  | ⟨1, _⟩ => rfl

/-- The input table's block at point `t`. -/
theorem emb0 (t : Fin cfg0.N) (y : S5000x64.Idx) : ((cfg0.win 0).blk t).view.emb y = rowsAt t y := by
  obtain ⟨⟨e0, e1⟩, -⟩ := idx_rows t
  funext a
  apply Fin.ext
  match a with
  | ⟨0, _⟩ => show win0_0.index t (0 : Fin 2) * 5000 + 1 * (y 0).val = t.val * 5000 + (y 0).val; rw [e0]; omega
  | ⟨1, _⟩ => show win0_0.index t (1 : Fin 2) * 64 + 1 * (y 1).val = (y 1).val; rw [e1]; omega

/-- The first output's block at point `t`. -/
theorem emb17 (t : Fin cfg0.N) (y : S5000x64.Idx) : ((cfg0.win 17).blk t).view.emb y = rowsAt t y := by
  obtain ⟨-, ⟨e0, e1⟩, -⟩ := idx_rows t
  funext a
  apply Fin.ext
  match a with
  | ⟨0, _⟩ => show win0_17.index t (0 : Fin 2) * 5000 + 1 * (y 0).val = t.val * 5000 + (y 0).val; rw [e0]; omega
  | ⟨1, _⟩ => show win0_17.index t (1 : Fin 2) * 64 + 1 * (y 1).val = (y 1).val; rw [e1]; omega

/-- The first matrix is staged whole. -/
theorem emb1 (t : Fin cfg0.N) (z : S64x64.Idx) : ((cfg0.win 1).blk t).view.emb z = z := by
  obtain ⟨⟨e0, e1, -⟩, -⟩ := idx_whole t
  funext a
  apply Fin.ext
  match a with
  | ⟨0, _⟩ => show win0_1.index t (0 : Fin 2) * 64 + 1 * (z 0).val = (z 0).val; rw [e0]; omega
  | ⟨1, _⟩ => show win0_1.index t (1 : Fin 2) * 64 + 1 * (z 1).val = (z 1).val; rw [e1]; omega

/-- The first vector is staged whole. -/
theorem emb2 (t : Fin cfg0.N) (z : S64.Idx) : ((cfg0.win 2).blk t).view.emb z = z := by
  obtain ⟨⟨-, -, e0⟩, -⟩ := idx_whole t
  funext a
  apply Fin.ext
  match a with
  | ⟨0, _⟩ => show win0_2.index t (0 : Fin 1) * 64 + 1 * (z 0).val = (z 0).val; rw [e0]; omega

/-- The staged block of the input table holds rows `5000 t …` of it. -/
theorem iblk0_0_apply (c : Dev nD) (t : Fin cfg0.N) (y : S5000x64.Idx) :
    iblk0 V c 0 t y = V c main_arg0 (rowsAt t y) := by
  show V c main_arg0 (((cfg0.win 0).blk t).view.emb y) = _
  rw [emb0]

theorem iblk0_1_apply (c : Dev nD) (t : Fin cfg0.N) (z : S64x64.Idx) : iblk0 V c 1 t z = V c main_arg4 z := by
  show V c main_arg4 (((cfg0.win 1).blk t).view.emb z) = _
  rw [emb1]

theorem iblk0_2_apply (c : Dev nD) (t : Fin cfg0.N) (z : S64.Idx) : iblk0 V c 2 t z = V c main_arg5 z := by
  show V c main_arg5 (((cfg0.win 2).blk t).view.emb z) = _
  rw [emb2]

/-- What point `t` writes back to the first output is block `t` of `h · W_A + b_A`. -/
theorem flushed17_eq (c : Dev nD) (t : Fin cfg0.N) :
    (dat0 V c).flushed 17 t = ((cfg0.win 17).blk t).view.read (Elt Ideal)
      (lin (n := 50000) (V c main_arg0) (V c main_arg4) (V c main_arg5)) := by
  show (cfg0.win 17).cut (grid0.coords t) ((dat0 V c).after 17 t) = _
  rw [after0_17]
  unfold out0_17
  rw [View.canon_unit_zero hz2]
  simp only [View.ld_unit_zero (S := S5000x64) hz2, View.ld_unit_zero (S := S64x64) hz2, View.ld_unit_zero (S := S64) hz1]
  funext j
  show k0_pay4 (F := Ideal) (iblk0 V c 0 t) (iblk0 V c 1 t) (iblk0 V c 2 t) j
    = lin (n := 50000) (V c main_arg0) (V c main_arg4) (V c main_arg5) (((cfg0.win 17).blk t).view.emb j)
  rw [emb17]
  exact lin_rows _ _ _ _ _ _ t (iblk0_0_apply V c t) (iblk0_1_apply V c t) (iblk0_2_apply V c t) j

/-- The first output's blocks of rows fill its array. -/
theorem cover17 (i : S50000x64.Idx) :
    ∃ t : Fin cfg0.N, (cfg0.win 17).flush t = true ∧ i ∈ ((cfg0.win 17).blk t).view.set := by
  obtain ⟨t, y, rfl⟩ := rowsAt_onto i
  exact ⟨t, flush0_17 t, by rw [← emb17]; exact ((cfg0.win 17).blk t).view.emb_mem_set y⟩

/-- So after the region the first output's array is `h · W_A + b_A` of the arrays the region found. -/
theorem arr17 (c : Dev nD) :
    (dat0 V c).arrAt 17 cfg0.N = lin (n := 50000) (V c main_arg0) (V c main_arg4) (V c main_arg5) :=
  (dat0 V c).arrAt_eq_of_cover 17 _ (fun t _ => flushed17_eq V c t) cover17

/-- The second output's block at point `t`. -/
theorem emb18 (t : Fin cfg0.N) (y : S5000x64.Idx) : ((cfg0.win 18).blk t).view.emb y = rowsAt t y := by
  obtain ⟨-, -, ⟨e0, e1⟩, -⟩ := idx_rows t
  funext a
  apply Fin.ext
  match a with
  | ⟨0, _⟩ => show win0_18.index t (0 : Fin 2) * 5000 + 1 * (y 0).val = t.val * 5000 + (y 0).val; rw [e0]; omega
  | ⟨1, _⟩ => show win0_18.index t (1 : Fin 2) * 64 + 1 * (y 1).val = (y 1).val; rw [e1]; omega

/-- The third output's block at point `t`. -/
theorem emb19 (t : Fin cfg0.N) (y : S5000x64.Idx) : ((cfg0.win 19).blk t).view.emb y = rowsAt t y := by
  obtain ⟨-, -, -, ⟨e0, e1⟩, -⟩ := idx_rows t
  funext a
  apply Fin.ext
  match a with
  | ⟨0, _⟩ => show win0_19.index t (0 : Fin 2) * 5000 + 1 * (y 0).val = t.val * 5000 + (y 0).val; rw [e0]; omega
  | ⟨1, _⟩ => show win0_19.index t (1 : Fin 2) * 64 + 1 * (y 1).val = (y 1).val; rw [e1]; omega

/-- The fourth output's block at point `t`. -/
theorem emb20 (t : Fin cfg0.N) (y : S5000x64.Idx) : ((cfg0.win 20).blk t).view.emb y = rowsAt t y := by
  obtain ⟨-, -, -, -, ⟨e0, e1⟩⟩ := idx_rows t
  funext a
  apply Fin.ext
  match a with
  | ⟨0, _⟩ => show win0_20.index t (0 : Fin 2) * 5000 + 1 * (y 0).val = t.val * 5000 + (y 0).val; rw [e0]; omega
  | ⟨1, _⟩ => show win0_20.index t (1 : Fin 2) * 64 + 1 * (y 1).val = (y 1).val; rw [e1]; omega

/-- The second matrix is staged whole. -/
theorem emb3 (t : Fin cfg0.N) (z : S64x64.Idx) : ((cfg0.win 3).blk t).view.emb z = z := by
  obtain ⟨-, ⟨e0, e1, -⟩, -⟩ := idx_whole t
  funext a
  apply Fin.ext
  match a with
  | ⟨0, _⟩ => show win0_3.index t (0 : Fin 2) * 64 + 1 * (z 0).val = (z 0).val; rw [e0]; omega
  | ⟨1, _⟩ => show win0_3.index t (1 : Fin 2) * 64 + 1 * (z 1).val = (z 1).val; rw [e1]; omega

theorem iblk0_3_apply (c : Dev nD) (t : Fin cfg0.N) (z : S64x64.Idx) : iblk0 V c 3 t z = V c main_arg6 z := by
  show V c main_arg6 (((cfg0.win 3).blk t).view.emb z) = _
  rw [emb3]

/-- The second vector is staged whole. -/
theorem emb4 (t : Fin cfg0.N) (z : S64.Idx) : ((cfg0.win 4).blk t).view.emb z = z := by
  obtain ⟨-, ⟨-, -, e0⟩, -⟩ := idx_whole t
  funext a
  apply Fin.ext
  match a with
  | ⟨0, _⟩ => show win0_4.index t (0 : Fin 1) * 64 + 1 * (z 0).val = (z 0).val; rw [e0]; omega

theorem iblk0_4_apply (c : Dev nD) (t : Fin cfg0.N) (z : S64.Idx) : iblk0 V c 4 t z = V c main_arg7 z := by
  show V c main_arg7 (((cfg0.win 4).blk t).view.emb z) = _
  rw [emb4]

/-- The third matrix is staged whole. -/
theorem emb5 (t : Fin cfg0.N) (z : S64x64.Idx) : ((cfg0.win 5).blk t).view.emb z = z := by
  obtain ⟨-, -, ⟨e0, e1, -⟩, -⟩ := idx_whole t
  funext a
  apply Fin.ext
  match a with
  | ⟨0, _⟩ => show win0_5.index t (0 : Fin 2) * 64 + 1 * (z 0).val = (z 0).val; rw [e0]; omega
  | ⟨1, _⟩ => show win0_5.index t (1 : Fin 2) * 64 + 1 * (z 1).val = (z 1).val; rw [e1]; omega

theorem iblk0_5_apply (c : Dev nD) (t : Fin cfg0.N) (z : S64x64.Idx) : iblk0 V c 5 t z = V c main_arg10 z := by
  show V c main_arg10 (((cfg0.win 5).blk t).view.emb z) = _
  rw [emb5]

/-- The third vector is staged whole. -/
theorem emb6 (t : Fin cfg0.N) (z : S64.Idx) : ((cfg0.win 6).blk t).view.emb z = z := by
  obtain ⟨-, -, ⟨-, -, e0⟩, -⟩ := idx_whole t
  funext a
  apply Fin.ext
  match a with
  | ⟨0, _⟩ => show win0_6.index t (0 : Fin 1) * 64 + 1 * (z 0).val = (z 0).val; rw [e0]; omega

theorem iblk0_6_apply (c : Dev nD) (t : Fin cfg0.N) (z : S64.Idx) : iblk0 V c 6 t z = V c main_arg11 z := by
  show V c main_arg11 (((cfg0.win 6).blk t).view.emb z) = _
  rw [emb6]

/-- The fourth matrix is staged whole. -/
theorem emb7 (t : Fin cfg0.N) (z : S64x64.Idx) : ((cfg0.win 7).blk t).view.emb z = z := by
  obtain ⟨-, -, -, ⟨e0, e1, -⟩⟩ := idx_whole t
  funext a
  apply Fin.ext
  match a with
  | ⟨0, _⟩ => show win0_7.index t (0 : Fin 2) * 64 + 1 * (z 0).val = (z 0).val; rw [e0]; omega
  | ⟨1, _⟩ => show win0_7.index t (1 : Fin 2) * 64 + 1 * (z 1).val = (z 1).val; rw [e1]; omega

theorem iblk0_7_apply (c : Dev nD) (t : Fin cfg0.N) (z : S64x64.Idx) : iblk0 V c 7 t z = V c main_arg12 z := by
  show V c main_arg12 (((cfg0.win 7).blk t).view.emb z) = _
  rw [emb7]

/-- The fourth vector is staged whole. -/
theorem emb8 (t : Fin cfg0.N) (z : S64.Idx) : ((cfg0.win 8).blk t).view.emb z = z := by
  obtain ⟨-, -, -, ⟨-, -, e0⟩⟩ := idx_whole t
  funext a
  apply Fin.ext
  match a with
  | ⟨0, _⟩ => show win0_8.index t (0 : Fin 1) * 64 + 1 * (z 0).val = (z 0).val; rw [e0]; omega

theorem iblk0_8_apply (c : Dev nD) (t : Fin cfg0.N) (z : S64.Idx) : iblk0 V c 8 t z = V c main_arg13 z := by
  show V c main_arg13 (((cfg0.win 8).blk t).view.emb z) = _
  rw [emb8]

/-- What point `t` writes back to the second output is block `t` of `h · W_B + b_B`: its payload is the same term of its
    three blocks as the first output's. -/
theorem flushed18_eq (c : Dev nD) (t : Fin cfg0.N) :
    (dat0 V c).flushed 18 t = ((cfg0.win 18).blk t).view.read (Elt Ideal)
      (lin (n := 50000) (V c main_arg0) (V c main_arg6) (V c main_arg7)) := by
  show (cfg0.win 18).cut (grid0.coords t) ((dat0 V c).after 18 t) = _
  rw [after0_18]
  unfold out0_18
  rw [View.canon_unit_zero hz2]
  simp only [View.ld_unit_zero (S := S5000x64) hz2, View.ld_unit_zero (S := S64x64) hz2, View.ld_unit_zero (S := S64) hz1]
  funext j
  show k0_pay4 (F := Ideal) (iblk0 V c 0 t) (iblk0 V c 3 t) (iblk0 V c 4 t) j
    = lin (n := 50000) (V c main_arg0) (V c main_arg6) (V c main_arg7) (((cfg0.win 18).blk t).view.emb j)
  rw [emb18]
  exact lin_rows _ _ _ _ _ _ t (iblk0_0_apply V c t) (iblk0_3_apply V c t) (iblk0_4_apply V c t) j

/-- The second output's blocks of rows fill its array. -/
theorem cover18 (i : S50000x64.Idx) :
    ∃ t : Fin cfg0.N, (cfg0.win 18).flush t = true ∧ i ∈ ((cfg0.win 18).blk t).view.set := by
  obtain ⟨t, y, rfl⟩ := rowsAt_onto i
  exact ⟨t, flush0_18 t, by rw [← emb18]; exact ((cfg0.win 18).blk t).view.emb_mem_set y⟩

/-- So after the region the second output's array is `h · W_B + b_B` of the arrays the region found. -/
theorem arr18 (c : Dev nD) :
    (dat0 V c).arrAt 18 cfg0.N = lin (n := 50000) (V c main_arg0) (V c main_arg6) (V c main_arg7) :=
  (dat0 V c).arrAt_eq_of_cover 18 _ (fun t _ => flushed18_eq V c t) cover18

/-- What point `t` writes back to the third output is block `t` of `h · W_D + b_D`: its payload is the same term of its
    three blocks as the first output's. -/
theorem flushed19_eq (c : Dev nD) (t : Fin cfg0.N) :
    (dat0 V c).flushed 19 t = ((cfg0.win 19).blk t).view.read (Elt Ideal)
      (lin (n := 50000) (V c main_arg0) (V c main_arg10) (V c main_arg11)) := by
  show (cfg0.win 19).cut (grid0.coords t) ((dat0 V c).after 19 t) = _
  rw [after0_19]
  unfold out0_19
  rw [View.canon_unit_zero hz2]
  simp only [View.ld_unit_zero (S := S5000x64) hz2, View.ld_unit_zero (S := S64x64) hz2, View.ld_unit_zero (S := S64) hz1]
  funext j
  show k0_pay4 (F := Ideal) (iblk0 V c 0 t) (iblk0 V c 5 t) (iblk0 V c 6 t) j
    = lin (n := 50000) (V c main_arg0) (V c main_arg10) (V c main_arg11) (((cfg0.win 19).blk t).view.emb j)
  rw [emb19]
  exact lin_rows _ _ _ _ _ _ t (iblk0_0_apply V c t) (iblk0_5_apply V c t) (iblk0_6_apply V c t) j

/-- The third output's blocks of rows fill its array. -/
theorem cover19 (i : S50000x64.Idx) :
    ∃ t : Fin cfg0.N, (cfg0.win 19).flush t = true ∧ i ∈ ((cfg0.win 19).blk t).view.set := by
  obtain ⟨t, y, rfl⟩ := rowsAt_onto i
  exact ⟨t, flush0_19 t, by rw [← emb19]; exact ((cfg0.win 19).blk t).view.emb_mem_set y⟩

/-- So after the region the third output's array is `h · W_D + b_D` of the arrays the region found. -/
theorem arr19 (c : Dev nD) :
    (dat0 V c).arrAt 19 cfg0.N = lin (n := 50000) (V c main_arg0) (V c main_arg10) (V c main_arg11) :=
  (dat0 V c).arrAt_eq_of_cover 19 _ (fun t _ => flushed19_eq V c t) cover19

/-- What point `t` writes back to the fourth output is block `t` of `h · W_E + b_E`: its payload is the same term of its
    three blocks as the first output's. -/
theorem flushed20_eq (c : Dev nD) (t : Fin cfg0.N) :
    (dat0 V c).flushed 20 t = ((cfg0.win 20).blk t).view.read (Elt Ideal)
      (lin (n := 50000) (V c main_arg0) (V c main_arg12) (V c main_arg13)) := by
  show (cfg0.win 20).cut (grid0.coords t) ((dat0 V c).after 20 t) = _
  rw [after0_20]
  unfold out0_20
  rw [View.canon_unit_zero hz2]
  simp only [View.ld_unit_zero (S := S5000x64) hz2, View.ld_unit_zero (S := S64x64) hz2, View.ld_unit_zero (S := S64) hz1]
  funext j
  show k0_pay4 (F := Ideal) (iblk0 V c 0 t) (iblk0 V c 7 t) (iblk0 V c 8 t) j
    = lin (n := 50000) (V c main_arg0) (V c main_arg12) (V c main_arg13) (((cfg0.win 20).blk t).view.emb j)
  rw [emb20]
  exact lin_rows _ _ _ _ _ _ t (iblk0_0_apply V c t) (iblk0_7_apply V c t) (iblk0_8_apply V c t) j

/-- The fourth output's blocks of rows fill its array. -/
theorem cover20 (i : S50000x64.Idx) :
    ∃ t : Fin cfg0.N, (cfg0.win 20).flush t = true ∧ i ∈ ((cfg0.win 20).blk t).view.set := by
  obtain ⟨t, y, rfl⟩ := rowsAt_onto i
  exact ⟨t, flush0_20 t, by rw [← emb20]; exact ((cfg0.win 20).blk t).view.emb_mem_set y⟩

/-- So after the region the fourth output's array is `h · W_E + b_E` of the arrays the region found. -/
theorem arr20 (c : Dev nD) :
    (dat0 V c).arrAt 20 cfg0.N = lin (n := 50000) (V c main_arg0) (V c main_arg12) (V c main_arg13) :=
  (dat0 V c).arrAt_eq_of_cover 20 _ (fun t _ => flushed20_eq V c t) cover20

end Region0

/-! ## A product stage plus a bias stage is the affine map

The reference computes the product `x · W` as one stage and the vector broadcast down the rows as another, and adds them.
Read at (r, c), the product is the sum over k of `x (r, k) * W (k, c)` and the broadcast is `b c`. -/

/-- If `P` at `i` is the sum over k of `x (l i k) * W (r i k)` with `l i k` = (row of i, k) and `r i k` = (k, column of i), and `B` at `i`
    is `b` at the column of `i`, then `P + B` is `x · W + b`. -/
theorem lin_of_stages (x : S50000x64.Idx → EReal) (W : S64x64.Idx → EReal) (b : S64.Idx → EReal)
    (P B : S50000x64.Idx → EReal)
    (l : S50000x64.Idx → Fin 64 → S50000x64.Idx) (r : S50000x64.Idx → Fin 64 → S64x64.Idx) (bi : S50000x64.Idx → S64.Idx)
    (hP : ∀ i, P i = ∑ k : Fin 64, x (l i k) * W (r i k)) (hB : ∀ i, B i = b (bi i))
    (hl : ∀ i k, l i k = ix2 (n0 := 50000) (n1 := 64) (i 0) k) (hr : ∀ i k, r i k = ix2 (n0 := 64) (n1 := 64) k (i 1))
    (hb : ∀ i, bi i = ix1 (n := 64) (i 1)) :
    (fun i => P i + B i) = lin (n := 50000) x W b := by
  funext i
  show P i + B i = _
  rw [hP, hB, hb]
  unfold lin
  congr 1
  exact Finset.sum_congr rfl fun k _ => by rw [hl, hr]

/-! ## The reference's four stages are that map of the arguments -/

section Reference
variable (m : (ℓ : Loc nD τ sig) → Buf (Elt Ideal) ℓ) (c : Dev nD)

/-- `A_h` is `h · W_A + b_A`. -/
theorem rAh_eq : rAh m c = lin (n := 50000) (a0 m c) (a4 m c) (a5 m c) := by
  unfold rAh Cert.ReferenceIdeal.Read.val_main_v3
  exact lin_of_stages (a0 m c) (a4 m c) (a5 m c) _ _ Cert.ReferenceIdeal.Read.lidx_main_v0 Cert.ReferenceIdeal.Read.ridx_main_v0
    (fun i => Cert.ReferenceIdeal.Read.idx_main_v1 (Cert.ReferenceIdeal.Read.idx_main_v2 i))
    (Cert.ReferenceIdeal.Read.val_main_v0_apply (a0 m c) (a4 m c))
    (fun i => (Cert.ReferenceIdeal.Read.val_main_v2_apply (a5 m c) i).trans (Cert.ReferenceIdeal.Read.val_main_v1_apply (a5 m c) _))
    (fun i k => funext fun a => match a with | ⟨0, _⟩ => rfl | ⟨1, _⟩ => rfl)
    (fun i k => funext fun a => match a with | ⟨0, _⟩ => rfl | ⟨1, _⟩ => rfl)
    (fun i => funext fun a => match a with | ⟨0, _⟩ => rfl)

/-- `B_h` is `h · W_B + b_B`. -/
theorem rBh_eq : rBh m c = lin (n := 50000) (a0 m c) (a6 m c) (a7 m c) := by
  unfold rBh Cert.ReferenceIdeal.Read.val_main_v7
  exact lin_of_stages (a0 m c) (a6 m c) (a7 m c) _ _ Cert.ReferenceIdeal.Read.lidx_main_v4 Cert.ReferenceIdeal.Read.ridx_main_v4
    (fun i => Cert.ReferenceIdeal.Read.idx_main_v5 (Cert.ReferenceIdeal.Read.idx_main_v6 i))
    (Cert.ReferenceIdeal.Read.val_main_v4_apply (a0 m c) (a6 m c))
    (fun i => (Cert.ReferenceIdeal.Read.val_main_v6_apply (a7 m c) i).trans (Cert.ReferenceIdeal.Read.val_main_v5_apply (a7 m c) _))
    (fun i k => funext fun a => match a with | ⟨0, _⟩ => rfl | ⟨1, _⟩ => rfl)
    (fun i k => funext fun a => match a with | ⟨0, _⟩ => rfl | ⟨1, _⟩ => rfl)
    (fun i => funext fun a => match a with | ⟨0, _⟩ => rfl)

/-- `D_h` is `h · W_D + b_D`. -/
theorem rDh_eq : rDh m c = lin (n := 50000) (a0 m c) (a10 m c) (a11 m c) := by
  unfold rDh Cert.ReferenceIdeal.Read.val_main_v11
  exact lin_of_stages (a0 m c) (a10 m c) (a11 m c) _ _ Cert.ReferenceIdeal.Read.lidx_main_v8 Cert.ReferenceIdeal.Read.ridx_main_v8
    (fun i => Cert.ReferenceIdeal.Read.idx_main_v9 (Cert.ReferenceIdeal.Read.idx_main_v10 i))
    (Cert.ReferenceIdeal.Read.val_main_v8_apply (a0 m c) (a10 m c))
    (fun i => (Cert.ReferenceIdeal.Read.val_main_v10_apply (a11 m c) i).trans (Cert.ReferenceIdeal.Read.val_main_v9_apply (a11 m c) _))
    (fun i k => funext fun a => match a with | ⟨0, _⟩ => rfl | ⟨1, _⟩ => rfl)
    (fun i k => funext fun a => match a with | ⟨0, _⟩ => rfl | ⟨1, _⟩ => rfl)
    (fun i => funext fun a => match a with | ⟨0, _⟩ => rfl)

/-- `E_h` is `h · W_E + b_E`. -/
theorem rEh_eq : rEh m c = lin (n := 50000) (a0 m c) (a12 m c) (a13 m c) := by
  unfold rEh Cert.ReferenceIdeal.Read.val_main_v15
  exact lin_of_stages (a0 m c) (a12 m c) (a13 m c) _ _ Cert.ReferenceIdeal.Read.lidx_main_v12 Cert.ReferenceIdeal.Read.ridx_main_v12
    (fun i => Cert.ReferenceIdeal.Read.idx_main_v13 (Cert.ReferenceIdeal.Read.idx_main_v14 i))
    (Cert.ReferenceIdeal.Read.val_main_v12_apply (a0 m c) (a12 m c))
    (fun i => (Cert.ReferenceIdeal.Read.val_main_v14_apply (a13 m c) i).trans (Cert.ReferenceIdeal.Read.val_main_v13_apply (a13 m c) _))
    (fun i k => funext fun a => match a with | ⟨0, _⟩ => rfl | ⟨1, _⟩ => rfl)
    (fun i k => funext fun a => match a with | ⟨0, _⟩ => rfl | ⟨1, _⟩ => rfl)
    (fun i => funext fun a => match a with | ⟨0, _⟩ => rfl)

end Reference

end Stage0a

open Stage0a

variable (m : (ℓ : Loc nD τ sig) → Buf (Elt Ideal) ℓ) (ρ : Dev nD → PrngReg) (c : Dev nD)

/-! ## The four links: after the region each linear output holds the reference's stage

Each output array after the region is what the write-backs leave (the region's fold of buffer contents), which is
`h · W + b` of the launch arrays; the reference's stage at the same arrays is the same map. -/

/-- After the region the first output holds `A_h`. -/
theorem node_Ah : W1 (F := Ideal) m ρ c (Proc.devRef .tc main_v0_0) = rAh m c :=
  ((W1_arr m ρ c 17).trans (arr17 (V0 m ρ) c)).trans (rAh_eq m c).symm

/-- After the region the second output holds `B_h`. -/
theorem node_Bh : W1 (F := Ideal) m ρ c (Proc.devRef .tc main_v0_1) = rBh m c :=
  ((W1_arr m ρ c 18).trans (arr18 (V0 m ρ) c)).trans (rBh_eq m c).symm

/-- After the region the third output holds `D_h`. -/
theorem node_Dh : W1 (F := Ideal) m ρ c (Proc.devRef .tc main_v0_2) = rDh m c :=
  ((W1_arr m ρ c 19).trans (arr19 (V0 m ρ) c)).trans (rDh_eq m c).symm

/-- After the region the fourth output holds `E_h`. -/
theorem node_Eh : W1 (F := Ideal) m ρ c (Proc.devRef .tc main_v0_3) = rEh m c :=
  ((W1_arr m ρ c 20).trans (arr20 (V0 m ρ) c)).trans (rEh_eq m c).symm

end Cert.Bridge

end
-- ==== Proof.Stage0b.lean ====
/-
  Region 0 of the kernel program (the node kernel: ten points, one block of 5000 node rows each), the three outputs that pass
  through the row softmax.

  For a node row x (64 features) put  h = max(x·W_s1 + b_s1, 0),  z = h·W_s2 + b_s2  (32 logits),
  top = the largest logit (a fold of max from minus infinity),  S_h(x) = exp(z − top) / Σ exp(z − top).
  Every one of these depends on the row x alone. So the block of S_h that point t writes back — rows 5000 t … 5000 t + 4999
  of the table — is, row by row, S_h of the matching row of the node table, and the ten blocks tile the 50000 rows. The
  reference computes the same chain on the whole table at once; read at a row, each of its stages is the same function of
  that row. S_q = S_h·W_Q + b_Q and S_k = S_h·W_K + b_K add one dense layer, again row by row.

  At the extended reals narrowing to sixteen bits and widening back are the identity, and the kernel's exponential,
  quotient and maximum are the host's, so nothing but the arrangement into blocks separates the two sides. The row
  maximum is carried on both sides as the same fold over the row's 32 logits and is never opened.

  The last theorem carries S_h's buffer from the end of region 0 to the end of the run: no later region has it among its
  arrays and no host operation in between writes it.
-/
import proofs.«412482_j67259187855861_1_alg».proof.Proof.Gen.KernelIdeal.Frame
import proofs.«412482_j67259187855861_1_alg».proof.Proof.Args
import Idealize.ShloMosaic.Lib.ValueLayout
import Idealize.ShloMosaic.Lib.ValueIdx
import Idealize.ShloMosaic.PureOps.Ideal.Laws

noncomputable section

namespace Cert.Bridge

open Idealize.ShloMosaic Idealize.ShloMosaic.TcCoe Idealize.SL.Sem Cert.KernelIdeal Cert.KernelIdeal.Gen
open Idealize.ShloMosaic.ValueIdx

namespace Stage0b

/-! ## A block of rows times a matrix, into the zero accumulator, read at a row and a column

For each of the three products of the body: the four coordinate facts of its contraction (the left operand is read at (row,
contracted), the right at (contracted, column)), then the product at `(p, c)` as the sum over the contracted coordinate. -/

theorem mmH_lhs0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem mmH_lhs1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem mmH_rhs0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem mmH_rhs1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The product of a block of rows with a matrix, into the zero accumulator, read at row `p` and column `c`: the sum over the
    contracted coordinate of the row's entries times the column's. -/
theorem mmH_apply (A : FVec Ideal S5000x64 .bf16) (B : FVec Ideal S64x64 .bf16) (p : Fin 5000) (c : Fin 64) :
    matmul dot_S5000x64_S64x64_S5000x64_1_0_0_1_n_n none A B (constant (F := Ideal) S5000x64 .f32 0x00000000#32) (ix2 p c)
      = ∑ l : Fin 64, A (ix2 p l) * B (ix2 l c) := by
  simp only [matmul]
  rw [Ideal.matmul_constant_zero_apply, ← Equiv.sum_comp (ValueIdx.contrEquiv1 dot_S5000x64_S64x64_S5000x64_1_0_0_1_n_n 64 rfl rfl).symm]
  refine Finset.sum_congr rfl fun l _ => ?_
  have hk := ValueIdx.contrEquiv1_symm_val dot_S5000x64_S64x64_S5000x64_1_0_0_1_n_n 64 rfl rfl l
  have el : dot_S5000x64_S64x64_S5000x64_1_0_0_1_n_n.lhsIdx (ix2 p c) ((ValueIdx.contrEquiv1 dot_S5000x64_S64x64_S5000x64_1_0_0_1_n_n 64 rfl rfl).symm l) = ix2 p l := funext fun a => Fin.ext (by
    match a with
    | ⟨0, _⟩ => exact mmH_lhs0 _ _
    | ⟨1, _⟩ => exact (mmH_lhs1 _ _).trans hk)
  have er : dot_S5000x64_S64x64_S5000x64_1_0_0_1_n_n.rhsIdx (ix2 p c) ((ValueIdx.contrEquiv1 dot_S5000x64_S64x64_S5000x64_1_0_0_1_n_n 64 rfl rfl).symm l) = ix2 l c := funext fun a => Fin.ext (by
    match a with
    | ⟨0, _⟩ => exact (mmH_rhs0 _ _).trans hk
    | ⟨1, _⟩ => exact mmH_rhs1 _ _)
  rw [el, er]

theorem mmZ_lhs0 (i : S5000x32.Idx) (q : dot_S5000x64_S64x32_S5000x32_1_0_0_1_n_n.contr.Idx) :
    (dot_S5000x64_S64x32_S5000x32_1_0_0_1_n_n.lhsIdx i q 0).val = (i 0).val := by
  unfold DotDims.lhsIdx
  rw [dif_neg (show ¬(0 : Fin S5000x64.rank) ∈ dot_S5000x64_S64x32_S5000x32_1_0_0_1_n_n.lhsBatch by decide), dif_pos (show (0 : Fin S5000x64.rank) ∈ dot_S5000x64_S64x32_S5000x32_1_0_0_1_n_n.lhsNonContracting by decide)]
  rfl
theorem mmZ_lhs1 (i : S5000x32.Idx) (q : dot_S5000x64_S64x32_S5000x32_1_0_0_1_n_n.contr.Idx) :
    (dot_S5000x64_S64x32_S5000x32_1_0_0_1_n_n.lhsIdx i q 1).val = (q ⟨0, by decide⟩).val :=
  dot_S5000x64_S64x32_S5000x32_1_0_0_1_n_n.lhsIdx_val_of_single rfl i q
theorem mmZ_rhs0 (i : S5000x32.Idx) (q : dot_S5000x64_S64x32_S5000x32_1_0_0_1_n_n.contr.Idx) :
    (dot_S5000x64_S64x32_S5000x32_1_0_0_1_n_n.rhsIdx i q 0).val = (q ⟨0, by decide⟩).val :=
  dot_S5000x64_S64x32_S5000x32_1_0_0_1_n_n.rhsIdx_val_of_single rfl i q
theorem mmZ_rhs1 (i : S5000x32.Idx) (q : dot_S5000x64_S64x32_S5000x32_1_0_0_1_n_n.contr.Idx) :
    (dot_S5000x64_S64x32_S5000x32_1_0_0_1_n_n.rhsIdx i q 1).val = (i 1).val := by
  unfold DotDims.rhsIdx
  rw [dif_neg (show ¬(1 : Fin S64x32.rank) ∈ dot_S5000x64_S64x32_S5000x32_1_0_0_1_n_n.rhsBatch by decide), dif_pos (show (1 : Fin S64x32.rank) ∈ dot_S5000x64_S64x32_S5000x32_1_0_0_1_n_n.rhsNonContracting by decide)]
  rfl

/-- The product of a block of rows with a matrix, into the zero accumulator, read at row `p` and column `c`: the sum over the
    contracted coordinate of the row's entries times the column's. -/
theorem mmZ_apply (A : FVec Ideal S5000x64 .bf16) (B : FVec Ideal S64x32 .bf16) (p : Fin 5000) (c : Fin 32) :
    matmul dot_S5000x64_S64x32_S5000x32_1_0_0_1_n_n none A B (constant (F := Ideal) S5000x32 .f32 0x00000000#32) (ix2 p c)
      = ∑ l : Fin 64, A (ix2 p l) * B (ix2 l c) := by
  simp only [matmul]
  rw [Ideal.matmul_constant_zero_apply, ← Equiv.sum_comp (ValueIdx.contrEquiv1 dot_S5000x64_S64x32_S5000x32_1_0_0_1_n_n 64 rfl rfl).symm]
  refine Finset.sum_congr rfl fun l _ => ?_
  have hk := ValueIdx.contrEquiv1_symm_val dot_S5000x64_S64x32_S5000x32_1_0_0_1_n_n 64 rfl rfl l
  have el : dot_S5000x64_S64x32_S5000x32_1_0_0_1_n_n.lhsIdx (ix2 p c) ((ValueIdx.contrEquiv1 dot_S5000x64_S64x32_S5000x32_1_0_0_1_n_n 64 rfl rfl).symm l) = ix2 p l := funext fun a => Fin.ext (by
    match a with
    | ⟨0, _⟩ => exact mmZ_lhs0 _ _
    | ⟨1, _⟩ => exact (mmZ_lhs1 _ _).trans hk)
  have er : dot_S5000x64_S64x32_S5000x32_1_0_0_1_n_n.rhsIdx (ix2 p c) ((ValueIdx.contrEquiv1 dot_S5000x64_S64x32_S5000x32_1_0_0_1_n_n 64 rfl rfl).symm l) = ix2 l c := funext fun a => Fin.ext (by
    match a with
    | ⟨0, _⟩ => exact (mmZ_rhs0 _ _).trans hk
    | ⟨1, _⟩ => exact mmZ_rhs1 _ _)
  rw [el, er]

theorem mmO_lhs0 (i : S5000x64.Idx) (q : dot_S5000x32_S32x64_S5000x64_1_0_0_1_n_n.contr.Idx) :
    (dot_S5000x32_S32x64_S5000x64_1_0_0_1_n_n.lhsIdx i q 0).val = (i 0).val := by
  unfold DotDims.lhsIdx
  rw [dif_neg (show ¬(0 : Fin S5000x32.rank) ∈ dot_S5000x32_S32x64_S5000x64_1_0_0_1_n_n.lhsBatch by decide), dif_pos (show (0 : Fin S5000x32.rank) ∈ dot_S5000x32_S32x64_S5000x64_1_0_0_1_n_n.lhsNonContracting by decide)]
  rfl
theorem mmO_lhs1 (i : S5000x64.Idx) (q : dot_S5000x32_S32x64_S5000x64_1_0_0_1_n_n.contr.Idx) :
    (dot_S5000x32_S32x64_S5000x64_1_0_0_1_n_n.lhsIdx i q 1).val = (q ⟨0, by decide⟩).val :=
  dot_S5000x32_S32x64_S5000x64_1_0_0_1_n_n.lhsIdx_val_of_single rfl i q
theorem mmO_rhs0 (i : S5000x64.Idx) (q : dot_S5000x32_S32x64_S5000x64_1_0_0_1_n_n.contr.Idx) :
    (dot_S5000x32_S32x64_S5000x64_1_0_0_1_n_n.rhsIdx i q 0).val = (q ⟨0, by decide⟩).val :=
  dot_S5000x32_S32x64_S5000x64_1_0_0_1_n_n.rhsIdx_val_of_single rfl i q
theorem mmO_rhs1 (i : S5000x64.Idx) (q : dot_S5000x32_S32x64_S5000x64_1_0_0_1_n_n.contr.Idx) :
    (dot_S5000x32_S32x64_S5000x64_1_0_0_1_n_n.rhsIdx i q 1).val = (i 1).val := by
  unfold DotDims.rhsIdx
  rw [dif_neg (show ¬(1 : Fin S32x64.rank) ∈ dot_S5000x32_S32x64_S5000x64_1_0_0_1_n_n.rhsBatch by decide), dif_pos (show (1 : Fin S32x64.rank) ∈ dot_S5000x32_S32x64_S5000x64_1_0_0_1_n_n.rhsNonContracting by decide)]
  rfl

/-- The product of a block of rows with a matrix, into the zero accumulator, read at row `p` and column `c`: the sum over the
    contracted coordinate of the row's entries times the column's. -/
theorem mmO_apply (A : FVec Ideal S5000x32 .bf16) (B : FVec Ideal S32x64 .bf16) (p : Fin 5000) (c : Fin 64) :
    matmul dot_S5000x32_S32x64_S5000x64_1_0_0_1_n_n none A B (constant (F := Ideal) S5000x64 .f32 0x00000000#32) (ix2 p c)
      = ∑ l : Fin 32, A (ix2 p l) * B (ix2 l c) := by
  simp only [matmul]
  rw [Ideal.matmul_constant_zero_apply, ← Equiv.sum_comp (ValueIdx.contrEquiv1 dot_S5000x32_S32x64_S5000x64_1_0_0_1_n_n 32 rfl rfl).symm]
  refine Finset.sum_congr rfl fun l _ => ?_
  have hk := ValueIdx.contrEquiv1_symm_val dot_S5000x32_S32x64_S5000x64_1_0_0_1_n_n 32 rfl rfl l
  have el : dot_S5000x32_S32x64_S5000x64_1_0_0_1_n_n.lhsIdx (ix2 p c) ((ValueIdx.contrEquiv1 dot_S5000x32_S32x64_S5000x64_1_0_0_1_n_n 32 rfl rfl).symm l) = ix2 p l := funext fun a => Fin.ext (by
    match a with
    | ⟨0, _⟩ => exact mmO_lhs0 _ _
    | ⟨1, _⟩ => exact (mmO_lhs1 _ _).trans hk)
  have er : dot_S5000x32_S32x64_S5000x64_1_0_0_1_n_n.rhsIdx (ix2 p c) ((ValueIdx.contrEquiv1 dot_S5000x32_S32x64_S5000x64_1_0_0_1_n_n 32 rfl rfl).symm l) = ix2 l c := funext fun a => Fin.ext (by
    match a with
    | ⟨0, _⟩ => exact (mmO_rhs0 _ _).trans hk
    | ⟨1, _⟩ => exact mmO_rhs1 _ _)
  rw [el, er]

/-! ## Column forms of the layout operations (a row statistic kept as a column, then spread over the row) -/

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The two row reductions of a block of 32 columns, read at a row -/

/-- The maximum over each row, from the accumulator's value: the fold of `max` over the row's 32 entries. -/
theorem rowMaxBlk_apply (v : FVec Ideal S5000x32 .f32) (hφ : FKind.Formats .f32)
    (hacc : (0xFF800000#32 : BitVec 32) = 0xFF800000#32) (p : Fin 5000) :
    multiReduction .maximumf [1] S5000 v 0xFF800000#32 reduces_S5000x32_S5000 hφ hacc (ix1 p)
      = (Finset.univ : Finset (Fin 32)).fold max (Ideal.ofBits .f32 0xFF800000#32) (fun k => v (ix2 p k)) := by
  refine (Ideal.multiReduction_maximumf_single v 0xFF800000#32 reduces_S5000x32_S5000 hφ hacc (ix1 p)).trans ?_
  show (Finset.univ : Finset (Fin 32)).fold max (Ideal.ofBits .f32 0xFF800000#32)
      (fun k => v (reduces_S5000x32_S5000.lift (ix1 p) k)) = _
  exact congrArg
    (fun f : Fin 32 → EReal => (Finset.univ : Finset (Fin 32)).fold max (Ideal.ofBits .f32 0xFF800000#32) f)
    (funext fun k => congrArg v (funext fun a => Fin.ext (by
      match a with
      | ⟨0, _⟩ => rfl
      | ⟨1, _⟩ => rfl)))

/-- The sum over each row: the sum of the row's 32 entries. -/
theorem rowSumBlk_apply (v : FVec Ideal S5000x32 .f32) (hφ : FKind.Formats .f32)
    (hacc : (0x00000000#32 : BitVec 32) = 0x00000000#32) (p : Fin 5000) :
    multiReduction .add [1] S5000 v 0x00000000#32 reduces_S5000x32_S5000 hφ hacc (ix1 p)
      = ∑ k : Fin 32, v (ix2 p k) := by
  refine (Ideal.multiReduction_add_single v 0x00000000#32 reduces_S5000x32_S5000 hφ hacc (ix1 p)).trans ?_
  show ∑ k : Fin 32, v (reduces_S5000x32_S5000.lift (ix1 p) k) = _
  refine Finset.sum_congr rfl fun k _ => congrArg v (funext fun a => Fin.ext ?_)
  match a with
  | ⟨0, _⟩ => rfl
  | ⟨1, _⟩ => rfl

/-! ## One row of the attention weights, as a function of the node's 64 features -/

/-- The hidden row: the features through the first dense layer (matrix, then bias), each entry then no smaller than the
    value of the zero word. -/
def hidRow (x : Fin 64 → EReal) (W : S64x64.Idx → EReal) (b : S64.Idx → EReal) : Fin 64 → EReal :=
  fun k => max ((∑ l : Fin 64, x l * W (ix2 l k)) + b (ix1 k)) (Ideal.ofBits .f32 0x00000000#32)

/-- The row's 32 logits: the hidden row through the second dense layer. -/
def logitRow (h : Fin 64 → EReal) (W : S64x32.Idx → EReal) (b : S32.Idx → EReal) : Fin 32 → EReal :=
  fun q => (∑ k : Fin 64, h k * W (ix2 k q)) + b (ix1 q)

/-- The row's top logit as both programs take it: the fold of `max` over the 32 entries from the value of the word of
    minus infinity, and once more the larger of that word's value and the fold. It is never opened: the two sides are
    compared as this one function of the logits. -/
def rowTop (z : Fin 32 → EReal) : EReal :=
  max (Ideal.ofBits .f32 0xFF800000#32)
    ((Finset.univ : Finset (Fin 32)).fold max (Ideal.ofBits .f32 0xFF800000#32) z)

/-- The row's softmax: each logit less the top one, exponentiated, over the sum of those 32 exponentials. -/
def softRow (z : Fin 32 → EReal) : Fin 32 → EReal :=
  fun q => Ideal.div (Ideal.exp (z q - rowTop z)) (∑ k : Fin 32, Ideal.exp (z k - rowTop z))

/-- One dense layer from 32 to 64 columns applied to each row of a table `S`: the layer that makes S_q and S_k of S_h. -/
def denseOut {n : ℕ} (S : (⟨2, ![n, 32]⟩ : Shape).Idx → EReal) (W : S32x64.Idx → EReal) (b : S64.Idx → EReal) :
    (⟨2, ![n, 64]⟩ : Shape).Idx → EReal :=
  fun i => (∑ k : Fin 32, S (ix2 (i 0) k) * W (ix2 k (i 1))) + b (ix1 (i 1))

/-! ## The body's softmax payload, cut into its three stages -/

/-- The hidden block: the (narrowed) block of rows times the (narrowed) first matrix, plus the bias row, then the larger
    of that and zero. -/
def kHid (A : FVec Ideal S5000x64 .bf16) (W1 : Vec Ideal S64x64 .f32) (b1 : Vec Ideal S64 .f32) : FVec Ideal S5000x64 .f32 :=
  maximumf
    (addf (matmul dot_S5000x64_S64x64_S5000x64_1_0_0_1_n_n none A (truncf .bf16 W1 bitsLt_bf16_f32)
        (constant (F := Ideal) S5000x64 .f32 0x00000000#32))
      (broadcastTo S5000x64 (shapeCast S1x64 b1 shapeCasts_S64_S1x64) broadcasts_S1x64_S5000x64))
    (broadcast S5000x64 (Scalar.ofBits (F := Ideal) .f32 0x00000000#32))

/-- The logits' block: the (narrowed) hidden block times the (narrowed) second matrix, plus the bias row. -/
def kLogit (H : FVec Ideal S5000x64 .f32) (W2 : Vec Ideal S64x32 .f32) (b2 : Vec Ideal S32 .f32) : FVec Ideal S5000x32 .f32 :=
  addf (matmul dot_S5000x64_S64x32_S5000x32_1_0_0_1_n_n none (truncf .bf16 H bitsLt_bf16_f32) (truncf .bf16 W2 bitsLt_bf16_f32)
      (constant (F := Ideal) S5000x32 .f32 0x00000000#32))
    (broadcastTo S5000x32 (shapeCast S1x32 b2 shapeCasts_S32_S1x32) broadcasts_S1x32_S5000x32)

/-- The row maximum of a block as a column spread back over the 32 columns. -/
def kTop (Z : FVec Ideal S5000x32 .f32) : FVec Ideal S5000x32 .f32 :=
  broadcastTo S5000x32
    (shapeCast S5000x1
      (maximumf (broadcast S5000 (Scalar.ofBits (F := Ideal) .f32 0xFF800000#32))
        (multiReduction .maximumf [1] S5000 Z 0xFF800000#32 reduces_S5000x32_S5000 (.inl rfl) rfl))
      shapeCasts_S5000_S5000x1)
    broadcasts_S5000x1_S5000x32

/-- The softmax of each row of a block of logits. -/
def kSoft (Z : FVec Ideal S5000x32 .f32) : FVec Ideal S5000x32 .f32 :=
  divf (exp (subf Z (kTop Z)))
    (broadcastTo S5000x32
      (shapeCast S5000x1
        (multiReduction .add [1] S5000 (exp (subf Z (kTop Z))) 0x00000000#32 reduces_S5000x32_S5000 (.inl rfl) rfl)
        shapeCasts_S5000_S5000x1)
      broadcasts_S5000x1_S5000x32)

/-- The body's softmax payload is these three stages composed. -/
theorem pay10_eq (A : FVec Ideal S5000x64 .bf16) (W1 : Vec Ideal S64x64 .f32) (b1 : Vec Ideal S64 .f32)
    (W2 : Vec Ideal S64x32 .f32) (b2 : Vec Ideal S32 .f32) :
    k0_pay10 A W1 b1 W2 b2 = kSoft (kLogit (kHid A W1 b1) W2 b2) := rfl

/-! ## Each stage read at a row and a column -/

theorem kHid_apply (A : FVec Ideal S5000x64 .bf16) (W1 : Vec Ideal S64x64 .f32) (b1 : Vec Ideal S64 .f32)
    (p : Fin 5000) (k : Fin 64) : kHid A W1 b1 (ix2 p k) = hidRow (fun l => A (ix2 p l)) W1 b1 k := by
  unfold kHid hidRow
  rw [maximumf_apply, addf_apply, mmH_apply, broadcastTo_1b_ab_apply, shapeCast_a_1a_apply, broadcast_apply]
  rfl

theorem kLogit_apply (H : FVec Ideal S5000x64 .f32) (W2 : Vec Ideal S64x32 .f32) (b2 : Vec Ideal S32 .f32)
    (p : Fin 5000) (q : Fin 32) : kLogit H W2 b2 (ix2 p q) = logitRow (fun k => H (ix2 p k)) W2 b2 q := by
  unfold kLogit logitRow
  rw [addf_apply, mmZ_apply, broadcastTo_1b_ab_apply, shapeCast_a_1a_apply]
  rfl

theorem kTop_apply (Z : FVec Ideal S5000x32 .f32) (p : Fin 5000) (q : Fin 32) :
    kTop Z (ix2 p q) = rowTop (fun k => Z (ix2 p k)) := by
  unfold kTop rowTop
  rw [broadcastTo_a1_ab_apply, shapeCast_a_a1_apply, maximumf_apply, broadcast_apply, rowMaxBlk_apply]
  rfl

theorem kSoft_apply (Z : FVec Ideal S5000x32 .f32) (p : Fin 5000) (q : Fin 32) :
    kSoft Z (ix2 p q) = softRow (fun k => Z (ix2 p k)) q := by
  have e : ∀ k : Fin 32, exp (subf Z (kTop Z)) (ix2 p k)
      = Ideal.exp (Z (ix2 p k) - rowTop (fun k => Z (ix2 p k))) := fun k => by
    show Ideal.exp (Z (ix2 p k) - kTop Z (ix2 p k)) = _
    rw [kTop_apply]
  unfold kSoft softRow
  rw [divf_apply, broadcastTo_a1_ab_apply, shapeCast_a_a1_apply, rowSumBlk_apply, e q]
  exact congrArg _ (Finset.sum_congr rfl fun k _ => e k)

/-- THE SOFTMAX PAYLOAD AT A ROW AND A COLUMN: the softmax of the logits of the block's row `p`, at column `q`. Only
    row `p` of the block of features enters. -/
theorem pay10_apply (X : Vec Ideal S5000x64 .f32) (W1 : Vec Ideal S64x64 .f32) (b1 : Vec Ideal S64 .f32)
    (W2 : Vec Ideal S64x32 .f32) (b2 : Vec Ideal S32 .f32) (p : Fin 5000) (q : Fin 32) :
    k0_pay10 (k0_pay3 X) W1 b1 W2 b2 (ix2 p q)
      = softRow (logitRow (hidRow (fun l => X (ix2 p l)) W1 b1) W2 b2) q := by
  rw [pay10_eq, kSoft_apply]
  refine congrArg (fun z => softRow z q) (funext fun k => ?_)
  rw [kLogit_apply]
  refine congrArg (fun h => logitRow h W2 b2 k) (funext fun l => ?_)
  rw [kHid_apply]
  rfl

/-- The dense layer after the softmax, on a block: the (narrowed) block times the (narrowed) matrix, plus the bias row. -/
def kDense (S : FVec Ideal S5000x32 .f32) (W : Vec Ideal S32x64 .f32) (b : Vec Ideal S64 .f32) : FVec Ideal S5000x64 .f32 :=
  addf (matmul dot_S5000x32_S32x64_S5000x64_1_0_0_1_n_n none (truncf .bf16 S bitsLt_bf16_f32) (truncf .bf16 W bitsLt_bf16_f32)
      (constant (F := Ideal) S5000x64 .f32 0x00000000#32))
    (broadcastTo S5000x64 (shapeCast S1x64 b shapeCasts_S64_S1x64) broadcasts_S1x64_S5000x64)

theorem kDense_apply (S : FVec Ideal S5000x32 .f32) (W : Vec Ideal S32x64 .f32) (b : Vec Ideal S64 .f32)
    (p : Fin 5000) (c : Fin 64) : kDense S W b (ix2 p c) = (∑ k : Fin 32, S (ix2 p k) * W (ix2 k c)) + b (ix1 c) := by
  unfold kDense
  rw [addf_apply, mmO_apply, broadcastTo_1b_ab_apply, shapeCast_a_1a_apply]
  rfl

/-- The two payloads after the softmax are that layer applied to the softmax payload. -/
theorem paySq_eq (A : FVec Ideal S5000x64 .bf16) (W1 : Vec Ideal S64x64 .f32) (b1 : Vec Ideal S64 .f32)
    (W2 : Vec Ideal S64x32 .f32) (b2 : Vec Ideal S32 .f32) (WQ : Vec Ideal S32x64 .f32) (bQ : Vec Ideal S64 .f32) :
    k0_pay1 (k0_pay13 A W1 b1 W2 b2 WQ) bQ = kDense (k0_pay10 A W1 b1 W2 b2) WQ bQ := rfl
theorem paySk_eq (A : FVec Ideal S5000x64 .bf16) (W1 : Vec Ideal S64x64 .f32) (b1 : Vec Ideal S64 .f32)
    (W2 : Vec Ideal S64x32 .f32) (b2 : Vec Ideal S32 .f32) (WK : Vec Ideal S32x64 .f32) (bK : Vec Ideal S64 .f32) :
    k0_pay2 (k0_pay11 A W1 b1 W2 b2) (k0_pay12 WK) bK = kDense (k0_pay10 A W1 b1 W2 b2) WK bK := rfl

/-! ## The three tables as functions of the node table and the layers, index by index -/

/-- S_h: row `i 0` of the node table through the two layers and the row softmax, at column `i 1`. -/
def GSh (X : S50000x64.Idx → EReal) (W1 : S64x64.Idx → EReal) (b1 : S64.Idx → EReal) (W2 : S64x32.Idx → EReal)
    (b2 : S32.Idx → EReal) : S50000x32.Idx → EReal :=
  fun i => softRow (logitRow (hidRow (fun l => X (ix2 (i 0) l)) W1 b1) W2 b2) (i 1)

section EntryContents

-- the buffer contents when region 0 is entered: this section's statements hold at any such valuation
variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The windows' index maps over the ten points: the block of rows of the node table and of each of the three
    output tables is block number `t` (all columns); every layer's matrix or bias is its one whole block. -/
theorem idxFacts0 : ∀ t : Fin cfg0.N,
    win0_0.index t (0 : Fin 2) = t.val ∧ win0_0.index t (1 : Fin 2) = 0
    ∧ win0_21.index t (0 : Fin 2) = t.val ∧ win0_21.index t (1 : Fin 2) = 0
    ∧ win0_22.index t (0 : Fin 2) = t.val ∧ win0_22.index t (1 : Fin 2) = 0
    ∧ win0_23.index t (0 : Fin 2) = t.val ∧ win0_23.index t (1 : Fin 2) = 0
    ∧ win0_9.index t (0 : Fin 2) = 0 ∧ win0_9.index t (1 : Fin 2) = 0
    ∧ win0_10.index t (0 : Fin 1) = 0
    ∧ win0_11.index t (0 : Fin 2) = 0 ∧ win0_11.index t (1 : Fin 2) = 0
    ∧ win0_12.index t (0 : Fin 1) = 0
    ∧ win0_13.index t (0 : Fin 2) = 0 ∧ win0_13.index t (1 : Fin 2) = 0
    ∧ win0_14.index t (0 : Fin 1) = 0
    ∧ win0_15.index t (0 : Fin 2) = 0 ∧ win0_15.index t (1 : Fin 2) = 0
    ∧ win0_16.index t (0 : Fin 1) = 0 :=
  (by decide +kernel : ∀ t : Fin grid0.N, _)

/-! Each layer's window is the whole array at every point. -/

theorem blkWhole9 (c : Dev nD) (t : Fin cfg0.N) :
    (iblk0 V c 9 t : S64x64.Idx → EReal) = (V c main_arg14 : S64x64.Idx → EReal) := by
  obtain ⟨-, -, -, -, -, -, -, -, w9a, w9b, w10, w11a, w11b, w12, w13a, w13b, w14, w15a, w15b, w16⟩ := idxFacts0 t
  funext y
  show V c main_arg14 (((cfg0.win 9).blk t).view.emb y) = V c main_arg14 y
  refine congrArg _ (funext fun a => Fin.ext ?_)
  match a with
  | ⟨0, _⟩ => show win0_9.index t (0 : Fin 2) * 64 + 1 * (y 0).val = (y 0).val; omega
  | ⟨1, _⟩ => show win0_9.index t (1 : Fin 2) * 64 + 1 * (y 1).val = (y 1).val; omega

theorem blkWhole10 (c : Dev nD) (t : Fin cfg0.N) :
    (iblk0 V c 10 t : S64.Idx → EReal) = (V c main_arg15 : S64.Idx → EReal) := by
  obtain ⟨-, -, -, -, -, -, -, -, w9a, w9b, w10, w11a, w11b, w12, w13a, w13b, w14, w15a, w15b, w16⟩ := idxFacts0 t
  funext y
  show V c main_arg15 (((cfg0.win 10).blk t).view.emb y) = V c main_arg15 y
  refine congrArg _ (funext fun a => Fin.ext ?_)
  match a with
  | ⟨0, _⟩ => show win0_10.index t (0 : Fin 1) * 64 + 1 * (y 0).val = (y 0).val; omega

theorem blkWhole11 (c : Dev nD) (t : Fin cfg0.N) :
    (iblk0 V c 11 t : S64x32.Idx → EReal) = (V c main_arg16 : S64x32.Idx → EReal) := by
  obtain ⟨-, -, -, -, -, -, -, -, w9a, w9b, w10, w11a, w11b, w12, w13a, w13b, w14, w15a, w15b, w16⟩ := idxFacts0 t
  funext y
  show V c main_arg16 (((cfg0.win 11).blk t).view.emb y) = V c main_arg16 y
  refine congrArg _ (funext fun a => Fin.ext ?_)
  match a with
  | ⟨0, _⟩ => show win0_11.index t (0 : Fin 2) * 64 + 1 * (y 0).val = (y 0).val; omega
  | ⟨1, _⟩ => show win0_11.index t (1 : Fin 2) * 32 + 1 * (y 1).val = (y 1).val; omega

theorem blkWhole12 (c : Dev nD) (t : Fin cfg0.N) :
    (iblk0 V c 12 t : S32.Idx → EReal) = (V c main_arg17 : S32.Idx → EReal) := by
  obtain ⟨-, -, -, -, -, -, -, -, w9a, w9b, w10, w11a, w11b, w12, w13a, w13b, w14, w15a, w15b, w16⟩ := idxFacts0 t
  funext y
  show V c main_arg17 (((cfg0.win 12).blk t).view.emb y) = V c main_arg17 y
  refine congrArg _ (funext fun a => Fin.ext ?_)
  match a with
  | ⟨0, _⟩ => show win0_12.index t (0 : Fin 1) * 32 + 1 * (y 0).val = (y 0).val; omega

theorem blkWhole13 (c : Dev nD) (t : Fin cfg0.N) :
    (iblk0 V c 13 t : S32x64.Idx → EReal) = (V c main_arg18 : S32x64.Idx → EReal) := by
  obtain ⟨-, -, -, -, -, -, -, -, w9a, w9b, w10, w11a, w11b, w12, w13a, w13b, w14, w15a, w15b, w16⟩ := idxFacts0 t
  funext y
  show V c main_arg18 (((cfg0.win 13).blk t).view.emb y) = V c main_arg18 y
  refine congrArg _ (funext fun a => Fin.ext ?_)
  match a with
  | ⟨0, _⟩ => show win0_13.index t (0 : Fin 2) * 32 + 1 * (y 0).val = (y 0).val; omega
  | ⟨1, _⟩ => show win0_13.index t (1 : Fin 2) * 64 + 1 * (y 1).val = (y 1).val; omega

theorem blkWhole14 (c : Dev nD) (t : Fin cfg0.N) :
    (iblk0 V c 14 t : S64.Idx → EReal) = (V c main_arg19 : S64.Idx → EReal) := by
  obtain ⟨-, -, -, -, -, -, -, -, w9a, w9b, w10, w11a, w11b, w12, w13a, w13b, w14, w15a, w15b, w16⟩ := idxFacts0 t
  funext y
  show V c main_arg19 (((cfg0.win 14).blk t).view.emb y) = V c main_arg19 y
  refine congrArg _ (funext fun a => Fin.ext ?_)
  match a with
  | ⟨0, _⟩ => show win0_14.index t (0 : Fin 1) * 64 + 1 * (y 0).val = (y 0).val; omega

theorem blkWhole15 (c : Dev nD) (t : Fin cfg0.N) :
    (iblk0 V c 15 t : S32x64.Idx → EReal) = (V c main_arg20 : S32x64.Idx → EReal) := by
  obtain ⟨-, -, -, -, -, -, -, -, w9a, w9b, w10, w11a, w11b, w12, w13a, w13b, w14, w15a, w15b, w16⟩ := idxFacts0 t
  funext y
  show V c main_arg20 (((cfg0.win 15).blk t).view.emb y) = V c main_arg20 y
  refine congrArg _ (funext fun a => Fin.ext ?_)
  match a with
  | ⟨0, _⟩ => show win0_15.index t (0 : Fin 2) * 32 + 1 * (y 0).val = (y 0).val; omega
  | ⟨1, _⟩ => show win0_15.index t (1 : Fin 2) * 64 + 1 * (y 1).val = (y 1).val; omega

theorem blkWhole16 (c : Dev nD) (t : Fin cfg0.N) :
    (iblk0 V c 16 t : S64.Idx → EReal) = (V c main_arg21 : S64.Idx → EReal) := by
  obtain ⟨-, -, -, -, -, -, -, -, w9a, w9b, w10, w11a, w11b, w12, w13a, w13b, w14, w15a, w15b, w16⟩ := idxFacts0 t
  funext y
  show V c main_arg21 (((cfg0.win 16).blk t).view.emb y) = V c main_arg21 y
  refine congrArg _ (funext fun a => Fin.ext ?_)
  match a with
  | ⟨0, _⟩ => show win0_16.index t (0 : Fin 1) * 64 + 1 * (y 0).val = (y 0).val; omega

/-! ## S_h: what each point writes back, the cover, the array after the region -/

/-- WHAT POINT `t` WRITES BACK to S_h's array is block `t` of `GSh` of the arrays as the region finds them: row `p` of the
    block is row `5000 t + p` of the node table, and the softmax of a row depends on that row alone. -/
theorem flushedSh (c : Dev nD) (t : Fin cfg0.N) :
    (dat0 V c).flushed 21 t = ((cfg0.win 21).blk t).view.read (Elt Ideal)
      (GSh (V c main_arg0) (V c main_arg14) (V c main_arg15) (V c main_arg16) (V c main_arg17)) := by
  show (cfg0.win 21).cut (grid0.coords t) ((dat0 V c).after 21 t) = _
  rw [after0_21]
  unfold out0_21
  rw [View.canon_unit_zero hz2]
  simp only [View.ld_unit_zero (S := S5000x64) hz2, View.ld_unit_zero (S := S64x64) hz2, View.ld_unit_zero (S := S64) hz1,
    View.ld_unit_zero (S := S64x32) hz2, View.ld_unit_zero (S := S32) hz1]
  obtain ⟨i0a, i0b, i21a, i21b, -⟩ := idxFacts0 t
  funext j
  obtain ⟨p, q, rfl⟩ : ∃ (p : Fin 5000) (q : Fin 32), j = ix2 p q := ⟨j 0, j 1, eq_ix2 j⟩
  show k0_pay10 (k0_pay3 (iblk0 V c 0 t)) (iblk0 V c 9 t) (iblk0 V c 10 t) (iblk0 V c 11 t) (iblk0 V c 12 t) (ix2 p q)
    = GSh (V c main_arg0) (V c main_arg14) (V c main_arg15) (V c main_arg16) (V c main_arg17)
        (((cfg0.win 21).blk t).view.emb (ix2 p q))
  rw [pay10_apply, blkWhole9 V c t, blkWhole10 V c t, blkWhole11 V c t, blkWhole12 V c t]
  unfold GSh
  have e1 : (((cfg0.win 21).blk t).view.emb (ix2 p q)) 1 = q := Fin.ext (by
    show win0_21.index t (1 : Fin 2) * 32 + 1 * q.val = q.val; omega)
  have e0 : ∀ l : Fin 64, iblk0 V c 0 t (ix2 p l)
      = V c main_arg0 (ix2 ((((cfg0.win 21).blk t).view.emb (ix2 p q)) 0) l) := fun l => by
    show V c main_arg0 (((cfg0.win 0).blk t).view.emb (ix2 p l)) = _
    refine congrArg _ (funext fun a => Fin.ext ?_)
    match a with
    | ⟨0, _⟩ => show win0_0.index t (0 : Fin 2) * 5000 + 1 * p.val = win0_21.index t (0 : Fin 2) * 5000 + 1 * p.val; omega
    | ⟨1, _⟩ => show win0_0.index t (1 : Fin 2) * 64 + 1 * l.val = l.val; omega
  rw [e1, funext e0]

/-- An index of S_h's array is in point `t`'s block iff each coordinate is in the block's range on its axis. -/
theorem mem_blk21 (t : Fin cfg0.N) (i : S50000x32.Idx) :
    i ∈ ((cfg0.win 21).blk t).view.set ↔ ∀ a : Fin 2, win0_21.index t a * S5000x32.size a ≤ (i a).val
      ∧ (i a).val < win0_21.index t a * S5000x32.size a + S5000x32.size a := by
  show i ∈ ((View.whole main_v0_4).slice (win0_21.rect t)).set ↔ _
  rw [View.set_slice_whole, Rect.mem_set_unit]
  exact Iff.rfl

/-- Row `r` of S_h's array is written by point `r / 5000`: the ten blocks of 5000 rows cover the 50000 rows. -/
theorem cover21 (i : S50000x32.Idx) :
    ∃ t : Fin cfg0.N, (cfg0.win 21).flush t = true ∧ i ∈ ((cfg0.win 21).blk t).view.set := by
  have hi0 : (i 0).val < 50000 := (i 0).isLt
  have hi1 : (i 1).val < 32 := (i 1).isLt
  have hN : cfg0.N = 10 := N_0
  have hlt : (i 0).val / 5000 < cfg0.N := hN ▸ (by omega : (i 0).val / 5000 < 10)
  obtain ⟨-, -, i21a, i21b, -⟩ := idxFacts0 ⟨(i 0).val / 5000, hlt⟩
  refine ⟨⟨(i 0).val / 5000, hlt⟩, flush0_21 _, ?_⟩
  rw [mem_blk21]
  intro a
  match a with
  | ⟨0, _⟩ =>
    show win0_21.index ⟨(i 0).val / 5000, hlt⟩ (0 : Fin 2) * 5000 ≤ (i 0).val
      ∧ (i 0).val < win0_21.index ⟨(i 0).val / 5000, hlt⟩ (0 : Fin 2) * 5000 + 5000
    rw [i21a]; show (i 0).val / 5000 * 5000 ≤ (i 0).val ∧ (i 0).val < (i 0).val / 5000 * 5000 + 5000; omega
  | ⟨1, _⟩ =>
    show win0_21.index ⟨(i 0).val / 5000, hlt⟩ (1 : Fin 2) * 32 ≤ (i 1).val
      ∧ (i 1).val < win0_21.index ⟨(i 0).val / 5000, hlt⟩ (1 : Fin 2) * 32 + 32
    rw [i21b]; omega

/-- S_h's ARRAY AFTER THE REGION is `GSh` of the arrays as the region finds them. -/
theorem arrSh (c : Dev nD) : (dat0 V c).arrAt 21 cfg0.N
    = GSh (V c main_arg0) (V c main_arg14) (V c main_arg15) (V c main_arg16) (V c main_arg17) :=
  (dat0 V c).arrAt_eq_of_cover 21 _ (fun t _ => flushedSh V c t) cover21

/-! ## S_q and S_k: one dense layer applied to each row of S_h -/

/-- The softmax payload of point `t`'s block at row `p` is `GSh` at the table's row `5000 t + p`. -/
theorem pay10_blk (c : Dev nD) (t : Fin cfg0.N) (p : Fin 5000) (k : Fin 32) (r : Fin 50000)
    (hr : r.val = t.val * 5000 + p.val) :
    k0_pay10 (k0_pay3 (iblk0 V c 0 t)) (V c main_arg14) (V c main_arg15) (V c main_arg16) (V c main_arg17) (ix2 p k)
      = GSh (V c main_arg0) (V c main_arg14) (V c main_arg15) (V c main_arg16) (V c main_arg17) (ix2 r k) := by
  obtain ⟨i0a, i0b, -⟩ := idxFacts0 t
  rw [pay10_apply]
  show _ = softRow (logitRow (hidRow (fun l => V c main_arg0 (ix2 r l)) (V c main_arg14) (V c main_arg15))
    (V c main_arg16) (V c main_arg17)) k
  have e0 : ∀ l : Fin 64, iblk0 V c 0 t (ix2 p l) = V c main_arg0 (ix2 r l) := fun l => by
    show V c main_arg0 (((cfg0.win 0).blk t).view.emb (ix2 p l)) = _
    refine congrArg _ (funext fun a => Fin.ext ?_)
    match a with
    | ⟨0, _⟩ => show win0_0.index t (0 : Fin 2) * 5000 + 1 * p.val = r.val; omega
    | ⟨1, _⟩ => show win0_0.index t (1 : Fin 2) * 64 + 1 * l.val = l.val; omega
  rw [funext e0]

/-- WHAT POINT `t` WRITES BACK to Sq's array is block `t` of the dense layer of `GSh`: row `p` of the block is the layer
    applied to row `5000 t + p` of S_h. -/
theorem flushedSq (c : Dev nD) (t : Fin cfg0.N) :
    (dat0 V c).flushed 22 t = ((cfg0.win 22).blk t).view.read (Elt Ideal)
      (denseOut (GSh (V c main_arg0) (V c main_arg14) (V c main_arg15) (V c main_arg16) (V c main_arg17))
        (V c main_arg18) (V c main_arg19)) := by
  show (cfg0.win 22).cut (grid0.coords t) ((dat0 V c).after 22 t) = _
  rw [after0_22]
  unfold out0_22
  rw [View.canon_unit_zero hz2]
  simp only [View.ld_unit_zero (S := S5000x64) hz2, View.ld_unit_zero (S := S64x64) hz2, View.ld_unit_zero (S := S64) hz1,
    View.ld_unit_zero (S := S64x32) hz2, View.ld_unit_zero (S := S32) hz1, View.ld_unit_zero (S := S32x64) hz2]
  obtain ⟨-, -, -, -, ja, jb, -⟩ := idxFacts0 t
  funext j
  obtain ⟨p, q, rfl⟩ : ∃ (p : Fin 5000) (q : Fin 64), j = ix2 p q := ⟨j 0, j 1, eq_ix2 j⟩
  show k0_pay1 (k0_pay13 (k0_pay3 (iblk0 V c 0 t)) (iblk0 V c 9 t) (iblk0 V c 10 t) (iblk0 V c 11 t) (iblk0 V c 12 t) (iblk0 V c 13 t)) (iblk0 V c 14 t) (ix2 p q)
    = denseOut (GSh (V c main_arg0) (V c main_arg14) (V c main_arg15) (V c main_arg16) (V c main_arg17))
        (V c main_arg18) (V c main_arg19) (((cfg0.win 22).blk t).view.emb (ix2 p q))
  rw [paySq_eq, kDense_apply, blkWhole9 V c t, blkWhole10 V c t, blkWhole11 V c t, blkWhole12 V c t,
    blkWhole13 V c t, blkWhole14 V c t]
  unfold denseOut
  have e1 : (((cfg0.win 22).blk t).view.emb (ix2 p q)) 1 = q := Fin.ext (by
    show win0_22.index t (1 : Fin 2) * 64 + 1 * q.val = q.val; omega)
  have e0 : ((((cfg0.win 22).blk t).view.emb (ix2 p q)) 0).val = t.val * 5000 + p.val := by
    show win0_22.index t (0 : Fin 2) * 5000 + 1 * p.val = t.val * 5000 + p.val; omega
  rw [e1]
  exact congrArg (· + V c main_arg19 (ix1 q)) (Finset.sum_congr rfl fun k _ =>
    congrArg (· * V c main_arg18 (ix2 k q)) (pay10_blk V c t p k _ e0))

theorem mem_blk22 (t : Fin cfg0.N) (i : S50000x64.Idx) :
    i ∈ ((cfg0.win 22).blk t).view.set ↔ ∀ a : Fin 2, win0_22.index t a * S5000x64.size a ≤ (i a).val
      ∧ (i a).val < win0_22.index t a * S5000x64.size a + S5000x64.size a := by
  show i ∈ ((View.whole main_v0_5).slice (win0_22.rect t)).set ↔ _
  rw [View.set_slice_whole, Rect.mem_set_unit]
  exact Iff.rfl

theorem cover22 (i : S50000x64.Idx) :
    ∃ t : Fin cfg0.N, (cfg0.win 22).flush t = true ∧ i ∈ ((cfg0.win 22).blk t).view.set := by
  have hi0 : (i 0).val < 50000 := (i 0).isLt
  have hi1 : (i 1).val < 64 := (i 1).isLt
  have hN : cfg0.N = 10 := N_0
  have hlt : (i 0).val / 5000 < cfg0.N := hN ▸ (by omega : (i 0).val / 5000 < 10)
  obtain ⟨-, -, -, -, ja, jb, -⟩ := idxFacts0 ⟨(i 0).val / 5000, hlt⟩
  refine ⟨⟨(i 0).val / 5000, hlt⟩, flush0_22 _, ?_⟩
  rw [mem_blk22]
  intro a
  match a with
  | ⟨0, _⟩ =>
    show win0_22.index ⟨(i 0).val / 5000, hlt⟩ (0 : Fin 2) * 5000 ≤ (i 0).val
      ∧ (i 0).val < win0_22.index ⟨(i 0).val / 5000, hlt⟩ (0 : Fin 2) * 5000 + 5000
    rw [ja]; show (i 0).val / 5000 * 5000 ≤ (i 0).val ∧ (i 0).val < (i 0).val / 5000 * 5000 + 5000; omega
  | ⟨1, _⟩ =>
    show win0_22.index ⟨(i 0).val / 5000, hlt⟩ (1 : Fin 2) * 64 ≤ (i 1).val
      ∧ (i 1).val < win0_22.index ⟨(i 0).val / 5000, hlt⟩ (1 : Fin 2) * 64 + 64
    rw [jb]; omega

/-- Sq's ARRAY AFTER THE REGION: the dense layer applied to `GSh`, of the arrays as the region finds them. -/
theorem arrSq (c : Dev nD) : (dat0 V c).arrAt 22 cfg0.N
    = denseOut (GSh (V c main_arg0) (V c main_arg14) (V c main_arg15) (V c main_arg16) (V c main_arg17))
        (V c main_arg18) (V c main_arg19) :=
  (dat0 V c).arrAt_eq_of_cover 22 _ (fun t _ => flushedSq V c t) cover22

/-- WHAT POINT `t` WRITES BACK to Sk's array is block `t` of the dense layer of `GSh`: row `p` of the block is the layer
    applied to row `5000 t + p` of S_h. -/
theorem flushedSk (c : Dev nD) (t : Fin cfg0.N) :
    (dat0 V c).flushed 23 t = ((cfg0.win 23).blk t).view.read (Elt Ideal)
      (denseOut (GSh (V c main_arg0) (V c main_arg14) (V c main_arg15) (V c main_arg16) (V c main_arg17))
        (V c main_arg20) (V c main_arg21)) := by
  show (cfg0.win 23).cut (grid0.coords t) ((dat0 V c).after 23 t) = _
  rw [after0_23]
  unfold out0_23
  rw [View.canon_unit_zero hz2]
  simp only [View.ld_unit_zero (S := S5000x64) hz2, View.ld_unit_zero (S := S64x64) hz2, View.ld_unit_zero (S := S64) hz1,
    View.ld_unit_zero (S := S64x32) hz2, View.ld_unit_zero (S := S32) hz1, View.ld_unit_zero (S := S32x64) hz2]
  obtain ⟨-, -, -, -, -, -, ja, jb, -⟩ := idxFacts0 t
  funext j
  obtain ⟨p, q, rfl⟩ : ∃ (p : Fin 5000) (q : Fin 64), j = ix2 p q := ⟨j 0, j 1, eq_ix2 j⟩
  show k0_pay2 (k0_pay11 (k0_pay3 (iblk0 V c 0 t)) (iblk0 V c 9 t) (iblk0 V c 10 t) (iblk0 V c 11 t) (iblk0 V c 12 t)) (k0_pay12 (iblk0 V c 15 t)) (iblk0 V c 16 t) (ix2 p q)
    = denseOut (GSh (V c main_arg0) (V c main_arg14) (V c main_arg15) (V c main_arg16) (V c main_arg17))
        (V c main_arg20) (V c main_arg21) (((cfg0.win 23).blk t).view.emb (ix2 p q))
  rw [paySk_eq, kDense_apply, blkWhole9 V c t, blkWhole10 V c t, blkWhole11 V c t, blkWhole12 V c t,
    blkWhole15 V c t, blkWhole16 V c t]
  unfold denseOut
  have e1 : (((cfg0.win 23).blk t).view.emb (ix2 p q)) 1 = q := Fin.ext (by
    show win0_23.index t (1 : Fin 2) * 64 + 1 * q.val = q.val; omega)
  have e0 : ((((cfg0.win 23).blk t).view.emb (ix2 p q)) 0).val = t.val * 5000 + p.val := by
    show win0_23.index t (0 : Fin 2) * 5000 + 1 * p.val = t.val * 5000 + p.val; omega
  rw [e1]
  exact congrArg (· + V c main_arg21 (ix1 q)) (Finset.sum_congr rfl fun k _ =>
    congrArg (· * V c main_arg20 (ix2 k q)) (pay10_blk V c t p k _ e0))

theorem mem_blk23 (t : Fin cfg0.N) (i : S50000x64.Idx) :
    i ∈ ((cfg0.win 23).blk t).view.set ↔ ∀ a : Fin 2, win0_23.index t a * S5000x64.size a ≤ (i a).val
      ∧ (i a).val < win0_23.index t a * S5000x64.size a + S5000x64.size a := by
  show i ∈ ((View.whole main_v0_6).slice (win0_23.rect t)).set ↔ _
  rw [View.set_slice_whole, Rect.mem_set_unit]
  exact Iff.rfl

theorem cover23 (i : S50000x64.Idx) :
    ∃ t : Fin cfg0.N, (cfg0.win 23).flush t = true ∧ i ∈ ((cfg0.win 23).blk t).view.set := by
  have hi0 : (i 0).val < 50000 := (i 0).isLt
  have hi1 : (i 1).val < 64 := (i 1).isLt
  have hN : cfg0.N = 10 := N_0
  have hlt : (i 0).val / 5000 < cfg0.N := hN ▸ (by omega : (i 0).val / 5000 < 10)
  obtain ⟨-, -, -, -, -, -, ja, jb, -⟩ := idxFacts0 ⟨(i 0).val / 5000, hlt⟩
  refine ⟨⟨(i 0).val / 5000, hlt⟩, flush0_23 _, ?_⟩
  rw [mem_blk23]
  intro a
  match a with
  | ⟨0, _⟩ =>
    show win0_23.index ⟨(i 0).val / 5000, hlt⟩ (0 : Fin 2) * 5000 ≤ (i 0).val
      ∧ (i 0).val < win0_23.index ⟨(i 0).val / 5000, hlt⟩ (0 : Fin 2) * 5000 + 5000
    rw [ja]; show (i 0).val / 5000 * 5000 ≤ (i 0).val ∧ (i 0).val < (i 0).val / 5000 * 5000 + 5000; omega
  | ⟨1, _⟩ =>
    show win0_23.index ⟨(i 0).val / 5000, hlt⟩ (1 : Fin 2) * 64 ≤ (i 1).val
      ∧ (i 1).val < win0_23.index ⟨(i 0).val / 5000, hlt⟩ (1 : Fin 2) * 64 + 64
    rw [jb]; omega

/-- Sk's ARRAY AFTER THE REGION: the dense layer applied to `GSh`, of the arrays as the region finds them. -/
theorem arrSk (c : Dev nD) : (dat0 V c).arrAt 23 cfg0.N
    = denseOut (GSh (V c main_arg0) (V c main_arg14) (V c main_arg15) (V c main_arg16) (V c main_arg17))
        (V c main_arg20) (V c main_arg21) :=
  (dat0 V c).arrAt_eq_of_cover 23 _ (fun t _ => flushedSk V c t) cover23

end EntryContents

/-! ## The reference's stages are the same row functions

Each stage of the reference's softmax chain is read at an index `(r, ·)` and found to be the corresponding row function of
row `r` of the node table: the hidden row, the logits, the top logit, the exponentials, the quotient. -/

section Reference
open Cert.ReferenceIdeal.Read

/-- The reference's row maximum over the 32 columns, read at row `r`: the same fold of `max` from the initial value. -/
theorem hostRowMax (y : Cert.ReferenceIdeal.S50000x32.Idx → EReal) (init : Cert.ReferenceIdeal.S_.Idx → EReal) (r : Fin 50000) :
    Host.reduce (FloatOps.maximumf (F := Ideal) (φ := .f32)) y init Cert.ReferenceIdeal.Gen.reducesTo_S50000x32_S50000_d1
        Cert.ReferenceIdeal.Gen.h_S_ (ix1 r)
      = (Finset.univ : Finset (Fin 32)).fold max (init (Shape.Idx.first Cert.ReferenceIdeal.Gen.h_S_)) (fun k => y (ix2 r k)) := by
  refine (Host.reduce_eq_fold_single (FloatOps.maximumf (F := Ideal) (φ := .f32)) y init _
    (by decide : Cert.ReferenceIdeal.S50000x32.Reduces [1] Cert.ReferenceIdeal.S50000) _ (ix1 r)).trans ?_
  exact congrArg
    (fun f : Fin 32 → EReal => (Finset.univ : Finset (Fin 32)).fold max (init (Shape.Idx.first Cert.ReferenceIdeal.Gen.h_S_)) f)
    (funext fun k => congrArg y (funext fun a => Fin.ext (by
      match a with
      | ⟨0, _⟩ => rfl
      | ⟨1, _⟩ => rfl)))

/-- The hidden stage at `(r, k)` is the hidden row of row `r`. -/
theorem ref_hid (x0 : (⟨S50000x64, .f32⟩ : BufTy).Contents (Elt Ideal)) (x14 : (⟨S64x64, .f32⟩ : BufTy).Contents (Elt Ideal)) (x15 : (⟨S64, .f32⟩ : BufTy).Contents (Elt Ideal)) (r : Fin 50000) (k : Fin 64) :
    val_main_v24 (F := Ideal) x0 x14 x15 (ix2 r k) = hidRow (fun l => x0 (ix2 r l)) x14 x15 k := by
  rw [val_main_v24_apply, val_main_v23_apply, val_main_v20_apply, val_main_v22_apply, val_main_v21_apply,
    val_main_call0_v0_apply, val_main_call0_cst_apply]
  have el : ∀ l : Fin 64, lidx_main_v20 (ix2 r k) l = ix2 r l := fun l => funext fun a => Fin.ext (by
      match a with
      | ⟨0, _⟩ => rfl
      | ⟨1, _⟩ => rfl)
  have er : ∀ l : Fin 64, ridx_main_v20 (ix2 r k) l = ix2 l k := fun l => funext fun a => Fin.ext (by
      match a with
      | ⟨0, _⟩ => rfl
      | ⟨1, _⟩ => rfl)
  have eb : idx_main_v21 (idx_main_v22 (ix2 r k)) = ix1 k := funext fun a => Fin.ext (by
      match a with
      | ⟨0, _⟩ => rfl)
  simp only [el, er, eb]
  rfl

/-- The logits' stage at `(r, q)` is the logit row of row `r`. -/
theorem ref_logit (x0 : (⟨S50000x64, .f32⟩ : BufTy).Contents (Elt Ideal)) (x14 : (⟨S64x64, .f32⟩ : BufTy).Contents (Elt Ideal)) (x15 : (⟨S64, .f32⟩ : BufTy).Contents (Elt Ideal)) (x16 : (⟨S64x32, .f32⟩ : BufTy).Contents (Elt Ideal)) (x17 : (⟨S32, .f32⟩ : BufTy).Contents (Elt Ideal)) (r : Fin 50000) (q : Fin 32) :
    val_main_v28 (F := Ideal) x0 x14 x15 x16 x17 (ix2 r q)
      = logitRow (hidRow (fun l => x0 (ix2 r l)) x14 x15) x16 x17 q := by
  rw [val_main_v28_apply, val_main_v25_apply, val_main_v27_apply, val_main_v26_apply]
  have el : ∀ k : Fin 64, lidx_main_v25 (ix2 r q) k = ix2 r k := fun k => funext fun a => Fin.ext (by
      match a with
      | ⟨0, _⟩ => rfl
      | ⟨1, _⟩ => rfl)
  have er : ∀ k : Fin 64, ridx_main_v25 (ix2 r q) k = ix2 k q := fun k => funext fun a => Fin.ext (by
      match a with
      | ⟨0, _⟩ => rfl
      | ⟨1, _⟩ => rfl)
  have eb : idx_main_v26 (idx_main_v27 (ix2 r q)) = ix1 q := funext fun a => Fin.ext (by
      match a with
      | ⟨0, _⟩ => rfl)
  simp only [el, er, eb, ref_hid]
  rfl

/-- The top-logit stage at row `r` is the top logit of row `r`'s logits: both programs fold `max` over the same 32 values
    from the same word, so the fold is matched whole. -/
theorem ref_top (x0 : (⟨S50000x64, .f32⟩ : BufTy).Contents (Elt Ideal)) (x14 : (⟨S64x64, .f32⟩ : BufTy).Contents (Elt Ideal)) (x15 : (⟨S64, .f32⟩ : BufTy).Contents (Elt Ideal)) (x16 : (⟨S64x32, .f32⟩ : BufTy).Contents (Elt Ideal)) (x17 : (⟨S32, .f32⟩ : BufTy).Contents (Elt Ideal)) (r : Fin 50000) :
    val_main_v31 (F := Ideal) x0 x14 x15 x16 x17 (ix1 r)
      = rowTop (logitRow (hidRow (fun l => x0 (ix2 r l)) x14 x15) x16 x17) := by
  rw [val_main_v31_apply, val_main_v30_apply, val_main_cst_0_apply]
  unfold val_main_v29
  rw [hostRowMax, val_main_cst_apply]
  simp only [ref_logit]
  rfl

/-- The exponentials' stage at `(r, q)`. -/
theorem ref_exp (x0 : (⟨S50000x64, .f32⟩ : BufTy).Contents (Elt Ideal)) (x14 : (⟨S64x64, .f32⟩ : BufTy).Contents (Elt Ideal)) (x15 : (⟨S64, .f32⟩ : BufTy).Contents (Elt Ideal)) (x16 : (⟨S64x32, .f32⟩ : BufTy).Contents (Elt Ideal)) (x17 : (⟨S32, .f32⟩ : BufTy).Contents (Elt Ideal)) (r : Fin 50000) (q : Fin 32) :
    val_main_v35 (F := Ideal) x0 x14 x15 x16 x17 (ix2 r q)
      = Ideal.exp (logitRow (hidRow (fun l => x0 (ix2 r l)) x14 x15) x16 x17 q
          - rowTop (logitRow (hidRow (fun l => x0 (ix2 r l)) x14 x15) x16 x17)) := by
  rw [val_main_v35_apply, val_main_v34_apply, val_main_v33_apply, val_main_v32_apply]
  have e : idx_main_v32 (idx_main_v33 (ix2 r q)) = ix1 r := funext fun a => Fin.ext (by
      match a with
      | ⟨0, _⟩ => rfl)
  rw [e, ref_top, ref_logit]
  rfl

/-- THE REFERENCE'S S_h is `GSh` of its arguments. -/
theorem ref_Sh (x0 : (⟨S50000x64, .f32⟩ : BufTy).Contents (Elt Ideal)) (x14 : (⟨S64x64, .f32⟩ : BufTy).Contents (Elt Ideal)) (x15 : (⟨S64, .f32⟩ : BufTy).Contents (Elt Ideal)) (x16 : (⟨S64x32, .f32⟩ : BufTy).Contents (Elt Ideal)) (x17 : (⟨S32, .f32⟩ : BufTy).Contents (Elt Ideal)) :
    val_main_v39 (F := Ideal) x0 x14 x15 x16 x17 = GSh x0 x14 x15 x16 x17 := by
  funext i
  obtain ⟨r, q, rfl⟩ : ∃ (r : Fin 50000) (q : Fin 32), i = ix2 r q := ⟨i 0, i 1, eq_ix2 i⟩
  rw [val_main_v39_apply, val_main_v38_apply, val_main_v37_apply, val_main_v36_apply, val_main_cst_1_apply]
  have e : ∀ k : Fin 32, idx_main_v36 (idx_main_v37 (idx_main_v38 (ix2 r q))) k = ix2 r k := fun k => funext fun a => Fin.ext (by
      match a with
      | ⟨0, _⟩ => rfl
      | ⟨1, _⟩ => rfl)
  simp only [e, ref_exp]
  show Ideal.div _ (Ideal.ofBits .f32 0x00000000#32 + _) = _
  rw [Ideal.ofBits_zero_f32, zero_add]
  rfl

/-- THE REFERENCE'S S_q is the dense layer applied to its S_h. -/
theorem ref_Sq (x0 : (⟨S50000x64, .f32⟩ : BufTy).Contents (Elt Ideal)) (x14 : (⟨S64x64, .f32⟩ : BufTy).Contents (Elt Ideal)) (x15 : (⟨S64, .f32⟩ : BufTy).Contents (Elt Ideal)) (x16 : (⟨S64x32, .f32⟩ : BufTy).Contents (Elt Ideal)) (x17 : (⟨S32, .f32⟩ : BufTy).Contents (Elt Ideal)) (x18 : (⟨S32x64, .f32⟩ : BufTy).Contents (Elt Ideal)) (x19 : (⟨S64, .f32⟩ : BufTy).Contents (Elt Ideal)) :
    val_main_v65 (F := Ideal) x0 x14 x15 x16 x17 x18 x19
      = denseOut (n := 50000) (val_main_v39 (F := Ideal) x0 x14 x15 x16 x17) x18 x19 := by
  funext i
  obtain ⟨r, cc, rfl⟩ : ∃ (r : Fin 50000) (cc : Fin 64), i = ix2 r cc := ⟨i 0, i 1, eq_ix2 i⟩
  rw [val_main_v65_apply, val_main_v62_apply, val_main_v64_apply, val_main_v63_apply]
  have el : ∀ k : Fin 32, lidx_main_v62 (ix2 r cc) k = ix2 r k := fun k => funext fun a => Fin.ext (by
      match a with
      | ⟨0, _⟩ => rfl
      | ⟨1, _⟩ => rfl)
  have er : ∀ k : Fin 32, ridx_main_v62 (ix2 r cc) k = ix2 k cc := fun k => funext fun a => Fin.ext (by
      match a with
      | ⟨0, _⟩ => rfl
      | ⟨1, _⟩ => rfl)
  have eb : idx_main_v63 (idx_main_v64 (ix2 r cc)) = ix1 cc := funext fun a => Fin.ext (by
      match a with
      | ⟨0, _⟩ => rfl)
  simp only [el, er, eb]
  rfl

/-- THE REFERENCE'S S_k likewise. -/
theorem ref_Sk (x0 : (⟨S50000x64, .f32⟩ : BufTy).Contents (Elt Ideal)) (x14 : (⟨S64x64, .f32⟩ : BufTy).Contents (Elt Ideal)) (x15 : (⟨S64, .f32⟩ : BufTy).Contents (Elt Ideal)) (x16 : (⟨S64x32, .f32⟩ : BufTy).Contents (Elt Ideal)) (x17 : (⟨S32, .f32⟩ : BufTy).Contents (Elt Ideal)) (x20 : (⟨S32x64, .f32⟩ : BufTy).Contents (Elt Ideal)) (x21 : (⟨S64, .f32⟩ : BufTy).Contents (Elt Ideal)) :
    val_main_v69 (F := Ideal) x0 x14 x15 x16 x17 x20 x21
      = denseOut (n := 50000) (val_main_v39 (F := Ideal) x0 x14 x15 x16 x17) x20 x21 := by
  funext i
  obtain ⟨r, cc, rfl⟩ : ∃ (r : Fin 50000) (cc : Fin 64), i = ix2 r cc := ⟨i 0, i 1, eq_ix2 i⟩
  rw [val_main_v69_apply, val_main_v66_apply, val_main_v68_apply, val_main_v67_apply]
  have el : ∀ k : Fin 32, lidx_main_v66 (ix2 r cc) k = ix2 r k := fun k => funext fun a => Fin.ext (by
      match a with
      | ⟨0, _⟩ => rfl
      | ⟨1, _⟩ => rfl)
  have er : ∀ k : Fin 32, ridx_main_v66 (ix2 r cc) k = ix2 k cc := fun k => funext fun a => Fin.ext (by
      match a with
      | ⟨0, _⟩ => rfl
      | ⟨1, _⟩ => rfl)
  have eb : idx_main_v67 (idx_main_v68 (ix2 r cc)) = ix1 cc := funext fun a => Fin.ext (by
      match a with
      | ⟨0, _⟩ => rfl)
  simp only [el, er, eb]
  rfl

end Reference

end Stage0b

open Stage0b

variable (m : (ℓ : Loc nD τ sig) → Buf (Elt Ideal) ℓ) (ρ : Dev nD → PrngReg) (c : Dev nD)

/-! ## The three links: after region 0 the buffers hold the reference's stages -/

/-- After region 0 the buffer of S_h holds the reference's S_h: the ten blocks written back tile the array with `GSh` of
    the launch arguments, and the reference's chain of stages is `GSh` of the same arguments. -/
theorem node_Sh : W1 (F := Ideal) m ρ c (Proc.devRef .tc main_v0_4) = rSh m c :=
  calc W1 m ρ c (Proc.devRef .tc main_v0_4)
    _ = (dat0 (V0 m ρ) c).arrAt 21 cfg0.N := W1_arr m ρ c 21
    _ = GSh (a0 m c) (a14 m c) (a15 m c) (a16 m c) (a17 m c) := arrSh (V0 m ρ) c
    _ = rSh m c := (ref_Sh (a0 m c) (a14 m c) (a15 m c) (a16 m c) (a17 m c)).symm

/-- After region 0 the buffer of S_q holds the reference's S_q: on both sides the dense layer (W_Q, b_Q) applied to each
    row of S_h. -/
theorem node_Sq : W1 (F := Ideal) m ρ c (Proc.devRef .tc main_v0_5) = rSq m c :=
  calc W1 m ρ c (Proc.devRef .tc main_v0_5)
    _ = (dat0 (V0 m ρ) c).arrAt 22 cfg0.N := W1_arr m ρ c 22
    _ = denseOut (n := 50000) (GSh (a0 m c) (a14 m c) (a15 m c) (a16 m c) (a17 m c)) (a18 m c) (a19 m c) := arrSq (V0 m ρ) c
    _ = denseOut (n := 50000) (rSh m c) (a18 m c) (a19 m c) :=
        congrArg (fun S => denseOut (n := 50000) S (a18 m c) (a19 m c))
          (ref_Sh (a0 m c) (a14 m c) (a15 m c) (a16 m c) (a17 m c)).symm
    _ = rSq m c := (ref_Sq (a0 m c) (a14 m c) (a15 m c) (a16 m c) (a17 m c) (a18 m c) (a19 m c)).symm

/-- After region 0 the buffer of S_k holds the reference's S_k: the dense layer (W_K, b_K) applied to each row of S_h. -/
theorem node_Sk : W1 (F := Ideal) m ρ c (Proc.devRef .tc main_v0_6) = rSk m c :=
  calc W1 m ρ c (Proc.devRef .tc main_v0_6)
    _ = (dat0 (V0 m ρ) c).arrAt 23 cfg0.N := W1_arr m ρ c 23
    _ = denseOut (n := 50000) (GSh (a0 m c) (a14 m c) (a15 m c) (a16 m c) (a17 m c)) (a20 m c) (a21 m c) := arrSk (V0 m ρ) c
    _ = denseOut (n := 50000) (rSh m c) (a20 m c) (a21 m c) :=
        congrArg (fun S => denseOut (n := 50000) S (a20 m c) (a21 m c))
          (ref_Sh (a0 m c) (a14 m c) (a15 m c) (a16 m c) (a17 m c)).symm
    _ = rSk m c := (ref_Sk (a0 m c) (a14 m c) (a15 m c) (a16 m c) (a17 m c) (a20 m c) (a21 m c)).symm

/-! ## S_h is carried to the end of the run -/

/-- After region 0 nothing writes S_h's array: it is no array of a later region, and no host operation of the
    stretches between the regions has it as a result. So the run ends with what region 0 left there. -/
theorem sh_carry : W15 (F := Ideal) m ρ c (Proc.devRef .tc main_v0_4) = W1 (F := Ideal) m ρ c (Proc.devRef .tc main_v0_4) :=
  calc W15 m ρ c (Proc.devRef .tc main_v0_4)
    _ = W14 m ρ c (Proc.devRef .tc main_v0_4) := W15_of_ne m ρ c main_v0_4 (by decide)
    _ = W13 m ρ c (Proc.devRef .tc main_v0_4) := StableHlo.after_of_forall_not_mem (b := Proc.devRef .tc main_v0_4) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W12 m ρ c (Proc.devRef .tc main_v0_4) := W13_of_ne m ρ c main_v0_4 (by decide)
    _ = W11 m ρ c (Proc.devRef .tc main_v0_4) := StableHlo.after_of_forall_not_mem (b := Proc.devRef .tc main_v0_4) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_v0_4) := W11_of_ne m ρ c main_v0_4 (by decide)
    _ = W9 m ρ c (Proc.devRef .tc main_v0_4) := StableHlo.after_of_forall_not_mem (b := Proc.devRef .tc main_v0_4) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_v0_4) := W9_of_ne m ρ c main_v0_4 (by decide)
    _ = W7 m ρ c (Proc.devRef .tc main_v0_4) := StableHlo.after_of_forall_not_mem (b := Proc.devRef .tc main_v0_4) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_v0_4) := W7_of_ne m ρ c main_v0_4 (by decide)
    _ = W5 m ρ c (Proc.devRef .tc main_v0_4) := StableHlo.after_of_forall_not_mem (b := Proc.devRef .tc main_v0_4) _ _ (List.forall_iff_forall_mem.mp (by
          simp only [hostOps1_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_v0_4) := StableHlo.after_of_forall_not_mem (b := Proc.devRef .tc main_v0_4) _ _ (List.forall_iff_forall_mem.mp (by
          simp only [hostOps1_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v0_4) := StableHlo.after_of_forall_not_mem (b := Proc.devRef .tc main_v0_4) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_v0_4) := StableHlo.after_of_forall_not_mem (b := Proc.devRef .tc main_v0_4) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v0_4) := StableHlo.after_of_forall_not_mem (b := Proc.devRef .tc main_v0_4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

end Cert.Bridge

end
-- ==== Proof.Stage1.lean ====
/-
  The five row takes between the node transforms and the edge kernel.

  A row take `x[idx]` from a table of 50000 rows, as the kernel program computes it and as the reference does.  Both wrap
  a negative index word by adding 50000 and read the table's rows through the wrapped column of indices with one gather.
  The kernel program in addition computes a range mask (0 ≤ wrapped index ≤ 49999, reduced by `and` along the column's
  unit axis) and selects, row by row, between the gathered row and a constant filler.  When every index word lies in
  [-50000, 50000) the wrapped index lies in [0, 50000), so the mask is 1 everywhere and the select returns the gathered
  rows: the kernel's take IS the gather of the same table through the same column, which is the reference's stage.  The
  gather itself is never opened: both sides are one gather of equal operands.

  The five stretches run one after the other; a later stretch writes only its own buffers, so each take's result, and
  each table and index argument a later stretch reads, is carried unchanged to where it is read.
-/
import proofs.«412482_j67259187855861_1_alg».proof.Proof.Gen.KernelIdeal.Frame
import proofs.«412482_j67259187855861_1_alg».proof.Proof.Args
import Idealize.ShloMosaic.Lib.StableHlo.Run
import Idealize.ShloMosaic.Lib.ReduceAll
import Idealize.ShloMosaic.Lib.Affine
import Idealize.ShloMosaic.PureOps.Reduce

noncomputable section

namespace Cert.Bridge

open Idealize.ShloMosaic Idealize.ShloMosaic.TcCoe Idealize.SL.Sem Cert.KernelIdeal Cert.KernelIdeal.Gen

section Generic

variable {F : FTy → Type} [FloatOps F]

/-! ## Words, folds and masks -/

/-- The wrapped word: a negative index counts from the end of a table of 50000 rows. -/
theorem wrap_range (w : BitVec 32) (h : -50000 ≤ w.toInt ∧ w.toInt < 50000) :
    (0#32 : BitVec 32).toInt ≤ (Scalar.select (IntOp.cmpi .slt w 0#32) (IntOp.addi w 50000#32) w).toInt
      ∧ (Scalar.select (IntOp.cmpi .slt w 0#32) (IntOp.addi w 50000#32) w).toInt ≤ (49999#32 : BitVec 32).toInt := by
  have h0 : (0#32 : BitVec 32).toInt = 0 := by decide
  have h1 : (49999#32 : BitVec 32).toInt = 49999 := by decide
  have h2 : (50000#32 : BitVec 32).toInt = 50000 := by decide
  rw [h0, h1]
  by_cases hneg : w.toInt < 0
  · have e : IntOp.cmpi .slt w 0#32 = 1#1 := IntOp.cmpi_slt.mpr (by rw [h0]; exact hneg)
    rw [e]
    show 0 ≤ (w + 50000#32).toInt ∧ (w + 50000#32).toInt ≤ 49999
    rw [BitVec.toInt_add, h2]
    have : (w.toInt + 50000).bmod (2 ^ 32) = w.toInt + 50000 := by
      apply Int.bmod_eq_of_le <;> omega
    rw [this]; omega
  · have e : ¬ IntOp.cmpi .slt w 0#32 = (1 : BitVec 1) := fun e => hneg (by have := IntOp.cmpi_slt.mp e; rw [h0] at this; exact this)
    show 0 ≤ (if IntOp.cmpi .slt w 0#32 = 1 then IntOp.addi w 50000#32 else w).toInt ∧ (if IntOp.cmpi .slt w 0#32 = 1 then IntOp.addi w 50000#32 else w).toInt ≤ 49999
    rw [if_neg e]; omega

/-- A left fold by `and` from 1 over words that are all 1 is 1. -/
theorem foldl_andi_one {ι : Type} (f : ι → BitVec 1) :
    ∀ (l : List ι), (∀ n ∈ l, f n = 1#1) → l.foldl (fun r n => IntOp.andi r (f n)) 1#1 = 1#1
  | [], _ => rfl
  | a :: l, h => by
    have e : IntOp.andi (1#1) (1#1) = 1#1 := by decide
    rw [List.foldl_cons, h a List.mem_cons_self, e]
    exact foldl_andi_one f l (fun n hn => h n (List.mem_cons_of_mem _ hn))

/-- A reduction by `and` from 1 of a mask that is 1 everywhere is 1 everywhere. -/
theorem reduce_andi_of_all {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1) (j : t.Idx) :
    Host.reduce IntOp.andi x init h hu j = 1#1 := by
  rw [Host.reduce_eq_foldl, hinit]
  exact foldl_andi_one x _ (fun n _ => hx n)

/-- A select under a mask that is 1 everywhere is its first branch. -/
theorem select_of_all_one {s : Shape} {α : Type} (msk : IVec s 1) (a b : s.Idx → α) (h : ∀ i, msk i = 1#1) :
    select msk a b = a := by
  funext i
  show Scalar.select (msk i) (a i) (b i) = a i
  rw [h i]; rfl

/-! ## Typed references: contents moved to a buffer's own type and back -/

/-- Contents written to a tensor value's buffer and read back at the value's type are the contents. -/
theorem ofBuf_toBuf {T : BufTy} (x : StableHlo.TRef sig T) (v : T.Contents (Elt F)) : x.ofBuf (x.toBuf v) = v := by
  obtain ⟨r, h, h2, h3⟩ := x
  subst h
  rfl

/-- The same for a literal reference typed twice (two typings of one buffer differ only in their proofs). -/
theorem ofBuf_toBuf_of {T : BufTy} (r : Ref sig .tc) (h1 h1' : r.ty = T) (h2 h2' : r.space ≠ .host)
    (h3 h3' : r.isScoped = false) (v : T.Contents (Elt F)) :
    (StableHlo.TRef.of r h1 h2 h3).ofBuf ((StableHlo.TRef.of r h1' h2' h3').toBuf v) = v := by
  subst h1
  rfl

/-- A buffer's contents that are, as they stand, contents at the value's type read at that type as themselves. -/
theorem ofBuf_of_heq {T : BufTy} (x : StableHlo.TRef sig T) {X : x.ref.ty.Contents (Elt F)} {Y : T.Contents (Elt F)}
    (h : HEq X Y) : x.ofBuf X = Y := by
  obtain ⟨r, h1, h2, h3⟩ := x
  subst h1
  exact eq_of_heq h

/-- Conversely, what a buffer's contents read as at the value's type is what they are. -/
theorem heq_of_ofBuf {T : BufTy} (x : StableHlo.TRef sig T) {X : x.ref.ty.Contents (Elt F)} {Y : T.Contents (Elt F)}
    (h : x.ofBuf X = Y) : HEq X Y := by
  obtain ⟨r, h1, h2, h3⟩ := x
  subst h1
  exact heq_of_eq h

/-! ## The take -/

/-- The column of wrapped indices: a negative word counts from the end of the table (50000 is added), any other word is
    kept; the vector is then laid out as a column. -/
def takeIdx (idx : (⟨S800000, .i32⟩ : BufTy).Contents (Elt F)) : (⟨S800000x1, .i32⟩ : BufTy).Contents (Elt F) :=
  broadcastInDim S800000x1 ![0] bcast_S800000_S800000x1_0
    (select (cmpi .slt idx (broadcastInDim S800000 ![] bcast_S_S800000 (constantI S_ 32 0#32)))
      (addi idx (broadcastInDim S800000 ![] bcast_S_S800000 (constantI S_ 32 50000#32))) idx)

/-- The range mask of a column of indices: 1 at a row exactly when 0 ≤ index ≤ 49999 there (the two comparisons joined
    by `and`, then reduced by `and` along the column's unit axis from the constant 1). -/
def takeMask (col : (⟨S800000x1, .i32⟩ : BufTy).Contents (Elt F)) : (⟨S800000, .i1⟩ : BufTy).Contents (Elt F) :=
  Host.reduce IntOp.andi
    (andi (cmpi .sge col (broadcastInDim S800000x1 ![] bcast_S_S800000x1 (constantI S_ 32 0#32)))
      (cmpi .sle col (broadcastInDim S800000x1 ![0, 1] bcast_S1x1_S800000x1_0_1
        (broadcastInDim S1x1 ![1] bcast_S1_S1x1_1 (constantI S1 32 49999#32)))))
    (constantI S_ 1 1#1) reducesTo_S800000x1_S800000_d1 h_S_

/-- The kernel program's take of the rows of `x` through `idx`: the gathered rows where the range mask is 1, a constant
    filler elsewhere. -/
def takeK (x : (⟨S50000x64, .f32⟩ : BufTy).Contents (Elt F)) (idx : (⟨S800000, .i32⟩ : BufTy).Contents (Elt F)) :
    (⟨S800000x64, .f32⟩ : BufTy).Contents (Elt F) :=
  select (broadcastInDim S800000x64 ![0] bcast_S800000_S800000x64_0 (takeMask (takeIdx idx)))
    (Host.gather gather_S50000x64_S800000x1_S800000x64_1_0_n_n_0_1_164 x (takeIdx idx))
    (broadcastInDim S800000x64 ![] bcast_S_S800000x64 (constant (F := F) S_ .f32 0x7FC00000#32))

/-- Each entry of the wrapped column is the wrap of one index word. -/
theorem takeIdx_apply (idx : (⟨S800000, .i32⟩ : BufTy).Contents (Elt F)) (q : S800000x1.Idx) :
    ∃ i : S800000.Idx, takeIdx idx q
      = Scalar.select (IntOp.cmpi .slt (idx i) 0#32) (IntOp.addi (idx i) 50000#32) (idx i) :=
  ⟨_, rfl⟩

/-- With every index word in [-50000, 50000) the range mask of the wrapped column is 1 at every row. -/
theorem takeMask_takeIdx (idx : (⟨S800000, .i32⟩ : BufTy).Contents (Elt F))
    (h : ∀ i, -50000 ≤ (idx i).toInt ∧ (idx i).toInt < 50000) (p : S800000.Idx) :
    takeMask (takeIdx idx) p = 1#1 := by
  unfold takeMask
  refine reduce_andi_of_all _ _ _ _ rfl (fun q => ?_) p
  show IntOp.andi (IntOp.cmpi .sge (takeIdx idx q) 0#32) (IntOp.cmpi .sle (takeIdx idx q) 49999#32) = 1#1
  obtain ⟨i, e⟩ := takeIdx_apply idx q
  rw [e]
  have hw := wrap_range (idx i) (h i)
  exact IntOp.andi_eq_one.mpr ⟨IntOp.cmpi_sge.mpr hw.1, IntOp.cmpi_sle.mpr hw.2⟩

/-- THE TAKE IS THE GATHER. With every index word in [-50000, 50000) the kernel program's take of the rows of `x` is the
    plain gather of `x` through the wrapped column. -/
theorem takeK_eq_gather (x : (⟨S50000x64, .f32⟩ : BufTy).Contents (Elt F)) (idx : (⟨S800000, .i32⟩ : BufTy).Contents (Elt F))
    (h : ∀ i, -50000 ≤ (idx i).toInt ∧ (idx i).toInt < 50000) :
    takeK (F := F) x idx = Host.gather gather_S50000x64_S800000x1_S800000x64_1_0_n_n_0_1_164 x (takeIdx idx) := by
  unfold takeK
  refine select_of_all_one _ _ _ (fun j => ?_)
  show takeMask (takeIdx idx) _ = 1#1
  exact takeMask_takeIdx idx h _

/-! ## The five stretches, read from any entry contents

Each stretch is the same 23 operations over its own buffers.  Its result buffer, read at the value's type, holds the take
of the table it reads through the index argument it reads, both read at their values' types from the entry contents. -/

open Idealize.ShloMosaic.StableHlo in
/-- The first take stretch. -/
theorem after_hostOps1_main_v1 (V : Valuation τ sig (Elt F)) :
    (StableHlo.TRef.of main_v1 : StableHlo.TRef sig ⟨S800000x64, .f32⟩).ofBuf (StableHlo.after hostOps1 V (Proc.devRef .tc main_v1))
      = takeK (F := F) ((StableHlo.TRef.of main_v0_2 : StableHlo.TRef sig ⟨S50000x64, .f32⟩).ofBuf (V (Proc.devRef .tc main_v0_2)))
          ((StableHlo.TRef.of main_arg2 : StableHlo.TRef sig ⟨S800000, .i32⟩).ofBuf (V (Proc.devRef .tc main_arg2))) := by
  after_results_simp
  simp only [ofBuf_toBuf_of]
  rfl

open Idealize.ShloMosaic.StableHlo in
/-- The second take stretch. -/
theorem after_hostOps1_1_main_v2 (V : Valuation τ sig (Elt F)) :
    (StableHlo.TRef.of main_v2 : StableHlo.TRef sig ⟨S800000x64, .f32⟩).ofBuf (StableHlo.after hostOps1_1 V (Proc.devRef .tc main_v2))
      = takeK (F := F) ((StableHlo.TRef.of main_v0_3 : StableHlo.TRef sig ⟨S50000x64, .f32⟩).ofBuf (V (Proc.devRef .tc main_v0_3)))
          ((StableHlo.TRef.of main_arg3 : StableHlo.TRef sig ⟨S800000, .i32⟩).ofBuf (V (Proc.devRef .tc main_arg3))) := by
  after_results_simp
  simp only [ofBuf_toBuf_of]
  rfl

open Idealize.ShloMosaic.StableHlo in
/-- The third take stretch. -/
theorem after_hostOps1_2_main_v3 (V : Valuation τ sig (Elt F)) :
    (StableHlo.TRef.of main_v3 : StableHlo.TRef sig ⟨S800000x64, .f32⟩).ofBuf (StableHlo.after hostOps1_2 V (Proc.devRef .tc main_v3))
      = takeK (F := F) ((StableHlo.TRef.of main_v0_6 : StableHlo.TRef sig ⟨S50000x64, .f32⟩).ofBuf (V (Proc.devRef .tc main_v0_6)))
          ((StableHlo.TRef.of main_arg2 : StableHlo.TRef sig ⟨S800000, .i32⟩).ofBuf (V (Proc.devRef .tc main_arg2))) := by
  after_results_simp
  simp only [ofBuf_toBuf_of]
  rfl

open Idealize.ShloMosaic.StableHlo in
/-- The fourth take stretch. -/
theorem after_hostOps1_3_main_v4 (V : Valuation τ sig (Elt F)) :
    (StableHlo.TRef.of main_v4 : StableHlo.TRef sig ⟨S800000x64, .f32⟩).ofBuf (StableHlo.after hostOps1_3 V (Proc.devRef .tc main_v4))
      = takeK (F := F) ((StableHlo.TRef.of main_v0_5 : StableHlo.TRef sig ⟨S50000x64, .f32⟩).ofBuf (V (Proc.devRef .tc main_v0_5)))
          ((StableHlo.TRef.of main_arg3 : StableHlo.TRef sig ⟨S800000, .i32⟩).ofBuf (V (Proc.devRef .tc main_arg3))) := by
  after_results_simp
  simp only [ofBuf_toBuf_of]
  rfl

open Idealize.ShloMosaic.StableHlo in
/-- The fifth take stretch. -/
theorem after_hostOps1_4_main_v5 (V : Valuation τ sig (Elt F)) :
    (StableHlo.TRef.of main_v5 : StableHlo.TRef sig ⟨S800000x64, .f32⟩).ofBuf (StableHlo.after hostOps1_4 V (Proc.devRef .tc main_v5))
      = takeK (F := F) ((StableHlo.TRef.of main_v0_1 : StableHlo.TRef sig ⟨S50000x64, .f32⟩).ofBuf (V (Proc.devRef .tc main_v0_1)))
          ((StableHlo.TRef.of main_arg2 : StableHlo.TRef sig ⟨S800000, .i32⟩).ofBuf (V (Proc.devRef .tc main_arg2))) := by
  after_results_simp
  simp only [ofBuf_toBuf_of]
  rfl

/-! ## What each stretch writes

A buffer outside a stretch's own 23 result buffers keeps its contents across the stretch. -/

/-- The buffers the first take stretch writes. -/
abbrev takeW0 : List (Ref sig .tc) :=
  [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v1]
theorem hostOps1_writes : (hostOps1 : List (HloOp τ sig (Elt F))).Forall fun op =>
    op.writes ⊆ (takeW0.map (Proc.devRef (τ := τ) .tc)).toFinset := by
  simp only [hostOps1, List.Forall, StableHlo.nullary_writes, StableHlo.unary_writes, StableHlo.binary_writes,
    StableHlo.ternary_writes, Finset.singleton_subset_iff, List.mem_toFinset]
  repeat' apply And.intro
  all_goals exact List.mem_map_of_mem (by decide)
theorem after_hostOps1_of (V : Valuation τ sig (Elt F)) {r : Ref sig .tc} (h : r ∉ takeW0) :
    StableHlo.after hostOps1 V (Proc.devRef .tc r) = V (Proc.devRef .tc r) :=
  StableHlo.after_of_writes_sub hostOps1 V hostOps1_writes h

/-- The buffers the second take stretch writes. -/
abbrev takeW1 : List (Ref sig .tc) :=
  [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v2]
theorem hostOps1_1_writes : (hostOps1_1 : List (HloOp τ sig (Elt F))).Forall fun op =>
    op.writes ⊆ (takeW1.map (Proc.devRef (τ := τ) .tc)).toFinset := by
  simp only [hostOps1_1, List.Forall, StableHlo.nullary_writes, StableHlo.unary_writes, StableHlo.binary_writes,
    StableHlo.ternary_writes, Finset.singleton_subset_iff, List.mem_toFinset]
  repeat' apply And.intro
  all_goals exact List.mem_map_of_mem (by decide)
theorem after_hostOps1_1_of (V : Valuation τ sig (Elt F)) {r : Ref sig .tc} (h : r ∉ takeW1) :
    StableHlo.after hostOps1_1 V (Proc.devRef .tc r) = V (Proc.devRef .tc r) :=
  StableHlo.after_of_writes_sub hostOps1_1 V hostOps1_1_writes h

/-- The buffers the third take stretch writes. -/
abbrev takeW2 : List (Ref sig .tc) :=
  [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v3]
theorem hostOps1_2_writes : (hostOps1_2 : List (HloOp τ sig (Elt F))).Forall fun op =>
    op.writes ⊆ (takeW2.map (Proc.devRef (τ := τ) .tc)).toFinset := by
  simp only [hostOps1_2, List.Forall, StableHlo.nullary_writes, StableHlo.unary_writes, StableHlo.binary_writes,
    StableHlo.ternary_writes, Finset.singleton_subset_iff, List.mem_toFinset]
  repeat' apply And.intro
  all_goals exact List.mem_map_of_mem (by decide)
theorem after_hostOps1_2_of (V : Valuation τ sig (Elt F)) {r : Ref sig .tc} (h : r ∉ takeW2) :
    StableHlo.after hostOps1_2 V (Proc.devRef .tc r) = V (Proc.devRef .tc r) :=
  StableHlo.after_of_writes_sub hostOps1_2 V hostOps1_2_writes h

/-- The buffers the fourth take stretch writes. -/
abbrev takeW3 : List (Ref sig .tc) :=
  [main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_v14, main_call3_cst, main_call3_v15, main_v4]
theorem hostOps1_3_writes : (hostOps1_3 : List (HloOp τ sig (Elt F))).Forall fun op =>
    op.writes ⊆ (takeW3.map (Proc.devRef (τ := τ) .tc)).toFinset := by
  simp only [hostOps1_3, List.Forall, StableHlo.nullary_writes, StableHlo.unary_writes, StableHlo.binary_writes,
    StableHlo.ternary_writes, Finset.singleton_subset_iff, List.mem_toFinset]
  repeat' apply And.intro
  all_goals exact List.mem_map_of_mem (by decide)
theorem after_hostOps1_3_of (V : Valuation τ sig (Elt F)) {r : Ref sig .tc} (h : r ∉ takeW3) :
    StableHlo.after hostOps1_3 V (Proc.devRef .tc r) = V (Proc.devRef .tc r) :=
  StableHlo.after_of_writes_sub hostOps1_3 V hostOps1_3_writes h

/-- The buffers the fifth take stretch writes. -/
abbrev takeW4 : List (Ref sig .tc) :=
  [main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_v14, main_call4_cst, main_call4_v15, main_v5]
theorem hostOps1_4_writes : (hostOps1_4 : List (HloOp τ sig (Elt F))).Forall fun op =>
    op.writes ⊆ (takeW4.map (Proc.devRef (τ := τ) .tc)).toFinset := by
  simp only [hostOps1_4, List.Forall, StableHlo.nullary_writes, StableHlo.unary_writes, StableHlo.binary_writes,
    StableHlo.ternary_writes, Finset.singleton_subset_iff, List.mem_toFinset]
  repeat' apply And.intro
  all_goals exact List.mem_map_of_mem (by decide)
theorem after_hostOps1_4_of (V : Valuation τ sig (Elt F)) {r : Ref sig .tc} (h : r ∉ takeW4) :
    StableHlo.after hostOps1_4 V (Proc.devRef .tc r) = V (Proc.devRef .tc r) :=
  StableHlo.after_of_writes_sub hostOps1_4 V hostOps1_4_writes h

/-! ## The reference's index columns

The reference wraps the index words and lays them out as a column by the same operations, once per take. -/

theorem takeIdx_eq_val_main_v45 (idx : (⟨S800000, .i32⟩ : BufTy).Contents (Elt F)) :
    takeIdx (F := F) idx = Cert.ReferenceIdeal.Read.val_main_v45 (F := F) idx := rfl
theorem takeIdx_eq_val_main_v52 (idx : (⟨S800000, .i32⟩ : BufTy).Contents (Elt F)) :
    takeIdx (F := F) idx = Cert.ReferenceIdeal.Read.val_main_v52 (F := F) idx := rfl
theorem takeIdx_eq_val_main_v75 (idx : (⟨S800000, .i32⟩ : BufTy).Contents (Elt F)) :
    takeIdx (F := F) idx = Cert.ReferenceIdeal.Read.val_main_v75 (F := F) idx := rfl
theorem takeIdx_eq_val_main_v82 (idx : (⟨S800000, .i32⟩ : BufTy).Contents (Elt F)) :
    takeIdx (F := F) idx = Cert.ReferenceIdeal.Read.val_main_v82 (F := F) idx := rfl
theorem takeIdx_eq_val_main_v96 (idx : (⟨S800000, .i32⟩ : BufTy).Contents (Elt F)) :
    takeIdx (F := F) idx = Cert.ReferenceIdeal.Read.val_main_v96 (F := F) idx := rfl

/-! ## The fold between region 0's exit and region 1's entry -/

section Fold

variable (m : (ℓ : Loc nD τ sig) → Buf (Elt F) ℓ) (ρ : Dev nD → PrngReg) (c : Dev nD)

theorem W2_of {r : Ref sig .tc} (h : r ∉ takeW0) :
    W2 m ρ c (Proc.devRef .tc r) = W1 m ρ c (Proc.devRef .tc r) := after_hostOps1_of _ h
theorem W3_of {r : Ref sig .tc} (h : r ∉ takeW1) :
    W3 m ρ c (Proc.devRef .tc r) = W2 m ρ c (Proc.devRef .tc r) := after_hostOps1_1_of _ h
theorem W4_of {r : Ref sig .tc} (h : r ∉ takeW2) :
    W4 m ρ c (Proc.devRef .tc r) = W3 m ρ c (Proc.devRef .tc r) := after_hostOps1_2_of _ h
theorem W5_of {r : Ref sig .tc} (h : r ∉ takeW3) :
    W5 m ρ c (Proc.devRef .tc r) = W4 m ρ c (Proc.devRef .tc r) := after_hostOps1_3_of _ h
theorem W6_of {r : Ref sig .tc} (h : r ∉ takeW4) :
    W6 m ρ c (Proc.devRef .tc r) = W5 m ρ c (Proc.devRef .tc r) := after_hostOps1_4_of _ h

/-- Region 0 leaves the two index arguments as launched. -/
theorem W1_main_arg2 : W1 m ρ c (Proc.devRef .tc main_arg2) = m ((c : Thread nD τ).loc main_arg2) :=
  (W1_of_ne m ρ c main_arg2 (by decide)).trans rfl
theorem W1_main_arg3 : W1 m ρ c (Proc.devRef .tc main_arg3) = m ((c : Thread nD τ).loc main_arg3) :=
  (W1_of_ne m ρ c main_arg3 (by decide)).trans rfl

end Fold

end Generic

/-! ## The five takes at region 1's entry -/

variable (m : (ℓ : Loc nD τ sig) → Buf (Elt Ideal) ℓ) (ρ : Dev nD → PrngReg) (c : Dev nD)

/-- The rows D_h[source]: the first take's result, as region 1 finds it, is the reference's stage. -/
theorem take_DhSrc (hD : W1 (F := Ideal) m ρ c (Proc.devRef .tc main_v0_2) = rDh m c)
    (hs : ∀ i, -50000 ≤ (a2 m c i).toInt ∧ (a2 m c i).toInt < 50000) :
    W6 (F := Ideal) m ρ c (Proc.devRef .tc main_v1) = rDhSrc m c := by
  -- the result is carried from the stretch's exit to region 1's entry; the table and the index argument from region
  -- 0's exit to the stretch's entry
  have eout : W6 (F := Ideal) m ρ c (Proc.devRef .tc main_v1) = W2 (F := Ideal) m ρ c (Proc.devRef .tc main_v1) :=
    (W6_of m ρ c (r := main_v1) (by decide)).trans ((W5_of m ρ c (r := main_v1) (by decide)).trans ((W4_of m ρ c (r := main_v1) (by decide)).trans ((W3_of m ρ c (r := main_v1) (by decide)))))
  have etbl : W1 (F := Ideal) m ρ c (Proc.devRef .tc main_v0_2) = rDh m c :=
    hD
  have earg : W1 (F := Ideal) m ρ c (Proc.devRef .tc main_arg2) = a2 m c :=
    W1_main_arg2 m ρ c
  have hx := ofBuf_of_heq (F := Ideal) (StableHlo.TRef.of main_v0_2 : StableHlo.TRef sig ⟨S50000x64, .f32⟩) (heq_of_eq etbl)
  have hi := ofBuf_of_heq (F := Ideal) (StableHlo.TRef.of main_arg2 : StableHlo.TRef sig ⟨S800000, .i32⟩) (heq_of_eq earg)
  -- the stretch computes the take of that table through that argument
  have key := after_hostOps1_main_v1 (F := Ideal) (W1 m ρ c)
  rw [hx, hi] at key
  refine eout.trans ((eq_of_heq (heq_of_ofBuf _ key)).trans ?_)
  -- in range the take is the gather, and the gather is the reference's
  rw [takeK_eq_gather _ _ hs, takeIdx_eq_val_main_v45]
  rfl

/-- The rows E_h[destination]: the second take's result, as region 1 finds it, is the reference's stage. -/
theorem take_EhDst (hE : W1 (F := Ideal) m ρ c (Proc.devRef .tc main_v0_3) = rEh m c)
    (hd : ∀ i, -50000 ≤ (a3 m c i).toInt ∧ (a3 m c i).toInt < 50000) :
    W6 (F := Ideal) m ρ c (Proc.devRef .tc main_v2) = rEhDst m c := by
  -- the result is carried from the stretch's exit to region 1's entry; the table and the index argument from region
  -- 0's exit to the stretch's entry
  have eout : W6 (F := Ideal) m ρ c (Proc.devRef .tc main_v2) = W3 (F := Ideal) m ρ c (Proc.devRef .tc main_v2) :=
    (W6_of m ρ c (r := main_v2) (by decide)).trans ((W5_of m ρ c (r := main_v2) (by decide)).trans ((W4_of m ρ c (r := main_v2) (by decide))))
  have etbl : W2 (F := Ideal) m ρ c (Proc.devRef .tc main_v0_3) = rEh m c :=
    ((W2_of m ρ c (r := main_v0_3) (by decide))).trans hE
  have earg : W2 (F := Ideal) m ρ c (Proc.devRef .tc main_arg3) = a3 m c :=
    ((W2_of m ρ c (r := main_arg3) (by decide))).trans (W1_main_arg3 m ρ c)
  have hx := ofBuf_of_heq (F := Ideal) (StableHlo.TRef.of main_v0_3 : StableHlo.TRef sig ⟨S50000x64, .f32⟩) (heq_of_eq etbl)
  have hi := ofBuf_of_heq (F := Ideal) (StableHlo.TRef.of main_arg3 : StableHlo.TRef sig ⟨S800000, .i32⟩) (heq_of_eq earg)
  -- the stretch computes the take of that table through that argument
  have key := after_hostOps1_1_main_v2 (F := Ideal) (W2 m ρ c)
  rw [hx, hi] at key
  refine eout.trans ((eq_of_heq (heq_of_ofBuf _ key)).trans ?_)
  -- in range the take is the gather, and the gather is the reference's
  rw [takeK_eq_gather _ _ hd, takeIdx_eq_val_main_v52]
  rfl

/-- The rows S_k[source]: the third take's result, as region 1 finds it, is the reference's stage. -/
theorem take_SkSrc (hK : W1 (F := Ideal) m ρ c (Proc.devRef .tc main_v0_6) = rSk m c)
    (hs : ∀ i, -50000 ≤ (a2 m c i).toInt ∧ (a2 m c i).toInt < 50000) :
    W6 (F := Ideal) m ρ c (Proc.devRef .tc main_v3) = rSkSrc m c := by
  -- the result is carried from the stretch's exit to region 1's entry; the table and the index argument from region
  -- 0's exit to the stretch's entry
  have eout : W6 (F := Ideal) m ρ c (Proc.devRef .tc main_v3) = W4 (F := Ideal) m ρ c (Proc.devRef .tc main_v3) :=
    (W6_of m ρ c (r := main_v3) (by decide)).trans ((W5_of m ρ c (r := main_v3) (by decide)))
  have etbl : W3 (F := Ideal) m ρ c (Proc.devRef .tc main_v0_6) = rSk m c :=
    ((W3_of m ρ c (r := main_v0_6) (by decide)).trans ((W2_of m ρ c (r := main_v0_6) (by decide)))).trans hK
  have earg : W3 (F := Ideal) m ρ c (Proc.devRef .tc main_arg2) = a2 m c :=
    ((W3_of m ρ c (r := main_arg2) (by decide)).trans ((W2_of m ρ c (r := main_arg2) (by decide)))).trans (W1_main_arg2 m ρ c)
  have hx := ofBuf_of_heq (F := Ideal) (StableHlo.TRef.of main_v0_6 : StableHlo.TRef sig ⟨S50000x64, .f32⟩) (heq_of_eq etbl)
  have hi := ofBuf_of_heq (F := Ideal) (StableHlo.TRef.of main_arg2 : StableHlo.TRef sig ⟨S800000, .i32⟩) (heq_of_eq earg)
  -- the stretch computes the take of that table through that argument
  have key := after_hostOps1_2_main_v3 (F := Ideal) (W3 m ρ c)
  rw [hx, hi] at key
  refine eout.trans ((eq_of_heq (heq_of_ofBuf _ key)).trans ?_)
  -- in range the take is the gather, and the gather is the reference's
  rw [takeK_eq_gather _ _ hs, takeIdx_eq_val_main_v75]
  rfl

/-- The rows S_q[destination]: the fourth take's result, as region 1 finds it, is the reference's stage. -/
theorem take_SqDst (hQ : W1 (F := Ideal) m ρ c (Proc.devRef .tc main_v0_5) = rSq m c)
    (hd : ∀ i, -50000 ≤ (a3 m c i).toInt ∧ (a3 m c i).toInt < 50000) :
    W6 (F := Ideal) m ρ c (Proc.devRef .tc main_v4) = rSqDst m c := by
  -- the result is carried from the stretch's exit to region 1's entry; the table and the index argument from region
  -- 0's exit to the stretch's entry
  have eout : W6 (F := Ideal) m ρ c (Proc.devRef .tc main_v4) = W5 (F := Ideal) m ρ c (Proc.devRef .tc main_v4) :=
    (W6_of m ρ c (r := main_v4) (by decide))
  have etbl : W4 (F := Ideal) m ρ c (Proc.devRef .tc main_v0_5) = rSq m c :=
    ((W4_of m ρ c (r := main_v0_5) (by decide)).trans ((W3_of m ρ c (r := main_v0_5) (by decide)).trans ((W2_of m ρ c (r := main_v0_5) (by decide))))).trans hQ
  have earg : W4 (F := Ideal) m ρ c (Proc.devRef .tc main_arg3) = a3 m c :=
    ((W4_of m ρ c (r := main_arg3) (by decide)).trans ((W3_of m ρ c (r := main_arg3) (by decide)).trans ((W2_of m ρ c (r := main_arg3) (by decide))))).trans (W1_main_arg3 m ρ c)
  have hx := ofBuf_of_heq (F := Ideal) (StableHlo.TRef.of main_v0_5 : StableHlo.TRef sig ⟨S50000x64, .f32⟩) (heq_of_eq etbl)
  have hi := ofBuf_of_heq (F := Ideal) (StableHlo.TRef.of main_arg3 : StableHlo.TRef sig ⟨S800000, .i32⟩) (heq_of_eq earg)
  -- the stretch computes the take of that table through that argument
  have key := after_hostOps1_3_main_v4 (F := Ideal) (W4 m ρ c)
  rw [hx, hi] at key
  refine eout.trans ((eq_of_heq (heq_of_ofBuf _ key)).trans ?_)
  -- in range the take is the gather, and the gather is the reference's
  rw [takeK_eq_gather _ _ hd, takeIdx_eq_val_main_v82]
  rfl

/-- The rows B_h[source]: the fifth take's result, as region 1 finds it, is the reference's stage. -/
theorem take_BhSrc (hB : W1 (F := Ideal) m ρ c (Proc.devRef .tc main_v0_1) = rBh m c)
    (hs : ∀ i, -50000 ≤ (a2 m c i).toInt ∧ (a2 m c i).toInt < 50000) :
    W6 (F := Ideal) m ρ c (Proc.devRef .tc main_v5) = rBhSrc m c := by
  -- the result is carried from the stretch's exit to region 1's entry; the table and the index argument from region
  -- 0's exit to the stretch's entry
  have eout : W6 (F := Ideal) m ρ c (Proc.devRef .tc main_v5) = W6 (F := Ideal) m ρ c (Proc.devRef .tc main_v5) :=
    rfl
  have etbl : W5 (F := Ideal) m ρ c (Proc.devRef .tc main_v0_1) = rBh m c :=
    ((W5_of m ρ c (r := main_v0_1) (by decide)).trans ((W4_of m ρ c (r := main_v0_1) (by decide)).trans ((W3_of m ρ c (r := main_v0_1) (by decide)).trans ((W2_of m ρ c (r := main_v0_1) (by decide)))))).trans hB
  have earg : W5 (F := Ideal) m ρ c (Proc.devRef .tc main_arg2) = a2 m c :=
    ((W5_of m ρ c (r := main_arg2) (by decide)).trans ((W4_of m ρ c (r := main_arg2) (by decide)).trans ((W3_of m ρ c (r := main_arg2) (by decide)).trans ((W2_of m ρ c (r := main_arg2) (by decide)))))).trans (W1_main_arg2 m ρ c)
  have hx := ofBuf_of_heq (F := Ideal) (StableHlo.TRef.of main_v0_1 : StableHlo.TRef sig ⟨S50000x64, .f32⟩) (heq_of_eq etbl)
  have hi := ofBuf_of_heq (F := Ideal) (StableHlo.TRef.of main_arg2 : StableHlo.TRef sig ⟨S800000, .i32⟩) (heq_of_eq earg)
  -- the stretch computes the take of that table through that argument
  have key := after_hostOps1_4_main_v5 (F := Ideal) (W5 m ρ c)
  rw [hx, hi] at key
  refine eout.trans ((eq_of_heq (heq_of_ofBuf _ key)).trans ?_)
  -- in range the take is the gather, and the gather is the reference's
  rw [takeK_eq_gather _ _ hs, takeIdx_eq_val_main_v96]
  rfl

end Cert.Bridge

end
-- ==== Proof.Stage2Aux.lean ====
import proofs.«412482_j67259187855861_1_alg».proof.Proof.Gen.KernelIdeal.Frame
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

/-!
  The second kernel region (the edge kernel), read as three functions of whole arrays.

  The region runs over 160 grid points; point `t` loads rows `5000 t … 5000 t + 4999` of six edge-indexed arrays
  (the edge features and five gathered node arrays), the whole 64×64 weight and the 64-entry bias, and stores three blocks
  of the same rows. Entry by entry the stored values are: the two gathered node terms added, plus the row of edge
  features times a column of the weight plus the bias (`eNewAt`); the logistic function of that, times the mean over the
  64 columns of the products of the two gathered attention rows (`sigmaAt`); and a gathered node term times that gate.
  Every entry depends only on its own row of the inputs, so the blocks of a point are the corresponding rows of three
  functions `G8`, `G9`, `G10` of the whole arrays; the 160 blocks tile each output array, so after the region the
  output arrays are those functions. The three launch arguments the region reads directly are written by nothing before it.
-/

noncomputable section

namespace Cert.Bridge

open Idealize.ShloMosaic Idealize.ShloMosaic.TcCoe Idealize.SL.Sem Cert.KernelIdeal Cert.KernelIdeal.Gen
open Idealize.ShloMosaic.Pipeline (Dat)
open Idealize.ShloMosaic.ValueIdx
open scoped BigOperators

/-! ## One entry of the edge update, as a function of the rows it reads -/

/-- The edge update at one entry (row `r`, column `col`): the two gathered node terms added, plus the row of `e`
    times column `col` of the weight, plus the bias at `col`. -/
def eNewAt (erow : Fin 64 → EReal) (d g : EReal) (WC : S64x64.Idx → EReal) (bC : S64.Idx → EReal) (col : Fin 64) : EReal :=
  (d + g) + ((∑ k : Fin 64, erow k * WC (ix2 k col)) + bC (ix1 col))

/-- The gate at one entry: the logistic function of the edge update there, times the mean over the 64 columns of
    the products of the two gathered attention rows. -/
def sigmaAt (x : EReal) (sk sq : Fin 64 → EReal) : EReal :=
  Ideal.logistic x * ((∑ k : Fin 64, sk k * sq k) * (((1 : ℝ) / 64 : ℝ) : EReal))

/-! ## The block product's operand indices -/

abbrev dotK := dot_S5000x64_S64x64_S5000x64_1_0_0_1_n_n

theorem dotK_lhs0 (i : S5000x64.Idx) (q : dotK.contr.Idx) : (dotK.lhsIdx i q 0).val = (i 0).val := by
  unfold DotDims.lhsIdx
  rw [dif_neg (show ¬(0 : Fin S5000x64.rank) ∈ dotK.lhsBatch by decide), dif_pos (show (0 : Fin S5000x64.rank) ∈ dotK.lhsNonContracting by decide)]
  rfl
theorem dotK_lhs1 (i : S5000x64.Idx) (q : dotK.contr.Idx) : (dotK.lhsIdx i q 1).val = (q ⟨0, by decide⟩).val :=
  dotK.lhsIdx_val_of_single rfl i q
theorem dotK_rhs0 (i : S5000x64.Idx) (q : dotK.contr.Idx) : (dotK.rhsIdx i q 0).val = (q ⟨0, by decide⟩).val :=
  dotK.rhsIdx_val_of_single rfl i q
theorem dotK_rhs1 (i : S5000x64.Idx) (q : dotK.contr.Idx) : (dotK.rhsIdx i q 1).val = (i 1).val := by
  unfold DotDims.rhsIdx
  rw [dif_neg (show ¬(1 : Fin S64x64.rank) ∈ dotK.rhsBatch by decide), dif_pos (show (1 : Fin S64x64.rank) ∈ dotK.rhsNonContracting by decide)]
  rfl

/-- The block product into the zero accumulator, at entry `(r, col)`: row `r` of the left block times column `col` of the right. -/
theorem blockProduct_apply (L : FVec Ideal S5000x64 .bf16) (R : FVec Ideal S64x64 .bf16) (r : Fin 5000) (col : Fin 64) :
    matmul dotK none L R (constant S5000x64 .f32 0x00000000#32) (ix2 r col) = ∑ k : Fin 64, L (ix2 r k) * R (ix2 k col) := by
  simp only [matmul]
  rw [Ideal.matmul_constant_zero_apply, ← Equiv.sum_comp (contrEquiv1 dotK 64 rfl rfl).symm]
  refine Finset.sum_congr rfl fun k _ => ?_
  have hk := contrEquiv1_symm_val dotK 64 rfl rfl k
  have el : dotK.lhsIdx (ix2 r col) ((contrEquiv1 dotK 64 rfl rfl).symm k) = ix2 r k := funext fun a => Fin.ext (by
    match a with
    | ⟨0, _⟩ => exact dotK_lhs0 _ _
    | ⟨1, _⟩ => exact (dotK_lhs1 _ _).trans hk)
  have er : dotK.rhsIdx (ix2 r col) ((contrEquiv1 dotK 64 rfl rfl).symm k) = ix2 k col := funext fun a => Fin.ext (by
    match a with
    | ⟨0, _⟩ => exact (dotK_rhs0 _ _).trans hk
    | ⟨1, _⟩ => exact dotK_rhs1 _ _)
  rw [el, er]

/-! ## The kernel's three stored vectors at an entry of the block -/

/-- The first stored vector (the edge update) at entry `(r, col)` of the block. -/
theorem pay1_apply (v0 : Vec Ideal S5000x64 .f32) (v1 : Vec Ideal S64x64 .f32) (v5 : Vec Ideal S64 .f32)
    (v9 v11 : Vec Ideal S5000x64 .f32) (r : Fin 5000) (col : Fin 64) :
    k1_pay1 v0 v1 v5 v9 v11 (ix2 r col)
      = eNewAt (fun k => v0 (ix2 r k)) (v9 (ix2 r col)) (v11 (ix2 r col)) v1 v5 col := by
  unfold k1_pay1 eNewAt
  simp only [shapeCast_self, addf_apply, blockProduct_apply, broadcastTo_1b_ab_apply, shapeCast_a_1a_apply, truncf_apply]

/-- A column `[a, 1]` broadcast along its unit axis to `[a, b]` reads, at `(p, q)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- An `[a]` array cast to the column `[a, 1]` reads, at `(p, u)`, the operand at `p`. -/
theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- The f32 pattern `0x3C800000` is the real 2⁻⁶, one sixty-fourth. -/
theorem ofBits_sixtyfourth_f32 : Ideal.ofBits .f32 0x3C800000#32 = (((1 : ℝ) / 64 : ℝ) : EReal) := by
  simp [Ideal.ofBits, Ideal.ieee, -EReal.coe_mul]; norm_num

/-- The sum of a `[5000, 64]` block along its rows (the reduced axis is the second), at row `r`: the sum over the 64
    columns of the block's entries in that row. -/
theorem rowSum_apply {a : Fin S5000x64.rank} (ha : a = 1) (src : FVec Ideal S5000x64 .f32) (acc : BitVec 32)
    (h : S5000x64.Reduces [a] S5000) (hφ : FKind.Formats .f32) (hacc : acc = FKind.add.neutral .f32 hφ) (r : Fin 5000) :
    multiReduction .add [a] S5000 src acc h hφ hacc (ix1 r) = ∑ k : Fin 64, src (ix2 r k) := by
  subst ha
  refine (Ideal.multiReduction_add_single src acc h hφ hacc (ix1 r)).trans (Finset.sum_congr rfl fun k _ => congrArg src ?_)
  funext b
  apply Fin.ext
  match b with
  | ⟨0, _⟩ => rfl
  | ⟨1, _⟩ => rfl

/-- The third stored vector (the gate) at entry `(r, col)` of the block. -/
theorem pay2_apply (v0 : Vec Ideal S5000x64 .f32) (v1 : Vec Ideal S64x64 .f32) (v5 : Vec Ideal S64 .f32)
    (v9 v11 v17 v19 : Vec Ideal S5000x64 .f32) (r : Fin 5000) (col : Fin 64) :
    k1_pay2 v0 v1 v5 v9 v11 v17 v19 (ix2 r col)
      = sigmaAt (k1_pay1 v0 v1 v5 v9 v11 (ix2 r col)) (fun k => v17 (ix2 r k)) (fun k => v19 (ix2 r k)) := by
  unfold k1_pay2 sigmaAt
  simp only [shapeCast_self, mulf_apply, broadcastTo_a1_ab_apply, shapeCast_a_a1_apply, broadcast_apply]
  refine congrArg₂ (· * ·) rfl (congrArg₂ (· * ·) ?_ ofBits_sixtyfourth_f32)
  exact rowSum_apply rfl (mulf v17 v19) _ _ _ _ r

/-- The second stored vector (the message) at entry `(r, col)` of the block. -/
theorem pay3_apply (v0 : Vec Ideal S5000x64 .f32) (v1 : Vec Ideal S64x64 .f32) (v5 : Vec Ideal S64 .f32)
    (v9 v11 v17 v19 v28 : Vec Ideal S5000x64 .f32) (r : Fin 5000) (col : Fin 64) :
    k1_pay3 v0 v1 v5 v9 v11 v17 v19 v28 (ix2 r col)
      = v28 (ix2 r col) * k1_pay2 v0 v1 v5 v9 v11 v17 v19 (ix2 r col) := by
  unfold k1_pay3
  simp only [shapeCast_self, mulf_apply]

/-! ## Region 1's windows -/

/-- The windows' block-index maps, decided over the 160 grid points: each row window (the six row inputs and the three
    outputs) is at block `t` along the rows and block 0 along the columns; the weight's and the bias's windows stay at block 0. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0
    ∧ win1_6.index t (0 : Fin 2) = 0 ∧ win1_6.index t (1 : Fin 2) = 0
    ∧ win1_7.index t (0 : Fin 1) = 0
    ∧ win1_8.index t (0 : Fin 2) = t.val ∧ win1_8.index t (1 : Fin 2) = 0
    ∧ win1_9.index t (0 : Fin 2) = t.val ∧ win1_9.index t (1 : Fin 2) = 0
    ∧ win1_10.index t (0 : Fin 2) = t.val ∧ win1_10.index t (1 : Fin 2) = 0 :=
  (by decide +kernel : ∀ t : Fin grid1.N, _)

/-- The grid has 160 points. -/
theorem N1_eq : cfg1.N = 160 := by decide

/-- Entry `j` of the block of rows at grid point `t` sits, in an array of 800000 rows, at row `5000 t + j₀` and column `j₁`. -/
def rowIdx (t : Fin cfg1.N) (j : S5000x64.Idx) : S800000x64.Idx :=
  ix2 ⟨t.val * 5000 + (j 0).val, by have h1 : t.val < 160 := lt_of_lt_of_eq t.isLt N1_eq; have h2 : (j 0).val < 5000 := (j 0).isLt; omega⟩ (j 1)

/-- Where entry `j` of each row window's block at point `t` sits in its array: row `5000 t + j₀`, column `j₁`. -/
theorem emb1_0 (t : Fin cfg1.N) (j : S5000x64.Idx) : ((cfg1.win 0).blk t).view.emb j = rowIdx t j := by
  funext a; apply Fin.ext
  match a with
  | ⟨0, _⟩ => show win1_0.index t (0 : Fin 2) * 5000 + 1 * (j 0).val = t.val * 5000 + (j 0).val; rw [(idx_facts1 t).1]; omega
  | ⟨1, _⟩ => show win1_0.index t (1 : Fin 2) * 64 + 1 * (j 1).val = (j 1).val; rw [(idx_facts1 t).2.1]; omega

theorem emb1_1 (t : Fin cfg1.N) (j : S5000x64.Idx) : ((cfg1.win 1).blk t).view.emb j = rowIdx t j := by
  funext a; apply Fin.ext
  match a with
  | ⟨0, _⟩ => show win1_1.index t (0 : Fin 2) * 5000 + 1 * (j 0).val = t.val * 5000 + (j 0).val; rw [(idx_facts1 t).2.2.1]; omega
  | ⟨1, _⟩ => show win1_1.index t (1 : Fin 2) * 64 + 1 * (j 1).val = (j 1).val; rw [(idx_facts1 t).2.2.2.1]; omega

theorem emb1_2 (t : Fin cfg1.N) (j : S5000x64.Idx) : ((cfg1.win 2).blk t).view.emb j = rowIdx t j := by
  funext a; apply Fin.ext
  match a with
  | ⟨0, _⟩ => show win1_2.index t (0 : Fin 2) * 5000 + 1 * (j 0).val = t.val * 5000 + (j 0).val; rw [(idx_facts1 t).2.2.2.2.1]; omega
  | ⟨1, _⟩ => show win1_2.index t (1 : Fin 2) * 64 + 1 * (j 1).val = (j 1).val; rw [(idx_facts1 t).2.2.2.2.2.1]; omega

theorem emb1_3 (t : Fin cfg1.N) (j : S5000x64.Idx) : ((cfg1.win 3).blk t).view.emb j = rowIdx t j := by
  funext a; apply Fin.ext
  match a with
  | ⟨0, _⟩ => show win1_3.index t (0 : Fin 2) * 5000 + 1 * (j 0).val = t.val * 5000 + (j 0).val; rw [(idx_facts1 t).2.2.2.2.2.2.1]; omega
  | ⟨1, _⟩ => show win1_3.index t (1 : Fin 2) * 64 + 1 * (j 1).val = (j 1).val; rw [(idx_facts1 t).2.2.2.2.2.2.2.1]; omega

theorem emb1_4 (t : Fin cfg1.N) (j : S5000x64.Idx) : ((cfg1.win 4).blk t).view.emb j = rowIdx t j := by
  funext a; apply Fin.ext
  match a with
  | ⟨0, _⟩ => show win1_4.index t (0 : Fin 2) * 5000 + 1 * (j 0).val = t.val * 5000 + (j 0).val; rw [(idx_facts1 t).2.2.2.2.2.2.2.2.1]; omega
  | ⟨1, _⟩ => show win1_4.index t (1 : Fin 2) * 64 + 1 * (j 1).val = (j 1).val; rw [(idx_facts1 t).2.2.2.2.2.2.2.2.2.1]; omega

theorem emb1_5 (t : Fin cfg1.N) (j : S5000x64.Idx) : ((cfg1.win 5).blk t).view.emb j = rowIdx t j := by
  funext a; apply Fin.ext
  match a with
  | ⟨0, _⟩ => show win1_5.index t (0 : Fin 2) * 5000 + 1 * (j 0).val = t.val * 5000 + (j 0).val; rw [(idx_facts1 t).2.2.2.2.2.2.2.2.2.2.1]; omega
  | ⟨1, _⟩ => show win1_5.index t (1 : Fin 2) * 64 + 1 * (j 1).val = (j 1).val; rw [(idx_facts1 t).2.2.2.2.2.2.2.2.2.2.2.1]; omega

theorem emb1_8 (t : Fin cfg1.N) (j : S5000x64.Idx) : ((cfg1.win 8).blk t).view.emb j = rowIdx t j := by
  funext a; apply Fin.ext
  match a with
  | ⟨0, _⟩ => show win1_8.index t (0 : Fin 2) * 5000 + 1 * (j 0).val = t.val * 5000 + (j 0).val; rw [(idx_facts1 t).2.2.2.2.2.2.2.2.2.2.2.2.2.2.2.1]; omega
  | ⟨1, _⟩ => show win1_8.index t (1 : Fin 2) * 64 + 1 * (j 1).val = (j 1).val; rw [(idx_facts1 t).2.2.2.2.2.2.2.2.2.2.2.2.2.2.2.2.1]; omega

theorem emb1_9 (t : Fin cfg1.N) (j : S5000x64.Idx) : ((cfg1.win 9).blk t).view.emb j = rowIdx t j := by
  funext a; apply Fin.ext
  match a with
  | ⟨0, _⟩ => show win1_9.index t (0 : Fin 2) * 5000 + 1 * (j 0).val = t.val * 5000 + (j 0).val; rw [(idx_facts1 t).2.2.2.2.2.2.2.2.2.2.2.2.2.2.2.2.2.1]; omega
  | ⟨1, _⟩ => show win1_9.index t (1 : Fin 2) * 64 + 1 * (j 1).val = (j 1).val; rw [(idx_facts1 t).2.2.2.2.2.2.2.2.2.2.2.2.2.2.2.2.2.2.1]; omega

theorem emb1_10 (t : Fin cfg1.N) (j : S5000x64.Idx) : ((cfg1.win 10).blk t).view.emb j = rowIdx t j := by
  funext a; apply Fin.ext
  match a with
  | ⟨0, _⟩ => show win1_10.index t (0 : Fin 2) * 5000 + 1 * (j 0).val = t.val * 5000 + (j 0).val; rw [(idx_facts1 t).2.2.2.2.2.2.2.2.2.2.2.2.2.2.2.2.2.2.2.1]; omega
  | ⟨1, _⟩ => show win1_10.index t (1 : Fin 2) * 64 + 1 * (j 1).val = (j 1).val; rw [(idx_facts1 t).2.2.2.2.2.2.2.2.2.2.2.2.2.2.2.2.2.2.2.2]; omega

/-- The weight's window holds the whole array at every point. -/
theorem emb1_6 (t : Fin cfg1.N) (j : S64x64.Idx) : ((cfg1.win 6).blk t).view.emb j = j := by
  funext a; apply Fin.ext
  match a with
  | ⟨0, _⟩ => show win1_6.index t (0 : Fin 2) * 64 + 1 * (j 0).val = (j 0).val; rw [(idx_facts1 t).2.2.2.2.2.2.2.2.2.2.2.2.1]; omega
  | ⟨1, _⟩ => show win1_6.index t (1 : Fin 2) * 64 + 1 * (j 1).val = (j 1).val; rw [(idx_facts1 t).2.2.2.2.2.2.2.2.2.2.2.2.2.1]; omega

/-- The bias's window holds the whole array at every point. -/
theorem emb1_7 (t : Fin cfg1.N) (j : S64.Idx) : ((cfg1.win 7).blk t).view.emb j = j := by
  funext a; apply Fin.ext
  match a with
  | ⟨0, _⟩ => show win1_7.index t (0 : Fin 1) * 64 + 1 * (j 0).val = (j 0).val; rw [(idx_facts1 t).2.2.2.2.2.2.2.2.2.2.2.2.2.2.1]; omega

/-! ## The three outputs as functions of whole arrays, entry by entry -/

/-- The edge update over whole arrays: at entry `i`, `eNewAt` of row `i₀` of `E`, the two gathered terms at `i`, the weight and the bias. -/
def G8 (E D Gm : S800000x64.Idx → EReal) (WC : S64x64.Idx → EReal) (bC : S64.Idx → EReal) : S800000x64.Idx → EReal :=
  fun i => eNewAt (fun k => E (ix2 (i 0) k)) (D i) (Gm i) WC bC (i 1)

/-- The gate over whole arrays: at entry `i`, `sigmaAt` of the edge update there and rows `i₀` of the two gathered attention arrays. -/
def G10 (E D Gm Sk Sq : S800000x64.Idx → EReal) (WC : S64x64.Idx → EReal) (bC : S64.Idx → EReal) : S800000x64.Idx → EReal :=
  fun i => sigmaAt (G8 E D Gm WC bC i) (fun k => Sk (ix2 (i 0) k)) (fun k => Sq (ix2 (i 0) k))

/-- The message over whole arrays: the gathered node term times the gate, entry by entry. -/
def G9 (E D Gm Sk Sq B : S800000x64.Idx → EReal) (WC : S64x64.Idx → EReal) (bC : S64.Idx → EReal) : S800000x64.Idx → EReal :=
  fun i => B i * G10 E D Gm Sk Sq WC bC i

/-! ## A block of rows computes its rows of those functions -/

/-- If the loaded blocks are rows `5000 t …` of the arrays, the first stored vector is those rows of `G8`. -/
theorem pay1_blk (E D Gm : S800000x64.Idx → EReal) (WC : S64x64.Idx → EReal) (bC : S64.Idx → EReal) (t : Fin cfg1.N)
    (x0 x1 x2 : Vec Ideal S5000x64 .f32)
    (h0 : ∀ j, x0 j = E (rowIdx t j)) (h1 : ∀ j, x1 j = D (rowIdx t j)) (h2 : ∀ j, x2 j = Gm (rowIdx t j)) (j : S5000x64.Idx) :
    k1_pay1 x0 WC bC x1 x2 j = G8 E D Gm WC bC (rowIdx t j) := by
  obtain ⟨r, col, rfl⟩ : ∃ r col, j = ix2 r col := ⟨j 0, j 1, eq_ix2 j⟩
  rw [pay1_apply]
  unfold G8
  simp only [h0, h1, h2]
  rfl

/-- Likewise the third stored vector is those rows of `G10`. -/
theorem pay2_blk (E D Gm Sk Sq : S800000x64.Idx → EReal) (WC : S64x64.Idx → EReal) (bC : S64.Idx → EReal) (t : Fin cfg1.N)
    (x0 x1 x2 x3 x4 : Vec Ideal S5000x64 .f32)
    (h0 : ∀ j, x0 j = E (rowIdx t j)) (h1 : ∀ j, x1 j = D (rowIdx t j)) (h2 : ∀ j, x2 j = Gm (rowIdx t j))
    (h3 : ∀ j, x3 j = Sk (rowIdx t j)) (h4 : ∀ j, x4 j = Sq (rowIdx t j)) (j : S5000x64.Idx) :
    k1_pay2 x0 WC bC x1 x2 x3 x4 j = G10 E D Gm Sk Sq WC bC (rowIdx t j) := by
  obtain ⟨r, col, rfl⟩ : ∃ r col, j = ix2 r col := ⟨j 0, j 1, eq_ix2 j⟩
  rw [pay2_apply, pay1_blk E D Gm WC bC t x0 x1 x2 h0 h1 h2]
  unfold G10
  simp only [h3, h4]
  rfl

/-- And the second stored vector those rows of `G9`. -/
theorem pay3_blk (E D Gm Sk Sq B : S800000x64.Idx → EReal) (WC : S64x64.Idx → EReal) (bC : S64.Idx → EReal) (t : Fin cfg1.N)
    (x0 x1 x2 x3 x4 x5 : Vec Ideal S5000x64 .f32)
    (h0 : ∀ j, x0 j = E (rowIdx t j)) (h1 : ∀ j, x1 j = D (rowIdx t j)) (h2 : ∀ j, x2 j = Gm (rowIdx t j))
    (h3 : ∀ j, x3 j = Sk (rowIdx t j)) (h4 : ∀ j, x4 j = Sq (rowIdx t j)) (h5 : ∀ j, x5 j = B (rowIdx t j)) (j : S5000x64.Idx) :
    k1_pay3 x0 WC bC x1 x2 x3 x4 x5 j = G9 E D Gm Sk Sq B WC bC (rowIdx t j) := by
  obtain ⟨r, col, rfl⟩ : ∃ r col, j = ix2 r col := ⟨j 0, j 1, eq_ix2 j⟩
  rw [pay3_apply, pay2_blk E D Gm Sk Sq WC bC t x0 x1 x2 x3 x4 h0 h1 h2 h3 h4, h5]
  rfl

/-! ## What each grid point writes back -/

section AtEntry
variable (V : (c : Dev nD) → (b : Ref sig .tc) → Buf (Elt Ideal) ((c : Thread nD τ).loc b)) (c : Dev nD)

/-- Each row input's block at point `t`, read at entry `j`, is its array at row `5000 t + j₀`, column `j₁`. -/
theorem iblk1_0_apply (t : Fin cfg1.N) (j : S5000x64.Idx) : iblk1 V c 0 t j = V c main_arg1 (rowIdx t j) := by
  show V c main_arg1 (((cfg1.win 0).blk t).view.emb j) = _
  rw [emb1_0]
theorem iblk1_1_apply (t : Fin cfg1.N) (j : S5000x64.Idx) : iblk1 V c 1 t j = V c main_v1 (rowIdx t j) := by
  show V c main_v1 (((cfg1.win 1).blk t).view.emb j) = _
  rw [emb1_1]
theorem iblk1_2_apply (t : Fin cfg1.N) (j : S5000x64.Idx) : iblk1 V c 2 t j = V c main_v2 (rowIdx t j) := by
  show V c main_v2 (((cfg1.win 2).blk t).view.emb j) = _
  rw [emb1_2]
theorem iblk1_3_apply (t : Fin cfg1.N) (j : S5000x64.Idx) : iblk1 V c 3 t j = V c main_v3 (rowIdx t j) := by
  show V c main_v3 (((cfg1.win 3).blk t).view.emb j) = _
  rw [emb1_3]
theorem iblk1_4_apply (t : Fin cfg1.N) (j : S5000x64.Idx) : iblk1 V c 4 t j = V c main_v4 (rowIdx t j) := by
  show V c main_v4 (((cfg1.win 4).blk t).view.emb j) = _
  rw [emb1_4]
theorem iblk1_5_apply (t : Fin cfg1.N) (j : S5000x64.Idx) : iblk1 V c 5 t j = V c main_v5 (rowIdx t j) := by
  show V c main_v5 (((cfg1.win 5).blk t).view.emb j) = _
  rw [emb1_5]
/-- The weight's and the bias's blocks are the whole arrays. -/
theorem iblk1_6_eq (t : Fin cfg1.N) : iblk1 V c 6 t = V c main_arg8 := by
  funext j
  show V c main_arg8 (((cfg1.win 6).blk t).view.emb j) = V c main_arg8 j
  rw [emb1_6]
theorem iblk1_7_eq (t : Fin cfg1.N) : iblk1 V c 7 t = V c main_arg9 := by
  funext j
  show V c main_arg9 (((cfg1.win 7).blk t).view.emb j) = V c main_arg9 j
  rw [emb1_7]

/-- The zero offsets of a whole-block access, as the constant function. -/
theorem hz2 : (![0, 0] : Fin 2 → Nat) = fun _ => 0 := funext fun a => by fin_cases a <;> rfl
theorem hz1 : (![0] : Fin 1 → Nat) = fun _ => 0 := funext fun a => by fin_cases a; rfl

/-- Grid point `t` writes back, to the first output array, rows `5000 t …` of `G8` of the arrays as the region finds them. -/
theorem flushed1_8_eq (t : Fin cfg1.N) :
    (dat1 V c).flushed 8 t = ((cfg1.win 8).blk t).view.read (Elt Ideal)
      (G8 (V c main_arg1) (V c main_v1) (V c main_v2) (V c main_arg8) (V c main_arg9)) := by
  show (cfg1.win 8).cut (grid1.coords t) ((dat1 V c).after 8 t) = _
  rw [after1_8]
  unfold out1_8
  rw [View.canon_unit_zero hz2]
  simp only [View.ld_unit_zero (S := S5000x64) hz2, View.ld_unit_zero (S := S64x64) hz2, View.ld_unit_zero (S := S64) hz1]
  rw [iblk1_6_eq, iblk1_7_eq]
  funext j
  show k1_pay1 (iblk1 V c 0 t) (V c main_arg8) (V c main_arg9) (iblk1 V c 1 t) (iblk1 V c 2 t) j
    = G8 (V c main_arg1) (V c main_v1) (V c main_v2) (V c main_arg8) (V c main_arg9) (((cfg1.win 8).blk t).view.emb j)
  rw [emb1_8]
  exact pay1_blk _ _ _ _ _ t _ _ _ (iblk1_0_apply V c t) (iblk1_1_apply V c t) (iblk1_2_apply V c t) j

end AtEntry

section AtEntry2
variable (V : (c : Dev nD) → (b : Ref sig .tc) → Buf (Elt Ideal) ((c : Thread nD τ).loc b)) (c : Dev nD)

/-- Grid point `t` writes back, to the third output array, rows `5000 t …` of `G10`. -/
theorem flushed1_10_eq (t : Fin cfg1.N) :
    (dat1 V c).flushed 10 t = ((cfg1.win 10).blk t).view.read (Elt Ideal)
      (G10 (V c main_arg1) (V c main_v1) (V c main_v2) (V c main_v3) (V c main_v4) (V c main_arg8) (V c main_arg9)) := by
  show (cfg1.win 10).cut (grid1.coords t) ((dat1 V c).after 10 t) = _
  rw [after1_10]
  unfold out1_10
  rw [View.canon_unit_zero hz2]
  simp only [View.ld_unit_zero (S := S5000x64) hz2, View.ld_unit_zero (S := S64x64) hz2, View.ld_unit_zero (S := S64) hz1]
  rw [iblk1_6_eq, iblk1_7_eq]
  funext j
  show k1_pay2 (iblk1 V c 0 t) (V c main_arg8) (V c main_arg9) (iblk1 V c 1 t) (iblk1 V c 2 t) (iblk1 V c 3 t) (iblk1 V c 4 t) j
    = G10 (V c main_arg1) (V c main_v1) (V c main_v2) (V c main_v3) (V c main_v4) (V c main_arg8) (V c main_arg9) (((cfg1.win 10).blk t).view.emb j)
  rw [emb1_10]
  exact pay2_blk _ _ _ _ _ _ _ t _ _ _ _ _ (iblk1_0_apply V c t) (iblk1_1_apply V c t) (iblk1_2_apply V c t)
    (iblk1_3_apply V c t) (iblk1_4_apply V c t) j

/-- Grid point `t` writes back, to the second output array, rows `5000 t …` of `G9`. -/
theorem flushed1_9_eq (t : Fin cfg1.N) :
    (dat1 V c).flushed 9 t = ((cfg1.win 9).blk t).view.read (Elt Ideal)
      (G9 (V c main_arg1) (V c main_v1) (V c main_v2) (V c main_v3) (V c main_v4) (V c main_v5) (V c main_arg8) (V c main_arg9)) := by
  show (cfg1.win 9).cut (grid1.coords t) ((dat1 V c).after 9 t) = _
  rw [after1_9]
  unfold out1_9
  rw [View.canon_unit_zero hz2]
  simp only [View.ld_unit_zero (S := S5000x64) hz2, View.ld_unit_zero (S := S64x64) hz2, View.ld_unit_zero (S := S64) hz1]
  rw [iblk1_6_eq, iblk1_7_eq]
  funext j
  show k1_pay3 (iblk1 V c 0 t) (V c main_arg8) (V c main_arg9) (iblk1 V c 1 t) (iblk1 V c 2 t) (iblk1 V c 3 t) (iblk1 V c 4 t) (iblk1 V c 5 t) j
    = G9 (V c main_arg1) (V c main_v1) (V c main_v2) (V c main_v3) (V c main_v4) (V c main_v5) (V c main_arg8) (V c main_arg9) (((cfg1.win 9).blk t).view.emb j)
  rw [emb1_9]
  exact pay3_blk _ _ _ _ _ _ _ _ t _ _ _ _ _ _ (iblk1_0_apply V c t) (iblk1_1_apply V c t) (iblk1_2_apply V c t)
    (iblk1_3_apply V c t) (iblk1_4_apply V c t) (iblk1_5_apply V c t) j

/-- Every entry `i` of an array of 800000 rows is entry `(i₀ mod 5000, i₁)` of the block at grid point `i₀ / 5000`. -/
theorem rowIdx_onto (i : S800000x64.Idx) : ∃ (t : Fin cfg1.N) (j : S5000x64.Idx), rowIdx t j = i := by
  have hi0 : (i 0).val < 800000 := (i 0).isLt
  refine ⟨⟨(i 0).val / 5000, by rw [N1_eq]; omega⟩, ix2 ⟨(i 0).val % 5000, Nat.mod_lt _ (by decide)⟩ (i 1), ?_⟩
  funext a; apply Fin.ext
  match a with
  | ⟨0, _⟩ => show (i 0).val / 5000 * 5000 + (i 0).val % 5000 = (i 0).val; omega
  | ⟨1, _⟩ => rfl

/-- The 160 blocks of each output window cover its array. -/
theorem cover1_8' (i : S800000x64.Idx) : ∃ t : Fin cfg1.N, (cfg1.win 8).flush t = true ∧ i ∈ ((cfg1.win 8).blk t).view.set := by
  obtain ⟨t, j, rfl⟩ := rowIdx_onto i
  exact ⟨t, flush1_8 t, by rw [← emb1_8]; exact ((cfg1.win 8).blk t).view.emb_mem_set j⟩
theorem cover1_9' (i : S800000x64.Idx) : ∃ t : Fin cfg1.N, (cfg1.win 9).flush t = true ∧ i ∈ ((cfg1.win 9).blk t).view.set := by
  obtain ⟨t, j, rfl⟩ := rowIdx_onto i
  exact ⟨t, flush1_9 t, by rw [← emb1_9]; exact ((cfg1.win 9).blk t).view.emb_mem_set j⟩
theorem cover1_10' (i : S800000x64.Idx) : ∃ t : Fin cfg1.N, (cfg1.win 10).flush t = true ∧ i ∈ ((cfg1.win 10).blk t).view.set := by
  obtain ⟨t, j, rfl⟩ := rowIdx_onto i
  exact ⟨t, flush1_10 t, by rw [← emb1_10]; exact ((cfg1.win 10).blk t).view.emb_mem_set j⟩

/-- So after the region each output array holds its function of the arrays the region found. -/
theorem final1_8 : (dat1 V c).arrAt 8 cfg1.N = G8 (V c main_arg1) (V c main_v1) (V c main_v2) (V c main_arg8) (V c main_arg9) :=
  (dat1 V c).arrAt_eq_of_cover 8 _ (fun t _ => flushed1_8_eq V c t) cover1_8'
theorem final1_9 : (dat1 V c).arrAt 9 cfg1.N
    = G9 (V c main_arg1) (V c main_v1) (V c main_v2) (V c main_v3) (V c main_v4) (V c main_v5) (V c main_arg8) (V c main_arg9) :=
  (dat1 V c).arrAt_eq_of_cover 9 _ (fun t _ => flushed1_9_eq V c t) cover1_9'
theorem final1_10 : (dat1 V c).arrAt 10 cfg1.N
    = G10 (V c main_arg1) (V c main_v1) (V c main_v2) (V c main_v3) (V c main_v4) (V c main_arg8) (V c main_arg9) :=
  (dat1 V c).arrAt_eq_of_cover 10 _ (fun t _ => flushed1_10_eq V c t) cover1_10'

end AtEntry2

/-! ## The three launch arguments the region reads, at its entry -/

section Fold
variable (m : (ℓ : Loc nD τ sig) → Buf (Elt Ideal) ℓ) (ρ : Dev nD → PrngReg) (c : Dev nD)

/-- Argument 1 is written by nothing before region 1: at the region's entry it holds the launch contents. -/
theorem W6_main_arg1 : W6 m ρ c (Proc.devRef .tc main_arg1) = m ((c : Thread nD τ).loc main_arg1) :=
  calc W6 m ρ c (Proc.devRef .tc main_arg1)
    _ = W5 m ρ c (Proc.devRef .tc main_arg1) := StableHlo.after_of_forall_not_mem (b := Proc.devRef .tc main_arg1) _ _ (List.forall_iff_forall_mem.mp (by
          simp only [hostOps1_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg1) := StableHlo.after_of_forall_not_mem (b := Proc.devRef .tc main_arg1) _ _ (List.forall_iff_forall_mem.mp (by
          simp only [hostOps1_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg1) := StableHlo.after_of_forall_not_mem (b := Proc.devRef .tc main_arg1) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg1) := StableHlo.after_of_forall_not_mem (b := Proc.devRef .tc main_arg1) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg1) := W1_of_ne m ρ c main_arg1 (by decide)
    _ = m ((c : Thread nD τ).loc main_arg1) := rfl

/-- Argument 8 is written by nothing before region 1: at the region's entry it holds the launch contents. -/
theorem W6_main_arg8 : W6 m ρ c (Proc.devRef .tc main_arg8) = m ((c : Thread nD τ).loc main_arg8) :=
  calc W6 m ρ c (Proc.devRef .tc main_arg8)
    _ = W5 m ρ c (Proc.devRef .tc main_arg8) := StableHlo.after_of_forall_not_mem (b := Proc.devRef .tc main_arg8) _ _ (List.forall_iff_forall_mem.mp (by
          simp only [hostOps1_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg8) := StableHlo.after_of_forall_not_mem (b := Proc.devRef .tc main_arg8) _ _ (List.forall_iff_forall_mem.mp (by
          simp only [hostOps1_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg8) := StableHlo.after_of_forall_not_mem (b := Proc.devRef .tc main_arg8) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg8) := StableHlo.after_of_forall_not_mem (b := Proc.devRef .tc main_arg8) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg8) := W1_of_ne m ρ c main_arg8 (by decide)
    _ = m ((c : Thread nD τ).loc main_arg8) := rfl

/-- Argument 9 is written by nothing before region 1: at the region's entry it holds the launch contents. -/
theorem W6_main_arg9 : W6 m ρ c (Proc.devRef .tc main_arg9) = m ((c : Thread nD τ).loc main_arg9) :=
  calc W6 m ρ c (Proc.devRef .tc main_arg9)
    _ = W5 m ρ c (Proc.devRef .tc main_arg9) := StableHlo.after_of_forall_not_mem (b := Proc.devRef .tc main_arg9) _ _ (List.forall_iff_forall_mem.mp (by
          simp only [hostOps1_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg9) := StableHlo.after_of_forall_not_mem (b := Proc.devRef .tc main_arg9) _ _ (List.forall_iff_forall_mem.mp (by
          simp only [hostOps1_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg9) := StableHlo.after_of_forall_not_mem (b := Proc.devRef .tc main_arg9) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg9) := StableHlo.after_of_forall_not_mem (b := Proc.devRef .tc main_arg9) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg9) := W1_of_ne m ρ c main_arg9 (by decide)
    _ = m ((c : Thread nD τ).loc main_arg9) := rfl

end Fold

/-! ## Region 1's three output arrays after the region, given what its five gathered inputs hold at its entry -/

section Kernel
variable (m : (ℓ : Loc nD τ sig) → Buf (Elt Ideal) ℓ) (ρ : Dev nD → PrngReg) (c : Dev nD)

/-- If at region 1's entry the five gathered arrays hold `D`, `Gm`, `Sk`, `Sq`, `B`, then after the region its three
    output arrays hold `G8`, `G9`, `G10` of the launch's edge features, those five arrays, the weight and the bias. -/
theorem edge_vals_kernel (D Gm Sk Sq B : S800000x64.Idx → EReal)
    (h1 : W6 (F := Ideal) m ρ c (Proc.devRef .tc main_v1) = D) (h2 : W6 (F := Ideal) m ρ c (Proc.devRef .tc main_v2) = Gm)
    (h3 : W6 (F := Ideal) m ρ c (Proc.devRef .tc main_v3) = Sk) (h4 : W6 (F := Ideal) m ρ c (Proc.devRef .tc main_v4) = Sq)
    (h5 : W6 (F := Ideal) m ρ c (Proc.devRef .tc main_v5) = B) :
    W7 (F := Ideal) m ρ c (Proc.devRef .tc main_v6_0)
        = G8 (m ((c : Thread nD τ).loc main_arg1)) D Gm (m ((c : Thread nD τ).loc main_arg8)) (m ((c : Thread nD τ).loc main_arg9))
    ∧ W7 (F := Ideal) m ρ c (Proc.devRef .tc main_v6_1)
        = G9 (m ((c : Thread nD τ).loc main_arg1)) D Gm Sk Sq B (m ((c : Thread nD τ).loc main_arg8)) (m ((c : Thread nD τ).loc main_arg9))
    ∧ W7 (F := Ideal) m ρ c (Proc.devRef .tc main_v6_2)
        = G10 (m ((c : Thread nD τ).loc main_arg1)) D Gm Sk Sq (m ((c : Thread nD τ).loc main_arg8)) (m ((c : Thread nD τ).loc main_arg9)) := by
  have e1 : V6 m ρ c main_arg1 = m ((c : Thread nD τ).loc main_arg1) := W6_main_arg1 m ρ c
  have e8 : V6 m ρ c main_arg8 = m ((c : Thread nD τ).loc main_arg8) := W6_main_arg8 m ρ c
  have e9 : V6 m ρ c main_arg9 = m ((c : Thread nD τ).loc main_arg9) := W6_main_arg9 m ρ c
  have d1 : V6 m ρ c main_v1 = D := h1
  have d2 : V6 m ρ c main_v2 = Gm := h2
  have d3 : V6 m ρ c main_v3 = Sk := h3
  have d4 : V6 m ρ c main_v4 = Sq := h4
  have d5 : V6 m ρ c main_v5 = B := h5
  refine ⟨?_, ?_, ?_⟩
  · refine (W7_arr m ρ c 8).trans ((final1_8 (V6 m ρ) c).trans ?_)
    rw [e1, e8, e9, d1, d2]
  · refine (W7_arr m ρ c 9).trans ((final1_9 (V6 m ρ) c).trans ?_)
    rw [e1, e8, e9, d1, d2, d3, d4, d5]
  · refine (W7_arr m ρ c 10).trans ((final1_10 (V6 m ρ) c).trans ?_)
    rw [e1, e8, e9, d1, d2, d3, d4]

end Kernel

end Cert.Bridge

end
-- ==== Proof.Stage2.lean ====
import proofs.«412482_j67259187855861_1_alg».proof.Proof.Gen.KernelIdeal.Frame
import proofs.«412482_j67259187855861_1_alg».proof.Proof.Args
import proofs.«412482_j67259187855861_1_alg».proof.Proof.Stage2Aux
import Idealize.ShloMosaic.Lib.ValueIdx
import Idealize.ShloMosaic.Lib.IdealHost
import Idealize.ShloMosaic.PureOps.Ideal.Laws

/-!
  The edge stage: after the second kernel region, its three output arrays hold the reference's edge update, message and gate.

  `Stage2Aux` shows that the region leaves in its outputs the functions `G8`, `G9`, `G10` of the arrays it reads
  (entry by entry: a row of the edge features times a column of the weight plus the bias, added to the two gathered node
  terms; the logistic function of that times the mean of the products of the two gathered attention rows; the gathered
  node term times that gate). Here the reference's stages are shown to be the same three functions of the same arrays:
  its sigmoid is spelt `1 / (1 + exp (-x))`, which is the logistic function, and its mean divides the row sum by 64
  where the kernel multiplies by 1/64, which agree on every extended real.
-/

noncomputable section

namespace Cert.Bridge

open Idealize.ShloMosaic Idealize.ShloMosaic.TcCoe Idealize.SL.Sem Cert.KernelIdeal Cert.KernelIdeal.Gen
open Idealize.ShloMosaic.ValueIdx
open scoped BigOperators

variable (m : (ℓ : Loc nD τ sig) → Buf (Elt Ideal) ℓ) (ρ : Dev nD → PrngReg) (c : Dev nD)

/-! ## The reference's operand indices, by coordinates -/

theorem lidx16_eq (i : S800000x64.Idx) (k : Fin 64) : Cert.ReferenceIdeal.Read.lidx_main_v16 i k = ix2 (i 0) k :=
  funext fun a => match a with | ⟨0, _⟩ => rfl | ⟨1, _⟩ => rfl
theorem ridx16_eq (i : S800000x64.Idx) (k : Fin 64) : Cert.ReferenceIdeal.Read.ridx_main_v16 i k = ix2 k (i 1) :=
  funext fun a => match a with | ⟨0, _⟩ => rfl | ⟨1, _⟩ => rfl
theorem idx17_18_eq (i : S800000x64.Idx) : Cert.ReferenceIdeal.Read.idx_main_v17 (Cert.ReferenceIdeal.Read.idx_main_v18 i) = ix1 (i 1) :=
  funext fun a => match a with | ⟨0, _⟩ => rfl
theorem idx85_eq (i : S800000x64.Idx) (k : Fin 64) :
    Cert.ReferenceIdeal.Read.idx_main_v85 (Cert.ReferenceIdeal.Read.idx_main_v88 (Cert.ReferenceIdeal.Read.idx_main_v89 i)) k = ix2 (i 0) k :=
  funext fun a => match a with | ⟨0, _⟩ => rfl | ⟨1, _⟩ => rfl

/-- The f32 pattern `0x42800000` is the real 64. -/
theorem ofBits_sixtyfour_f32 : Ideal.ofBits .f32 0x42800000#32 = ((64 : ℝ) : EReal) := by
  simp [Ideal.ofBits, Ideal.ieee, -EReal.coe_mul]; norm_num

/-! ## The reference's three stages are the kernel's three functions -/

/-- The reference's edge update is `G8` of the edge features, the two gathered node terms, the weight and the bias. -/
theorem rEnew_eq : rEnew m c = G8 (a1 m c) (rDhSrc m c) (rEhDst m c) (a8 m c) (a9 m c) := by
  funext i
  unfold rEnew rDhSrc rEhDst G8 eNewAt
  simp only [Cert.ReferenceIdeal.Read.val_main_v55_apply, Cert.ReferenceIdeal.Read.val_main_v54_apply, Cert.ReferenceIdeal.Read.val_main_v19_apply, Cert.ReferenceIdeal.Read.val_main_v16_apply,
    Cert.ReferenceIdeal.Read.val_main_v18_apply, Cert.ReferenceIdeal.Read.val_main_v17_apply, lidx16_eq, ridx16_eq, idx17_18_eq]
  rfl

/-- The reference's gate is `G10`: its `1 / (1 + exp (-x))` is the logistic function, its row sum divided by 64 the
    row sum times 1/64. -/
theorem rSigma_eq : rSigma m c = G10 (a1 m c) (rDhSrc m c) (rEhDst m c) (rSkSrc m c) (rSqDst m c) (a8 m c) (a9 m c) := by
  funext i
  have hE := congrFun (rEnew_eq m c) i
  unfold rSigma
  simp only [Cert.ReferenceIdeal.Read.val_main_v90_apply, Cert.ReferenceIdeal.Read.val_main_v61_apply, Cert.ReferenceIdeal.Read.val_main_v60_apply, Cert.ReferenceIdeal.Read.val_main_cst_6_apply,
    Cert.ReferenceIdeal.Read.val_main_v59_apply, Cert.ReferenceIdeal.Read.val_main_v58_apply, Cert.ReferenceIdeal.Read.val_main_cst_5_apply, Cert.ReferenceIdeal.Read.val_main_v57_apply,
    Cert.ReferenceIdeal.Read.val_main_v56_apply, Cert.ReferenceIdeal.Read.val_main_v89_apply, Cert.ReferenceIdeal.Read.val_main_v88_apply, Cert.ReferenceIdeal.Read.val_main_v87_apply,
    Cert.ReferenceIdeal.Read.val_main_v86_apply, Cert.ReferenceIdeal.Read.val_main_cst_12_apply, Cert.ReferenceIdeal.Read.val_main_v85_apply, Cert.ReferenceIdeal.Read.val_main_cst_11_apply,
    Cert.ReferenceIdeal.Read.val_main_v84_apply, idx85_eq]
  show Ideal.div (Ideal.ofBits .f32 0x3F800000#32) (Ideal.ofBits .f32 0x3F800000#32 + Ideal.exp (-(rEnew m c i)))
      * Ideal.div (Ideal.ofBits .f32 0x00000000#32 + ∑ k : Fin 64, rSkSrc m c (ix2 (i 0) k) * rSqDst m c (ix2 (i 0) k))
          (Ideal.ofBits .f32 0x42800000#32)
    = G10 (a1 m c) (rDhSrc m c) (rEhDst m c) (rSkSrc m c) (rSqDst m c) (a8 m c) (a9 m c) i
  rw [Ideal.ofBits_one_f32, Ideal.ofBits_zero_f32, zero_add, ofBits_sixtyfour_f32,
    Ideal.div_coe (by norm_num : (64 : ℝ) ≠ 0), hE]
  rfl

/-- The reference's message is `G9`: the gathered node term times the gate. -/
theorem rOut1_eq :
    rOut1 m c = G9 (a1 m c) (rDhSrc m c) (rEhDst m c) (rSkSrc m c) (rSqDst m c) (rBhSrc m c) (a8 m c) (a9 m c) := by
  funext i
  have hS := congrFun (rSigma_eq m c) i
  unfold rOut1
  rw [Cert.ReferenceIdeal.Read.val_main_v98_apply]
  show rBhSrc m c i * rSigma m c i = _
  rw [hS]
  rfl

/-! ## The link -/

/-- If at the second region's entry the five gathered arrays hold the reference's gathered stages, then after the region
    its three output arrays hold the reference's edge update, message and gate. -/
theorem edge_vals (h1 : W6 (F := Ideal) m ρ c (Proc.devRef .tc main_v1) = rDhSrc m c) (h2 : W6 (F := Ideal) m ρ c (Proc.devRef .tc main_v2) = rEhDst m c) (h3 : W6 (F := Ideal) m ρ c (Proc.devRef .tc main_v3) = rSkSrc m c) (h4 : W6 (F := Ideal) m ρ c (Proc.devRef .tc main_v4) = rSqDst m c) (h5 : W6 (F := Ideal) m ρ c (Proc.devRef .tc main_v5) = rBhSrc m c) :
    W7 (F := Ideal) m ρ c (Proc.devRef .tc main_v6_0) = rEnew m c ∧ W7 (F := Ideal) m ρ c (Proc.devRef .tc main_v6_1) = rOut1 m c ∧ W7 (F := Ideal) m ρ c (Proc.devRef .tc main_v6_2) = rSigma m c := by
  obtain ⟨k8, k9, k10⟩ := edge_vals_kernel m ρ c (rDhSrc m c) (rEhDst m c) (rSkSrc m c) (rSqDst m c) (rBhSrc m c) h1 h2 h3 h4 h5
  exact ⟨k8.trans (rEnew_eq m c).symm, k9.trans (rOut1_eq m c).symm, k10.trans (rSigma_eq m c).symm⟩

end Cert.Bridge

end
-- ==== Proof.Stage3.lean ====
/-
  The guarded quotient h'.

  After the edge region the program computes, on the host, h' = A_h + N / (D + guard): N is the sum of the
  rows B_h[src]·sigma into their destination nodes, D the sum of sigma's rows into the same nodes, both as a
  scatter-sum of an all-zero table along the column of destination indices; the guard is one constant spread
  over the table. The reference does the same operations, in the same order, with the same dimension
  records, on its own operands. So once the four operands agree (A_h, the destination indices, B_h[src]·sigma
  and sigma) the two results are one term: nothing here looks inside the scatter-sum or the quotient.

  The module also carries h' and e' forward through the later regions that only read them.
-/
import proofs.«412482_j67259187855861_1_alg».proof.Proof.Gen.KernelIdeal.Frame
import proofs.«412482_j67259187855861_1_alg».proof.Proof.Args

noncomputable section

namespace Cert.Bridge

open Idealize.ShloMosaic Idealize.ShloMosaic.TcCoe Idealize.SL.Sem Cert.KernelIdeal Cert.KernelIdeal.Gen

variable (m : (ℓ : Loc nD τ sig) → Buf (Elt Ideal) ℓ) (ρ : Dev nD → PrngReg) (c : Dev nD)

/-- A stretch of host operations leaves every buffer that none of its operations writes: the goal
    "the contents after the stretch, at a reference, are the contents before" is reduced to one
    inequality of references per operation, each decided. -/
local macro "stretch_keeps " h:ident : tactic =>
  `(tactic| (refine StableHlo.after_of_forall_not_mem _ _ (List.forall_iff_forall_mem.mp ?_)
             simp only [$h:ident, List.Forall, StableHlo.nullary_writes, StableHlo.unary_writes,
               StableHlo.binary_writes, StableHlo.ternary_writes, StableHlo.quaternary_writes,
               StableHlo.reshape_writes, StableHlo.binaryIndexed_writes, Finset.mem_singleton]
             repeat' apply And.intro
             all_goals exact StableHlo.devRef_ne_of_ne (by decide)))

/-- A_h, written by the first region, is still in its buffer after the five gather stretches and the
    edge region: none of them writes it. -/
theorem W7_main_v0_0 :
    W7 (F := Ideal) m ρ c (Proc.devRef .tc main_v0_0) = W1 (F := Ideal) m ρ c (Proc.devRef .tc main_v0_0) :=
  calc W7 (F := Ideal) m ρ c (Proc.devRef .tc main_v0_0)
    _ = W6 (F := Ideal) m ρ c (Proc.devRef .tc main_v0_0) := W7_of_ne m ρ c main_v0_0 (by decide)
    _ = W5 (F := Ideal) m ρ c (Proc.devRef .tc main_v0_0) := by stretch_keeps hostOps1_4
    _ = W4 (F := Ideal) m ρ c (Proc.devRef .tc main_v0_0) := by stretch_keeps hostOps1_3
    _ = W3 (F := Ideal) m ρ c (Proc.devRef .tc main_v0_0) := by stretch_keeps hostOps1_2
    _ = W2 (F := Ideal) m ρ c (Proc.devRef .tc main_v0_0) := by stretch_keeps hostOps1_1
    _ = W1 (F := Ideal) m ρ c (Proc.devRef .tc main_v0_0) := by stretch_keeps hostOps1

/-- The destination indices are an argument nothing writes: after the edge region their buffer holds
    what the launch put there. -/
theorem W7_main_arg3 :
    W7 (F := Ideal) m ρ c (Proc.devRef .tc main_arg3) = a3 m c :=
  calc W7 (F := Ideal) m ρ c (Proc.devRef .tc main_arg3)
    _ = W6 (F := Ideal) m ρ c (Proc.devRef .tc main_arg3) := W7_of_ne m ρ c main_arg3 (by decide)
    _ = W5 (F := Ideal) m ρ c (Proc.devRef .tc main_arg3) := by stretch_keeps hostOps1_4
    _ = W4 (F := Ideal) m ρ c (Proc.devRef .tc main_arg3) := by stretch_keeps hostOps1_3
    _ = W3 (F := Ideal) m ρ c (Proc.devRef .tc main_arg3) := by stretch_keeps hostOps1_2
    _ = W2 (F := Ideal) m ρ c (Proc.devRef .tc main_arg3) := by stretch_keeps hostOps1_1
    _ = W1 (F := Ideal) m ρ c (Proc.devRef .tc main_arg3) := by stretch_keeps hostOps1
    _ = W0 (F := Ideal) m ρ c (Proc.devRef .tc main_arg3) := W1_of_ne m ρ c main_arg3 (by decide)
    _ = a3 m c := rfl

/-- h' is an INPUT of the node-statistics region (its first window): a pipeline never writes an input's
    array back, so at the region's exit the array is as it was entered. The edge-statistics region and the
    two host stretches after them do not touch it. -/
theorem hnew_carry12 :
    W12 (F := Ideal) m ρ c (Proc.devRef .tc main_v16) = W8 (F := Ideal) m ρ c (Proc.devRef .tc main_v16) :=
  calc W12 (F := Ideal) m ρ c (Proc.devRef .tc main_v16)
    _ = W11 (F := Ideal) m ρ c (Proc.devRef .tc main_v16) := by stretch_keeps hostOps4
    _ = W10 (F := Ideal) m ρ c (Proc.devRef .tc main_v16) := W11_of_ne m ρ c main_v16 (by decide)
    _ = W9 (F := Ideal) m ρ c (Proc.devRef .tc main_v16) := by stretch_keeps hostOps3
    _ = (dat2 (V8 (F := Ideal) m ρ) c).arrAt 0 cfg2.N := W9_arr m ρ c 0
    _ = (dat2 (V8 (F := Ideal) m ρ) c).A 0 := Pipeline.Dat.arrAt_in _ 0 rfl cfg2.N
    _ = W8 (F := Ideal) m ρ c (Proc.devRef .tc main_v16) := A_eq2 (V8 (F := Ideal) m ρ) c 0

/-- e' leaves the edge region in its buffer; the quotient stretch, the node-statistics region and the
    stretch after it do not write it. -/
theorem enew_carry10 :
    W10 (F := Ideal) m ρ c (Proc.devRef .tc main_v6_0) = W7 (F := Ideal) m ρ c (Proc.devRef .tc main_v6_0) :=
  calc W10 (F := Ideal) m ρ c (Proc.devRef .tc main_v6_0)
    _ = W9 (F := Ideal) m ρ c (Proc.devRef .tc main_v6_0) := by stretch_keeps hostOps3
    _ = W8 (F := Ideal) m ρ c (Proc.devRef .tc main_v6_0) := W9_of_ne m ρ c main_v6_0 (by decide)
    _ = W7 (F := Ideal) m ρ c (Proc.devRef .tc main_v6_0) := by stretch_keeps hostOps2

/-- e' is an INPUT of the edge-statistics region (its first window), so that region leaves its array as
    entered; the node-normalising region and the stretches around it do not write it. -/
theorem enew_carry14 :
    W14 (F := Ideal) m ρ c (Proc.devRef .tc main_v6_0) = W7 (F := Ideal) m ρ c (Proc.devRef .tc main_v6_0) :=
  calc W14 (F := Ideal) m ρ c (Proc.devRef .tc main_v6_0)
    _ = W13 (F := Ideal) m ρ c (Proc.devRef .tc main_v6_0) := by stretch_keeps hostOps5
    _ = W12 (F := Ideal) m ρ c (Proc.devRef .tc main_v6_0) := W13_of_ne m ρ c main_v6_0 (by decide)
    _ = W11 (F := Ideal) m ρ c (Proc.devRef .tc main_v6_0) := by stretch_keeps hostOps4
    _ = (dat3 (V10 (F := Ideal) m ρ) c).arrAt 0 cfg3.N := W11_arr m ρ c 0
    _ = (dat3 (V10 (F := Ideal) m ρ) c).A 0 := Pipeline.Dat.arrAt_in _ 0 rfl cfg3.N
    _ = W10 (F := Ideal) m ρ c (Proc.devRef .tc main_v6_0) := A_eq3 (V10 (F := Ideal) m ρ) c 0
    _ = W7 (F := Ideal) m ρ c (Proc.devRef .tc main_v6_0) := enew_carry10 m ρ c

/-- The quotient stretch read at h': A_h plus the quotient of the two destination sums, written over the
    buffers as the edge region left them. Each operation of the stretch is replaced by its function at its
    own result buffer; every other buffer is as it was. -/
theorem hnew_read :
    W8 (F := Ideal) m ρ c (Proc.devRef .tc main_v16) =
      (addf (W7 (F := Ideal) m ρ c (Proc.devRef .tc main_v0_0) : (⟨S50000x64, .f32⟩ : BufTy).Contents (Elt Ideal))
        (Host.divf
          (Host.scatterAdd scatter_S50000x64_S800000x1_S800000x64_1_0_0_1
            (broadcastInDim S50000x64 ![] bcast_S_S50000x64 (constant (F := Ideal) S_ .f32 0x00000000#32))
            (broadcastInDim S800000x1 ![0] bcast_S800000_S800000x1_0
              (W7 (F := Ideal) m ρ c (Proc.devRef .tc main_arg3) : (⟨S800000, .i32⟩ : BufTy).Contents (Elt Ideal)))
            (W7 (F := Ideal) m ρ c (Proc.devRef .tc main_v6_1) : (⟨S800000x64, .f32⟩ : BufTy).Contents (Elt Ideal)))
          (addf
            (Host.scatterAdd scatter_S50000x64_S800000x1_S800000x64_1_0_0_1
              (broadcastInDim S50000x64 ![] bcast_S_S50000x64 (constant (F := Ideal) S_ .f32 0x00000000#32))
              (broadcastInDim S800000x1 ![0] bcast_S800000_S800000x1_0
                (W7 (F := Ideal) m ρ c (Proc.devRef .tc main_arg3) : (⟨S800000, .i32⟩ : BufTy).Contents (Elt Ideal)))
              (W7 (F := Ideal) m ρ c (Proc.devRef .tc main_v6_2) : (⟨S800000x64, .f32⟩ : BufTy).Contents (Elt Ideal)))
            (broadcastInDim S50000x64 ![] bcast_S_S50000x64 (constant (F := Ideal) S_ .f32 0x358637BD#32))))
        : (⟨S50000x64, .f32⟩ : BufTy).Contents (Elt Ideal)) := by
  show StableHlo.after hostOps2 (W7 (F := Ideal) m ρ c) (Proc.devRef .tc main_v16) = _
  after_results

/-- The scatter-sum's dimension record is written once per program; the two have the same fields. -/
theorem scatter_record_eq :
    (scatter_S50000x64_S800000x1_S800000x64_1_0_0_1 : ScatterDims S50000x64 S800000x1 S800000x64) =
      Cert.ReferenceIdeal.scatter_S50000x64_S800000x1_S800000x64_1_0_0_1 := rfl

/-- h' in the program's buffer is the reference's h'. With the four operands equal (A_h by hypothesis and
    its carry, the destination indices as launched, B_h[src]·sigma and sigma by hypothesis) both sides are
    the same chain of operations: zero table, index column, scatter-sum, twice; the guard spread; the sum,
    the quotient, the sum. -/
theorem hnew_val
    (hA : W1 (F := Ideal) m ρ c (Proc.devRef .tc main_v0_0) = rAh m c)
    (h61 : W7 (F := Ideal) m ρ c (Proc.devRef .tc main_v6_1) = rOut1 m c)
    (h62 : W7 (F := Ideal) m ρ c (Proc.devRef .tc main_v6_2) = rSigma m c) :
    W8 (F := Ideal) m ρ c (Proc.devRef .tc main_v16) = rHnew m c := by
  rw [hnew_read m ρ c, W7_main_v0_0 m ρ c, hA, h61, h62, W7_main_arg3 m ρ c, scatter_record_eq]
  unfold rHnew rAh rOut1 rSigma
  unfold Cert.ReferenceIdeal.Read.val_main_v108 Cert.ReferenceIdeal.Read.val_main_v107
    Cert.ReferenceIdeal.Read.val_main_v106 Cert.ReferenceIdeal.Read.val_main_v105
    Cert.ReferenceIdeal.Read.val_main_v104 Cert.ReferenceIdeal.Read.val_main_v103
    Cert.ReferenceIdeal.Read.val_main_v102 Cert.ReferenceIdeal.Read.val_main_v101
    Cert.ReferenceIdeal.Read.val_main_v100 Cert.ReferenceIdeal.Read.val_main_v99
    Cert.ReferenceIdeal.Read.val_main_cst_15 Cert.ReferenceIdeal.Read.val_main_cst_16
    Cert.ReferenceIdeal.Read.val_main_cst_17
  rfl

end Cert.Bridge

end
-- ==== Proof.LibVariance.lean ====
/-
  The variance identity on the extended reals, for real data.

  For a finite family of real numbers `x i`, read as extended reals, with `n` its cardinality (nonzero), write
  `μ = (Σ_j x_j)·(1/n)` for the mean.  The mean of the squared deviations equals the mean of the squares less the
  square of the mean:

      (Σ_i (x_i − μ)·(x_i − μ))·(1/n) = (Σ_i x_i·x_i)·(1/n) − μ·μ .

  Every division by `n` is written as the product with the reciprocal `1/n` (which is what a division of an extended
  real by a nonzero real is).  Since every term is the image of a real number, both sides are images of real numbers:
  the finite sum of images is the image of the finite sum, and so are differences and products; the identity is then the
  usual one over the reals, which follows from expanding the square termwise,
  `(x_i − μ)² = x_i² − 2μ·x_i + μ²`, summing, and using `Σ_i μ² = n·μ²` with `μ = S/n`.
-/
import Mathlib.Data.EReal.Inv
import Mathlib.Algebra.BigOperators.Group.Finset.Basic
import Mathlib.Algebra.BigOperators.Ring.Finset
import Mathlib.Tactic.Ring
import Mathlib.Tactic.FieldSimp
import Idealize.ShloMosaic.PureOps.Ideal

noncomputable section

namespace Cert.Bridge

/-- A finite sum of images of real numbers in the extended reals is the image of the real sum. -/
theorem coe_finset_sum {ι : Type} (s : Finset ι) (f : ι → ℝ) :
    (∑ i ∈ s, ((f i : ℝ) : EReal)) = ((∑ i ∈ s, f i : ℝ) : EReal) := by
  classical
  refine Finset.induction_on s (by simp) ?_
  intro a t ha ih
  rw [Finset.sum_insert ha, Finset.sum_insert ha, ih, EReal.coe_add]

/-- The variance identity over the reals: with `n` the number of terms and `S` their sum, the sum of the squared
    deviations from `S/n`, divided by `n`, is the sum of the squares divided by `n`, less `(S/n)²`. -/
theorem var_identity_real {ι : Type} [Fintype ι] (x : ι → ℝ) (n : ℝ) (hn : n ≠ 0)
    (hcard : (Fintype.card ι : ℝ) = n) :
    (∑ i, (x i - (∑ j, x j) * (1 / n)) * (x i - (∑ j, x j) * (1 / n))) * (1 / n)
      = (∑ i, x i * x i) * (1 / n) - ((∑ j, x j) * (1 / n)) * ((∑ j, x j) * (1 / n)) := by
  set S : ℝ := ∑ j, x j with hS
  set μ : ℝ := S * (1 / n) with hμ
  have hterm : ∀ i, (x i - μ) * (x i - μ) = x i * x i - 2 * μ * x i + μ * μ := fun i => by ring
  have hsum : (∑ i, (x i - μ) * (x i - μ)) = (∑ i, x i * x i) - 2 * μ * S + n * (μ * μ) := by
    rw [Finset.sum_congr rfl (fun i _ => hterm i), Finset.sum_add_distrib, Finset.sum_sub_distrib,
      ← Finset.mul_sum, Finset.sum_const, Finset.card_univ, nsmul_eq_mul, hcard]
  rw [hsum, hμ]
  field_simp
  ring

/-- The variance identity on the extended reals, for real data: the mean of the squared deviations from the mean is
    the mean of the squares less the square of the mean, each division by `n` being the product with `1/n`. -/
theorem var_identity {ι : Type} [Fintype ι] (x : ι → ℝ) (n : ℝ) (hn : n ≠ 0)
    (hcard : (Fintype.card ι : ℝ) = n) :
    (∑ i, ((x i : EReal) - (∑ j, (x j : EReal)) * ((1 / n : ℝ) : EReal))
          * ((x i : EReal) - (∑ j, (x j : EReal)) * ((1 / n : ℝ) : EReal))) * ((1 / n : ℝ) : EReal)
      = (∑ i, (x i : EReal) * (x i : EReal)) * ((1 / n : ℝ) : EReal)
        - ((∑ j, (x j : EReal)) * ((1 / n : ℝ) : EReal)) * ((∑ j, (x j : EReal)) * ((1 / n : ℝ) : EReal)) := by
  have hS : (∑ j, (x j : EReal)) = ((∑ j, x j : ℝ) : EReal) := coe_finset_sum _ _
  have hQ : (∑ i, (x i : EReal) * (x i : EReal)) = ((∑ i, x i * x i : ℝ) : EReal) := by
    exact (Finset.sum_congr rfl (fun i _ => (EReal.coe_mul (x i) (x i)).symm)).trans
      (coe_finset_sum Finset.univ (fun i => x i * x i))
  have hD : (∑ i, ((x i : EReal) - ((∑ j, x j : ℝ) : EReal) * ((1 / n : ℝ) : EReal))
          * ((x i : EReal) - ((∑ j, x j : ℝ) : EReal) * ((1 / n : ℝ) : EReal)))
      = ((∑ i, (x i - (∑ j, x j) * (1 / n)) * (x i - (∑ j, x j) * (1 / n)) : ℝ) : EReal) := by
    refine (Finset.sum_congr rfl (fun i _ => ?_)).trans
      (coe_finset_sum Finset.univ (fun i => (x i - (∑ j, x j) * (1 / n)) * (x i - (∑ j, x j) * (1 / n))))
    rw [← EReal.coe_mul, ← EReal.coe_sub, ← EReal.coe_mul]
  rw [hS, hD, hQ, ← EReal.coe_mul, ← EReal.coe_mul, ← EReal.coe_mul, ← EReal.coe_mul, ← EReal.coe_sub,
    var_identity_real x n hn hcard]

end Cert.Bridge

end
-- ==== Proof.Stage4AuxKernel.lean ====
/-
  The kernel's batch statistics of the updated node table h', read at a column.

  The reduction region walks the 50000 rows of h' in ten blocks of 5000.  It keeps two rows of 64 accumulators: at the
  first block both are set to zero; at every block the first gains the column sums of the block and the second the
  column sums of the squares of the block's entries.  After block `n` the accumulators therefore hold, at column `j`,
  the sum and the sum of squares of column `j` over the rows below `5000·(n+1)` (an induction on the block; addition on
  the extended reals is commutative and associative, so no finiteness is needed).  The last block's write-back puts
  them in the region's two [1,64] result arrays.  The host stretch that follows reshapes each to a vector, divides by
  the constant 50000, and subtracts the square of the first quotient from the second.

  Result (`kmean_apply`, `kvar_apply`): at column `j`, with `H` the array the region read,
      mean_j = (Σ_k H(k, j)) / n        var_j = (Σ_k H(k, j)·H(k, j)) / n − mean_j · mean_j
  the sums over all 50000 rows `k` and `n` the float constant.
-/
import proofs.«412482_j67259187855861_1_alg».proof.Proof.Gen.KernelIdeal.Frame
import Idealize.ShloMosaic.Lib.Pipeline.Value
import Idealize.ShloMosaic.Lib.ValueIdx
import Idealize.ShloMosaic.Lib.IdealHost
import Idealize.ShloMosaic.Lib.StableHlo.Run
import Idealize.ShloMosaic.Lib.Tactic
import Idealize.ShloMosaic.PureOps.Ideal.Laws

noncomputable section

namespace Cert.Bridge.NodeStats

open Idealize.ShloMosaic Idealize.ShloMosaic.TcCoe Idealize.SL.Sem Cert.KernelIdeal Cert.KernelIdeal.Gen
open Idealize.ShloMosaic.Pipeline (Dat)
open Idealize.ShloMosaic.ValueIdx

/-! ## What one run of the body leaves in the two accumulators -/

section Pieces
variable {F : FTy → Type} [FloatOps F]

/-- The zero offsets of a whole-block rectangle of rank two. -/
theorem hz2 : (![0, 0] : Fin 2 → Nat) = fun _ => 0 := funext fun a => by fin_cases a <;> rfl

/-- At a point other than the first, the first accumulator (holding `xo1`) is left at `xo1` plus the column sums of the
    input block `x`: the one covering store's payload, its loads reading the whole buffers. -/
theorem piece_B_1 (c : Dev nD) (i : grid2.Coords) (a1 : Memref sig .tc .vmem S5000x64 .f32) (h1 : a1.IsWhole)
    (a2 : Memref sig .tc .vmem S1x64 .f32) (h2 : a2.IsWhole) (a3 : Memref sig .tc .vmem S1x64 .f32) (h3 : a3.IsWhole)
    (hc : ¬cond2_0 i) (x : Vec F S5000x64 .f32) (xo1 xo2 : Vec F S1x64 .f32) :
    out2_B_1 c i a1 h1 a2 h2 a3 h3 hc x xo1 xo2 = k2_pay4 x xo1 := by
  unfold out2_B_1
  rw [View.read_writes_eq_canon _ _ _ (cover2_B_1 c i a1 h1 a2 h2 a3 h3 hc x xo1 xo2)]
  unfold kernelRun2_B
  dsimp only
  rw [View.canon_unit_zero hz2]
  simp only [View.readAt_eq_ld, h1.read_unread, h2.read_unread, View.ld_unit_zero (S := S5000x64) hz2,
    View.ld_unit_zero (S := S1x64) hz2]

/-- At a point other than the first, the second accumulator (holding `xo2`) is left at `xo2` plus the column sums of
    the squares of the input block. -/
theorem piece_B_2 (c : Dev nD) (i : grid2.Coords) (a1 : Memref sig .tc .vmem S5000x64 .f32) (h1 : a1.IsWhole)
    (a2 : Memref sig .tc .vmem S1x64 .f32) (h2 : a2.IsWhole) (a3 : Memref sig .tc .vmem S1x64 .f32) (h3 : a3.IsWhole)
    (hc : ¬cond2_0 i) (x : Vec F S5000x64 .f32) (xo1 xo2 : Vec F S1x64 .f32) :
    out2_B_2 c i a1 h1 a2 h2 a3 h3 hc x xo1 xo2 = k2_pay5 x xo2 := by
  unfold out2_B_2
  rw [View.read_writes_eq_canon _ _ _ (cover2_B_2 c i a1 h1 a2 h2 a3 h3 hc x xo1 xo2)]
  unfold kernelRun2_B
  dsimp only
  rw [View.canon_unit_zero hz2]
  simp only [View.readAt_eq_ld, h1.read_unread, h3.read_unread, View.ld_unit_zero (S := S5000x64) hz2,
    View.ld_unit_zero (S := S1x64) hz2]

/-- At the first point the first accumulator is reset to the zero row and then updated: it is left at the zero row plus
    the column sums of the input block (the update reads back the reset just stored). -/
theorem piece_A_1 (c : Dev nD) (i : grid2.Coords) (a1 : Memref sig .tc .vmem S5000x64 .f32) (h1 : a1.IsWhole)
    (a2 : Memref sig .tc .vmem S1x64 .f32) (h2 : a2.IsWhole) (a3 : Memref sig .tc .vmem S1x64 .f32) (h3 : a3.IsWhole)
    (hc : cond2_0 i) (x : Vec F S5000x64 .f32) :
    out2_A_1 c i a1 h1 a2 h2 a3 h3 hc x = k2_pay4 x (k2_pay1 (F := F)) := by
  unfold out2_A_1
  rw [View.read_writes_eq_canon _ _ _ (cover2_A_1 c i a1 h1 a2 h2 a3 h3 hc x)]
  unfold kernelRun2_A
  dsimp only
  sl_unfold_words
  rw [View.canon_cons_unit_zero (S := S1x64) hz2]
  simp only [View.readAt_eq_ld, h1.read_unread, View.ld_unit_zero (S := S5000x64) hz2,
    View.readCov_unit_zero (S := S1x64) _ hz2, View.ld_unit_zero (S := S1x64) hz2]

/-- At the first point the second accumulator likewise: the zero row plus the column sums of the squares. -/
theorem piece_A_2 (c : Dev nD) (i : grid2.Coords) (a1 : Memref sig .tc .vmem S5000x64 .f32) (h1 : a1.IsWhole)
    (a2 : Memref sig .tc .vmem S1x64 .f32) (h2 : a2.IsWhole) (a3 : Memref sig .tc .vmem S1x64 .f32) (h3 : a3.IsWhole)
    (hc : cond2_0 i) (x : Vec F S5000x64 .f32) :
    out2_A_2 c i a1 h1 a2 h2 a3 h3 hc x = k2_pay5 x (k2_pay2 (F := F)) := by
  unfold out2_A_2
  rw [View.read_writes_eq_canon _ _ _ (cover2_A_2 c i a1 h1 a2 h2 a3 h3 hc x)]
  unfold kernelRun2_A
  dsimp only
  sl_unfold_words
  rw [View.canon_cons_unit_zero (S := S1x64) hz2]
  simp only [View.readAt_eq_ld, h1.read_unread, View.ld_unit_zero (S := S5000x64) hz2,
    View.readCov_unit_zero (S := S1x64) _ hz2, View.ld_unit_zero (S := S1x64) hz2]

end Pieces

/-! ## The payloads at an index, over the extended reals -/

section Payloads

/-- The first accumulator's update at column `j`: what it held there plus the sum of column `j` of the block. -/
theorem pay4_apply (x : Vec Ideal S5000x64 .f32) (v : Vec Ideal S1x64 .f32) (z : Fin 1) (j : Fin 64) :
    k2_pay4 (F := Ideal) x v (ix2 z j) = v (ix2 z j) + ∑ r : Fin 5000, x (ix2 r j) := by
  unfold k2_pay4 k2_pay3
  simp only [shapeCast_self]
  refine congrArg (v (ix2 z j) + ·) ?_
  refine (shapeCast_addUnit_apply ![64] _ shapeCasts_S64_S1x64 (ix2 z j)).trans ?_
  refine (Ideal.multiReduction_add_single x _ reduces_S5000x64_S64 (.inl rfl) rfl _).trans ?_
  exact Finset.sum_congr rfl fun r _ => congrArg x (funext fun a => Fin.ext (by match a with | ⟨0, _⟩ => rfl | ⟨1, _⟩ => rfl))

/-- The second accumulator's update at column `j`: what it held there plus the sum of the squares of column `j` of the
    block. -/
theorem pay5_apply (x : Vec Ideal S5000x64 .f32) (v : Vec Ideal S1x64 .f32) (z : Fin 1) (j : Fin 64) :
    k2_pay5 (F := Ideal) x v (ix2 z j) = v (ix2 z j) + ∑ r : Fin 5000, x (ix2 r j) * x (ix2 r j) := by
  unfold k2_pay5 k2_pay3
  simp only [shapeCast_self]
  refine congrArg (v (ix2 z j) + ·) ?_
  refine (shapeCast_addUnit_apply ![64] _ shapeCasts_S64_S1x64 (ix2 z j)).trans ?_
  refine (Ideal.multiReduction_add_single (mulf x x) _ reduces_S5000x64_S64 (.inl rfl) rfl _).trans ?_
  exact Finset.sum_congr rfl fun r _ => congrArg (fun i => x i * x i) (funext fun a => Fin.ext (by match a with | ⟨0, _⟩ => rfl | ⟨1, _⟩ => rfl))

/-- The reset row is zero. -/
theorem pay1_apply (i : S1x64.Idx) : k2_pay1 (F := Ideal) i = 0 := by
  unfold k2_pay1
  exact Ideal.ofBits_zero_f32

theorem pay2_apply (i : S1x64.Idx) : k2_pay2 (F := Ideal) i = 0 := by
  unfold k2_pay2
  exact Ideal.ofBits_zero_f32

end Payloads

/-! ## The accumulators after each point -/

section Accumulation

variable (m : (ℓ : Loc nD τ sig) → Buf (Elt Ideal) ℓ) (ρ : Dev nD → PrngReg) (c : Dev nD)

/-- The array the region reduces: the updated node table h', as the region finds it. -/
abbrev hArr : Vec Ideal S50000x64 .f32 := W8 m ρ c (Proc.devRef .tc main_v16)

/-- Its block of 5000 rows at point `t`. -/
abbrev hBlk (t : Fin cfg2.N) : Vec Ideal S5000x64 .f32 := iblk2 (V8 m ρ) c 0 t

/-- Row `k` of h' at column `j`, for a natural number `k` (zero past the last row). -/
def rowN (k : ℕ) (j : Fin 64) : EReal := if h : k < 50000 then hArr m ρ c (ix2 ⟨k, h⟩ j) else 0

/-- The window's index map: block `t` of the rows, the one block of the columns. -/
theorem idx2_0 : ∀ t : Fin cfg2.N, win2_0.index t 0 = t.val ∧ win2_0.index t 1 = 0 :=
  (by decide +kernel : ∀ t : Fin grid2.N, win2_0.index t 0 = t.val ∧ win2_0.index t 1 = 0)

/-- Row `r` of block `t` is row `5000·t + r` of the array. -/
theorem hBlk_apply (t : Fin cfg2.N) (r : Fin 5000) (j : Fin 64) :
    hBlk m ρ c t (ix2 r j) = rowN m ρ c (5000 * t.val + r.val) j := by
  have hN : t.val < 10 := lt_of_lt_of_eq t.isLt (show cfg2.N = 10 from N_2)
  have hk : 5000 * t.val + r.val < 50000 := by have := r.isLt; omega
  unfold rowN
  rw [dif_pos hk]
  unfold hBlk iblk2
  rw [View.read_apply]
  show V8 m ρ c main_v16 _ = hArr m ρ c _
  unfold hArr V8
  congr 1
  funext a
  apply Fin.ext
  match a with
  | ⟨0, _⟩ => show win2_0.index t 0 * 5000 + 1 * r.val = 5000 * t.val + r.val; rw [(idx2_0 t).1]; omega
  | ⟨1, _⟩ => show win2_0.index t 1 * 64 + 1 * j.val = j.val; rw [(idx2_0 t).2]; omega

/-- After the first point: the reset rows updated with the first block. -/
theorem outsAt_zero (h : 0 < cfg2.N) :
    outsAt2 (V8 m ρ) c 0 h
      = (k2_pay4 (F := Ideal) (hBlk m ρ c ⟨0, h⟩) (k2_pay1 (F := Ideal)), k2_pay5 (F := Ideal) (hBlk m ρ c ⟨0, h⟩) (k2_pay2 (F := Ideal))) :=
  (outsAt2_A (V8 m ρ) c ⟨0, h⟩ rfl).trans
    (congrArg₂ Prod.mk
      (piece_A_1 (F := Ideal) c (grid2.coords ⟨0, h⟩) (ms2_0 ⟨0, h⟩) (hs2_0 ⟨0, h⟩) (ms2_1 ⟨0, h⟩) (hs2_1 ⟨0, h⟩) (ms2_2 ⟨0, h⟩) (hs2_2 ⟨0, h⟩) ((hcond2_0 ⟨0, h⟩).mpr rfl) (hBlk m ρ c ⟨0, h⟩))
      (piece_A_2 (F := Ideal) c (grid2.coords ⟨0, h⟩) (ms2_0 ⟨0, h⟩) (hs2_0 ⟨0, h⟩) (ms2_1 ⟨0, h⟩) (hs2_1 ⟨0, h⟩) (ms2_2 ⟨0, h⟩) (hs2_2 ⟨0, h⟩) ((hcond2_0 ⟨0, h⟩).mpr rfl) (hBlk m ρ c ⟨0, h⟩)))

/-- After a later point: what the point before left, updated with this point's block. -/
theorem outsAt_succ (n : ℕ) (h : n + 1 < cfg2.N) :
    outsAt2 (V8 m ρ) c (n + 1) h
      = (k2_pay4 (F := Ideal) (hBlk m ρ c ⟨n + 1, h⟩) (outsAt2 (V8 m ρ) c n (Nat.lt_of_succ_lt h)).1,
         k2_pay5 (F := Ideal) (hBlk m ρ c ⟨n + 1, h⟩) (outsAt2 (V8 m ρ) c n (Nat.lt_of_succ_lt h)).2) := by
  have hN : cfg2.N = 10 := N_2
  have hB : ¬(⟨n + 1, h⟩ : Fin cfg2.N).val % 10 = 0 := by dsimp only; omega
  exact (outsAt2_B (V8 m ρ) c ⟨n + 1, h⟩ hB).trans
    (congrArg₂ Prod.mk
      (piece_B_1 (F := Ideal) c (grid2.coords ⟨n + 1, h⟩) (ms2_0 ⟨n + 1, h⟩) (hs2_0 ⟨n + 1, h⟩) (ms2_1 ⟨n + 1, h⟩) (hs2_1 ⟨n + 1, h⟩) (ms2_2 ⟨n + 1, h⟩) (hs2_2 ⟨n + 1, h⟩) (fun hh => hB ((hcond2_0 ⟨n + 1, h⟩).mp hh)) (hBlk m ρ c ⟨n + 1, h⟩) (outsAt2 (V8 m ρ) c n (Nat.lt_of_succ_lt h)).1 (outsAt2 (V8 m ρ) c n (Nat.lt_of_succ_lt h)).2)
      (piece_B_2 (F := Ideal) c (grid2.coords ⟨n + 1, h⟩) (ms2_0 ⟨n + 1, h⟩) (hs2_0 ⟨n + 1, h⟩) (ms2_1 ⟨n + 1, h⟩) (hs2_1 ⟨n + 1, h⟩) (ms2_2 ⟨n + 1, h⟩) (hs2_2 ⟨n + 1, h⟩) (fun hh => hB ((hcond2_0 ⟨n + 1, h⟩).mp hh)) (hBlk m ρ c ⟨n + 1, h⟩) (outsAt2 (V8 m ρ) c n (Nat.lt_of_succ_lt h)).1 (outsAt2 (V8 m ρ) c n (Nat.lt_of_succ_lt h)).2))

/-- The sum of column `j` over the rows of the blocks `0 … n`. -/
def partSum (n : ℕ) (j : Fin 64) : EReal :=
  ∑ t ∈ Finset.range (n + 1), ∑ r : Fin 5000, rowN m ρ c (5000 * t + r.val) j

/-- The sum of the squares of column `j` over the rows of the blocks `0 … n`. -/
def partSq (n : ℕ) (j : Fin 64) : EReal :=
  ∑ t ∈ Finset.range (n + 1), ∑ r : Fin 5000, rowN m ρ c (5000 * t + r.val) j * rowN m ρ c (5000 * t + r.val) j

/-- THE INVARIANT: after point `n` the two accumulators hold, at column `j`, the sum and the sum of squares of that
    column over the rows below `5000·(n+1)` — by induction on the point. -/
theorem outsAt_inv : ∀ (n : ℕ) (h : n < cfg2.N) (z : Fin 1) (j : Fin 64),
    (outsAt2 (V8 m ρ) c n h).1 (ix2 z j) = partSum m ρ c n j ∧ (outsAt2 (V8 m ρ) c n h).2 (ix2 z j) = partSq m ρ c n j
  | 0, h, z, j => by
    rw [outsAt_zero m ρ c h]
    dsimp only
    rw [pay4_apply, pay5_apply, pay1_apply, pay2_apply, zero_add, zero_add]
    unfold partSum partSq
    rw [Finset.sum_range_one, Finset.sum_range_one]
    exact ⟨Finset.sum_congr rfl fun r _ => hBlk_apply m ρ c ⟨0, h⟩ r j,
      Finset.sum_congr rfl fun r _ => by rw [hBlk_apply m ρ c ⟨0, h⟩ r j]⟩
  | n + 1, h, z, j => by
    obtain ⟨ih1, ih2⟩ := outsAt_inv n (Nat.lt_of_succ_lt h) z j
    rw [outsAt_succ m ρ c n h]
    dsimp only
    rw [pay4_apply, pay5_apply, ih1, ih2]
    unfold partSum partSq
    rw [Finset.sum_range_succ _ (n + 1), Finset.sum_range_succ _ (n + 1)]
    exact ⟨congrArg (_ + ·) (Finset.sum_congr rfl fun r _ => hBlk_apply m ρ c ⟨n + 1, h⟩ r j),
      congrArg (_ + ·) (Finset.sum_congr rfl fun r _ => by rw [hBlk_apply m ρ c ⟨n + 1, h⟩ r j])⟩

end Accumulation

/-! ## The arrays after the region, and the statistics the host computes from them -/

section Result

variable (m : (ℓ : Loc nD τ sig) → Buf (Elt Ideal) ℓ) (ρ : Dev nD → PrngReg) (c : Dev nD)

theorem nine_lt : 9 < cfg2.N := by rw [show cfg2.N = 10 from N_2]; decide

/-- Ten blocks of 5000 consecutive rows are the 50000 rows: the row `5000·t + r` runs through all of them once
    (the bijection between pairs (block, row in block) and rows). -/
theorem sum_blocks {M : Type} [AddCommMonoid M] (g : ℕ → M) :
    ∑ t ∈ Finset.range 10, ∑ r : Fin 5000, g (5000 * t + r.val) = ∑ k : Fin 50000, g k.val := by
  rw [← Fin.sum_univ_eq_sum_range (fun t => ∑ r : Fin 5000, g (5000 * t + r.val)) 10]
  rw [← Fintype.sum_prod_type' (fun (t : Fin 10) (r : Fin 5000) => g (5000 * t.val + r.val))]
  refine Fintype.sum_equiv finProdFinEquiv _ (fun k : Fin (10 * 5000) => g k.val) (fun p => ?_)
  show g (5000 * p.1.val + p.2.val) = g (p.2.val + 5000 * p.1.val)
  rw [Nat.add_comm]

/-- A row below 50000 read by its natural number is that row. -/
theorem rowN_val (k : Fin 50000) (j : Fin 64) : rowN m ρ c k.val j = hArr m ρ c (ix2 k j) := by
  unfold rowN
  rw [dif_pos k.isLt]

/-- After the last point the first accumulator holds the column sums of the whole array, -/
theorem partSum_nine (j : Fin 64) : partSum m ρ c 9 j = ∑ k : Fin 50000, hArr m ρ c (ix2 k j) := by
  unfold partSum
  rw [sum_blocks (fun k => rowN m ρ c k j)]
  exact Finset.sum_congr rfl fun k _ => rowN_val m ρ c k j

/-- and the second the column sums of its squares. -/
theorem partSq_nine (j : Fin 64) :
    partSq m ρ c 9 j = ∑ k : Fin 50000, hArr m ρ c (ix2 k j) * hArr m ρ c (ix2 k j) := by
  unfold partSq
  rw [sum_blocks (fun k => rowN m ρ c k j * rowN m ρ c k j)]
  exact Finset.sum_congr rfl fun k _ => by rw [rowN_val m ρ c k j]

/-- The one write-back of the first accumulator, at the last point, writes what the accumulator holds then: the block
    is the whole [1,64] array, read through zero offsets. -/
theorem flushed_1 (t : Fin cfg2.N) (hf : (cfg2.win 1).flush t = true) :
    (dat2 (V8 m ρ) c).flushed 1 t
      = ((cfg2.win 1).blk t).view.read (Elt Ideal) ((outsAt2 (V8 m ρ) c 9 nine_lt).1) := by
  have hN : cfg2.N = 10 := N_2
  have h9 : t.val = 9 := by have := (flush2_1 t).mp hf; have := t.isLt; omega
  obtain rfl : t = t2_9 := Fin.ext h9
  show (cfg2.win 1).cut (grid2.coords t2_9) ((dat2 (V8 m ρ) c).after 1 t2_9) = _
  rw [after2_1]
  have hz' : (fun a => win2_1.index t2_9 a * main_v17_0.ty.shape.size a) = fun _ => 0 := funext fun a => by fin_cases a <;> decide
  exact (Memref.read_access_unit_zero (Elt Ideal) main_v17_0 hz' (fun a => by rw [congrFun hz' a]; simp) ((outsAt2 (V8 m ρ) c 9 nine_lt).1)).symm

theorem flushed_2 (t : Fin cfg2.N) (hf : (cfg2.win 2).flush t = true) :
    (dat2 (V8 m ρ) c).flushed 2 t
      = ((cfg2.win 2).blk t).view.read (Elt Ideal) ((outsAt2 (V8 m ρ) c 9 nine_lt).2) := by
  have hN : cfg2.N = 10 := N_2
  have h9 : t.val = 9 := by have := (flush2_2 t).mp hf; have := t.isLt; omega
  obtain rfl : t = t2_9 := Fin.ext h9
  show (cfg2.win 2).cut (grid2.coords t2_9) ((dat2 (V8 m ρ) c).after 2 t2_9) = _
  rw [after2_2]
  have hz' : (fun a => win2_2.index t2_9 a * main_v17_1.ty.shape.size a) = fun _ => 0 := funext fun a => by fin_cases a <;> decide
  exact (Memref.read_access_unit_zero (Elt Ideal) main_v17_1 hz' (fun a => by rw [congrFun hz' a]; simp) ((outsAt2 (V8 m ρ) c 9 nine_lt).2)).symm

/-- So the first result array of the region ends holding the first accumulator after the last point (that point's
    block covers the array), -/
theorem arr_1 : (dat2 (V8 m ρ) c).arrAt 1 cfg2.N = (outsAt2 (V8 m ρ) c 9 nine_lt).1 :=
  (dat2 (V8 m ρ) c).arrAt_eq_of_cover 1 ((outsAt2 (V8 m ρ) c 9 nine_lt).1) (flushed_1 m ρ c) fun i =>
    ⟨t2_9, (flush2_1 t2_9).mpr rfl, by
      show i ∈ ((View.whole main_v17_0).slice (win2_1.rect t2_9)).set
      rw [View.set_slice_whole, Rect.mem_set_unit]
      intro a
      have h0 : (i 0 : Nat) < 1 := (i 0).isLt
      have h1 : (i 1 : Nat) < 64 := (i 1).isLt
      match a with
      | ⟨0, _⟩ => show win2_1.index t2_9 0 * win2_1.size 0 ≤ (i 0 : Nat) ∧ (i 0 : Nat) < win2_1.index t2_9 0 * win2_1.size 0 + win2_1.xsize (grid2.coords t2_9) 0
                  rw [show win2_1.index t2_9 0 * win2_1.size 0 = 0 from by decide +kernel, show win2_1.xsize (grid2.coords t2_9) 0 = 1 from by decide +kernel]; omega
      | ⟨1, _⟩ => show win2_1.index t2_9 1 * win2_1.size 1 ≤ (i 1 : Nat) ∧ (i 1 : Nat) < win2_1.index t2_9 1 * win2_1.size 1 + win2_1.xsize (grid2.coords t2_9) 1
                  rw [show win2_1.index t2_9 1 * win2_1.size 1 = 0 from by decide +kernel, show win2_1.xsize (grid2.coords t2_9) 1 = 64 from by decide +kernel]; omega⟩

/-- and the second the second accumulator. -/
theorem arr_2 : (dat2 (V8 m ρ) c).arrAt 2 cfg2.N = (outsAt2 (V8 m ρ) c 9 nine_lt).2 :=
  (dat2 (V8 m ρ) c).arrAt_eq_of_cover 2 ((outsAt2 (V8 m ρ) c 9 nine_lt).2) (flushed_2 m ρ c) fun i =>
    ⟨t2_9, (flush2_2 t2_9).mpr rfl, by
      show i ∈ ((View.whole main_v17_1).slice (win2_2.rect t2_9)).set
      rw [View.set_slice_whole, Rect.mem_set_unit]
      intro a
      have h0 : (i 0 : Nat) < 1 := (i 0).isLt
      have h1 : (i 1 : Nat) < 64 := (i 1).isLt
      match a with
      | ⟨0, _⟩ => show win2_2.index t2_9 0 * win2_2.size 0 ≤ (i 0 : Nat) ∧ (i 0 : Nat) < win2_2.index t2_9 0 * win2_2.size 0 + win2_2.xsize (grid2.coords t2_9) 0
                  rw [show win2_2.index t2_9 0 * win2_2.size 0 = 0 from by decide +kernel, show win2_2.xsize (grid2.coords t2_9) 0 = 1 from by decide +kernel]; omega
      | ⟨1, _⟩ => show win2_2.index t2_9 1 * win2_2.size 1 ≤ (i 1 : Nat) ∧ (i 1 : Nat) < win2_2.index t2_9 1 * win2_2.size 1 + win2_2.xsize (grid2.coords t2_9) 1
                  rw [show win2_2.index t2_9 1 * win2_2.size 1 = 0 from by decide +kernel, show win2_2.xsize (grid2.coords t2_9) 1 = 64 from by decide +kernel]; omega⟩

/-- The region's first result array at column `j`: the sum of column `j` of h'. -/
theorem sumArr_apply (z : Fin 1) (j : Fin 64) :
    (W9 m ρ c (Proc.devRef .tc main_v17_0) : Vec Ideal S1x64 .f32) (ix2 z j) = ∑ k : Fin 50000, hArr m ρ c (ix2 k j) := by
  have e : (W9 m ρ c (Proc.devRef .tc main_v17_0) : Vec Ideal S1x64 .f32) = (outsAt2 (V8 m ρ) c 9 nine_lt).1 :=
    (W9_arr m ρ c 1).trans (arr_1 m ρ c)
  rw [e, (outsAt_inv m ρ c 9 nine_lt z j).1, partSum_nine]

/-- The region's second result array at column `j`: the sum of the squares of column `j` of h'. -/
theorem sqArr_apply (z : Fin 1) (j : Fin 64) :
    (W9 m ρ c (Proc.devRef .tc main_v17_1) : Vec Ideal S1x64 .f32) (ix2 z j)
      = ∑ k : Fin 50000, hArr m ρ c (ix2 k j) * hArr m ρ c (ix2 k j) := by
  have e : (W9 m ρ c (Proc.devRef .tc main_v17_1) : Vec Ideal S1x64 .f32) = (outsAt2 (V8 m ρ) c 9 nine_lt).2 :=
    (W9_arr m ρ c 2).trans (arr_2 m ρ c)
  rw [e, (outsAt_inv m ρ c 9 nine_lt z j).2, partSq_nine]

/-- The divisor the host broadcasts: the float constant 50000. -/
abbrev nConst : EReal := Ideal.ofBits .f32 0x47435000#32

/-- The mean and the variance as the host stretch after the region leaves them. -/
abbrev kMean : Vec Ideal S64 .f32 := W10 m ρ c (Proc.devRef .tc main_v20)
abbrev kVar : Vec Ideal S64 .f32 := W10 m ρ c (Proc.devRef .tc main_v25)

/-- The host's mean: the first result array, reshaped to a vector, divided by the constant. -/
theorem meanArr_eq :
    (W10 m ρ c (Proc.devRef .tc main_v20) : Vec Ideal S64 .f32)
      = Host.divf (shapeCast S64 (W9 m ρ c (Proc.devRef .tc main_v17_0) : Vec Ideal S1x64 .f32) shapeCasts_S1x64_S64)
          (broadcastInDim S64 ![] bcast_S_S64 (constant (F := Ideal) S_ .f32 0x47435000#32)) := by
  show StableHlo.after hostOps3 (W9 m ρ c) (Proc.devRef .tc main_v20) = _
  after_results
  rfl

/-- The host's variance: the second result array, reshaped and divided by the constant, less the square of the mean. -/
theorem varArr_eq :
    (W10 m ρ c (Proc.devRef .tc main_v25) : Vec Ideal S64 .f32)
      = subf (Host.divf (shapeCast S64 (W9 m ρ c (Proc.devRef .tc main_v17_1) : Vec Ideal S1x64 .f32) shapeCasts_S1x64_S64)
          (broadcastInDim S64 ![] bcast_S_S64 (constant (F := Ideal) S_ .f32 0x47435000#32)))
        (mulf (kMean m ρ c) (kMean m ρ c)) := by
  show StableHlo.after hostOps3 (W9 m ρ c) (Proc.devRef .tc main_v25) = _
  after_results
  rfl

/-- A [1,64] array reshaped to a vector reads column `j` of its one row. -/
theorem reshape_row (v : Vec Ideal S1x64 .f32) (j : Fin 64) :
    shapeCast S64 v shapeCasts_S1x64_S64 (ix1 j) = v (ix2 (0 : Fin 1) j) :=
  (shapeCast_dropUnit_apply ![64] v shapeCasts_S1x64_S64 (ix1 j)).trans
    (congrArg v (funext fun a => by match a with | ⟨0, _⟩ => rfl | ⟨1, _⟩ => rfl))

/-- THE KERNEL'S MEAN at column `j`: the sum of column `j` of h' divided by the constant. -/
theorem kmean_apply (j : Fin 64) :
    kMean m ρ c (ix1 j) = Ideal.div (∑ k : Fin 50000, hArr m ρ c (ix2 k j)) nConst := by
  unfold kMean
  rw [meanArr_eq]
  show Ideal.div (shapeCast S64 (W9 m ρ c (Proc.devRef .tc main_v17_0) : Vec Ideal S1x64 .f32) shapeCasts_S1x64_S64 (ix1 j)) nConst = _
  rw [reshape_row, sumArr_apply]

/-- THE KERNEL'S VARIANCE at column `j`: the sum of the squares of column `j` divided by the constant, less the square
    of the kernel's mean. -/
theorem kvar_apply (j : Fin 64) :
    kVar m ρ c (ix1 j)
      = Ideal.div (∑ k : Fin 50000, hArr m ρ c (ix2 k j) * hArr m ρ c (ix2 k j)) nConst
        - Ideal.div (∑ k : Fin 50000, hArr m ρ c (ix2 k j)) nConst * Ideal.div (∑ k : Fin 50000, hArr m ρ c (ix2 k j)) nConst := by
  unfold kVar
  rw [varArr_eq]
  show Ideal.div (shapeCast S64 (W9 m ρ c (Proc.devRef .tc main_v17_1) : Vec Ideal S1x64 .f32) shapeCasts_S1x64_S64 (ix1 j)) nConst
      - kMean m ρ c (ix1 j) * kMean m ρ c (ix1 j) = _
  rw [reshape_row, sqArr_apply, kmean_apply]

end Result

end Cert.Bridge.NodeStats

end
-- ==== Proof.Stage4AuxRef.lean ====
/-
  The reference's batch statistics of the updated node table h', read at a column.

  The reference takes the column mean of h' as (0 + Σ_rows h') / 50000 and the column variance as
  (0 + Σ_rows (h' − mean)²) / 50000, the mean broadcast back over the rows before the subtraction.  Here both are read
  at a column `j` as sums over the 50000 rows of entries of the reference's h', and the float constant is identified
  with the real number 50000.
-/
import proofs.«412482_j67259187855861_1_alg».proof.Proof.Args
import Idealize.ShloMosaic.Lib.ValueIdx
import Idealize.ShloMosaic.Lib.IdealHost
import Idealize.ShloMosaic.PureOps.Ideal.Laws
import Mathlib.Tactic.NormNum

noncomputable section

namespace Cert.Bridge.NodeStats

open Idealize.ShloMosaic Idealize.ShloMosaic.TcCoe Idealize.SL.Sem Cert.KernelIdeal
open Idealize.ShloMosaic.ValueIdx
open Cert.ReferenceIdeal.Read

variable (m : (ℓ : Loc nD τ sig) → Buf (Elt Ideal) ℓ) (c : Dev nD)

/-! ## The reference's column mean and column variance of h', at a column -/

/-- The float constant the reference divides by is the real number 50000. -/
theorem ofBits_n : Ideal.ofBits .f32 0x47435000#32 = ((50000 : ℝ) : EReal) := by
  simp [Ideal.ofBits, Ideal.ieee, -EReal.coe_mul]; norm_num

/-- The index the column sum reads at row `k` for column `j` is the entry (k, j). -/
theorem idx_sum (j : Fin 64) (k : Fin 50000) : idx_main_v109 (ix1 j) k = ix2 k j :=
  funext fun a => by match a with | ⟨0, _⟩ => rfl | ⟨1, _⟩ => rfl

theorem idx_sumsq (j : Fin 64) (k : Fin 50000) : idx_main_v116 (ix1 j) k = ix2 k j :=
  funext fun a => by match a with | ⟨0, _⟩ => rfl | ⟨1, _⟩ => rfl

/-- The mean broadcast back over the rows reads, at the entry (k, j), the mean of column `j`. -/
theorem idx_bcast (j : Fin 64) (k : Fin 50000) : idx_main_v112 (idx_main_v113 (ix2 k j)) = ix1 j :=
  funext fun a => by match a with | ⟨0, _⟩ => rfl

/-- THE REFERENCE'S MEAN at column `j`: zero plus the sum of column `j` of h', divided by the constant. -/
theorem rMeanH_apply (j : Fin 64) :
    rMeanH m c (ix1 j)
      = Ideal.div (0 + ∑ k : Fin 50000, rHnew m c (ix2 k j)) (Ideal.ofBits .f32 0x47435000#32) := by
  unfold rMeanH rHnew
  rw [val_main_v111_apply, val_main_v109_apply, val_main_v110_apply, val_main_cst_18_apply, val_main_cst_19_apply]
  simp only [idx_sum, Ideal.ofBits_def, Ideal.hostDivf_def, Ideal.ofBits_zero_f32]

/-- One squared deviation, as the reference computes it: the entry less the mean of its column, times itself. -/
theorem sqDev_apply (j : Fin 64) (k : Fin 50000) :
    val_main_v115 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) (a19 m c) (a20 m c) (a21 m c) (idx_main_v116 (ix1 j) k)
      = (rHnew m c (ix2 k j) - rMeanH m c (ix1 j)) * (rHnew m c (ix2 k j) - rMeanH m c (ix1 j)) := by
  unfold rHnew rMeanH
  rw [idx_sumsq, val_main_v115_apply, val_main_v114_apply, val_main_v113_apply, val_main_v112_apply, idx_bcast]
  rfl

/-- THE REFERENCE'S VARIANCE at column `j`: zero plus the sum over the rows of the squared deviations from the
    reference's mean of the column, divided by the constant. -/
theorem rVarH_apply (j : Fin 64) :
    rVarH m c (ix1 j)
      = Ideal.div (0 + ∑ k : Fin 50000, (rHnew m c (ix2 k j) - rMeanH m c (ix1 j)) * (rHnew m c (ix2 k j) - rMeanH m c (ix1 j)))
          (Ideal.ofBits .f32 0x47435000#32) := by
  unfold rVarH
  rw [val_main_v118_apply, val_main_v116_apply, val_main_v117_apply, val_main_cst_20_apply, val_main_cst_21_apply]
  simp only [sqDev_apply, Ideal.ofBits_def, Ideal.hostDivf_def, Ideal.ofBits_zero_f32]

end Cert.Bridge.NodeStats

end
-- ==== Proof.Stage4.lean ====
/-
  The batch statistics of the updated node table h': the kernel's buffers hold the reference's column mean and column
  variance.

  The kernel accumulates, over ten row blocks, the column sums `s` and the column sums of squares `q` of h', and the
  host stretch after it leaves  mean = s/n  and  var = q/n − mean·mean  (`n` = 50000).  The reference computes
  mean = (0 + Σ_rows h')/n  and  var = (0 + Σ_rows (h' − mean)²)/n.  Given that the array the kernel reduces is the
  reference's h' and that every entry of h' is a real number, the two means are the same sum divided by the same
  constant, and the two variances agree by the variance identity: the mean of the squared deviations from the mean is
  the mean of the squares less the square of the mean (each division by the nonzero real `n` being the product with
  its reciprocal).
-/
import proofs.«412482_j67259187855861_1_alg».proof.Proof.Gen.KernelIdeal.Frame
import proofs.«412482_j67259187855861_1_alg».proof.Proof.Args
import proofs.«412482_j67259187855861_1_alg».proof.Proof.LibVariance
import proofs.«412482_j67259187855861_1_alg».proof.Proof.Stage4AuxKernel
import proofs.«412482_j67259187855861_1_alg».proof.Proof.Stage4AuxRef

noncomputable section

namespace Cert.Bridge

open Idealize.ShloMosaic Idealize.ShloMosaic.TcCoe Idealize.SL.Sem Cert.KernelIdeal Cert.KernelIdeal.Gen
open Idealize.ShloMosaic.ValueIdx
open Cert.Bridge.NodeStats

variable (m : (ℓ : Loc nD τ sig) → Buf (Elt Ideal) ℓ) (ρ : Dev nD → PrngReg) (c : Dev nD)

/-- The kernel's mean and variance buffers after the host stretch that follows the reduction hold the reference's
    column mean and column variance of h', given that the reduced array is the reference's h' (`h16`) and that h' is
    real everywhere (`hr`). -/
theorem stats_h (h16 : W8 (F := Ideal) m ρ c (Proc.devRef .tc main_v16) = rHnew m c) (hr : AllReal (rHnew m c)) :
    W10 (F := Ideal) m ρ c (Proc.devRef .tc main_v20) = rMeanH m c
      ∧ W10 (F := Ideal) m ρ c (Proc.devRef .tc main_v25) = rVarH m c := by
  have hn : (50000 : ℝ) ≠ 0 := by norm_num
  have harr : ∀ i, hArr m ρ c i = rHnew m c i := fun i => congrFun h16 i
  -- the means: the same column sum divided by the same constant
  have hmean : ∀ j : Fin 64, kMean m ρ c (ix1 j) = rMeanH m c (ix1 j) := fun j => by
    have hs : (∑ k : Fin 50000, hArr m ρ c (ix2 k j)) = ∑ k : Fin 50000, rHnew m c (ix2 k j) :=
      Finset.sum_congr rfl fun k _ => harr (ix2 k j)
    rw [kmean_apply, rMeanH_apply, zero_add, hs]
  refine ⟨funext fun i => ?_, funext fun i => ?_⟩
  · obtain ⟨j, rfl⟩ : ∃ j : Fin 64, i = ix1 j := ⟨i 0, eq_ix1 i⟩
    exact hmean j
  · obtain ⟨j, rfl⟩ : ∃ j : Fin 64, i = ix1 j := ⟨i 0, eq_ix1 i⟩
    -- real witnesses of column j of h'
    choose x hx using fun k : Fin 50000 => hr (ix2 k j)
    have hμ : rMeanH m c (ix1 j) = (∑ k : Fin 50000, (x k : EReal)) * ((1 / 50000 : ℝ) : EReal) := by
      have hsR : (∑ k : Fin 50000, rHnew m c (ix2 k j)) = ∑ k : Fin 50000, (x k : EReal) :=
        Finset.sum_congr rfl fun k _ => hx k
      rw [rMeanH_apply, zero_add, ofBits_n, Ideal.div_coe hn, hsR]
    show kVar m ρ c (ix1 j) = rVarH m c (ix1 j)
    rw [kvar_apply, rVarH_apply, zero_add, hμ]
    have hs : (∑ k : Fin 50000, hArr m ρ c (ix2 k j)) = ∑ k : Fin 50000, (x k : EReal) :=
      Finset.sum_congr rfl fun k _ => (harr (ix2 k j)).trans (hx k)
    have hq : (∑ k : Fin 50000, hArr m ρ c (ix2 k j) * hArr m ρ c (ix2 k j)) = ∑ k : Fin 50000, (x k : EReal) * (x k : EReal) :=
      Finset.sum_congr rfl fun k _ => by rw [(harr (ix2 k j)).trans (hx k)]
    have hd : (∑ k : Fin 50000, (rHnew m c (ix2 k j) - (∑ k : Fin 50000, (x k : EReal)) * ((1 / 50000 : ℝ) : EReal))
          * (rHnew m c (ix2 k j) - (∑ k : Fin 50000, (x k : EReal)) * ((1 / 50000 : ℝ) : EReal)))
        = ∑ k : Fin 50000, ((x k : EReal) - (∑ k : Fin 50000, (x k : EReal)) * ((1 / 50000 : ℝ) : EReal))
          * ((x k : EReal) - (∑ k : Fin 50000, (x k : EReal)) * ((1 / 50000 : ℝ) : EReal)) :=
      Finset.sum_congr rfl fun k _ => by rw [hx k]
    rw [hs, hq, hd]
    show Ideal.div _ (Ideal.ofBits .f32 0x47435000#32) - Ideal.div _ (Ideal.ofBits .f32 0x47435000#32) * Ideal.div _ (Ideal.ofBits .f32 0x47435000#32)
      = Ideal.div _ (Ideal.ofBits .f32 0x47435000#32)
    rw [ofBits_n, Ideal.div_coe hn, Ideal.div_coe hn, Ideal.div_coe hn]
    exact (var_identity x 50000 hn (by simp)).symm

end Cert.Bridge

end
-- ==== Proof.Stage5AuxK.lean ====
/-
  The batch statistics of the edge update, on the kernel program's side.

  The reduction region walks the `[800000, 64]` edge-update array in forty row blocks of 20000 rows.  It keeps two
  `[1, 64]` rows: `s`, the column sums, and `q`, the column sums of squares.  The first point sets both to zero and
  every point, the first included, adds its block's column sums to `s` and its block's column sums of squares to `q`.
  After the last point the two rows are written back, so the two result arrays hold, at column `j`,

      s_j = Σ_{k < 800000} A(k, j)        q_j = Σ_{k < 800000} A(k, j)·A(k, j)

  (the forty block sums regrouped as one sum over all rows: addition of extended reals is commutative and associative).
  The host then forms  mean_j = s_j / 800000  and  var_j = q_j / 800000 − mean_j · mean_j.

  This module proves exactly that, for the array `A` the region is entered with (`kernel_stats`); it says nothing
  about the reference.
-/
import proofs.«412482_j67259187855861_1_alg».proof.Proof.Gen.KernelIdeal.Frame
import Idealize.ShloMosaic.Lib.Pipeline.Value
import Idealize.ShloMosaic.Lib.ValueIdx
import Idealize.ShloMosaic.Lib.ValueLayout
import Idealize.ShloMosaic.Lib.IdealHost
import Idealize.ShloMosaic.Lib.StableHlo.Run
import Idealize.ShloMosaic.Lib.Tactic

noncomputable section

namespace Cert.Bridge.EdgeStats

open Idealize.ShloMosaic Idealize.ShloMosaic.TcCoe Idealize.SL.Sem Cert.KernelIdeal Cert.KernelIdeal.Gen
open Idealize.ShloMosaic.ValueIdx
open Idealize.ShloMosaic.Pipeline (Dat)

/-! ## What one grid point leaves in the two running-sum buffers

The body of the reduction kernel, at a point that is not the first, stores into the first output's staging buffer
its previous contents plus the column sums of the point's row block, and into the second its previous contents plus
the column sums of the squares.  At the first point it stores zeros first, so the previous contents are the zero row. -/

section Pieces
variable {F : FTy → Type} [FloatOps F]

/-- The offsets of a store at the origin of a rank-2 buffer. -/
theorem origin2 : (![0, 0] : Fin 2 → Nat) = fun _ => 0 := funext fun a => by fin_cases a <;> rfl

/-- Not the first point, first output: the previous row plus the block's column sums. -/
theorem later_sum (c : Dev nD) (i : grid3.Coords) (a1 : Memref sig .tc .vmem S20000x64 .f32) (h1 : a1.IsWhole)
    (a2 : Memref sig .tc .vmem S1x64 .f32) (h2 : a2.IsWhole) (a3 : Memref sig .tc .vmem S1x64 .f32) (h3 : a3.IsWhole)
    (hc : ¬cond3_0 i) (x : Vec F S20000x64 .f32) (s q : Vec F S1x64 .f32) :
    out3_B_1 c i a1 h1 a2 h2 a3 h3 hc x s q = k3_pay4 x s := by
  unfold out3_B_1
  rw [View.read_writes_eq_canon _ _ _ (cover3_B_1 c i a1 h1 a2 h2 a3 h3 hc x s q)]
  unfold kernelRun3_B
  dsimp only
  sl_unfold_words
  rw [View.canon_unit_zero origin2]
  simp only [View.readAt_eq_ld, h1.read_unread, h2.read_unread, h3.read_unread, View.ld_unit_zero (S := S20000x64) origin2,
    View.ld_unit_zero (S := S1x64) origin2]

/-- Not the first point, second output: the previous row plus the column sums of the block's squares. -/
theorem later_sq (c : Dev nD) (i : grid3.Coords) (a1 : Memref sig .tc .vmem S20000x64 .f32) (h1 : a1.IsWhole)
    (a2 : Memref sig .tc .vmem S1x64 .f32) (h2 : a2.IsWhole) (a3 : Memref sig .tc .vmem S1x64 .f32) (h3 : a3.IsWhole)
    (hc : ¬cond3_0 i) (x : Vec F S20000x64 .f32) (s q : Vec F S1x64 .f32) :
    out3_B_2 c i a1 h1 a2 h2 a3 h3 hc x s q = k3_pay5 x q := by
  unfold out3_B_2
  rw [View.read_writes_eq_canon _ _ _ (cover3_B_2 c i a1 h1 a2 h2 a3 h3 hc x s q)]
  unfold kernelRun3_B
  dsimp only
  sl_unfold_words
  rw [View.canon_unit_zero origin2]
  simp only [View.readAt_eq_ld, h1.read_unread, h2.read_unread, h3.read_unread, View.ld_unit_zero (S := S20000x64) origin2,
    View.ld_unit_zero (S := S1x64) origin2]

/-- The first point, first output: the zero row plus the block's column sums. -/
theorem first_sum (c : Dev nD) (i : grid3.Coords) (a1 : Memref sig .tc .vmem S20000x64 .f32) (h1 : a1.IsWhole)
    (a2 : Memref sig .tc .vmem S1x64 .f32) (h2 : a2.IsWhole) (a3 : Memref sig .tc .vmem S1x64 .f32) (h3 : a3.IsWhole)
    (hc : cond3_0 i) (x : Vec F S20000x64 .f32) :
    out3_A_1 c i a1 h1 a2 h2 a3 h3 hc x = k3_pay4 x (k3_pay1 (F := F)) := by
  unfold out3_A_1
  rw [View.read_writes_eq_canon _ _ _ (cover3_A_1 c i a1 h1 a2 h2 a3 h3 hc x)]
  unfold kernelRun3_A
  dsimp only
  sl_unfold_words
  rw [View.canon_cons_unit_zero (S := S1x64) origin2, View.readCov_unit_zero (S := S1x64) _ origin2]
  simp only [View.readAt_eq_ld, h1.read_unread, View.ld_unit_zero (S := S20000x64) origin2,
    View.ld_unit_zero (S := S1x64) origin2]

/-- The first point, second output: the zero row plus the column sums of the block's squares. -/
theorem first_sq (c : Dev nD) (i : grid3.Coords) (a1 : Memref sig .tc .vmem S20000x64 .f32) (h1 : a1.IsWhole)
    (a2 : Memref sig .tc .vmem S1x64 .f32) (h2 : a2.IsWhole) (a3 : Memref sig .tc .vmem S1x64 .f32) (h3 : a3.IsWhole)
    (hc : cond3_0 i) (x : Vec F S20000x64 .f32) :
    out3_A_2 c i a1 h1 a2 h2 a3 h3 hc x = k3_pay5 x (k3_pay2 (F := F)) := by
  unfold out3_A_2
  rw [View.read_writes_eq_canon _ _ _ (cover3_A_2 c i a1 h1 a2 h2 a3 h3 hc x)]
  unfold kernelRun3_A
  dsimp only
  sl_unfold_words
  rw [View.canon_cons_unit_zero (S := S1x64) origin2, View.readCov_unit_zero (S := S1x64) _ origin2]
  simp only [View.readAt_eq_ld, h1.read_unread, View.ld_unit_zero (S := S20000x64) origin2,
    View.ld_unit_zero (S := S1x64) origin2]
end Pieces

/-! ## The payloads at an entry, over the extended reals -/

section Payloads

/-- The reduced index `j` with row `k` put back is `(k, j)`. -/
theorem lift_row (h : S20000x64.Reduces [0] S64) (j : Fin 64) (k : Fin (S20000x64.size 0)) :
    h.lift (ix1 j) k = ix2 (⟨k.val, k.isLt⟩ : Fin 20000) j := by
  funext d; apply Fin.ext
  fin_cases d <;> rfl

/-- The sum over axis 0 of a `[20000, 64]` block, at column `j`. -/
theorem colsum_apply (y : FVec Ideal S20000x64 .f32) (j : Fin 64) :
    multiReduction .add [0] S64 y 0x00000000#32 reduces_S20000x64_S64 (.inl rfl) rfl (ix1 j)
      = ∑ r : Fin 20000, y (ix2 r j) := by
  refine (Ideal.multiReduction_add_single y _ reduces_S20000x64_S64 (.inl rfl) rfl (ix1 j)).trans ?_
  exact Finset.sum_congr rfl fun k _ => congrArg y (lift_row reduces_S20000x64_S64 j k)

/-- The first output's new row, at column `j`: the old entry plus the block's column sum. -/
theorem pay_sum_apply (x : Vec Ideal S20000x64 .f32) (s : Vec Ideal S1x64 .f32) (j : Fin 64) :
    k3_pay4 (F := Ideal) x s (ix2 (0 : Fin 1) j) = s (ix2 (0 : Fin 1) j) + ∑ r : Fin 20000, x (ix2 r j) := by
  unfold k3_pay4 k3_pay3
  refine (addf_apply _ _ _).trans ?_
  refine congrArg₂ (· + ·) (congrFun (shapeCast_self s _) _) ?_
  refine (shapeCast_a_1a_apply _ _ (0 : Fin 1) j).trans ?_
  refine (colsum_apply _ j).trans ?_
  exact Finset.sum_congr rfl fun r _ => congrFun (shapeCast_self x _) _

/-- The second output's new row, at column `j`: the old entry plus the column sum of the block's squares. -/
theorem pay_sq_apply (x : Vec Ideal S20000x64 .f32) (q : Vec Ideal S1x64 .f32) (j : Fin 64) :
    k3_pay5 (F := Ideal) x q (ix2 (0 : Fin 1) j)
      = q (ix2 (0 : Fin 1) j) + ∑ r : Fin 20000, x (ix2 r j) * x (ix2 r j) := by
  unfold k3_pay5 k3_pay3
  refine (addf_apply _ _ _).trans ?_
  refine congrArg₂ (· + ·) (congrFun (shapeCast_self q _) _) ?_
  refine (shapeCast_a_1a_apply _ _ (0 : Fin 1) j).trans ?_
  refine (colsum_apply _ j).trans ?_
  refine Finset.sum_congr rfl fun r _ => ?_
  refine (mulf_apply _ _ _).trans ?_
  exact congrArg₂ (· * ·) (congrFun (shapeCast_self x _) _) (congrFun (shapeCast_self x _) _)

/-- The row the first point stores first is zero. -/
theorem zero_row_apply (i : S1x64.Idx) : k3_pay1 (F := Ideal) i = 0 := Ideal.ofBits_zero_f32
theorem zero_row_apply' (i : S1x64.Idx) : k3_pay2 (F := Ideal) i = 0 := Ideal.ofBits_zero_f32

/-- The word of the divisor is the real number 800000 = (2^23 + 4411392) · 2^(146 − 127 − 23). -/
theorem ofBits_rows : Ideal.ofBits .f32 0x49435000#32 = ((800000 : ℝ) : EReal) := by
  simp [Ideal.ofBits, Ideal.ieee]
  rw [← EReal.coe_mul]
  exact congrArg _ (by norm_num)
end Payloads

/-! ## The running sums: after point `n` the two buffers hold the column sums over the first `n + 1` row blocks -/

section Running
variable (V : (c : Dev nD) → (b : Ref sig .tc) → Buf (Elt Ideal) ((c : Thread nD τ).loc b))

/-- The array the region reads, `[800000, 64]`, as the region finds it. -/
abbrev earr (c : Dev nD) : Vec Ideal S800000x64 .f32 := V c main_v6_0
/-- Its row block at point `t`, `[20000, 64]`. -/
abbrev eblk (c : Dev nD) (t : Fin cfg3.N) : Vec Ideal S20000x64 .f32 := iblk3 V c 0 t

/-- Point `t`'s block index: row block `t`, the one column block — a finite statement, true at each of the forty points. -/
theorem block_index : ∀ t : Fin cfg3.N, win3_0.index t 0 = t.val ∧ win3_0.index t 1 = 0 :=
  (by decide +kernel : ∀ t : Fin grid3.N, win3_0.index t 0 = t.val ∧ win3_0.index t 1 = 0)

/-- Row `r` of row block `p` is row `20000·p + r` of the array. -/
abbrev rowOf (p : ℕ) (hp : p < 40) (r : Fin 20000) : Fin 800000 := ⟨20000 * p + r.val, by omega⟩

/-- Entry `(r, j)` of point `t`'s block is entry `(20000·t + r, j)` of the array. -/
theorem eblk_apply (c : Dev nD) (t : Fin cfg3.N) (ht : t.val < 40) (r : Fin 20000) (j : Fin 64) :
    eblk V c t (ix2 r j) = earr V c (ix2 (rowOf t.val ht r) j) := by
  unfold eblk iblk3
  rw [View.read_apply]
  show V c main_v6_0 _ = V c main_v6_0 _
  congr 1
  funext a
  apply Fin.ext
  match a with
  | ⟨0, _⟩ => show win3_0.index t 0 * 20000 + 1 * r.val = 20000 * t.val + r.val; rw [(block_index t).1]; omega
  | ⟨1, _⟩ => show win3_0.index t 1 * 64 + 1 * j.val = j.val; rw [(block_index t).2]; omega

/-- Column `j`'s sum over row block `p` (zero past the last block). -/
def blockSum (A : Vec Ideal S800000x64 .f32) (j : Fin 64) (p : ℕ) : EReal :=
  if h : p < 40 then ∑ r : Fin 20000, A (ix2 (rowOf p h r) j) else 0
/-- Column `j`'s sum of squares over row block `p` (zero past the last block). -/
def blockSq (A : Vec Ideal S800000x64 .f32) (j : Fin 64) (p : ℕ) : EReal :=
  if h : p < 40 then ∑ r : Fin 20000, A (ix2 (rowOf p h r) j) * A (ix2 (rowOf p h r) j) else 0

theorem block_sum_eq (c : Dev nD) (t : Fin cfg3.N) (ht : t.val < 40) (j : Fin 64) :
    ∑ r : Fin 20000, eblk V c t (ix2 r j) = blockSum (earr V c) j t.val := by
  unfold blockSum; rw [dif_pos ht]
  exact Finset.sum_congr rfl fun r _ => eblk_apply V c t ht r j
theorem block_sq_eq (c : Dev nD) (t : Fin cfg3.N) (ht : t.val < 40) (j : Fin 64) :
    ∑ r : Fin 20000, eblk V c t (ix2 r j) * eblk V c t (ix2 r j) = blockSq (earr V c) j t.val := by
  unfold blockSq; rw [dif_pos ht]
  exact Finset.sum_congr rfl fun r _ => congrArg₂ (· * ·) (eblk_apply V c t ht r j) (eblk_apply V c t ht r j)

/-- After point `n`: column `j` of the first buffer is the sum of the first `n + 1` block sums, of the second the sum
    of the first `n + 1` block sums of squares.  By induction on the point: the first point adds its block to the
    zero row, every later point adds its block to what the point before left. -/
theorem running (c : Dev nD) (j : Fin 64) : ∀ (n : ℕ) (h : n < cfg3.N),
    (outsAt3 V c n h).1 (ix2 (0 : Fin 1) j) = ∑ p ∈ Finset.range (n + 1), blockSum (earr V c) j p
    ∧ (outsAt3 V c n h).2 (ix2 (0 : Fin 1) j) = ∑ p ∈ Finset.range (n + 1), blockSq (earr V c) j p
  | 0, h => by
    rw [outsAt3_A V c ⟨0, h⟩ rfl]
    dsimp only
    constructor
    · refine (congrFun (first_sum (F := Ideal) c (grid3.coords ⟨0, h⟩) (ms3_0 ⟨0, h⟩) (hs3_0 ⟨0, h⟩) (ms3_1 ⟨0, h⟩) (hs3_1 ⟨0, h⟩)
        (ms3_2 ⟨0, h⟩) (hs3_2 ⟨0, h⟩) ((hcond3_0 ⟨0, h⟩).mpr rfl) (eblk V c ⟨0, h⟩)) (ix2 (0 : Fin 1) j)).trans ?_
      refine (pay_sum_apply (eblk V c ⟨0, h⟩) (k3_pay1 (F := Ideal)) j).trans ?_
      rw [zero_row_apply, zero_add, Finset.sum_range_one]
      exact block_sum_eq V c ⟨0, h⟩ (Nat.succ_pos 39) j
    · refine (congrFun (first_sq (F := Ideal) c (grid3.coords ⟨0, h⟩) (ms3_0 ⟨0, h⟩) (hs3_0 ⟨0, h⟩) (ms3_1 ⟨0, h⟩) (hs3_1 ⟨0, h⟩)
        (ms3_2 ⟨0, h⟩) (hs3_2 ⟨0, h⟩) ((hcond3_0 ⟨0, h⟩).mpr rfl) (eblk V c ⟨0, h⟩)) (ix2 (0 : Fin 1) j)).trans ?_
      refine (pay_sq_apply (eblk V c ⟨0, h⟩) (k3_pay2 (F := Ideal)) j).trans ?_
      rw [zero_row_apply', zero_add, Finset.sum_range_one]
      exact block_sq_eq V c ⟨0, h⟩ (Nat.succ_pos 39) j
  | n + 1, h => by
    have hN : cfg3.N = 40 := N_3
    have hlt : n + 1 < 40 := by omega
    have hB : ¬(⟨n + 1, h⟩ : Fin cfg3.N).val % 40 = 0 := by dsimp only; omega
    obtain ⟨ih1, ih2⟩ := running c j n (Nat.lt_of_succ_lt h)
    rw [outsAt3_B V c ⟨n + 1, h⟩ hB]
    dsimp only
    constructor
    · refine (congrFun (later_sum (F := Ideal) c (grid3.coords ⟨n + 1, h⟩) (ms3_0 ⟨n + 1, h⟩) (hs3_0 ⟨n + 1, h⟩) (ms3_1 ⟨n + 1, h⟩)
        (hs3_1 ⟨n + 1, h⟩) (ms3_2 ⟨n + 1, h⟩) (hs3_2 ⟨n + 1, h⟩) (fun hh => hB ((hcond3_0 ⟨n + 1, h⟩).mp hh)) (eblk V c ⟨n + 1, h⟩)
        (outsAt3 V c n (Nat.lt_of_succ_lt h)).1 (outsAt3 V c n (Nat.lt_of_succ_lt h)).2) (ix2 (0 : Fin 1) j)).trans ?_
      refine ((pay_sum_apply (eblk V c ⟨n + 1, h⟩) (outsAt3 V c n (Nat.lt_of_succ_lt h)).1 j).trans ?_).trans
        (Finset.sum_range_succ _ _).symm
      exact congrArg₂ (· + ·) ih1 (block_sum_eq V c ⟨n + 1, h⟩ hlt j)
    · refine (congrFun (later_sq (F := Ideal) c (grid3.coords ⟨n + 1, h⟩) (ms3_0 ⟨n + 1, h⟩) (hs3_0 ⟨n + 1, h⟩) (ms3_1 ⟨n + 1, h⟩)
        (hs3_1 ⟨n + 1, h⟩) (ms3_2 ⟨n + 1, h⟩) (hs3_2 ⟨n + 1, h⟩) (fun hh => hB ((hcond3_0 ⟨n + 1, h⟩).mp hh)) (eblk V c ⟨n + 1, h⟩)
        (outsAt3 V c n (Nat.lt_of_succ_lt h)).1 (outsAt3 V c n (Nat.lt_of_succ_lt h)).2) (ix2 (0 : Fin 1) j)).trans ?_
      refine ((pay_sq_apply (eblk V c ⟨n + 1, h⟩) (outsAt3 V c n (Nat.lt_of_succ_lt h)).2 j).trans ?_).trans
        (Finset.sum_range_succ _ _).symm
      exact congrArg₂ (· + ·) ih2 (block_sq_eq V c ⟨n + 1, h⟩ hlt j)
end Running

/-! ## The two result arrays after the region

Each output window writes back once, after the last point, and its block is the whole `[1, 64]` array: the arrays end
holding the two buffers as the last point leaves them, that is the column sums over all forty row blocks. -/

section Final
variable (V : (c : Dev nD) → (b : Ref sig .tc) → Buf (Elt Ideal) ((c : Thread nD τ).loc b))

theorem last_lt : 39 < cfg3.N := by rw [show cfg3.N = 40 from N_3]; decide
/-- The last point of the grid. -/
abbrev tlast : Fin cfg3.N := ⟨39, last_lt⟩

/-- What the array of column sums ends holding. -/
abbrev sumArr (c : Dev nD) : Buf (Elt Ideal) ((c : Thread nD τ).loc main_v26_0) := (outsAt3 V c 39 last_lt).1
/-- What the array of column sums of squares ends holding. -/
abbrev sqArr (c : Dev nD) : Buf (Elt Ideal) ((c : Thread nD τ).loc main_v26_1) := (outsAt3 V c 39 last_lt).2

/-- The only point that writes back is the last one. -/
theorem flush_last (w : Fin cfg3.W) (hw : w = 1 ∨ w = 2) (t : Fin cfg3.N) (hf : (cfg3.win w).flush t = true) : t = tlast := by
  have hN : cfg3.N = 40 := N_3
  refine Fin.ext ?_
  rcases hw with rfl | rfl
  · have := (flush3_1 t).mp hf; have := t.isLt; show t.val = 39; omega
  · have := (flush3_2 t).mp hf; have := t.isLt; show t.val = 39; omega

theorem origin_sum : (fun a => win3_1.index tlast a * main_v26_0.ty.shape.size a) = fun _ => 0 :=
  funext fun a => by fin_cases a <;> decide +kernel
theorem origin_sq : (fun a => win3_2.index tlast a * main_v26_1.ty.shape.size a) = fun _ => 0 :=
  funext fun a => by fin_cases a <;> decide +kernel

theorem flushed_sum (c : Dev nD) (t : Fin cfg3.N) (hf : (cfg3.win 1).flush t = true) :
    (dat3 V c).flushed 1 t = ((cfg3.win 1).blk t).view.read (Elt Ideal) (sumArr V c) := by
  obtain rfl := flush_last 1 (.inl rfl) t hf
  show (cfg3.win 1).cut (grid3.coords tlast) ((dat3 V c).after 1 tlast) = _
  rw [after3_1]
  exact (Memref.read_access_unit_zero (Elt Ideal) main_v26_0 origin_sum (fun a => by rw [congrFun origin_sum a]; simp) (sumArr V c)).symm

theorem flushed_sq (c : Dev nD) (t : Fin cfg3.N) (hf : (cfg3.win 2).flush t = true) :
    (dat3 V c).flushed 2 t = ((cfg3.win 2).blk t).view.read (Elt Ideal) (sqArr V c) := by
  obtain rfl := flush_last 2 (.inr rfl) t hf
  show (cfg3.win 2).cut (grid3.coords tlast) ((dat3 V c).after 2 tlast) = _
  rw [after3_2]
  exact (Memref.read_access_unit_zero (Elt Ideal) main_v26_1 origin_sq (fun a => by rw [congrFun origin_sq a]; simp) (sqArr V c)).symm

/-- The last point's block of the first output is the whole array. -/
theorem whole_sum (i : S1x64.Idx) : i ∈ ((cfg3.win 1).blk tlast).view.set := by
  show i ∈ ((View.whole main_v26_0).slice (win3_1.rect tlast)).set
  rw [View.set_slice_whole, Rect.mem_set_unit]
  intro a
  have h0 : (i 0 : Nat) < 1 := (i 0).isLt
  have h1 : (i 1 : Nat) < 64 := (i 1).isLt
  match a with
  | ⟨0, _⟩ =>
    show win3_1.index tlast 0 * win3_1.size 0 ≤ (i 0 : Nat) ∧ (i 0 : Nat) < win3_1.index tlast 0 * win3_1.size 0 + win3_1.xsize (grid3.coords tlast) 0
    rw [show win3_1.index tlast 0 * win3_1.size 0 = 0 from by decide +kernel, show win3_1.xsize (grid3.coords tlast) 0 = 1 from by decide +kernel]; omega
  | ⟨1, _⟩ =>
    show win3_1.index tlast 1 * win3_1.size 1 ≤ (i 1 : Nat) ∧ (i 1 : Nat) < win3_1.index tlast 1 * win3_1.size 1 + win3_1.xsize (grid3.coords tlast) 1
    rw [show win3_1.index tlast 1 * win3_1.size 1 = 0 from by decide +kernel, show win3_1.xsize (grid3.coords tlast) 1 = 64 from by decide +kernel]; omega

/-- The last point's block of the second output is the whole array. -/
theorem whole_sq (i : S1x64.Idx) : i ∈ ((cfg3.win 2).blk tlast).view.set := by
  show i ∈ ((View.whole main_v26_1).slice (win3_2.rect tlast)).set
  rw [View.set_slice_whole, Rect.mem_set_unit]
  intro a
  have h0 : (i 0 : Nat) < 1 := (i 0).isLt
  have h1 : (i 1 : Nat) < 64 := (i 1).isLt
  match a with
  | ⟨0, _⟩ =>
    show win3_2.index tlast 0 * win3_2.size 0 ≤ (i 0 : Nat) ∧ (i 0 : Nat) < win3_2.index tlast 0 * win3_2.size 0 + win3_2.xsize (grid3.coords tlast) 0
    rw [show win3_2.index tlast 0 * win3_2.size 0 = 0 from by decide +kernel, show win3_2.xsize (grid3.coords tlast) 0 = 1 from by decide +kernel]; omega
  | ⟨1, _⟩ =>
    show win3_2.index tlast 1 * win3_2.size 1 ≤ (i 1 : Nat) ∧ (i 1 : Nat) < win3_2.index tlast 1 * win3_2.size 1 + win3_2.xsize (grid3.coords tlast) 1
    rw [show win3_2.index tlast 1 * win3_2.size 1 = 0 from by decide +kernel, show win3_2.xsize (grid3.coords tlast) 1 = 64 from by decide +kernel]; omega

theorem final_sum (c : Dev nD) : (dat3 V c).arrAt 1 cfg3.N = sumArr V c :=
  (dat3 V c).arrAt_eq_of_cover 1 (sumArr V c) (flushed_sum V c) fun i => ⟨tlast, (flush3_1 tlast).mpr rfl, whole_sum i⟩
theorem final_sq (c : Dev nD) : (dat3 V c).arrAt 2 cfg3.N = sqArr V c :=
  (dat3 V c).arrAt_eq_of_cover 2 (sqArr V c) (flushed_sq V c) fun i => ⟨tlast, (flush3_2 tlast).mpr rfl, whole_sq i⟩
end Final

/-! ## Forty blocks of 20000 rows are the 800000 rows -/

section Total

/-- Row `r` of block `p` ↔ row `20000·p + r`: quotient and remainder by 20000. -/
def rowEquiv : Fin 40 × Fin 20000 ≃ Fin 800000 where
  toFun pr := ⟨20000 * pr.1.val + pr.2.val, by have := pr.1.isLt; have := pr.2.isLt; omega⟩
  invFun k := (⟨k.val / 20000, by have := k.isLt; omega⟩, ⟨k.val % 20000, by omega⟩)
  left_inv pr := by
    have h1 := pr.1.isLt; have h2 := pr.2.isLt
    refine Prod.ext (Fin.ext ?_) (Fin.ext ?_)
    · show (20000 * pr.1.val + pr.2.val) / 20000 = pr.1.val; omega
    · show (20000 * pr.1.val + pr.2.val) % 20000 = pr.2.val; omega
  right_inv k := by
    refine Fin.ext ?_
    show 20000 * (k.val / 20000) + k.val % 20000 = k.val; omega

/-- The forty block sums of a column add up to the column's sum: addition of extended reals is commutative and
    associative, so a finite sum may be taken block by block. -/
theorem blocks_total (A : Vec Ideal S800000x64 .f32) (j : Fin 64) :
    ∑ p ∈ Finset.range 40, blockSum A j p = ∑ k : Fin 800000, A (ix2 k j) := by
  rw [Finset.sum_range]
  have hb : ∀ p : Fin 40, blockSum A j p.val = ∑ r : Fin 20000, A (ix2 (rowEquiv (p, r)) j) := fun p => by
    unfold blockSum; rw [dif_pos p.isLt]; rfl
  rw [Finset.sum_congr rfl fun p _ => hb p, ← Fintype.sum_prod_type']
  exact Fintype.sum_equiv rowEquiv _ _ fun _ => rfl

theorem blocks_total_sq (A : Vec Ideal S800000x64 .f32) (j : Fin 64) :
    ∑ p ∈ Finset.range 40, blockSq A j p = ∑ k : Fin 800000, A (ix2 k j) * A (ix2 k j) := by
  rw [Finset.sum_range]
  have hb : ∀ p : Fin 40, blockSq A j p.val
      = ∑ r : Fin 20000, A (ix2 (rowEquiv (p, r)) j) * A (ix2 (rowEquiv (p, r)) j) := fun p => by
    unfold blockSq; rw [dif_pos p.isLt]; rfl
  rw [Finset.sum_congr rfl fun p _ => hb p, ← Fintype.sum_prod_type']
  exact Fintype.sum_equiv rowEquiv _ _ fun _ => rfl
end Total

/-! ## Through the run: the region's exit, then the host's mean and variance -/

section Fold
variable (m : (ℓ : Loc nD τ sig) → Buf (Elt Ideal) ℓ) (ρ : Dev nD → PrngReg) (c : Dev nD)

theorem exit_sum : W11 (F := Ideal) m ρ c (Proc.devRef .tc main_v26_0) = sumArr (V10 m ρ) c :=
  (W11_arr m ρ c 1).trans (final_sum (V10 m ρ) c)
theorem exit_sq : W11 (F := Ideal) m ρ c (Proc.devRef .tc main_v26_1) = sqArr (V10 m ρ) c :=
  (W11_arr m ρ c 2).trans (final_sq (V10 m ρ) c)

/-- The divisor: 800000 in each of the 64 columns. -/
abbrev rowsRow : Vec Ideal S64 .f32 := broadcastInDim S64 ![] bcast_S_S64 (constant (F := Ideal) S_ .f32 0x49435000#32)

/-- The host's mean of a row of column sums: each divided by 800000. -/
def meanOf (s : Vec Ideal S1x64 .f32) : Vec Ideal S64 .f32 :=
  Host.divf (F := Ideal) (s := S64) (φ := .f32) (shapeCast S64 s shapeCasts_S1x64_S64) rowsRow
/-- The host's variance from the rows of column sums and of column sums of squares: the mean square less the squared mean. -/
def varOf (s q : Vec Ideal S1x64 .f32) : Vec Ideal S64 .f32 :=
  subf (F := Ideal) (s := S64) (φ := .f32)
    (Host.divf (F := Ideal) (s := S64) (φ := .f32) (shapeCast S64 q shapeCasts_S1x64_S64) rowsRow)
    (mulf (F := Ideal) (s := S64) (φ := .f32) (meanOf s) (meanOf s))

theorem host_mean : (W12 (F := Ideal) m ρ c (Proc.devRef .tc main_v29) : Vec Ideal S64 .f32)
    = meanOf (W11 (F := Ideal) m ρ c (Proc.devRef .tc main_v26_0)) := by
  show StableHlo.after hostOps4 (W11 m ρ c) (Proc.devRef .tc main_v29) = _
  after_results
  rfl

theorem host_var : (W12 (F := Ideal) m ρ c (Proc.devRef .tc main_v34) : Vec Ideal S64 .f32)
    = varOf (W11 (F := Ideal) m ρ c (Proc.devRef .tc main_v26_0)) (W11 (F := Ideal) m ρ c (Proc.devRef .tc main_v26_1)) := by
  show StableHlo.after hostOps4 (W11 m ρ c) (Proc.devRef .tc main_v34) = _
  after_results
  rfl
end Fold

/-! ## The kernel program's mean and variance, column by column -/

section Closed
variable (m : (ℓ : Loc nD τ sig) → Buf (Elt Ideal) ℓ) (ρ : Dev nD → PrngReg) (c : Dev nD)

/-- The host's mean at column `j`: the column's sum over 800000. -/
theorem meanOf_apply (s : Vec Ideal S1x64 .f32) (j : Fin 64) :
    meanOf s (ix1 j) = Ideal.div (s (ix2 (0 : Fin 1) j)) ((800000 : ℝ) : EReal) := by
  unfold meanOf
  refine (hostDivf_apply _ _ _).trans ?_
  refine congrArg₂ Ideal.div (shapeCast_1a_a_apply s _ j) ?_
  refine (broadcastInDim_scalar_apply _ _ _).trans ?_
  exact (constant_apply _ _).trans ofBits_rows

/-- The host's variance at column `j`: the column's sum of squares over 800000, less the squared mean. -/
theorem varOf_apply (s q : Vec Ideal S1x64 .f32) (j : Fin 64) :
    varOf s q (ix1 j) = Ideal.div (q (ix2 (0 : Fin 1) j)) ((800000 : ℝ) : EReal)
      - Ideal.div (s (ix2 (0 : Fin 1) j)) ((800000 : ℝ) : EReal) * Ideal.div (s (ix2 (0 : Fin 1) j)) ((800000 : ℝ) : EReal) := by
  unfold varOf
  refine (subf_apply _ _ _).trans ?_
  refine congrArg₂ (· - ·) ?_ ?_
  · refine (hostDivf_apply _ _ _).trans ?_
    refine congrArg₂ Ideal.div (shapeCast_1a_a_apply q _ j) ?_
    refine (broadcastInDim_scalar_apply _ _ _).trans ?_
    exact (constant_apply _ _).trans ofBits_rows
  · refine (mulf_apply _ _ _).trans ?_
    exact congrArg₂ (· * ·) (meanOf_apply s j) (meanOf_apply s j)

/-- The array of column sums after the region, at column `j`: the sum of the entry array's column. -/
theorem sumArr_apply (j : Fin 64) :
    sumArr (V10 m ρ) c (ix2 (0 : Fin 1) j) = ∑ k : Fin 800000, earr (V10 m ρ) c (ix2 k j) :=
  ((running (V10 m ρ) c j 39 last_lt).1).trans (blocks_total (earr (V10 m ρ) c) j)
/-- The array of column sums of squares after the region, at column `j`. -/
theorem sqArr_apply (j : Fin 64) :
    sqArr (V10 m ρ) c (ix2 (0 : Fin 1) j) = ∑ k : Fin 800000, earr (V10 m ρ) c (ix2 k j) * earr (V10 m ρ) c (ix2 k j) :=
  ((running (V10 m ρ) c j 39 last_lt).2).trans (blocks_total_sq (earr (V10 m ρ) c) j)

/-- THE KERNEL SIDE.  With `A` the `[800000, 64]` array the reduction region is entered with: the mean buffer holds at
    column `j` the column's sum over 800000, the variance buffer the column's sum of squares over 800000 less the
    square of that mean. -/
theorem kernel_stats (A : Vec Ideal S800000x64 .f32) (hA : W10 (F := Ideal) m ρ c (Proc.devRef .tc main_v6_0) = A) (j : Fin 64) :
    (W12 (F := Ideal) m ρ c (Proc.devRef .tc main_v29) : Vec Ideal S64 .f32) (ix1 j)
        = Ideal.div (∑ k : Fin 800000, A (ix2 k j)) ((800000 : ℝ) : EReal)
    ∧ (W12 (F := Ideal) m ρ c (Proc.devRef .tc main_v34) : Vec Ideal S64 .f32) (ix1 j)
        = Ideal.div (∑ k : Fin 800000, A (ix2 k j) * A (ix2 k j)) ((800000 : ℝ) : EReal)
          - Ideal.div (∑ k : Fin 800000, A (ix2 k j)) ((800000 : ℝ) : EReal)
            * Ideal.div (∑ k : Fin 800000, A (ix2 k j)) ((800000 : ℝ) : EReal) := by
  have hE : earr (V10 m ρ) c = A := hA
  have hs := sumArr_apply m ρ c j
  have hq := sqArr_apply m ρ c j
  rw [hE] at hs hq
  constructor
  · rw [host_mean, exit_sum, meanOf_apply, hs]
  · rw [host_var, exit_sum, exit_sq, varOf_apply, hs, hq]
end Closed

end Cert.Bridge.EdgeStats

end
-- ==== Proof.Stage5.lean ====
/-
  The batch statistics of the edge update: the kernel program's mean and variance are the reference's.

  Write `e` for the `[800000, 64]` edge update, real in every entry, and fix a column `j`.

  The reference takes  mean_j = (0 + Σ_k e(k, j)) / 800000  and  var_j = (0 + Σ_k (e(k, j) − mean_j)²) / 800000.
  The kernel program takes  mean_j = (Σ_k e(k, j)) / 800000  and  var_j = (Σ_k e(k, j)²) / 800000 − mean_j².

  The means differ by a leading zero.  For the variances, a quotient by the nonzero real 800000 is the product with
  its reciprocal, and then the equation is the variance identity for the 800000 real numbers of column `j`: the mean
  of the squared deviations from the mean is the mean of the squares less the square of the mean.
-/
import proofs.«412482_j67259187855861_1_alg».proof.Proof.Gen.KernelIdeal.Frame
import proofs.«412482_j67259187855861_1_alg».proof.Proof.Args
import proofs.«412482_j67259187855861_1_alg».proof.Proof.LibVariance
import proofs.«412482_j67259187855861_1_alg».proof.Proof.Stage5AuxK
import Idealize.ShloMosaic.Lib.ValueIdx
import Idealize.ShloMosaic.Lib.IdealHost

noncomputable section

namespace Cert.Bridge

open Idealize.ShloMosaic Idealize.ShloMosaic.TcCoe Idealize.SL.Sem Cert.KernelIdeal Cert.KernelIdeal.Gen
open Idealize.ShloMosaic.ValueIdx

variable (m : (ℓ : Loc nD τ sig) → Buf (Elt Ideal) ℓ) (ρ : Dev nD → PrngReg) (c : Dev nD)

namespace EdgeStats

/-- THE LAW.  For real data `e` over a finite index set of `n ≠ 0` elements, read in the extended reals: the sum over
    `n` is the same with or without a leading zero, and the mean square less the squared mean is the mean of the
    squared deviations from the mean.  A quotient by the nonzero real `n` is the product with `1/n`; after that the
    second equation is the variance identity. -/
theorem stats_law {ι : Type} [Fintype ι] (e : ι → EReal) (hr : ∀ i, ∃ r : ℝ, e i = (r : EReal)) (n : ℝ) (hn : n ≠ 0)
    (hcard : (Fintype.card ι : ℝ) = n) :
    Ideal.div (∑ i, e i) (n : EReal) = Ideal.div (0 + ∑ i, e i) (n : EReal)
    ∧ Ideal.div (∑ i, e i * e i) (n : EReal) - Ideal.div (∑ i, e i) (n : EReal) * Ideal.div (∑ i, e i) (n : EReal)
      = Ideal.div (0 + ∑ i, (e i - Ideal.div (0 + ∑ i', e i') (n : EReal)) * (e i - Ideal.div (0 + ∑ i', e i') (n : EReal)))
          (n : EReal) := by
  choose x hx using hr
  obtain rfl : e = fun i => (x i : EReal) := funext hx
  refine ⟨by rw [zero_add], ?_⟩
  simp only [zero_add, Ideal.div_coe hn]
  exact (var_identity x n hn hcard).symm

/-! ## The reference's mean and variance, column by column -/

/-- The entries the reference's column sum reads at column `j`: row `k`, column `j`. -/
theorem sum_index (j : Fin 64) (k : Fin 800000) : Cert.ReferenceIdeal.Read.idx_main_v135 (ix1 j) k = ix2 k j :=
  funext fun a => by match a with | ⟨0, _⟩ => rfl | ⟨1, _⟩ => rfl
/-- The same for the sum of squared deviations. -/
theorem dev_index (j : Fin 64) (k : Fin 800000) : Cert.ReferenceIdeal.Read.idx_main_v142 (ix1 j) k = ix2 k j :=
  funext fun a => by match a with | ⟨0, _⟩ => rfl | ⟨1, _⟩ => rfl
/-- The mean subtracted from entry `(k, j)` is the mean of column `j` (a row of means laid under every row). -/
theorem mean_index (j : Fin 64) (k : Fin 800000) :
    Cert.ReferenceIdeal.Read.idx_main_v138 (Cert.ReferenceIdeal.Read.idx_main_v139 (ix2 k j)) = ix1 j :=
  funext fun a => by match a with | ⟨0, _⟩ => rfl

/-- The reference's mean at column `j`: zero plus the column's sum, over 800000. -/
theorem ref_mean_apply (j : Fin 64) :
    rMeanE m c (ix1 j) = Ideal.div (0 + ∑ k : Fin 800000, rEnew m c (ix2 k j)) ((800000 : ℝ) : EReal) := by
  unfold rMeanE
  rw [Cert.ReferenceIdeal.Read.val_main_v137_apply, Cert.ReferenceIdeal.Read.val_main_v135_apply,
    Cert.ReferenceIdeal.Read.val_main_v136_apply, Cert.ReferenceIdeal.Read.val_main_cst_24_apply,
    Cert.ReferenceIdeal.Read.val_main_cst_23_apply]
  refine congrArg₂ Ideal.div (congrArg₂ (· + ·) Ideal.ofBits_zero_f32 (Finset.sum_congr rfl fun k _ => ?_)) ofBits_rows
  rw [sum_index j k]
  rfl

/-- The reference's variance at column `j`: zero plus the column's sum of squared deviations from its mean, over 800000. -/
theorem ref_var_apply (j : Fin 64) :
    rVarE m c (ix1 j)
      = Ideal.div (0 + ∑ k : Fin 800000, (rEnew m c (ix2 k j) - rMeanE m c (ix1 j)) * (rEnew m c (ix2 k j) - rMeanE m c (ix1 j)))
          ((800000 : ℝ) : EReal) := by
  unfold rVarE
  rw [Cert.ReferenceIdeal.Read.val_main_v144_apply, Cert.ReferenceIdeal.Read.val_main_v142_apply,
    Cert.ReferenceIdeal.Read.val_main_v143_apply, Cert.ReferenceIdeal.Read.val_main_cst_26_apply,
    Cert.ReferenceIdeal.Read.val_main_cst_25_apply]
  refine congrArg₂ Ideal.div (congrArg₂ (· + ·) Ideal.ofBits_zero_f32 (Finset.sum_congr rfl fun k _ => ?_)) ofBits_rows
  rw [dev_index j k, Cert.ReferenceIdeal.Read.val_main_v141_apply, Cert.ReferenceIdeal.Read.val_main_v140_apply,
    Cert.ReferenceIdeal.Read.val_main_v139_apply, Cert.ReferenceIdeal.Read.val_main_v138_apply, mean_index j k]
  rfl

end EdgeStats

open EdgeStats

/-- The mean and the variance of the edge update as the kernel program computes them — column sums and column sums of
    squares accumulated over forty row blocks, then `s/n` and `q/n − (s/n)²` — are the reference's column mean and
    column mean of squared deviations, when the array the reduction reads is the reference's edge update and that is real. -/
theorem stats_e (h60 : W10 (F := Ideal) m ρ c (Proc.devRef .tc main_v6_0) = rEnew m c) (hr : AllReal (rEnew m c)) :
    W12 (F := Ideal) m ρ c (Proc.devRef .tc main_v29) = rMeanE m c
    ∧ W12 (F := Ideal) m ρ c (Proc.devRef .tc main_v34) = rVarE m c := by
  have hn : (800000 : ℝ) ≠ 0 := by norm_num
  have hcard : (Fintype.card (Fin 800000) : ℝ) = 800000 := by rw [Fintype.card_fin]; norm_num
  have col : ∀ j : Fin 64, _ := fun j =>
    stats_law (fun k : Fin 800000 => rEnew m c (ix2 k j)) (fun k => hr (ix2 k j)) 800000 hn hcard
  constructor
  · funext i
    obtain ⟨j, rfl⟩ : ∃ j : Fin 64, i = ix1 j := ⟨i 0, eq_ix1 i⟩
    exact ((kernel_stats m ρ c (rEnew m c) h60 j).1.trans (col j).1).trans (ref_mean_apply m c j).symm
  · funext i
    obtain ⟨j, rfl⟩ : ∃ j : Fin 64, i = ix1 j := ⟨i 0, eq_ix1 i⟩
    refine ((kernel_stats m ρ c (rEnew m c) h60 j).2.trans ?_).trans (ref_var_apply m c j).symm
    rw [ref_mean_apply m c j]
    exact (col j).2

end Cert.Bridge

end
-- ==== Proof.Stage6Aux.lean ====
/-
  What the two normalisation links share.

  Each of the last two kernel regions computes, entry by entry, a batch normalisation followed by a clip at zero and a
  residual sum: the node table's region on blocks of 5000 rows, the edge table's on blocks of 10000 rows.  Here: that
  value at one entry, the reading of a [64] vector viewed as a [1,64] row, two spellings of a zero offset, and the
  fact that a stretch of host operations leaves alone every buffer it does not write.
-/
import proofs.«412482_j67259187855861_1_alg».proof.Proof.Gen.KernelIdeal.Frame
import Idealize.ShloMosaic.Lib.Pipeline.Value
import Idealize.ShloMosaic.Lib.ValueIdx
import Idealize.ShloMosaic.Lib.StableHlo.Run

noncomputable section

namespace Cert.Bridge

open Idealize.ShloMosaic Idealize.ShloMosaic.TcCoe Idealize.SL.Sem Cert.KernelIdeal Cert.KernelIdeal.Gen
open Idealize.ShloMosaic.ValueIdx

/-- Batch normalisation of one entry, then the clip at zero, then the residual sum:
    xin + max(((xnew − mean) · rsqrt(var + eps)) · gamma + beta, 0).  The two constants stay as their words. -/
def normAt (xin xnew mean var gamma beta : Ideal .f32) : Ideal .f32 :=
  xin + max (((xnew - mean) * Ideal.rsqrt (var + Ideal.ofBits .f32 0x3727C5AC#32)) * gamma + beta) (Ideal.ofBits .f32 0x00000000#32)

/-- A [64] vector viewed as a [1,64] row reads, at (0, q), the vector's entry q: both have row-major position q. -/
theorem rowOfVec_apply (x : Vec Ideal S64 .f32) (k1 : S1x64.Idx) (k : S64.Idx)
    (h10 : (k1 0).val = 0) (hk : (k 0).val = (k1 1).val) :
    shapeCast S1x64 x shapeCasts_S64_S1x64 k1 = x k :=
  shapeCast_apply x _ k1 k (by
    rw [Shape.rowMajor_val_one, Shape.rowMajor_val_two, h10, hk]
    show (k1 1).val = 0 * 64 + (k1 1).val
    omega)

/-- The zero offset of a rank-2 rectangle, as the constant function. -/
theorem zeros2 : (![0, 0] : Fin 2 → Nat) = fun _ => 0 := funext fun a => by fin_cases a <;> rfl
/-- The zero offset of a rank-1 rectangle, as the constant function. -/
theorem zeros1 : (![0] : Fin 1 → Nat) = fun _ => 0 := funext fun a => by fin_cases a <;> rfl

/-- A stretch of host operations leaves alone a buffer that none of them writes: each operation writes its one
    result buffer, and the buffer in question is a different reference from every one of those. -/
macro "stretch_keeps " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

end Cert.Bridge

end
-- ==== Proof.Stage6.lean ====
/-
  The node table's last link: the kernel's final node table is the reference's.

  Region 4 runs over ten blocks of 5000 rows of the updated node table h'.  At each entry (r, q) its body computes
      h(r, q) + max(((h'(r, q) − mean(q)) · rsqrt(var(q) + eps)) · gamma(q) + beta(q), 0),
  reading h and h' through windows that move with the output's block, and the gain, the offset and the two column
  statistics through windows that stay at their one block.  The statistics reach it as [1,64] rows: a host stretch
  views the [64] vectors so.  The reference computes the same expression with the same association, its clip an
  outlined maximum with a table of zeros, its rsqrt the same function of an extended real, eps the same word.

  The proof: the body at an entry; what a grid point writes back, as a block of ONE function of the arrays the region
  finds at its entry; the blocks cover the table, so the table the region leaves IS that function; the buffers it
  reads were not written since the boundaries the hypotheses speak of; the reference's stage at an index is the same
  expression.
-/
import proofs.«412482_j67259187855861_1_alg».proof.Proof.Stage6Aux
import proofs.«412482_j67259187855861_1_alg».proof.Proof.Args

noncomputable section

namespace Cert.Bridge

open Idealize.ShloMosaic Idealize.ShloMosaic.TcCoe Idealize.SL.Sem Cert.KernelIdeal Cert.KernelIdeal.Gen
open Idealize.ShloMosaic.ValueIdx

/-! ## The body at an entry -/

/-- A [1,64] row broadcast down 5000 rows reads, at (r, q), the row's entry (0, q). -/
theorem bcastRow5000_apply (x : Vec Ideal S1x64 .f32) (j : S5000x64.Idx) (k1 : S1x64.Idx)
    (h10 : (k1 0).val = 0) (h11 : (k1 1).val = (j 1).val) :
    broadcastTo S5000x64 x broadcasts_S1x64_S5000x64 j = x k1 :=
  broadcastTo_apply x _ j k1 (fun a => match a with
    | ⟨0, _⟩ => by show (k1 0).val = if (1 : Nat) = 1 then 0 else _; rw [if_pos rfl]; exact h10
    | ⟨1, _⟩ => by show (k1 1).val = if (64 : Nat) = 1 then 0 else (j 1).val; rw [if_neg (by decide)]; exact h11)

/-- The node region's body at one entry (r, q) of its block: the normalised, clipped, residual value of the entries it
    reads there: the two tables' at (r, q), the two statistics rows' at (0, q), the gain's and the offset's at q. -/
theorem pay4_apply (v0 : Vec Ideal S5000x64 .f32) (v2 v7 : Vec Ideal S1x64 .f32) (v13 v17 : Vec Ideal S64 .f32)
    (v21 : Vec Ideal S5000x64 .f32) (j : S5000x64.Idx) (k1 : S1x64.Idx) (k : S64.Idx)
    (h10 : (k1 0).val = 0) (h11 : (k1 1).val = (j 1).val) (hk : (k 0).val = (j 1).val) :
    k4_pay1 v0 v2 v7 v13 v17 v21 j = normAt (v21 j) (v0 j) (v7 k1) (v2 k1) (v13 k) (v17 k) := by
  unfold k4_pay1 normAt
  simp only [shapeCast_self]
  rw [addf_apply, maximumf_apply, addf_apply, mulf_apply, mulf_apply, subf_apply, broadcast_apply,
    bcastRow5000_apply v7 j k1 h10 h11, bcastRow5000_apply _ j k1 h10 h11, bcastRow5000_apply _ j k1 h10 h11,
    bcastRow5000_apply _ j k1 h10 h11, rowOfVec_apply v13 k1 k h10 (hk.trans h11.symm),
    rowOfVec_apply v17 k1 k h10 (hk.trans h11.symm)]
  rfl

/-! ## From blocks to the table -/

section Region4
variable (V : (c : Dev nD) → (b : Ref sig .tc) → Buf (Elt Ideal) ((c : Thread nD τ).loc b))
/-- The entry (0, q) of a [1,64] row, named from an index (r, q) of the table. -/
abbrev rowIx (i : S50000x64.Idx) : S1x64.Idx := ix2 ⟨0, Nat.one_pos⟩ (i 1)
/-- The entry q of a [64] vector, named from an index (r, q) of the table. -/
abbrev colIx (i : S50000x64.Idx) : S64.Idx := ix1 (i 1)

/-- Region 4's output as one function of the arrays it reads: each entry normalised with its column's
    mean and variance, scaled and shifted by its column's gain and offset, clipped below at zero, and added to the
    residual table's entry. -/
def G4 (xnew xin : S50000x64.Idx → Ideal .f32) (gamma beta : S64.Idx → Ideal .f32) (mean var : S1x64.Idx → Ideal .f32) :
    S50000x64.Idx → Ideal .f32 :=
  fun i => normAt (xin i) (xnew i) (mean (rowIx i)) (var (rowIx i)) (gamma (colIx i)) (beta (colIx i))

/-- The printed index maps, decided over the ten grid points: the two tables' windows move with the output's,
    a block of rows per point; the four column vectors' windows stay at their one block. -/
theorem idx_facts4 : ∀ t : Fin cfg4.N,
    win4_0.index t (0 : Fin 2) = win4_6.index t (0 : Fin 2) ∧ win4_0.index t (1 : Fin 2) = 0
    ∧ win4_1.index t (0 : Fin 2) = win4_6.index t (0 : Fin 2) ∧ win4_1.index t (1 : Fin 2) = 0
    ∧ win4_2.index t (0 : Fin 1) = 0 ∧ win4_3.index t (0 : Fin 1) = 0
    ∧ win4_4.index t (0 : Fin 2) = 0 ∧ win4_4.index t (1 : Fin 2) = 0
    ∧ win4_5.index t (0 : Fin 2) = 0 ∧ win4_5.index t (1 : Fin 2) = 0
    ∧ win4_6.index t (1 : Fin 2) = 0 ∧ win4_6.index t (0 : Fin 2) = t.val :=
  (by decide +kernel : ∀ t : Fin grid4.N, _)

/-- What grid point t writes back is block t of the closed form of the arrays as the region finds them. -/
theorem flushed4_eq (c : Dev nD) (t : Fin cfg4.N) :
    (dat4 V c).flushed 6 t = ((cfg4.win 6).blk t).view.read (Elt Ideal)
      (G4 (V c main_v16) (V c main_arg0) (V c main_arg22) (V c main_arg23) (V c main_v35) (V c main_v36)) := by
  show (cfg4.win 6).cut (grid4.coords t) ((dat4 V c).after 6 t) = _
  rw [after4_6]
  unfold out4_6
  rw [View.canon_unit_zero zeros2]
  simp only [View.ld_unit_zero (S := S5000x64) zeros2, View.ld_unit_zero (S := S1x64) zeros2, View.ld_unit_zero (S := S64) zeros1]
  funext j
  show k4_pay1 (iblk4 V c 0 t) (iblk4 V c 5 t) (iblk4 V c 4 t) (iblk4 V c 2 t) (iblk4 V c 3 t) (iblk4 V c 1 t) j
    = G4 (V c main_v16) (V c main_arg0) (V c main_arg22) (V c main_arg23) (V c main_v35) (V c main_v36)
        (((cfg4.win 6).blk t).view.emb j)
  refine (pay4_apply _ _ _ _ _ _ j (ix2 ⟨0, Nat.one_pos⟩ (j 1)) (ix1 (j 1)) rfl rfl rfl).trans ?_
  obtain ⟨e00, e01, e10, e11, e2, e3, e40, e41, e50, e51, e61, e60⟩ := idx_facts4 t
  have hj1 : (j 1).val < 64 := (j 1).isLt
  have h0 : iblk4 V c 0 t j = V c main_v16 (((cfg4.win 6).blk t).view.emb j) := by
    show V c main_v16 (((cfg4.win 0).blk t).view.emb j) = _
    refine congrArg _ (funext fun a => Fin.ext ?_)
    match a with
    | ⟨0, _⟩ => show win4_0.index t (0 : Fin 2) * 5000 + 1 * (j 0).val = win4_6.index t (0 : Fin 2) * 5000 + 1 * (j 0).val; omega
    | ⟨1, _⟩ => show win4_0.index t (1 : Fin 2) * 64 + 1 * (j 1).val = win4_6.index t (1 : Fin 2) * 64 + 1 * (j 1).val; omega
  have h1 : iblk4 V c 1 t j = V c main_arg0 (((cfg4.win 6).blk t).view.emb j) := by
    show V c main_arg0 (((cfg4.win 1).blk t).view.emb j) = _
    refine congrArg _ (funext fun a => Fin.ext ?_)
    match a with
    | ⟨0, _⟩ => show win4_1.index t (0 : Fin 2) * 5000 + 1 * (j 0).val = win4_6.index t (0 : Fin 2) * 5000 + 1 * (j 0).val; omega
    | ⟨1, _⟩ => show win4_1.index t (1 : Fin 2) * 64 + 1 * (j 1).val = win4_6.index t (1 : Fin 2) * 64 + 1 * (j 1).val; omega
  have h2 : iblk4 V c 2 t (ix1 (j 1)) = V c main_arg22 (colIx (((cfg4.win 6).blk t).view.emb j)) := by
    show V c main_arg22 (((cfg4.win 2).blk t).view.emb (ix1 (j 1))) = _
    refine congrArg _ (funext fun a => Fin.ext ?_)
    match a with
    | ⟨0, _⟩ => show win4_2.index t (0 : Fin 1) * 64 + 1 * (j 1).val = win4_6.index t (1 : Fin 2) * 64 + 1 * (j 1).val; omega
  have h3 : iblk4 V c 3 t (ix1 (j 1)) = V c main_arg23 (colIx (((cfg4.win 6).blk t).view.emb j)) := by
    show V c main_arg23 (((cfg4.win 3).blk t).view.emb (ix1 (j 1))) = _
    refine congrArg _ (funext fun a => Fin.ext ?_)
    match a with
    | ⟨0, _⟩ => show win4_3.index t (0 : Fin 1) * 64 + 1 * (j 1).val = win4_6.index t (1 : Fin 2) * 64 + 1 * (j 1).val; omega
  have h4 : iblk4 V c 4 t (ix2 ⟨0, Nat.one_pos⟩ (j 1)) = V c main_v35 (rowIx (((cfg4.win 6).blk t).view.emb j)) := by
    show V c main_v35 (((cfg4.win 4).blk t).view.emb (ix2 ⟨0, Nat.one_pos⟩ (j 1))) = _
    refine congrArg _ (funext fun a => Fin.ext ?_)
    match a with
    | ⟨0, _⟩ => show win4_4.index t (0 : Fin 2) * 1 + 1 * 0 = 0; omega
    | ⟨1, _⟩ => show win4_4.index t (1 : Fin 2) * 64 + 1 * (j 1).val = win4_6.index t (1 : Fin 2) * 64 + 1 * (j 1).val; omega
  have h5 : iblk4 V c 5 t (ix2 ⟨0, Nat.one_pos⟩ (j 1)) = V c main_v36 (rowIx (((cfg4.win 6).blk t).view.emb j)) := by
    show V c main_v36 (((cfg4.win 5).blk t).view.emb (ix2 ⟨0, Nat.one_pos⟩ (j 1))) = _
    refine congrArg _ (funext fun a => Fin.ext ?_)
    match a with
    | ⟨0, _⟩ => show win4_5.index t (0 : Fin 2) * 1 + 1 * 0 = 0; omega
    | ⟨1, _⟩ => show win4_5.index t (1 : Fin 2) * 64 + 1 * (j 1).val = win4_6.index t (1 : Fin 2) * 64 + 1 * (j 1).val; omega
  rw [h0, h1, h2, h3, h4, h5]
  rfl

/-- An index of the table is in point t's block iff each coordinate lies in the block's range on its axis. -/
theorem mem_blk4 (t : Fin cfg4.N) (i : S50000x64.Idx) :
    i ∈ ((cfg4.win 6).blk t).view.set ↔ ∀ a : Fin 2, win4_6.index t a * S5000x64.size a ≤ (i a).val ∧ (i a).val < win4_6.index t a * S5000x64.size a + S5000x64.size a := by
  show i ∈ ((View.whole main_v37).slice (win4_6.rect t)).set ↔ _
  rw [View.set_slice_whole, Rect.mem_set_unit]
  exact Iff.rfl

/-- The ten blocks of 5000 rows cover the table: row r lies in the block of point r / 5000. -/
theorem cover4 (i : S50000x64.Idx) :
    ∃ t : Fin cfg4.N, (cfg4.win 6).flush t = true ∧ i ∈ ((cfg4.win 6).blk t).view.set := by
  have hi0 : (i 0).val < 50000 := (i 0).isLt
  have hi1 : (i 1).val < 64 := (i 1).isLt
  obtain ⟨t, ht⟩ : ∃ t : Fin cfg4.N, t.val = (i 0).val / 5000 :=
    ⟨⟨(i 0).val / 5000, by show _ < grid4.N; rw [N_4]; omega⟩, rfl⟩
  obtain ⟨-, -, -, -, -, -, -, -, -, -, e61, e60⟩ := idx_facts4 t
  refine ⟨t, flush4_6 t, ?_⟩
  rw [mem_blk4]
  intro a
  match a with
  | ⟨0, _⟩ => show win4_6.index t (0 : Fin 2) * 5000 ≤ (i 0).val ∧ (i 0).val < win4_6.index t (0 : Fin 2) * 5000 + 5000; omega
  | ⟨1, _⟩ => show win4_6.index t (1 : Fin 2) * 64 ≤ (i 1).val ∧ (i 1).val < win4_6.index t (1 : Fin 2) * 64 + 64; omega

/-- The table region 4 leaves is the closed form of the arrays it found at its entry. -/
theorem final4 (c : Dev nD) :
    (dat4 V c).arrAt 6 cfg4.N
      = G4 (V c main_v16) (V c main_arg0) (V c main_arg22) (V c main_arg23) (V c main_v35) (V c main_v36) :=
  (dat4 V c).arrAt_eq_of_cover 6 _ (fun t _ => flushed4_eq V c t) cover4

end Region4

/-! ## The buffers the region reads, and its output, through the run -/

section Carries4
variable (m : (ℓ : Loc nD τ sig) → Buf (Elt Ideal) ℓ) (ρ : Dev nD → PrngReg) (c : Dev nD)
/-- The updated node table h' is not written between its making and region 4: region 2 only reads it (an input
    window), region 3 and the two host stretches do not touch it. -/
theorem hnew_carried :
    W12 (F := Ideal) m ρ c (Proc.devRef .tc main_v16) = W8 (F := Ideal) m ρ c (Proc.devRef .tc main_v16) :=
  calc W12 (F := Ideal) m ρ c (Proc.devRef .tc main_v16)
    _ = W11 (F := Ideal) m ρ c (Proc.devRef .tc main_v16) := by stretch_keeps hostOps4
    _ = W10 (F := Ideal) m ρ c (Proc.devRef .tc main_v16) := W11_of_ne m ρ c main_v16 (by decide)
    _ = W9 (F := Ideal) m ρ c (Proc.devRef .tc main_v16) := by stretch_keeps hostOps3
    _ = W8 (F := Ideal) m ρ c (Proc.devRef .tc main_v16) :=
        (W9_arr m ρ c 0).trans (((dat2 (V8 m ρ) c).arrAt_in 0 rfl _).trans (A_eq2 (V8 m ρ) c 0))

/-- Region 4's output table is not written after it: region 5 and the host stretch between do not touch it. -/
theorem hout_kept :
    W15 (F := Ideal) m ρ c (Proc.devRef .tc main_v37) = (dat4 (V12 (F := Ideal) m ρ) c).arrAt 6 cfg4.N :=
  calc W15 (F := Ideal) m ρ c (Proc.devRef .tc main_v37)
    _ = W14 (F := Ideal) m ρ c (Proc.devRef .tc main_v37) := W15_of_ne m ρ c main_v37 (by decide)
    _ = W13 (F := Ideal) m ρ c (Proc.devRef .tc main_v37) := by stretch_keeps hostOps5
    _ = (dat4 (V12 (F := Ideal) m ρ) c).arrAt 6 cfg4.N := W13_arr m ρ c 6

/-- An argument that region 4 reads is, at its entry, as launched: nothing from there to the end writes it, and at
    the end it is as launched. -/
theorem arg0_at4 : W12 (F := Ideal) m ρ c (Proc.devRef .tc main_arg0) = m ((c : Thread nD τ).loc main_arg0) :=
  calc W12 (F := Ideal) m ρ c (Proc.devRef .tc main_arg0)
    _ = W13 (F := Ideal) m ρ c (Proc.devRef .tc main_arg0) :=
        ((W13_arr m ρ c 1).trans (((dat4 (V12 m ρ) c).arrAt_in 1 rfl _).trans (A_eq4 (V12 m ρ) c 1))).symm
    _ = W14 (F := Ideal) m ρ c (Proc.devRef .tc main_arg0) := Eq.symm (by stretch_keeps hostOps5)
    _ = W15 (F := Ideal) m ρ c (Proc.devRef .tc main_arg0) := (W15_of_ne m ρ c main_arg0 (by decide)).symm
    _ = m ((c : Thread nD τ).loc main_arg0) := W15_main_arg0 m ρ c

theorem arg22_at4 : W12 (F := Ideal) m ρ c (Proc.devRef .tc main_arg22) = m ((c : Thread nD τ).loc main_arg22) :=
  calc W12 (F := Ideal) m ρ c (Proc.devRef .tc main_arg22)
    _ = W13 (F := Ideal) m ρ c (Proc.devRef .tc main_arg22) :=
        ((W13_arr m ρ c 2).trans (((dat4 (V12 m ρ) c).arrAt_in 2 rfl _).trans (A_eq4 (V12 m ρ) c 2))).symm
    _ = W14 (F := Ideal) m ρ c (Proc.devRef .tc main_arg22) := Eq.symm (by stretch_keeps hostOps5)
    _ = W15 (F := Ideal) m ρ c (Proc.devRef .tc main_arg22) := (W15_of_ne m ρ c main_arg22 (by decide)).symm
    _ = m ((c : Thread nD τ).loc main_arg22) := W15_main_arg22 m ρ c

theorem arg23_at4 : W12 (F := Ideal) m ρ c (Proc.devRef .tc main_arg23) = m ((c : Thread nD τ).loc main_arg23) :=
  calc W12 (F := Ideal) m ρ c (Proc.devRef .tc main_arg23)
    _ = W13 (F := Ideal) m ρ c (Proc.devRef .tc main_arg23) :=
        ((W13_arr m ρ c 3).trans (((dat4 (V12 m ρ) c).arrAt_in 3 rfl _).trans (A_eq4 (V12 m ρ) c 3))).symm
    _ = W14 (F := Ideal) m ρ c (Proc.devRef .tc main_arg23) := Eq.symm (by stretch_keeps hostOps5)
    _ = W15 (F := Ideal) m ρ c (Proc.devRef .tc main_arg23) := (W15_of_ne m ρ c main_arg23 (by decide)).symm
    _ = m ((c : Thread nD τ).loc main_arg23) := W15_main_arg23 m ρ c

/-- The host stretch before region 4 views the [64] column means as a [1,64] row; region 3 between does not touch them. -/
theorem meanRow_at4 :
    (W12 (F := Ideal) m ρ c (Proc.devRef .tc main_v35) : S1x64.Idx → Ideal .f32)
      = shapeCast S1x64 (W10 (F := Ideal) m ρ c (Proc.devRef .tc main_v20) : S64.Idx → Ideal .f32) shapeCasts_S64_S1x64 := by
  rw [← W11_of_ne m ρ c main_v20 (by decide)]
  show StableHlo.after hostOps4 (W11 (F := Ideal) m ρ c) (Proc.devRef .tc main_v35) = _
  after_results
  rfl

/-- Likewise the [64] column variances. -/
theorem varRow_at4 :
    (W12 (F := Ideal) m ρ c (Proc.devRef .tc main_v36) : S1x64.Idx → Ideal .f32)
      = shapeCast S1x64 (W10 (F := Ideal) m ρ c (Proc.devRef .tc main_v25) : S64.Idx → Ideal .f32) shapeCasts_S64_S1x64 := by
  rw [← W11_of_ne m ρ c main_v25 (by decide)]
  show StableHlo.after hostOps4 (W11 (F := Ideal) m ρ c) (Proc.devRef .tc main_v36) = _
  after_results
  rfl

/-- The kernel's final node table is the closed form of: h' as it stood after its making, the arguments as launched,
    and the column statistics as they stood after theirs, each viewed as a row. -/
theorem hout_closed :
    W15 (F := Ideal) m ρ c (Proc.devRef .tc main_v37)
      = G4 (W8 (F := Ideal) m ρ c (Proc.devRef .tc main_v16)) (m ((c : Thread nD τ).loc main_arg0))
          (m ((c : Thread nD τ).loc main_arg22)) (m ((c : Thread nD τ).loc main_arg23))
          (shapeCast S1x64 (W10 (F := Ideal) m ρ c (Proc.devRef .tc main_v20) : S64.Idx → Ideal .f32) shapeCasts_S64_S1x64)
          (shapeCast S1x64 (W10 (F := Ideal) m ρ c (Proc.devRef .tc main_v25) : S64.Idx → Ideal .f32) shapeCasts_S64_S1x64) := by
  rw [hout_kept, final4]
  show G4 (W12 (F := Ideal) m ρ c (Proc.devRef .tc main_v16)) (W12 (F := Ideal) m ρ c (Proc.devRef .tc main_arg0))
      (W12 (F := Ideal) m ρ c (Proc.devRef .tc main_arg22)) (W12 (F := Ideal) m ρ c (Proc.devRef .tc main_arg23))
      (W12 (F := Ideal) m ρ c (Proc.devRef .tc main_v35)) (W12 (F := Ideal) m ρ c (Proc.devRef .tc main_v36)) = _
  rw [hnew_carried, arg0_at4, arg22_at4, arg23_at4, meanRow_at4, varRow_at4]

end Carries4

/-! ## The reference's stage at an index, and the link -/

section Link4
variable (m : (ℓ : Loc nD τ sig) → Buf (Elt Ideal) ℓ) (ρ : Dev nD → PrngReg) (c : Dev nD)

/-- The reference's final node table at (r, q) is the same expression of: h at (r, q), its stage h' at (r, q), its
    column statistics at q, the gain and the offset at q.  Its broadcasts of a [64] vector to the table go through a
    [1,64] row and read the vector at the column; its clip is the maximum with a table of the zero word. -/
theorem ref_hout_apply (i : S50000x64.Idx) :
    rHout m c i = normAt (a0 m c i) (rHnew m c i) (rMeanH m c (colIx i)) (rVarH m c (colIx i))
      (a22 m c (colIx i)) (a23 m c (colIx i)) := by
  have e1 : Cert.ReferenceIdeal.Read.idx_main_v119 (Cert.ReferenceIdeal.Read.idx_main_v120 i) = colIx i :=
    funext fun a => by match a with | ⟨0, _⟩ => rfl
  have e2 : Cert.ReferenceIdeal.Read.idx_main_v125 (Cert.ReferenceIdeal.Read.idx_main_v126 i) = colIx i :=
    funext fun a => by match a with | ⟨0, _⟩ => rfl
  have e3 : Cert.ReferenceIdeal.Read.idx_main_v128 (Cert.ReferenceIdeal.Read.idx_main_v129 i) = colIx i :=
    funext fun a => by match a with | ⟨0, _⟩ => rfl
  have e4 : Cert.ReferenceIdeal.Read.idx_main_v131 (Cert.ReferenceIdeal.Read.idx_main_v132 i) = colIx i :=
    funext fun a => by match a with | ⟨0, _⟩ => rfl
  unfold rHout rHnew rMeanH rVarH normAt
  rw [Cert.ReferenceIdeal.Read.val_main_v161_apply, Cert.ReferenceIdeal.Read.val_main_v134_apply,
    Cert.ReferenceIdeal.Read.val_main_v133_apply, Cert.ReferenceIdeal.Read.val_main_v130_apply,
    Cert.ReferenceIdeal.Read.val_main_v127_apply, Cert.ReferenceIdeal.Read.val_main_v121_apply,
    Cert.ReferenceIdeal.Read.val_main_v120_apply, Cert.ReferenceIdeal.Read.val_main_v119_apply,
    Cert.ReferenceIdeal.Read.val_main_v126_apply, Cert.ReferenceIdeal.Read.val_main_v125_apply,
    Cert.ReferenceIdeal.Read.val_main_v124_apply, Cert.ReferenceIdeal.Read.val_main_v123_apply,
    Cert.ReferenceIdeal.Read.val_main_v122_apply, Cert.ReferenceIdeal.Read.val_main_cst_22_apply,
    Cert.ReferenceIdeal.Read.val_main_v129_apply, Cert.ReferenceIdeal.Read.val_main_v128_apply,
    Cert.ReferenceIdeal.Read.val_main_v132_apply, Cert.ReferenceIdeal.Read.val_main_v131_apply,
    Cert.ReferenceIdeal.Read.val_main_call1_v0_apply, Cert.ReferenceIdeal.Read.val_main_call1_cst_apply,
    e1, e2, e3, e4]
  rfl

/-- THE LINK.  Given that the kernel's h' and column statistics hold the reference's stages, its final node table
    holds the reference's. -/
theorem hout_val (h16 : W8 (F := Ideal) m ρ c (Proc.devRef .tc main_v16) = rHnew m c)
    (hm : W10 (F := Ideal) m ρ c (Proc.devRef .tc main_v20) = rMeanH m c)
    (hv : W10 (F := Ideal) m ρ c (Proc.devRef .tc main_v25) = rVarH m c) :
    W15 (F := Ideal) m ρ c (Proc.devRef .tc main_v37) = rHout m c := by
  rw [hout_closed, h16, hm, hv]
  funext i
  show normAt (a0 m c i) (rHnew m c i)
      (shapeCast S1x64 (rMeanH m c : S64.Idx → Ideal .f32) shapeCasts_S64_S1x64 (rowIx i))
      (shapeCast S1x64 (rVarH m c : S64.Idx → Ideal .f32) shapeCasts_S64_S1x64 (rowIx i))
      (a22 m c (colIx i)) (a23 m c (colIx i)) = rHout m c i
  rw [rowOfVec_apply (rMeanH m c) (rowIx i) (colIx i) rfl rfl, rowOfVec_apply (rVarH m c) (rowIx i) (colIx i) rfl rfl]
  exact (ref_hout_apply m c i).symm

end Link4

end Cert.Bridge

end
-- ==== Proof.Stage7.lean ====
/-
  The edge table's last link: the kernel's final edge table is the reference's.

  Region 5 runs over eighty blocks of 10000 rows of the updated edge table e'.  At each entry (r, q) its body computes
      e(r, q) + max(((e'(r, q) − mean(q)) · rsqrt(var(q) + eps)) · gamma(q) + beta(q), 0),
  reading e and e' through windows that move with the output's block, and the gain, the offset and the two column
  statistics of e' through windows that stay at their one block.  The statistics reach it as [1,64] rows: a host
  stretch views the [64] vectors so.  The reference computes the same expression with the same association, its clip
  an outlined maximum with a table of zeros, its rsqrt the same function of an extended real, eps the same word.

  The proof goes as for the node table: the body at an entry; what a grid point writes back, as a block of ONE
  function of the arrays the region finds at its entry; the blocks cover the table; the buffers it reads were not
  written since the boundaries the hypotheses speak of; the reference's stage at an index is the same expression.
-/
import proofs.«412482_j67259187855861_1_alg».proof.Proof.Stage6Aux
import proofs.«412482_j67259187855861_1_alg».proof.Proof.Args

noncomputable section

namespace Cert.Bridge

open Idealize.ShloMosaic Idealize.ShloMosaic.TcCoe Idealize.SL.Sem Cert.KernelIdeal Cert.KernelIdeal.Gen
open Idealize.ShloMosaic.ValueIdx

/-! ## The body at an entry -/

/-- A [1,64] row broadcast down 10000 rows reads, at (r, q), the row's entry (0, q). -/
theorem bcastRow10000_apply (x : Vec Ideal S1x64 .f32) (j : S10000x64.Idx) (k1 : S1x64.Idx)
    (h10 : (k1 0).val = 0) (h11 : (k1 1).val = (j 1).val) :
    broadcastTo S10000x64 x broadcasts_S1x64_S10000x64 j = x k1 :=
  broadcastTo_apply x _ j k1 (fun a => match a with
    | ⟨0, _⟩ => by show (k1 0).val = if (1 : Nat) = 1 then 0 else _; rw [if_pos rfl]; exact h10
    | ⟨1, _⟩ => by show (k1 1).val = if (64 : Nat) = 1 then 0 else (j 1).val; rw [if_neg (by decide)]; exact h11)

/-- The edge region's body at one entry (r, q) of its block: the normalised, clipped, residual value of the entries it
    reads there: the two tables' at (r, q), the two statistics rows' at (0, q), the gain's and the offset's at q. -/
theorem pay5_apply (v0 : Vec Ideal S10000x64 .f32) (v2 v7 : Vec Ideal S1x64 .f32) (v13 v17 : Vec Ideal S64 .f32)
    (v21 : Vec Ideal S10000x64 .f32) (j : S10000x64.Idx) (k1 : S1x64.Idx) (k : S64.Idx)
    (h10 : (k1 0).val = 0) (h11 : (k1 1).val = (j 1).val) (hk : (k 0).val = (j 1).val) :
    k5_pay1 v0 v2 v7 v13 v17 v21 j = normAt (v21 j) (v0 j) (v7 k1) (v2 k1) (v13 k) (v17 k) := by
  unfold k5_pay1 normAt
  simp only [shapeCast_self]
  rw [addf_apply, maximumf_apply, addf_apply, mulf_apply, mulf_apply, subf_apply, broadcast_apply,
    bcastRow10000_apply v7 j k1 h10 h11, bcastRow10000_apply _ j k1 h10 h11, bcastRow10000_apply _ j k1 h10 h11,
    bcastRow10000_apply _ j k1 h10 h11, rowOfVec_apply v13 k1 k h10 (hk.trans h11.symm),
    rowOfVec_apply v17 k1 k h10 (hk.trans h11.symm)]
  rfl

/-! ## From blocks to the table -/

section Region5
variable (V : (c : Dev nD) → (b : Ref sig .tc) → Buf (Elt Ideal) ((c : Thread nD τ).loc b))

/-- The entry (0, q) of a [1,64] row, named from an index (r, q) of the edge table. -/
abbrev rowIxE (i : S800000x64.Idx) : S1x64.Idx := ix2 ⟨0, Nat.one_pos⟩ (i 1)
/-- The entry q of a [64] vector, named from an index (r, q) of the edge table. -/
abbrev colIxE (i : S800000x64.Idx) : S64.Idx := ix1 (i 1)

/-- Region 5's output as one function of the arrays it reads: each entry of the updated edge table normalised with
    its column's mean and variance, scaled and shifted by its column's gain and offset, clipped below at zero, and
    added to the edge table's entry. -/
def G5 (xnew xin : S800000x64.Idx → Ideal .f32) (gamma beta : S64.Idx → Ideal .f32) (mean var : S1x64.Idx → Ideal .f32) :
    S800000x64.Idx → Ideal .f32 :=
  fun i => normAt (xin i) (xnew i) (mean (rowIxE i)) (var (rowIxE i)) (gamma (colIxE i)) (beta (colIxE i))

/-- The printed index maps, decided over the eighty grid points: the two tables' windows move with the output's,
    a block of rows per point; the four column vectors' windows stay at their one block. -/
theorem idx_facts5 : ∀ t : Fin cfg5.N,
    win5_0.index t (0 : Fin 2) = win5_6.index t (0 : Fin 2) ∧ win5_0.index t (1 : Fin 2) = 0
    ∧ win5_1.index t (0 : Fin 2) = win5_6.index t (0 : Fin 2) ∧ win5_1.index t (1 : Fin 2) = 0
    ∧ win5_2.index t (0 : Fin 1) = 0 ∧ win5_3.index t (0 : Fin 1) = 0
    ∧ win5_4.index t (0 : Fin 2) = 0 ∧ win5_4.index t (1 : Fin 2) = 0
    ∧ win5_5.index t (0 : Fin 2) = 0 ∧ win5_5.index t (1 : Fin 2) = 0
    ∧ win5_6.index t (1 : Fin 2) = 0 ∧ win5_6.index t (0 : Fin 2) = t.val :=
  (by decide +kernel : ∀ t : Fin grid5.N, _)

/-- What grid point t writes back is block t of the closed form of the arrays as the region finds them. -/
theorem flushed5_eq (c : Dev nD) (t : Fin cfg5.N) :
    (dat5 V c).flushed 6 t = ((cfg5.win 6).blk t).view.read (Elt Ideal)
      (G5 (V c main_v6_0) (V c main_arg1) (V c main_arg24) (V c main_arg25) (V c main_v38) (V c main_v39)) := by
  show (cfg5.win 6).cut (grid5.coords t) ((dat5 V c).after 6 t) = _
  rw [after5_6]
  unfold out5_6
  rw [View.canon_unit_zero zeros2]
  simp only [View.ld_unit_zero (S := S10000x64) zeros2, View.ld_unit_zero (S := S1x64) zeros2, View.ld_unit_zero (S := S64) zeros1]
  funext j
  show k5_pay1 (iblk5 V c 0 t) (iblk5 V c 5 t) (iblk5 V c 4 t) (iblk5 V c 2 t) (iblk5 V c 3 t) (iblk5 V c 1 t) j
    = G5 (V c main_v6_0) (V c main_arg1) (V c main_arg24) (V c main_arg25) (V c main_v38) (V c main_v39)
        (((cfg5.win 6).blk t).view.emb j)
  refine (pay5_apply _ _ _ _ _ _ j (ix2 ⟨0, Nat.one_pos⟩ (j 1)) (ix1 (j 1)) rfl rfl rfl).trans ?_
  obtain ⟨e00, e01, e10, e11, e2, e3, e40, e41, e50, e51, e61, e60⟩ := idx_facts5 t
  have hj1 : (j 1).val < 64 := (j 1).isLt
  have h0 : iblk5 V c 0 t j = V c main_v6_0 (((cfg5.win 6).blk t).view.emb j) := by
    show V c main_v6_0 (((cfg5.win 0).blk t).view.emb j) = _
    refine congrArg _ (funext fun a => Fin.ext ?_)
    match a with
    | ⟨0, _⟩ => show win5_0.index t (0 : Fin 2) * 10000 + 1 * (j 0).val = win5_6.index t (0 : Fin 2) * 10000 + 1 * (j 0).val; omega
    | ⟨1, _⟩ => show win5_0.index t (1 : Fin 2) * 64 + 1 * (j 1).val = win5_6.index t (1 : Fin 2) * 64 + 1 * (j 1).val; omega
  have h1 : iblk5 V c 1 t j = V c main_arg1 (((cfg5.win 6).blk t).view.emb j) := by
    show V c main_arg1 (((cfg5.win 1).blk t).view.emb j) = _
    refine congrArg _ (funext fun a => Fin.ext ?_)
    match a with
    | ⟨0, _⟩ => show win5_1.index t (0 : Fin 2) * 10000 + 1 * (j 0).val = win5_6.index t (0 : Fin 2) * 10000 + 1 * (j 0).val; omega
    | ⟨1, _⟩ => show win5_1.index t (1 : Fin 2) * 64 + 1 * (j 1).val = win5_6.index t (1 : Fin 2) * 64 + 1 * (j 1).val; omega
  have h2 : iblk5 V c 2 t (ix1 (j 1)) = V c main_arg24 (colIxE (((cfg5.win 6).blk t).view.emb j)) := by
    show V c main_arg24 (((cfg5.win 2).blk t).view.emb (ix1 (j 1))) = _
    refine congrArg _ (funext fun a => Fin.ext ?_)
    match a with
    | ⟨0, _⟩ => show win5_2.index t (0 : Fin 1) * 64 + 1 * (j 1).val = win5_6.index t (1 : Fin 2) * 64 + 1 * (j 1).val; omega
  have h3 : iblk5 V c 3 t (ix1 (j 1)) = V c main_arg25 (colIxE (((cfg5.win 6).blk t).view.emb j)) := by
    show V c main_arg25 (((cfg5.win 3).blk t).view.emb (ix1 (j 1))) = _
    refine congrArg _ (funext fun a => Fin.ext ?_)
    match a with
    | ⟨0, _⟩ => show win5_3.index t (0 : Fin 1) * 64 + 1 * (j 1).val = win5_6.index t (1 : Fin 2) * 64 + 1 * (j 1).val; omega
  have h4 : iblk5 V c 4 t (ix2 ⟨0, Nat.one_pos⟩ (j 1)) = V c main_v38 (rowIxE (((cfg5.win 6).blk t).view.emb j)) := by
    show V c main_v38 (((cfg5.win 4).blk t).view.emb (ix2 ⟨0, Nat.one_pos⟩ (j 1))) = _
    refine congrArg _ (funext fun a => Fin.ext ?_)
    match a with
    | ⟨0, _⟩ => show win5_4.index t (0 : Fin 2) * 1 + 1 * 0 = 0; omega
    | ⟨1, _⟩ => show win5_4.index t (1 : Fin 2) * 64 + 1 * (j 1).val = win5_6.index t (1 : Fin 2) * 64 + 1 * (j 1).val; omega
  have h5 : iblk5 V c 5 t (ix2 ⟨0, Nat.one_pos⟩ (j 1)) = V c main_v39 (rowIxE (((cfg5.win 6).blk t).view.emb j)) := by
    show V c main_v39 (((cfg5.win 5).blk t).view.emb (ix2 ⟨0, Nat.one_pos⟩ (j 1))) = _
    refine congrArg _ (funext fun a => Fin.ext ?_)
    match a with
    | ⟨0, _⟩ => show win5_5.index t (0 : Fin 2) * 1 + 1 * 0 = 0; omega
    | ⟨1, _⟩ => show win5_5.index t (1 : Fin 2) * 64 + 1 * (j 1).val = win5_6.index t (1 : Fin 2) * 64 + 1 * (j 1).val; omega
  rw [h0, h1, h2, h3, h4, h5]
  rfl

/-- An index of the edge table is in point t's block iff each coordinate lies in the block's range on its axis. -/
theorem mem_blk5 (t : Fin cfg5.N) (i : S800000x64.Idx) :
    i ∈ ((cfg5.win 6).blk t).view.set ↔ ∀ a : Fin 2, win5_6.index t a * S10000x64.size a ≤ (i a).val ∧ (i a).val < win5_6.index t a * S10000x64.size a + S10000x64.size a := by
  show i ∈ ((View.whole main_v40).slice (win5_6.rect t)).set ↔ _
  rw [View.set_slice_whole, Rect.mem_set_unit]
  exact Iff.rfl

/-- The eighty blocks of 10000 rows cover the edge table: row r lies in the block of point r / 10000. -/
theorem cover5 (i : S800000x64.Idx) :
    ∃ t : Fin cfg5.N, (cfg5.win 6).flush t = true ∧ i ∈ ((cfg5.win 6).blk t).view.set := by
  have hi0 : (i 0).val < 800000 := (i 0).isLt
  have hi1 : (i 1).val < 64 := (i 1).isLt
  obtain ⟨t, ht⟩ : ∃ t : Fin cfg5.N, t.val = (i 0).val / 10000 :=
    ⟨⟨(i 0).val / 10000, by show _ < grid5.N; rw [N_5]; omega⟩, rfl⟩
  obtain ⟨-, -, -, -, -, -, -, -, -, -, e61, e60⟩ := idx_facts5 t
  refine ⟨t, flush5_6 t, ?_⟩
  rw [mem_blk5]
  intro a
  match a with
  | ⟨0, _⟩ => show win5_6.index t (0 : Fin 2) * 10000 ≤ (i 0).val ∧ (i 0).val < win5_6.index t (0 : Fin 2) * 10000 + 10000; omega
  | ⟨1, _⟩ => show win5_6.index t (1 : Fin 2) * 64 ≤ (i 1).val ∧ (i 1).val < win5_6.index t (1 : Fin 2) * 64 + 64; omega

/-- The table region 5 leaves is the closed form of the arrays it found at its entry. -/
theorem final5 (c : Dev nD) :
    (dat5 V c).arrAt 6 cfg5.N
      = G5 (V c main_v6_0) (V c main_arg1) (V c main_arg24) (V c main_arg25) (V c main_v38) (V c main_v39) :=
  (dat5 V c).arrAt_eq_of_cover 6 _ (fun t _ => flushed5_eq V c t) cover5

end Region5

/-! ## The buffers the region reads, and its output, through the run -/

section Carries5
variable (m : (ℓ : Loc nD τ sig) → Buf (Elt Ideal) ℓ) (ρ : Dev nD → PrngReg) (c : Dev nD)

/-- The updated edge table e' is not written between its making and region 5: region 3 only reads it (an input
    window), regions 2 and 4 and the four host stretches do not touch it. -/
theorem enew_carried :
    W14 (F := Ideal) m ρ c (Proc.devRef .tc main_v6_0) = W7 (F := Ideal) m ρ c (Proc.devRef .tc main_v6_0) :=
  calc W14 (F := Ideal) m ρ c (Proc.devRef .tc main_v6_0)
    _ = W13 (F := Ideal) m ρ c (Proc.devRef .tc main_v6_0) := by stretch_keeps hostOps5
    _ = W12 (F := Ideal) m ρ c (Proc.devRef .tc main_v6_0) := W13_of_ne m ρ c main_v6_0 (by decide)
    _ = W11 (F := Ideal) m ρ c (Proc.devRef .tc main_v6_0) := by stretch_keeps hostOps4
    _ = W10 (F := Ideal) m ρ c (Proc.devRef .tc main_v6_0) :=
        (W11_arr m ρ c 0).trans (((dat3 (V10 m ρ) c).arrAt_in 0 rfl _).trans (A_eq3 (V10 m ρ) c 0))
    _ = W9 (F := Ideal) m ρ c (Proc.devRef .tc main_v6_0) := by stretch_keeps hostOps3
    _ = W8 (F := Ideal) m ρ c (Proc.devRef .tc main_v6_0) := W9_of_ne m ρ c main_v6_0 (by decide)
    _ = W7 (F := Ideal) m ρ c (Proc.devRef .tc main_v6_0) := by stretch_keeps hostOps2

/-- An argument that region 5 reads is, at its entry, as launched: the region only reads it, and at the end it is as
    launched. -/
theorem arg1_at5 : W14 (F := Ideal) m ρ c (Proc.devRef .tc main_arg1) = m ((c : Thread nD τ).loc main_arg1) :=
  calc W14 (F := Ideal) m ρ c (Proc.devRef .tc main_arg1)
    _ = W15 (F := Ideal) m ρ c (Proc.devRef .tc main_arg1) :=
        ((W15_arr m ρ c 1).trans (((dat5 (V14 m ρ) c).arrAt_in 1 rfl _).trans (A_eq5 (V14 m ρ) c 1))).symm
    _ = m ((c : Thread nD τ).loc main_arg1) := W15_main_arg1 m ρ c

theorem arg24_at5 : W14 (F := Ideal) m ρ c (Proc.devRef .tc main_arg24) = m ((c : Thread nD τ).loc main_arg24) :=
  calc W14 (F := Ideal) m ρ c (Proc.devRef .tc main_arg24)
    _ = W15 (F := Ideal) m ρ c (Proc.devRef .tc main_arg24) :=
        ((W15_arr m ρ c 2).trans (((dat5 (V14 m ρ) c).arrAt_in 2 rfl _).trans (A_eq5 (V14 m ρ) c 2))).symm
    _ = m ((c : Thread nD τ).loc main_arg24) := W15_main_arg24 m ρ c

theorem arg25_at5 : W14 (F := Ideal) m ρ c (Proc.devRef .tc main_arg25) = m ((c : Thread nD τ).loc main_arg25) :=
  calc W14 (F := Ideal) m ρ c (Proc.devRef .tc main_arg25)
    _ = W15 (F := Ideal) m ρ c (Proc.devRef .tc main_arg25) :=
        ((W15_arr m ρ c 3).trans (((dat5 (V14 m ρ) c).arrAt_in 3 rfl _).trans (A_eq5 (V14 m ρ) c 3))).symm
    _ = m ((c : Thread nD τ).loc main_arg25) := W15_main_arg25 m ρ c

/-- The host stretch before region 5 views the [64] column means of e' as a [1,64] row; region 4 between does not
    touch them. -/
theorem meanRow_at5 :
    (W14 (F := Ideal) m ρ c (Proc.devRef .tc main_v38) : S1x64.Idx → Ideal .f32)
      = shapeCast S1x64 (W12 (F := Ideal) m ρ c (Proc.devRef .tc main_v29) : S64.Idx → Ideal .f32) shapeCasts_S64_S1x64 := by
  rw [← W13_of_ne m ρ c main_v29 (by decide)]
  show StableHlo.after hostOps5 (W13 (F := Ideal) m ρ c) (Proc.devRef .tc main_v38) = _
  after_results
  rfl

/-- Likewise the [64] column variances of e'. -/
theorem varRow_at5 :
    (W14 (F := Ideal) m ρ c (Proc.devRef .tc main_v39) : S1x64.Idx → Ideal .f32)
      = shapeCast S1x64 (W12 (F := Ideal) m ρ c (Proc.devRef .tc main_v34) : S64.Idx → Ideal .f32) shapeCasts_S64_S1x64 := by
  rw [← W13_of_ne m ρ c main_v34 (by decide)]
  show StableHlo.after hostOps5 (W13 (F := Ideal) m ρ c) (Proc.devRef .tc main_v39) = _
  after_results
  rfl

/-- The kernel's final edge table is the closed form of: e' as it stood after its making, the arguments as launched,
    and the column statistics as they stood after theirs, each viewed as a row. -/
theorem eout_closed :
    W15 (F := Ideal) m ρ c (Proc.devRef .tc main_v40)
      = G5 (W7 (F := Ideal) m ρ c (Proc.devRef .tc main_v6_0)) (m ((c : Thread nD τ).loc main_arg1))
          (m ((c : Thread nD τ).loc main_arg24)) (m ((c : Thread nD τ).loc main_arg25))
          (shapeCast S1x64 (W12 (F := Ideal) m ρ c (Proc.devRef .tc main_v29) : S64.Idx → Ideal .f32) shapeCasts_S64_S1x64)
          (shapeCast S1x64 (W12 (F := Ideal) m ρ c (Proc.devRef .tc main_v34) : S64.Idx → Ideal .f32) shapeCasts_S64_S1x64) := by
  rw [W15_arr m ρ c 6, final5]
  show G5 (W14 (F := Ideal) m ρ c (Proc.devRef .tc main_v6_0)) (W14 (F := Ideal) m ρ c (Proc.devRef .tc main_arg1))
      (W14 (F := Ideal) m ρ c (Proc.devRef .tc main_arg24)) (W14 (F := Ideal) m ρ c (Proc.devRef .tc main_arg25))
      (W14 (F := Ideal) m ρ c (Proc.devRef .tc main_v38)) (W14 (F := Ideal) m ρ c (Proc.devRef .tc main_v39)) = _
  rw [enew_carried, arg1_at5, arg24_at5, arg25_at5, meanRow_at5, varRow_at5]

end Carries5

/-! ## The reference's stage at an index, and the link -/

section Link5
variable (m : (ℓ : Loc nD τ sig) → Buf (Elt Ideal) ℓ) (ρ : Dev nD → PrngReg) (c : Dev nD)

/-- The reference's final edge table at (r, q) is the same expression of: e at (r, q), its stage e' at (r, q), its
    column statistics at q, the gain and the offset at q.  Its broadcasts of a [64] vector to the table go through a
    [1,64] row and read the vector at the column; its clip is the maximum with a table of the zero word. -/
theorem ref_eout_apply (i : S800000x64.Idx) :
    rEout m c i = normAt (a1 m c i) (rEnew m c i) (rMeanE m c (colIxE i)) (rVarE m c (colIxE i))
      (a24 m c (colIxE i)) (a25 m c (colIxE i)) := by
  have e1 : Cert.ReferenceIdeal.Read.idx_main_v145 (Cert.ReferenceIdeal.Read.idx_main_v146 i) = colIxE i :=
    funext fun a => by match a with | ⟨0, _⟩ => rfl
  have e2 : Cert.ReferenceIdeal.Read.idx_main_v151 (Cert.ReferenceIdeal.Read.idx_main_v152 i) = colIxE i :=
    funext fun a => by match a with | ⟨0, _⟩ => rfl
  have e3 : Cert.ReferenceIdeal.Read.idx_main_v154 (Cert.ReferenceIdeal.Read.idx_main_v155 i) = colIxE i :=
    funext fun a => by match a with | ⟨0, _⟩ => rfl
  have e4 : Cert.ReferenceIdeal.Read.idx_main_v157 (Cert.ReferenceIdeal.Read.idx_main_v158 i) = colIxE i :=
    funext fun a => by match a with | ⟨0, _⟩ => rfl
  unfold rEout rEnew rMeanE rVarE normAt
  rw [Cert.ReferenceIdeal.Read.val_main_v162_apply, Cert.ReferenceIdeal.Read.val_main_v160_apply,
    Cert.ReferenceIdeal.Read.val_main_v159_apply, Cert.ReferenceIdeal.Read.val_main_v156_apply,
    Cert.ReferenceIdeal.Read.val_main_v153_apply, Cert.ReferenceIdeal.Read.val_main_v147_apply,
    Cert.ReferenceIdeal.Read.val_main_v146_apply, Cert.ReferenceIdeal.Read.val_main_v145_apply,
    Cert.ReferenceIdeal.Read.val_main_v152_apply, Cert.ReferenceIdeal.Read.val_main_v151_apply,
    Cert.ReferenceIdeal.Read.val_main_v150_apply, Cert.ReferenceIdeal.Read.val_main_v149_apply,
    Cert.ReferenceIdeal.Read.val_main_v148_apply, Cert.ReferenceIdeal.Read.val_main_cst_27_apply,
    Cert.ReferenceIdeal.Read.val_main_v155_apply, Cert.ReferenceIdeal.Read.val_main_v154_apply,
    Cert.ReferenceIdeal.Read.val_main_v158_apply, Cert.ReferenceIdeal.Read.val_main_v157_apply,
    Cert.ReferenceIdeal.Read.val_main_call2_v0_apply, Cert.ReferenceIdeal.Read.val_main_call2_cst_apply,
    e1, e2, e3, e4]
  rfl

/-- THE LINK.  Given that the kernel's e' and column statistics hold the reference's stages, its final edge table
    holds the reference's. -/
theorem eout_val (h60 : W7 (F := Ideal) m ρ c (Proc.devRef .tc main_v6_0) = rEnew m c)
    (hm : W12 (F := Ideal) m ρ c (Proc.devRef .tc main_v29) = rMeanE m c)
    (hv : W12 (F := Ideal) m ρ c (Proc.devRef .tc main_v34) = rVarE m c) :
    W15 (F := Ideal) m ρ c (Proc.devRef .tc main_v40) = rEout m c := by
  rw [eout_closed, h60, hm, hv]
  funext i
  show normAt (a1 m c i) (rEnew m c i)
      (shapeCast S1x64 (rMeanE m c : S64.Idx → Ideal .f32) shapeCasts_S64_S1x64 (rowIxE i))
      (shapeCast S1x64 (rVarE m c : S64.Idx → Ideal .f32) shapeCasts_S64_S1x64 (rowIxE i))
      (a24 m c (colIxE i)) (a25 m c (colIxE i)) = rEout m c i
  rw [rowOfVec_apply (rMeanE m c) (rowIxE i) (colIxE i) rfl rfl, rowOfVec_apply (rVarE m c) (rowIxE i) (colIxE i) rfl rfl]
  exact (ref_eout_apply m c i).symm

end Link5

end Cert.Bridge

end
-- ==== Proof.FiniteAux.lean ====
/-
  A calculus of two properties of an array of extended reals: "every entry is a real number" and "every entry is a
  positive real number".  The scalar facts come first (sums, differences, products, maxima and finite sums of reals are
  real; the exponential of a real is a positive real; a quotient of reals by a real that is not zero is real; the maximum
  of a non-empty finite family of reals joined with -∞ is real), then the same facts entry by entry for the array
  operations a plain array program is made of: the entrywise operations, broadcasts and gathers (every entry of the result
  is an entry of the operand), contractions and scatter-sums (every entry is a finite sum of products, or an entry plus a
  finite sum of entries), and the reductions of one axis (the sum from an initial value; the maximum from -∞ over an axis
  that is not empty).  Last, the float words a program's constants are made of, read as extended reals.
-/
import Idealize.ShloMosaic.Lib.IdealHost
import Idealize.ShloMosaic.PureOps.Contract
import Idealize.ShloMosaic.PureOps.Reduce

noncomputable section

namespace Cert.Bridge.Reals

open Idealize.ShloMosaic
open scoped BigOperators

/-- An extended real that is a real number. -/
def IsR (x : EReal) : Prop := ∃ r : ℝ, x = (r : EReal)

/-- An extended real that is a positive real number. -/
def IsPos (x : EReal) : Prop := ∃ r : ℝ, 0 < r ∧ x = (r : EReal)

/-- Every entry is a real number. -/
def AllR {ι : Type} (f : ι → EReal) : Prop := ∀ i, IsR (f i)

/-- Every entry is a positive real number. -/
def AllP {ι : Type} (f : ι → EReal) : Prop := ∀ i, IsPos (f i)

/-! ## Scalars -/

theorem isR_coe (r : ℝ) : IsR (r : EReal) := ⟨r, rfl⟩

theorem isR_zero : IsR 0 := ⟨0, EReal.coe_zero.symm⟩

theorem isR_one : IsR 1 := ⟨1, EReal.coe_one.symm⟩

theorem IsR.add {a b : EReal} (ha : IsR a) (hb : IsR b) : IsR (a + b) := by
  obtain ⟨r, rfl⟩ := ha; obtain ⟨t, rfl⟩ := hb; exact ⟨r + t, (EReal.coe_add r t).symm⟩

theorem IsR.sub {a b : EReal} (ha : IsR a) (hb : IsR b) : IsR (a - b) := by
  obtain ⟨r, rfl⟩ := ha; obtain ⟨t, rfl⟩ := hb; exact ⟨r - t, (EReal.coe_sub r t).symm⟩

theorem IsR.mul {a b : EReal} (ha : IsR a) (hb : IsR b) : IsR (a * b) := by
  obtain ⟨r, rfl⟩ := ha; obtain ⟨t, rfl⟩ := hb; exact ⟨r * t, (EReal.coe_mul r t).symm⟩

theorem IsR.neg {a : EReal} (ha : IsR a) : IsR (-a) := by
  obtain ⟨r, rfl⟩ := ha; exact ⟨-r, (EReal.coe_neg r).symm⟩

/-- The larger of two reals is one of them. -/
theorem IsR.max {a b : EReal} (ha : IsR a) (hb : IsR b) : IsR (Max.max a b) := by
  rcases le_total a b with h | h
  · rw [max_eq_right h]; exact hb
  · rw [max_eq_left h]; exact ha

/-- Joining -∞ changes nothing. -/
theorem IsR.bot_max {a : EReal} (ha : IsR a) : IsR (Max.max ⊥ a) := by
  rw [max_eq_right bot_le]; exact ha

theorem IsR.sum {ι : Type} (S : Finset ι) (f : ι → EReal) (h : ∀ i ∈ S, IsR (f i)) : IsR (∑ i ∈ S, f i) :=
  Finset.sum_induction f IsR (fun _ _ => IsR.add) isR_zero h

/-- A quotient of reals by a real that is not zero is the product with the reciprocal, a real. -/
theorem IsR.div {a b : EReal} (ha : IsR a) (hb : IsR b) (h0 : b ≠ 0) : IsR (Ideal.div a b) := by
  obtain ⟨r, rfl⟩ := ha; obtain ⟨t, rfl⟩ := hb
  have ht : t ≠ 0 := fun e => h0 (by rw [e]; exact EReal.coe_zero)
  rw [Ideal.div_coe ht]; exact ⟨r * (1 / t), (EReal.coe_mul _ _).symm⟩

/-- The exponential of a real number is a positive real number. -/
theorem IsR.exp {a : EReal} (ha : IsR a) : IsPos (Ideal.exp a) := by
  obtain ⟨r, rfl⟩ := ha; exact ⟨Real.exp r, Real.exp_pos r, rfl⟩

/-- The maximum, from -∞, of a non-empty finite family of reals is real: at the first member -∞ is absorbed, and
    every later step takes the larger of two reals. -/
theorem IsR.fold_max {ι : Type} (op : EReal → EReal → EReal) [Std.Commutative op] [Std.Associative op]
    (hop : ∀ a b, op a b = Max.max a b) (S : Finset ι) (hS : S.Nonempty) (g : ι → EReal)
    (h : ∀ i ∈ S, IsR (g i)) : IsR (S.fold op ⊥ g) := by
  induction S using Finset.cons_induction with
  | empty => exact absurd hS Finset.not_nonempty_empty
  | cons a s ha ih =>
    rw [Finset.fold_cons, hop]
    rcases s.eq_empty_or_nonempty with rfl | hs
    · rw [Finset.fold_empty, max_eq_left bot_le]; exact h a (Finset.mem_cons_self a _)
    · exact IsR.max (h a (Finset.mem_cons_self a _)) (ih hs fun i hi => h i (Finset.mem_cons.2 (Or.inr hi)))

theorem IsPos.isR {a : EReal} (h : IsPos a) : IsR a := by
  obtain ⟨r, _, e⟩ := h; exact ⟨r, e⟩

theorem IsPos.ne_zero {a : EReal} (h : IsPos a) : a ≠ 0 := by
  obtain ⟨r, hr, rfl⟩ := h
  intro e
  exact (ne_of_gt hr) (EReal.coe_eq_zero.1 e)

theorem isPos_one : IsPos 1 := ⟨1, one_pos, EReal.coe_one.symm⟩

theorem IsPos.add {a b : EReal} (ha : IsPos a) (hb : IsPos b) : IsPos (a + b) := by
  obtain ⟨r, hr, rfl⟩ := ha; obtain ⟨t, ht, rfl⟩ := hb
  exact ⟨r + t, add_pos hr ht, (EReal.coe_add r t).symm⟩

/-- A non-empty finite sum of positive reals is a positive real. -/
theorem IsPos.sum {ι : Type} (S : Finset ι) (hS : S.Nonempty) (f : ι → EReal) (h : ∀ i ∈ S, IsPos (f i)) :
    IsPos (∑ i ∈ S, f i) :=
  Finset.sum_induction_nonempty f IsPos (fun _ _ => IsPos.add) hS h

theorem AllP.allR {ι : Type} {f : ι → EReal} (h : AllP f) : AllR f := fun i => (h i).isR

/-! ## Entrywise operations -/

section Entrywise

variable {s : Shape} {φ : FTy}

theorem allR_addf {a b : FVec Ideal s φ} (ha : AllR a) (hb : AllR b) : AllR (addf a b) :=
  fun i => (ha i).add (hb i)

theorem allP_addf {a b : FVec Ideal s φ} (ha : AllP a) (hb : AllP b) : AllP (addf a b) :=
  fun i => (ha i).add (hb i)

theorem allR_subf {a b : FVec Ideal s φ} (ha : AllR a) (hb : AllR b) : AllR (subf a b) :=
  fun i => (ha i).sub (hb i)

theorem allR_mulf {a b : FVec Ideal s φ} (ha : AllR a) (hb : AllR b) : AllR (mulf a b) :=
  fun i => (ha i).mul (hb i)

theorem allR_maximumf {a b : FVec Ideal s φ} (ha : AllR a) (hb : AllR b) : AllR (maximumf a b) :=
  fun i => (ha i).max (hb i)

/-- The entrywise maximum with an array that is -∞ everywhere is the other array. -/
theorem allR_maximumf_bot {a b : FVec Ideal s φ} (ha : ∀ i, a i = ⊥) (hb : AllR b) : AllR (maximumf a b) := by
  intro i
  show IsR (Max.max (a i) (b i))
  rw [ha i]; exact (hb i).bot_max

theorem allR_negf {a : FVec Ideal s φ} (ha : AllR a) : AllR (Host.negf a) :=
  fun i => (ha i).neg

theorem allP_exp {a : FVec Ideal s φ} (ha : AllR a) : AllP (Host.exp a) :=
  fun i => (ha i).exp

theorem allR_divf {a b : FVec Ideal s φ} (ha : AllR a) (hb : AllR b) (h0 : ∀ i, b i ≠ 0) : AllR (Host.divf a b) :=
  fun i => (ha i).div (hb i) (h0 i)

theorem allR_divf_pos {a b : FVec Ideal s φ} (ha : AllR a) (hb : AllP b) : AllR (Host.divf a b) :=
  allR_divf ha hb.allR fun i => (hb i).ne_zero

end Entrywise

/-! ## Operations whose result entries are operand entries -/

theorem allR_broadcastInDim {s t : Shape} (dims : Fin s.rank → Fin t.rank) (h : s.BroadcastsInDim t dims)
    {x : s.Idx → EReal} (hx : AllR x) : AllR (broadcastInDim t dims h x) :=
  fun _ => hx _

theorem allP_broadcastInDim {s t : Shape} (dims : Fin s.rank → Fin t.rank) (h : s.BroadcastsInDim t dims)
    {x : s.Idx → EReal} (hx : AllP x) : AllP (broadcastInDim t dims h x) :=
  fun _ => hx _

/-- A broadcast of an array that holds one value everywhere holds that value everywhere. -/
theorem broadcastInDim_const {s t : Shape} (dims : Fin s.rank → Fin t.rank) (h : s.BroadcastsInDim t dims)
    {x : s.Idx → EReal} {v : EReal} (hx : ∀ i, x i = v) : ∀ j, broadcastInDim t dims h x j = v :=
  fun _ => hx _

/-- A gather reads, at every result index, some entry of its operand, whatever the start indices are. -/
theorem allR_gather {s si t : Shape} {w : Nat} (d : GatherDims s si t) {x : s.Idx → EReal} (idx : IVec si w)
    (hx : AllR x) : AllR (Host.gather d x idx) :=
  fun _ => hx _

/-- An array that holds one real value everywhere. -/
theorem allR_of_const {ι : Type} {f : ι → EReal} {v : EReal} (hv : IsR v) (h : ∀ i, f i = v) : AllR f := by
  intro i; rw [h i]; exact hv

/-- An array that holds one positive real value everywhere. -/
theorem allP_of_const {ι : Type} {f : ι → EReal} {v : EReal} (hv : IsPos v) (h : ∀ i, f i = v) : AllP f := by
  intro i; rw [h i]; exact hv

/-- A quotient of a real array by an array that holds one real value, not zero, everywhere. -/
theorem allR_divf_const {s : Shape} {φ : FTy} {a b : FVec Ideal s φ} (ha : AllR a) {r : ℝ} (hr : r ≠ 0)
    (hb : ∀ i, b i = (r : EReal)) : AllR (Host.divf a b) :=
  allR_divf ha (fun i => ⟨r, hb i⟩) fun i e => hr (EReal.coe_eq_zero.1 ((hb i).symm.trans e))

/-! ## Contractions, scatter-sums and reductions -/

/-- Every entry of a contraction is a finite sum of products of operand entries. -/
theorem allR_dotGeneral {sl sr so : Shape} {φ₁ φ₂ : FTy} (d : DotDims sl sr so) (prec : Option ContractPrecision)
    {x : FVec Ideal sl φ₁} {y : FVec Ideal sr φ₂} (hx : AllR x) (hy : AllR y) : AllR (Host.dotGeneral d prec x y) := by
  intro j
  show IsR (FloatOps.dotGeneral d prec .single x y j)
  rw [Ideal.dotGeneral_apply]
  exact IsR.sum _ _ fun k _ => (hx _).mul (hy _)

/-- Every entry of a scatter-sum is the operand's entry plus the finite sum of the updates that land on it. -/
theorem allR_scatterAdd {s si u : Shape} {φ : FTy} {w : Nat} (d : ScatterDims s si u) {x : FVec Ideal s φ}
    (idx : IVec si w) {upd : FVec Ideal u φ} (hx : AllR x) (hu : AllR upd) : AllR (Host.scatterAdd d x idx upd) := by
  intro i
  show IsR (Ideal.hostScatterAdd d x idx upd i)
  unfold Ideal.hostScatterAdd
  exact (hx i).add (IsR.sum _ _ fun j _ => hu j)

/-- Every entry of a sum-reduction is the initial value plus the finite sum of the entries that reduce to it. -/
theorem allR_reduceAdd {s t u : Shape} {φ : FTy} {axes : List (Fin s.rank)} {x : FVec Ideal s φ}
    {init : u.Idx → Ideal φ} (h : s.ReducesTo axes t) (hu : 0 < u.numel) (hx : AllR x)
    (hi : IsR (init (Shape.Idx.first hu))) : AllR (Host.reduceAdd x init h hu) := by
  intro j
  rw [ValueIdx.hostReduceAdd_apply]
  unfold Ideal.hostReduceAdd
  exact hi.add (IsR.sum _ _ fun i _ => hx i)

/-- From the initial value zero, the sum of positive reals along one axis that is not empty is a positive real. -/
theorem allP_reduceAdd_single {s t u : Shape} {φ : FTy} {a : Fin s.rank} {x : FVec Ideal s φ}
    {init : u.Idx → Ideal φ} (h' : s.ReducesTo [a] t) (h : s.Reduces [a] t) (hu : 0 < u.numel) (hn : 0 < s.size a)
    (hx : AllP x) (hi : init (Shape.Idx.first hu) = 0) : AllP (Host.reduceAdd x init h' hu) := by
  intro j
  rw [ValueIdx.hostReduceAdd_apply, Ideal.hostReduceAdd_single h' h, hi, zero_add]
  haveI : Nonempty (Fin (s.size a)) := ⟨⟨0, hn⟩⟩
  exact IsPos.sum _ Finset.univ_nonempty _ fun k _ => hx _

/-- From the initial value -∞, the maximum of reals along one axis that is not empty is real. -/
theorem allR_reduce_max_single {s t u : Shape} {φ : FTy} {a : Fin s.rank} {x : FVec Ideal s φ}
    {init : u.Idx → Ideal φ} (h' : s.ReducesTo [a] t) (h : s.Reduces [a] t) (hu : 0 < u.numel) (hn : 0 < s.size a)
    (hx : AllR x) (hi : init (Shape.Idx.first hu) = ⊥) :
    AllR (Host.reduce (FloatOps.maximumf (F := Ideal) (φ := φ)) x init h' hu) := by
  intro j
  rw [Host.reduce_eq_fold_single _ x init h' h hu j, hi]
  haveI : Nonempty (Fin (s.size a)) := ⟨⟨0, hn⟩⟩
  exact IsR.fold_max _ (fun _ _ => rfl) _ Finset.univ_nonempty _ fun k _ => hx _

/-! ## Float words as extended reals -/

/-- The f32 word of -∞ (sign set, exponent all ones, fraction zero) is the bottom element. -/
theorem ofBits_neg_inf_f32 : Ideal.ofBits .f32 0xFF800000#32 = ⊥ := by
  simp [Ideal.ofBits, Ideal.ieee]

/-- The f32 word 0x42800000 (exponent 133, fraction zero) is the real 64. -/
theorem ofBits_64_f32 : Ideal.ofBits .f32 0x42800000#32 = ((64 : ℝ) : EReal) := by
  simp [Ideal.ofBits, Ideal.ieee, -EReal.coe_mul]; norm_num

/-- An f32 word whose exponent field is not all ones denotes a real number (a zero, a subnormal or a normal). -/
theorem isR_ieee {e m w : Nat} (b : BitVec w) (h : (b.extractLsb' m e).toNat ≠ 2 ^ e - 1) : IsR (Ideal.ieee e m b) := by
  unfold Ideal.ieee
  simp only []
  rw [if_neg h]
  split
  · exact ⟨_, rfl⟩
  · exact ⟨_, rfl⟩

/-- The f32 word 0x358637BD (exponent 107: a small positive normal) is a real number. -/
theorem isR_ofBits_guard : IsR (Ideal.ofBits .f32 0x358637BD#32) := by
  show IsR (Ideal.ieee 8 23 (0x358637BD#32 : BitVec 32))
  exact isR_ieee _ (by decide)

end Cert.Bridge.Reals

end
-- ==== Proof.FiniteAuxStages.lean ====
/-
  The reference's stages up to the edge update e' and the node update h', one by one in program order: if every float
  argument holds real numbers, every stage holds real numbers, and the exponentials of the row softmax, its row sums and
  the sigmoid's denominators hold positive real numbers.  Each stage is one operation applied to earlier stages, so each
  statement below is one step of the calculus of real arrays.  The row maximum is taken from -∞ over a row of 32 reals,
  the row sum from zero over 32 positive reals; the mean over the 64 columns divides by the real 64; the last quotient's
  divisor is real by this calculus and is assumed nowhere zero.
-/
import proofs.«412482_j67259187855861_1_alg».proof.Proof.Gen.ReferenceIdeal.Read
import proofs.«412482_j67259187855861_1_alg».proof.Proof.FiniteAux

noncomputable section

namespace Cert.Bridge.Reals

open Cert.ReferenceIdeal Cert.ReferenceIdeal.Gen Cert.ReferenceIdeal.Read Idealize.ShloMosaic Idealize.ShloMosaic.TcCoe Idealize.SL.Sem

/-- A float array of shape s, at the extended reals. -/
abbrev FA (s : Shape) : Type := (⟨s, .f32⟩ : BufTy).Contents (Elt Ideal)
/-- An array of 32-bit words of shape s. -/
abbrev IA (s : Shape) : Type := (⟨s, .i32⟩ : BufTy).Contents (Elt Ideal)

/-! ## The constants -/

/-- The row maximum starts from -∞. -/
theorem cst_first : (val_main_cst (F := Ideal)) (Shape.Idx.first h_S_) = ⊥ := ofBits_neg_inf_f32

/-- The array joined with the row maximum is -∞ everywhere. -/
theorem v30_bot (i : S50000.Idx) : val_main_v30 (F := Ideal) i = ⊥ :=
  broadcastInDim_const _ _ (fun _ => ofBits_neg_inf_f32) i

/-- The row sum of the softmax starts from zero. -/
theorem cst_1_first : (val_main_cst_1 (F := Ideal)) (Shape.Idx.first h_S_) = 0 := Ideal.ofBits_zero_f32

/-- The sum over the 64 columns starts from zero, a real. -/
theorem isR_cst_11_first : IsR ((val_main_cst_11 (F := Ideal)) (Shape.Idx.first h_S_)) := by
  show IsR (Ideal.ofBits .f32 0x00000000#32)
  rw [Ideal.ofBits_zero_f32]; exact isR_zero

/-- The zero array the relu compares with. -/
theorem real_call0_v0 : AllR (val_main_call0_v0 (F := Ideal)) :=
  allR_broadcastInDim _ _ (allR_of_const isR_zero fun _ => Ideal.ofBits_zero_f32)

/-- The ones added to the exponential in the sigmoid's denominator. -/
theorem pos_v58 : AllP (val_main_v58 (F := Ideal)) :=
  allP_broadcastInDim _ _ (allP_of_const isPos_one fun _ => Ideal.ofBits_one_f32)

/-- The ones of the sigmoid's numerator. -/
theorem real_v60 : AllR (val_main_v60 (F := Ideal)) :=
  allR_broadcastInDim _ _ (allR_of_const isR_one fun _ => Ideal.ofBits_one_f32)

/-- The divisor of the mean over the 64 columns is 64 everywhere. -/
theorem v86_eq (i : S800000.Idx) : val_main_v86 (F := Ideal) i = ((64 : ℝ) : EReal) :=
  broadcastInDim_const _ _ (fun _ => ofBits_64_f32) i

/-- The zero array the first scatter-sum starts from. -/
theorem real_v99 : AllR (val_main_v99 (F := Ideal)) :=
  allR_broadcastInDim _ _ (allR_of_const isR_zero fun _ => Ideal.ofBits_zero_f32)

/-- The zero array the second scatter-sum starts from. -/
theorem real_v102 : AllR (val_main_v102 (F := Ideal)) :=
  allR_broadcastInDim _ _ (allR_of_const isR_zero fun _ => Ideal.ofBits_zero_f32)

/-- The guard constant added to the divisor. -/
theorem real_v105 : AllR (val_main_v105 (F := Ideal)) :=
  allR_broadcastInDim _ _ (allR_of_const isR_ofBits_guard fun _ => rfl)

/-! ## The stages -/

variable {x0 : FA S50000x64} {x1 : FA S800000x64} {x2 x3 : IA S800000} {x4 : FA S64x64} {x5 : FA S64}
  {x6 : FA S64x64} {x7 : FA S64} {x8 : FA S64x64} {x9 : FA S64} {x10 : FA S64x64} {x11 : FA S64}
  {x12 : FA S64x64} {x13 : FA S64} {x14 : FA S64x64} {x15 : FA S64} {x16 : FA S64x32} {x17 : FA S32}
  {x18 : FA S32x64} {x19 : FA S64} {x20 : FA S32x64} {x21 : FA S64}

/-- Every float argument the two updates depend on holds real numbers. -/
structure RealArgs (x0 : FA S50000x64) (x1 : FA S800000x64) (x4 : FA S64x64) (x5 : FA S64)
    (x6 : FA S64x64) (x7 : FA S64) (x8 : FA S64x64) (x9 : FA S64) (x10 : FA S64x64) (x11 : FA S64)
    (x12 : FA S64x64) (x13 : FA S64) (x14 : FA S64x64) (x15 : FA S64) (x16 : FA S64x32) (x17 : FA S32)
    (x18 : FA S32x64) (x19 : FA S64) (x20 : FA S32x64) (x21 : FA S64) : Prop where
  h0 : AllR x0
  h1 : AllR x1
  h4 : AllR x4
  h5 : AllR x5
  h6 : AllR x6
  h7 : AllR x7
  h8 : AllR x8
  h9 : AllR x9
  h10 : AllR x10
  h11 : AllR x11
  h12 : AllR x12
  h13 : AllR x13
  h14 : AllR x14
  h15 : AllR x15
  h16 : AllR x16
  h17 : AllR x17
  h18 : AllR x18
  h19 : AllR x19
  h20 : AllR x20
  h21 : AllR x21

variable (H : RealArgs x0 x1 x4 x5 x6 x7 x8 x9 x10 x11 x12 x13 x14 x15 x16 x17 x18 x19 x20 x21)
include H

/-- A_h = h·W_A + b_A. -/
theorem real_v3 : AllR (val_main_v3 (F := Ideal) x0 x4 x5) :=
  allR_addf (allR_dotGeneral _ _ H.h0 H.h4) (allR_broadcastInDim _ _ (allR_broadcastInDim _ _ H.h5))

/-- B_h = h·W_B + b_B. -/
theorem real_v7 : AllR (val_main_v7 (F := Ideal) x0 x6 x7) :=
  allR_addf (allR_dotGeneral _ _ H.h0 H.h6) (allR_broadcastInDim _ _ (allR_broadcastInDim _ _ H.h7))

/-- D_h = h·W_D + b_D. -/
theorem real_v11 : AllR (val_main_v11 (F := Ideal) x0 x10 x11) :=
  allR_addf (allR_dotGeneral _ _ H.h0 H.h10) (allR_broadcastInDim _ _ (allR_broadcastInDim _ _ H.h11))

/-- E_h = h·W_E + b_E. -/
theorem real_v15 : AllR (val_main_v15 (F := Ideal) x0 x12 x13) :=
  allR_addf (allR_dotGeneral _ _ H.h0 H.h12) (allR_broadcastInDim _ _ (allR_broadcastInDim _ _ H.h13))

/-- C_e = e·W_C + b_C. -/
theorem real_v19 : AllR (val_main_v19 (F := Ideal) x1 x8 x9) :=
  allR_addf (allR_dotGeneral _ _ H.h1 H.h8) (allR_broadcastInDim _ _ (allR_broadcastInDim _ _ H.h9))

/-- h·W_s1 + b_s1. -/
theorem real_v23 : AllR (val_main_v23 (F := Ideal) x0 x14 x15) :=
  allR_addf (allR_dotGeneral _ _ H.h0 H.h14) (allR_broadcastInDim _ _ (allR_broadcastInDim _ _ H.h15))

/-- Its relu: the entrywise maximum with zero. -/
theorem real_v24 : AllR (val_main_v24 (F := Ideal) x0 x14 x15) :=
  allR_maximumf (real_v23 H) real_call0_v0

/-- The logits l = relu(h·W_s1 + b_s1)·W_s2 + b_s2. -/
theorem real_v28 : AllR (val_main_v28 (F := Ideal) x0 x14 x15 x16 x17) :=
  allR_addf (allR_dotGeneral _ _ (real_v24 H) H.h16) (allR_broadcastInDim _ _ (allR_broadcastInDim _ _ H.h17))

/-- The row maximum of the logits: from -∞ over a row of 32 reals, a real. -/
theorem real_v29 : AllR (val_main_v29 (F := Ideal) x0 x14 x15 x16 x17) :=
  allR_reduce_max_single reducesTo_S50000x32_S50000_d1 (by decide) h_S_ (by decide) (real_v28 H) cst_first

/-- Joined with -∞: the same reals. -/
theorem real_v31 : AllR (val_main_v31 (F := Ideal) x0 x14 x15 x16 x17) :=
  allR_maximumf_bot v30_bot (real_v29 H)

/-- The row maximum spread over the row. -/
theorem real_v33 : AllR (val_main_v33 (F := Ideal) x0 x14 x15 x16 x17) :=
  allR_broadcastInDim _ _ (allR_broadcastInDim _ _ (real_v31 H))

/-- l - max l. -/
theorem real_v34 : AllR (val_main_v34 (F := Ideal) x0 x14 x15 x16 x17) :=
  allR_subf (real_v28 H) (real_v33 H)

/-- exp(l - max l): positive reals. -/
theorem pos_v35 : AllP (val_main_v35 (F := Ideal) x0 x14 x15 x16 x17) :=
  allP_exp (real_v34 H)

/-- The row sums of the exponentials: from zero over a row of 32 positive reals, positive reals. -/
theorem pos_v36 : AllP (val_main_v36 (F := Ideal) x0 x14 x15 x16 x17) :=
  allP_reduceAdd_single reducesTo_S50000x32_S50000_d1 (by decide) h_S_ (by decide) (pos_v35 H) cst_1_first

/-- The row sums spread over the row. -/
theorem pos_v38 : AllP (val_main_v38 (F := Ideal) x0 x14 x15 x16 x17) :=
  allP_broadcastInDim _ _ (allP_broadcastInDim _ _ (pos_v36 H))

/-- S_h, the row softmax: a real divided by a positive real. -/
theorem real_v39 : AllR (val_main_v39 (F := Ideal) x0 x14 x15 x16 x17) :=
  allR_divf_pos (pos_v35 H).allR (pos_v38 H)

/-- S_q = S_h·W_Q + b_Q. -/
theorem real_v65 : AllR (val_main_v65 (F := Ideal) x0 x14 x15 x16 x17 x18 x19) :=
  allR_addf (allR_dotGeneral _ _ (real_v39 H) H.h18) (allR_broadcastInDim _ _ (allR_broadcastInDim _ _ H.h19))

/-- S_k = S_h·W_K + b_K. -/
theorem real_v69 : AllR (val_main_v69 (F := Ideal) x0 x14 x15 x16 x17 x20 x21) :=
  allR_addf (allR_dotGeneral _ _ (real_v39 H) H.h20) (allR_broadcastInDim _ _ (allR_broadcastInDim _ _ H.h21))

/-- The rows D_h[src]: entries of D_h. -/
theorem real_v46 : AllR (val_main_v46 (F := Ideal) x0 x2 x10 x11) :=
  allR_gather _ _ (real_v11 H)

/-- The rows E_h[dst]: entries of E_h. -/
theorem real_v53 : AllR (val_main_v53 (F := Ideal) x0 x3 x12 x13) :=
  allR_gather _ _ (real_v15 H)

/-- e' = D_h[src] + E_h[dst] + C_e. -/
theorem real_v55 : AllR (val_main_v55 (F := Ideal) x0 x1 x2 x3 x8 x9 x10 x11 x12 x13) :=
  allR_addf (allR_addf (real_v46 H) (real_v53 H)) (real_v19 H)

/-- 1 + exp(-e'): positive reals. -/
theorem pos_v59 : AllP (val_main_v59 (F := Ideal) x0 x1 x2 x3 x8 x9 x10 x11 x12 x13) :=
  allP_addf pos_v58 (allP_exp (allR_negf (real_v55 H)))

/-- The sigmoid 1 / (1 + exp(-e')). -/
theorem real_v61 : AllR (val_main_v61 (F := Ideal) x0 x1 x2 x3 x8 x9 x10 x11 x12 x13) :=
  allR_divf_pos real_v60 (pos_v59 H)

/-- The rows S_k[src]: entries of S_k. -/
theorem real_v76 : AllR (val_main_v76 (F := Ideal) x0 x2 x14 x15 x16 x17 x20 x21) :=
  allR_gather _ _ (real_v69 H)

/-- The rows S_q[dst]: entries of S_q. -/
theorem real_v83 : AllR (val_main_v83 (F := Ideal) x0 x3 x14 x15 x16 x17 x18 x19) :=
  allR_gather _ _ (real_v65 H)

/-- The sums over the 64 columns of S_k[src]·S_q[dst]. -/
theorem real_v85 : AllR (val_main_v85 (F := Ideal) x0 x2 x3 x14 x15 x16 x17 x18 x19 x20 x21) :=
  allR_reduceAdd _ _ (allR_mulf (real_v76 H) (real_v83 H)) isR_cst_11_first

/-- Their mean: divided by 64. -/
theorem real_v87 : AllR (val_main_v87 (F := Ideal) x0 x2 x3 x14 x15 x16 x17 x18 x19 x20 x21) :=
  allR_divf_const (real_v85 H) (by norm_num) v86_eq

/-- sigma = sigmoid(e') · (the mean, spread over the row). -/
theorem real_v90 : AllR (val_main_v90 (F := Ideal) x0 x1 x2 x3 x8 x9 x10 x11 x12 x13 x14 x15 x16 x17 x18 x19 x20 x21) :=
  allR_mulf (real_v61 H) (allR_broadcastInDim _ _ (allR_broadcastInDim _ _ (real_v87 H)))

/-- The rows B_h[src]: entries of B_h. -/
theorem real_v97 : AllR (val_main_v97 (F := Ideal) x0 x2 x6 x7) :=
  allR_gather _ _ (real_v7 H)

/-- The sum of B_h[src]·sigma into the destination nodes, from zero. -/
theorem real_v101 : AllR (val_main_v101 (F := Ideal) x0 x1 x2 x3 x6 x7 x8 x9 x10 x11 x12 x13 x14 x15 x16 x17 x18 x19 x20 x21) :=
  allR_scatterAdd _ _ real_v99 (allR_mulf (real_v97 H) (real_v90 H))

/-- The divisor: the sum of sigma into the destination nodes, from zero, plus the guard. -/
theorem real_v106 : AllR (val_main_v106 (F := Ideal) x0 x1 x2 x3 x8 x9 x10 x11 x12 x13 x14 x15 x16 x17 x18 x19 x20 x21) :=
  allR_addf (allR_scatterAdd _ _ real_v102 (real_v90 H)) real_v105

/-- h' = A_h + (the first sum) / (the divisor), where the divisor is nowhere zero. -/
theorem real_v108 (hden : ∀ i, val_main_v106 (F := Ideal) x0 x1 x2 x3 x8 x9 x10 x11 x12 x13 x14 x15 x16 x17 x18 x19 x20 x21 i ≠ 0) :
    AllR (val_main_v108 (F := Ideal) x0 x1 x2 x3 x4 x5 x6 x7 x8 x9 x10 x11 x12 x13 x14 x15 x16 x17 x18 x19 x20 x21) :=
  allR_addf (real_v3 H) (allR_divf (real_v101 H) (real_v106 H) hden)

end Cert.Bridge.Reals

end
-- ==== Proof.Finite.lean ====
/-
  The reference's edge update e' and node update h' hold real numbers on the domain of the certificate: the float
  arguments are real there and the divisor of h' is nowhere zero, and every stage between the arguments and the two
  updates keeps its entries real.
-/
import proofs.«412482_j67259187855861_1_alg».proof.Proof.Args
import proofs.«412482_j67259187855861_1_alg».proof.Proof.FiniteAuxStages

noncomputable section

namespace Cert.Bridge

open Idealize.ShloMosaic Idealize.ShloMosaic.TcCoe Idealize.SL.Sem Cert.KernelIdeal
open Cert.Bridge.Reals

variable (m : (ℓ : Loc nD τ sig) → Buf (Elt Ideal) ℓ) (c : Dev nD)

/-- On the domain, the twenty float arguments the two updates depend on hold real numbers. -/
theorem realArgs_of_dom (H : Dom m c) :
    RealArgs (a0 m c) (a1 m c) (a4 m c) (a5 m c) (a6 m c) (a7 m c) (a8 m c) (a9 m c) (a10 m c) (a11 m c) (a12 m c)
      (a13 m c) (a14 m c) (a15 m c) (a16 m c) (a17 m c) (a18 m c) (a19 m c) (a20 m c) (a21 m c) :=
  ⟨H.real0, H.real1, H.real4, H.real5, H.real6, H.real7, H.real8, H.real9, H.real10, H.real11, H.real12, H.real13,
    H.real14, H.real15, H.real16, H.real17, H.real18, H.real19, H.real20, H.real21⟩

/-- Every entry of e' = D_h[src] + E_h[dst] + (e·W_C + b_C) is a real number. -/
theorem allReal_enew (H : Dom m c) : AllReal (rEnew m c) :=
  real_v55 (realArgs_of_dom m c H)

/-- Every entry of h' = A_h + (sum of B_h[src]·sigma into destinations) / (sum of sigma into destinations + guard)
    is a real number: the divisor is real and, on the domain, nowhere zero. -/
theorem allReal_hnew (H : Dom m c) : AllReal (rHnew m c) :=
  real_v108 (realArgs_of_dom m c H) H.den

end Cert.Bridge

end
-- ==== Proof.Chain.lean ====
/-
  The links joined: on the domain, the kernel program's three result buffers at the end of its run hold the reference's
  results.  Each link says that a buffer of the kernel program, at a boundary between two of its segments, holds one of
  the reference's stages; the links are chained in program order: the node transforms, the five row gathers, the edge
  update, the guarded quotient h', the column statistics of h' and of e' (where the variance law needs every entry real),
  and the two normalisations.
-/
import proofs.«412482_j67259187855861_1_alg».proof.Proof.Args
import proofs.«412482_j67259187855861_1_alg».proof.Proof.Stage0a
import proofs.«412482_j67259187855861_1_alg».proof.Proof.Stage0b
import proofs.«412482_j67259187855861_1_alg».proof.Proof.Stage1
import proofs.«412482_j67259187855861_1_alg».proof.Proof.Stage2
import proofs.«412482_j67259187855861_1_alg».proof.Proof.Stage3
import proofs.«412482_j67259187855861_1_alg».proof.Proof.Stage4
import proofs.«412482_j67259187855861_1_alg».proof.Proof.Stage5
import proofs.«412482_j67259187855861_1_alg».proof.Proof.Stage6
import proofs.«412482_j67259187855861_1_alg».proof.Proof.Stage7
import proofs.«412482_j67259187855861_1_alg».proof.Proof.Finite

noncomputable section

namespace Cert.Bridge

open Idealize.ShloMosaic Idealize.ShloMosaic.TcCoe Idealize.SL.Sem Cert.KernelIdeal Cert.KernelIdeal.Gen

variable (m : (ℓ : Loc nD τ sig) → Buf (Elt Ideal) ℓ) (ρ : Dev nD → PrngReg) (c : Dev nD)

/-- On the domain, after the last segment the node result, the edge result and the assignment matrix are the
    reference's h + relu(BN(h')), e + relu(BN(e')) and the row softmax. -/
theorem chain (H : Dom m c) :
    W15 (F := Ideal) m ρ c (Proc.devRef .tc main_v37) = rHout m c
    ∧ W15 (F := Ideal) m ρ c (Proc.devRef .tc main_v40) = rEout m c
    ∧ W15 (F := Ideal) m ρ c (Proc.devRef .tc main_v0_4) = rSh m c := by
  have eAh := node_Ah m ρ c
  have eBh := node_Bh m ρ c
  have eDh := node_Dh m ρ c
  have eEh := node_Eh m ρ c
  have eSh := node_Sh m ρ c
  have eSq := node_Sq m ρ c
  have eSk := node_Sk m ρ c
  have t1 := take_DhSrc m ρ c eDh H.src
  have t2 := take_EhDst m ρ c eEh H.dst
  have t3 := take_SkSrc m ρ c eSk H.src
  have t4 := take_SqDst m ρ c eSq H.dst
  have t5 := take_BhSrc m ρ c eBh H.src
  obtain ⟨e60, e61, e62⟩ := edge_vals m ρ c t1 t2 t3 t4 t5
  have e16 := hnew_val m ρ c eAh e61 e62
  obtain ⟨mh, vh⟩ := stats_h m ρ c e16 (allReal_hnew m c H)
  obtain ⟨me, ve⟩ := stats_e m ρ c ((enew_carry10 m ρ c).trans e60) (allReal_enew m c H)
  exact ⟨hout_val m ρ c e16 mh vh, eout_val m ρ c e60 me ve, (sh_carry m ρ c).trans eSh⟩

end Cert.Bridge

end
-- ==== Proof.PreDomAux.lean ====
/-
  A conjunction over all entries of an array, read at one entry.

  The conjunction of an array of one-bit words is its reduction by `and`, from the word 1, into a result of one index.
  If that reduction is 1 then every word of the array is 1.  The lemmas below say what one such word being 1 means, for
  three entrywise tests:

  * `|x| < +inf` over the extended reals: the entry is a real number (neither infinity);
  * `-50000 ≤ w` and `w < 50000` for signed 32-bit words: the same bounds on the word's integer value;
  * `y ≠ 0` over the extended reals.

  Every lemma is stated at any shape, so that one statement serves arrays of every extent.
-/
import Idealize.ShloMosaic.Lib.ReduceAll
import Idealize.ShloMosaic.Lib.StableHlo.Predicate
import Idealize.ShloMosaic.PureOps.Ideal.Laws

noncomputable section

namespace Cert.Bridge

open Idealize.ShloMosaic

/-- The shape of a scalar has one index. -/
instance subsingleton_scalarIdx : Subsingleton (⟨0, ![]⟩ : Shape).Idx := ⟨fun a b => funext fun d => d.elim0⟩

/-- The f32 pattern with all exponent bits set and no fraction bit denotes `+inf`. -/
theorem ofBits_inf_f32 : Ideal.ofBits .f32 0x7F800000#32 = ⊤ := by simp [Ideal.ofBits, Ideal.ieee]

/-- An extended real whose absolute value `max a (-a)` lies strictly below `+inf` is a real number: at `-inf` the
    negation is `+inf`, at `+inf` the entry itself is. -/
theorem real_of_abs_lt_inf (a : EReal)
    (h : Ideal.cmp .olt (max a (-a)) (Ideal.ofBits .f32 0x7F800000#32) = 1#1) : ∃ r : ℝ, a = (r : EReal) := by
  rw [ofBits_inf_f32] at h
  simp only [Ideal.cmp, StableHlo.Predicate.ofBool_eq_one_iff, decide_eq_true_eq] at h
  induction a using EReal.rec with
  | bot => simp at h
  | top => simp at h
  | coe r => exact ⟨r, rfl⟩

/-- If the conjunction over all entries of `|x| < +inf` is 1, every entry of `x` is a real number. -/
theorem allReal_of_all {s : Shape} {axes : List (Fin s.rank)} (x : FVec Ideal s .f32)
    (hb : (⟨0, ![]⟩ : Shape).BroadcastsInDim s (![] : Fin 0 → Fin s.rank)) (hr : s.ReducesTo axes ⟨0, ![]⟩)
    (hu : 0 < (⟨0, ![]⟩ : Shape).numel) (init : IVec ⟨0, ![]⟩ 1) (j : (⟨0, ![]⟩ : Shape).Idx)
    (e : Host.reduce IntOp.andi
          (cmpf .olt (Host.absf x) (broadcastInDim s ![] hb (constant ⟨0, ![]⟩ .f32 0x7F800000#32))) init hr hu j = 1#1) :
    ∀ i, ∃ r : ℝ, x i = (r : EReal) := fun i =>
  real_of_abs_lt_inf (x i) (Host.reduce_andi_all _ init hr hu j e i)

/-- The word `2³² - 50000` is the signed integer `-50000`; a word at or above it in the signed order has an integer
    value of at least `-50000`. -/
theorem toInt_ge_of_sge (a : BitVec 32) (h : IntOp.cmpi .sge a 4294917296#32 = 1#1) : -50000 ≤ a.toInt := by
  have hc : (4294917296#32 : BitVec 32).toInt = -50000 := by decide
  simp only [IntOp.cmpi, StableHlo.Predicate.ofBool_eq_one_iff, BitVec.sle, decide_eq_true_eq, hc] at h
  exact h

/-- A word below `50000` in the signed order has an integer value below `50000`. -/
theorem toInt_lt_of_slt (a : BitVec 32) (h : IntOp.cmpi .slt a 50000#32 = 1#1) : a.toInt < 50000 := by
  have hc : (50000#32 : BitVec 32).toInt = 50000 := by decide
  simp only [IntOp.cmpi, StableHlo.Predicate.ofBool_eq_one_iff, BitVec.slt, decide_eq_true_eq, hc] at h
  exact h

/-- If the conjunction over all entries of `(w ≥ -50000) ∧ (w < 50000)` is 1, every word's integer value lies in
    `[-50000, 50000)`. -/
theorem range_of_all {s : Shape} {axes : List (Fin s.rank)} (x : IVec s 32)
    (hb : (⟨0, ![]⟩ : Shape).BroadcastsInDim s (![] : Fin 0 → Fin s.rank)) (hr : s.ReducesTo axes ⟨0, ![]⟩)
    (hu : 0 < (⟨0, ![]⟩ : Shape).numel) (init : IVec ⟨0, ![]⟩ 1) (j : (⟨0, ![]⟩ : Shape).Idx)
    (e : Host.reduce IntOp.andi
          (andi (cmpi .sge x (broadcastInDim s ![] hb (constantI ⟨0, ![]⟩ 32 4294917296#32)))
                (cmpi .slt x (broadcastInDim s ![] hb (constantI ⟨0, ![]⟩ 32 50000#32)))) init hr hu j = 1#1) :
    ∀ i, -50000 ≤ (x i).toInt ∧ (x i).toInt < 50000 := fun i => by
  obtain ⟨hge, hlt⟩ := IntOp.andi_eq_one.1 (Host.reduce_andi_all _ init hr hu j e i)
  exact ⟨toInt_ge_of_sge (x i) hge, toInt_lt_of_slt (x i) hlt⟩

/-- An extended real that compares unequal to the f32 pattern of zero is not zero. -/
theorem ne_zero_of_une (a : EReal) (h : Ideal.cmp .une a (Ideal.ofBits .f32 0x00000000#32) = 1#1) : a ≠ 0 := by
  rw [Ideal.ofBits_zero_f32] at h
  simpa only [Ideal.cmp, StableHlo.Predicate.ofBool_eq_one_iff, decide_eq_true_eq] using h

/-- If the conjunction over all entries of `y ≠ 0` is 1, no entry of `y` is zero. -/
theorem ne_zero_of_all {s : Shape} {axes : List (Fin s.rank)} (y : FVec Ideal s .f32)
    (hb : (⟨0, ![]⟩ : Shape).BroadcastsInDim s (![] : Fin 0 → Fin s.rank)) (hr : s.ReducesTo axes ⟨0, ![]⟩)
    (hu : 0 < (⟨0, ![]⟩ : Shape).numel) (init : IVec ⟨0, ![]⟩ 1) (j : (⟨0, ![]⟩ : Shape).Idx)
    (e : Host.reduce IntOp.andi
          (cmpf .une y (broadcastInDim s ![] hb (constant ⟨0, ![]⟩ .f32 0x00000000#32))) init hr hu j = 1#1) :
    ∀ i, y i ≠ 0 := fun i =>
  ne_zero_of_une (y i) (Host.reduce_andi_all _ init hr hu j e i)

/-- A conjunction of two `i1` arrays is 1 at an index exactly when both are. -/
theorem andi_apply_eq_one {s : Shape} (x y : IVec s 1) (j : s.Idx) : andi x y j = 1#1 ↔ x j = 1#1 ∧ y j = 1#1 :=
  IntOp.andi_eq_one

end Cert.Bridge

end
-- ==== Proof.PreDomAux2.lean ====
/-
  The finiteness-and-range predicate, split into its conjuncts.

  The predicate of the twenty-six argument arrays is one conjunction: for each of the twenty-four real arrays the test
  `|x| < +inf` at every entry, for each of the two arrays of index words the test `-50000 ≤ w < 50000` at every entry, and
  last a test on the guarded divisor.  If the conjunction is 1 then each conjunct is; this module reads the first twenty-six
  of them at an entry (the last is read where the divisor is named).
-/
import proofs.«412482_j67259187855861_1_alg».proof.Pre_finite_inputs
import proofs.«412482_j67259187855861_1_alg».proof.Proof.PreDomAux

noncomputable section

namespace Cert.Bridge

open Idealize.ShloMosaic Cert.Pre_finite_inputs

/-- What the first twenty-six conjuncts say: every entry of every real array is a real number, and every index word has an
    integer value in `[-50000, 50000)`. -/
structure PreFields (x0 : FVec Ideal S50000x64 .f32) (x1 : FVec Ideal S800000x64 .f32) (x2 : IVec S800000 32) (x3 : IVec S800000 32) (x4 : FVec Ideal S64x64 .f32) (x5 : FVec Ideal S64 .f32) (x6 : FVec Ideal S64x64 .f32) (x7 : FVec Ideal S64 .f32) (x8 : FVec Ideal S64x64 .f32) (x9 : FVec Ideal S64 .f32) (x10 : FVec Ideal S64x64 .f32) (x11 : FVec Ideal S64 .f32) (x12 : FVec Ideal S64x64 .f32) (x13 : FVec Ideal S64 .f32) (x14 : FVec Ideal S64x64 .f32) (x15 : FVec Ideal S64 .f32) (x16 : FVec Ideal S64x32 .f32) (x17 : FVec Ideal S32 .f32) (x18 : FVec Ideal S32x64 .f32) (x19 : FVec Ideal S64 .f32) (x20 : FVec Ideal S32x64 .f32) (x21 : FVec Ideal S64 .f32) (x22 : FVec Ideal S64 .f32) (x23 : FVec Ideal S64 .f32) (x24 : FVec Ideal S64 .f32) (x25 : FVec Ideal S64 .f32) : Prop where
  real0 : ∀ i, ∃ r : ℝ, x0 i = (r : EReal)
  real1 : ∀ i, ∃ r : ℝ, x1 i = (r : EReal)
  real4 : ∀ i, ∃ r : ℝ, x4 i = (r : EReal)
  real5 : ∀ i, ∃ r : ℝ, x5 i = (r : EReal)
  real6 : ∀ i, ∃ r : ℝ, x6 i = (r : EReal)
  real7 : ∀ i, ∃ r : ℝ, x7 i = (r : EReal)
  real8 : ∀ i, ∃ r : ℝ, x8 i = (r : EReal)
  real9 : ∀ i, ∃ r : ℝ, x9 i = (r : EReal)
  real10 : ∀ i, ∃ r : ℝ, x10 i = (r : EReal)
  real11 : ∀ i, ∃ r : ℝ, x11 i = (r : EReal)
  real12 : ∀ i, ∃ r : ℝ, x12 i = (r : EReal)
  real13 : ∀ i, ∃ r : ℝ, x13 i = (r : EReal)
  real14 : ∀ i, ∃ r : ℝ, x14 i = (r : EReal)
  real15 : ∀ i, ∃ r : ℝ, x15 i = (r : EReal)
  real16 : ∀ i, ∃ r : ℝ, x16 i = (r : EReal)
  real17 : ∀ i, ∃ r : ℝ, x17 i = (r : EReal)
  real18 : ∀ i, ∃ r : ℝ, x18 i = (r : EReal)
  real19 : ∀ i, ∃ r : ℝ, x19 i = (r : EReal)
  real20 : ∀ i, ∃ r : ℝ, x20 i = (r : EReal)
  real21 : ∀ i, ∃ r : ℝ, x21 i = (r : EReal)
  real22 : ∀ i, ∃ r : ℝ, x22 i = (r : EReal)
  real23 : ∀ i, ∃ r : ℝ, x23 i = (r : EReal)
  real24 : ∀ i, ∃ r : ℝ, x24 i = (r : EReal)
  real25 : ∀ i, ∃ r : ℝ, x25 i = (r : EReal)
  src : ∀ i, -50000 ≤ (x2 i).toInt ∧ (x2 i).toInt < 50000
  dst : ∀ i, -50000 ≤ (x3 i).toInt ∧ (x3 i).toInt < 50000

/-- The predicate is 1: its first twenty-six conjuncts hold at every entry. -/
theorem pre_fields [Facts] (x0 : FVec Ideal S50000x64 .f32) (x1 : FVec Ideal S800000x64 .f32) (x2 : IVec S800000 32) (x3 : IVec S800000 32) (x4 : FVec Ideal S64x64 .f32) (x5 : FVec Ideal S64 .f32) (x6 : FVec Ideal S64x64 .f32) (x7 : FVec Ideal S64 .f32) (x8 : FVec Ideal S64x64 .f32) (x9 : FVec Ideal S64 .f32) (x10 : FVec Ideal S64x64 .f32) (x11 : FVec Ideal S64 .f32) (x12 : FVec Ideal S64x64 .f32) (x13 : FVec Ideal S64 .f32) (x14 : FVec Ideal S64x64 .f32) (x15 : FVec Ideal S64 .f32) (x16 : FVec Ideal S64x32 .f32) (x17 : FVec Ideal S32 .f32) (x18 : FVec Ideal S32x64 .f32) (x19 : FVec Ideal S64 .f32) (x20 : FVec Ideal S32x64 .f32) (x21 : FVec Ideal S64 .f32) (x22 : FVec Ideal S64 .f32) (x23 : FVec Ideal S64 .f32) (x24 : FVec Ideal S64 .f32) (x25 : FVec Ideal S64 .f32) (j : S_.Idx)
    (h : fn (F := Ideal) x0 x1 x2 x3 x4 x5 x6 x7 x8 x9 x10 x11 x12 x13 x14 x15 x16 x17 x18 x19 x20 x21 x22 x23 x24 x25 j = 1#1) : PreFields x0 x1 x2 x3 x4 x5 x6 x7 x8 x9 x10 x11 x12 x13 x14 x15 x16 x17 x18 x19 x20 x21 x22 x23 x24 x25 := by
  dsimp only [fn, fn_part1, fn_part2, fn_part3, fn_part4, fn_part5, fn_part6, fn_part7, fn_part8, fn_part9, fn_part10, fn_part11, fn_part12] at h
  simp only [andi_apply_eq_one] at h
  obtain ⟨⟨⟨⟨⟨⟨⟨⟨⟨⟨⟨⟨⟨⟨⟨⟨⟨⟨⟨⟨⟨⟨⟨⟨⟨⟨h0, h1⟩, h4⟩, h5⟩, h6⟩, h7⟩, h8⟩, h9⟩, h10⟩, h11⟩, h12⟩, h13⟩, h14⟩, h15⟩, h16⟩, h17⟩, h18⟩, h19⟩, h20⟩, h21⟩, h22⟩, h23⟩, h24⟩, h25⟩, hsrc⟩, hdst⟩, _⟩ := h
  exact {
    real0 := allReal_of_all x0 _ _ _ _ _ h0
    real1 := allReal_of_all x1 _ _ _ _ _ h1
    real4 := allReal_of_all x4 _ _ _ _ _ h4
    real5 := allReal_of_all x5 _ _ _ _ _ h5
    real6 := allReal_of_all x6 _ _ _ _ _ h6
    real7 := allReal_of_all x7 _ _ _ _ _ h7
    real8 := allReal_of_all x8 _ _ _ _ _ h8
    real9 := allReal_of_all x9 _ _ _ _ _ h9
    real10 := allReal_of_all x10 _ _ _ _ _ h10
    real11 := allReal_of_all x11 _ _ _ _ _ h11
    real12 := allReal_of_all x12 _ _ _ _ _ h12
    real13 := allReal_of_all x13 _ _ _ _ _ h13
    real14 := allReal_of_all x14 _ _ _ _ _ h14
    real15 := allReal_of_all x15 _ _ _ _ _ h15
    real16 := allReal_of_all x16 _ _ _ _ _ h16
    real17 := allReal_of_all x17 _ _ _ _ _ h17
    real18 := allReal_of_all x18 _ _ _ _ _ h18
    real19 := allReal_of_all x19 _ _ _ _ _ h19
    real20 := allReal_of_all x20 _ _ _ _ _ h20
    real21 := allReal_of_all x21 _ _ _ _ _ h21
    real22 := allReal_of_all x22 _ _ _ _ _ h22
    real23 := allReal_of_all x23 _ _ _ _ _ h23
    real24 := allReal_of_all x24 _ _ _ _ _ h24
    real25 := allReal_of_all x25 _ _ _ _ _ h25
    src := range_of_all x2 _ _ _ _ _ hsrc
    dst := range_of_all x3 _ _ _ _ _ hdst }

end Cert.Bridge

end
-- ==== Proof.PreDomAux3.lean ====
/-
  The predicate's last conjunct, read as a fact about the reference's guarded divisor.

  The divisor of the node update is `S + guard`, where `S` sums the gate's rows into their destination nodes and `guard` is a
  small positive constant.  The predicate tests `S + guard ≠ 0` at every entry, computing `S + guard` from the argument
  arrays by the reference's own operations.  This module identifies the predicate's term with the reference's stage and so
  turns the conjunct into: no entry of the reference's guarded divisor is zero.
-/
import proofs.«412482_j67259187855861_1_alg».proof.Pre_finite_inputs
import proofs.«412482_j67259187855861_1_alg».proof.Proof.Gen.ReferenceIdeal.Read
import proofs.«412482_j67259187855861_1_alg».proof.Proof.PreDomAux

noncomputable section

namespace Cert.Bridge

open Idealize.ShloMosaic

/-! ## The two programs' dimension records agree

The predicate and the reference each carry their own copy of the dimension numbers of every contraction, gather and scatter.
The copies have the same fields; they differ only in the proof of well-formedness each carries, which no value depends on. -/

/-- The two copies of the dimension numbers of a [50000 × 64] by [64 × 64] product are equal. -/
theorem dot_node_eq [Cert.Pre_finite_inputs.Facts] :
    Cert.Pre_finite_inputs.dot_S50000x64_S64x64_S50000x64_1_0_0_1_n_n = Cert.ReferenceIdeal.dot_S50000x64_S64x64_S50000x64_1_0_0_1_n_n := rfl
/-- The two copies of the dimension numbers of an [800000 × 64] by [64 × 64] product are equal. -/
theorem dot_edge_eq [Cert.Pre_finite_inputs.Facts] :
    Cert.Pre_finite_inputs.dot_S800000x64_S64x64_S800000x64_1_0_0_1_n_n = Cert.ReferenceIdeal.dot_S800000x64_S64x64_S800000x64_1_0_0_1_n_n := rfl
/-- The two copies of the dimension numbers of a [50000 × 64] by [64 × 32] product are equal. -/
theorem dot_hidden_eq [Cert.Pre_finite_inputs.Facts] :
    Cert.Pre_finite_inputs.dot_S50000x64_S64x32_S50000x32_1_0_0_1_n_n = Cert.ReferenceIdeal.dot_S50000x64_S64x32_S50000x32_1_0_0_1_n_n := rfl
/-- The two copies of the dimension numbers of a [50000 × 32] by [32 × 64] product are equal. -/
theorem dot_attn_eq [Cert.Pre_finite_inputs.Facts] :
    Cert.Pre_finite_inputs.dot_S50000x32_S32x64_S50000x64_1_0_0_1_n_n = Cert.ReferenceIdeal.dot_S50000x32_S32x64_S50000x64_1_0_0_1_n_n := rfl
/-- The two copies of the dimension numbers of the gather of 800000 rows of a [50000 × 64] table are equal. -/
theorem gather_rows_eq [Cert.Pre_finite_inputs.Facts] :
    Cert.Pre_finite_inputs.gather_S50000x64_S800000x1_S800000x64_1_0_n_n_0_1_164 = Cert.ReferenceIdeal.gather_S50000x64_S800000x1_S800000x64_1_0_n_n_0_1_164 := rfl
/-- The two copies of the dimension numbers of the scatter-sum of 800000 rows into a [50000 × 64] table are equal. -/
theorem scatter_rows_eq [Cert.Pre_finite_inputs.Facts] :
    Cert.Pre_finite_inputs.scatter_S50000x64_S800000x1_S800000x64_1_0_0_1 = Cert.ReferenceIdeal.scatter_S50000x64_S800000x1_S800000x64_1_0_0_1 := rfl

/-! ## The last conjunct: the guarded divisor is nowhere zero

The predicate's last conjunct tests `S + guard ≠ 0` at every entry, where `S` is the sum of the gate's rows into their
destination nodes.  It builds `S + guard` from the argument arrays by the same operations, in the same order and with the same
constants, as the reference builds its own guarded divisor: the two terms differ only in which copy of each dimension record
they name.  So once the records are identified the test speaks of the reference's divisor. -/

/-- The predicate is 1: no entry of the reference's guarded divisor is zero. -/
theorem pre_den [Cert.Pre_finite_inputs.Facts] (x0 : FVec Ideal Cert.Pre_finite_inputs.S50000x64 .f32) (x1 : FVec Ideal Cert.Pre_finite_inputs.S800000x64 .f32) (x2 : IVec Cert.Pre_finite_inputs.S800000 32) (x3 : IVec Cert.Pre_finite_inputs.S800000 32) (x4 : FVec Ideal Cert.Pre_finite_inputs.S64x64 .f32) (x5 : FVec Ideal Cert.Pre_finite_inputs.S64 .f32) (x6 : FVec Ideal Cert.Pre_finite_inputs.S64x64 .f32) (x7 : FVec Ideal Cert.Pre_finite_inputs.S64 .f32) (x8 : FVec Ideal Cert.Pre_finite_inputs.S64x64 .f32) (x9 : FVec Ideal Cert.Pre_finite_inputs.S64 .f32) (x10 : FVec Ideal Cert.Pre_finite_inputs.S64x64 .f32) (x11 : FVec Ideal Cert.Pre_finite_inputs.S64 .f32) (x12 : FVec Ideal Cert.Pre_finite_inputs.S64x64 .f32) (x13 : FVec Ideal Cert.Pre_finite_inputs.S64 .f32) (x14 : FVec Ideal Cert.Pre_finite_inputs.S64x64 .f32) (x15 : FVec Ideal Cert.Pre_finite_inputs.S64 .f32) (x16 : FVec Ideal Cert.Pre_finite_inputs.S64x32 .f32) (x17 : FVec Ideal Cert.Pre_finite_inputs.S32 .f32) (x18 : FVec Ideal Cert.Pre_finite_inputs.S32x64 .f32) (x19 : FVec Ideal Cert.Pre_finite_inputs.S64 .f32) (x20 : FVec Ideal Cert.Pre_finite_inputs.S32x64 .f32) (x21 : FVec Ideal Cert.Pre_finite_inputs.S64 .f32) (x22 : FVec Ideal Cert.Pre_finite_inputs.S64 .f32) (x23 : FVec Ideal Cert.Pre_finite_inputs.S64 .f32) (x24 : FVec Ideal Cert.Pre_finite_inputs.S64 .f32) (x25 : FVec Ideal Cert.Pre_finite_inputs.S64 .f32) (j : Cert.Pre_finite_inputs.S_.Idx)
    (h : Cert.Pre_finite_inputs.fn (F := Ideal) x0 x1 x2 x3 x4 x5 x6 x7 x8 x9 x10 x11 x12 x13 x14 x15 x16 x17 x18 x19 x20 x21 x22 x23 x24 x25 j = 1#1) :
    ∀ i, Cert.ReferenceIdeal.Read.val_main_v106 (F := Ideal) x0 x1 x2 x3 x8 x9 x10 x11 x12 x13 x14 x15 x16 x17 x18 x19 x20 x21 i ≠ 0 := by
  dsimp only [Cert.Pre_finite_inputs.fn, Cert.Pre_finite_inputs.fn_part1, Cert.Pre_finite_inputs.fn_part2, Cert.Pre_finite_inputs.fn_part3, Cert.Pre_finite_inputs.fn_part4, Cert.Pre_finite_inputs.fn_part5, Cert.Pre_finite_inputs.fn_part6, Cert.Pre_finite_inputs.fn_part7, Cert.Pre_finite_inputs.fn_part8, Cert.Pre_finite_inputs.fn_part9, Cert.Pre_finite_inputs.fn_part10, Cert.Pre_finite_inputs.fn_part11, Cert.Pre_finite_inputs.fn_part12] at h
  have h1 := ne_zero_of_all _ _ _ _ _ _ ((andi_apply_eq_one _ _ _).1 h).2
  rw [dot_node_eq, dot_edge_eq, dot_hidden_eq, dot_attn_eq, gather_rows_eq, scatter_rows_eq] at h1
  simp only [Cert.ReferenceIdeal.Read.val_main_c, Cert.ReferenceIdeal.Read.val_main_c_10, Cert.ReferenceIdeal.Read.val_main_c_2, Cert.ReferenceIdeal.Read.val_main_c_3, Cert.ReferenceIdeal.Read.val_main_c_4, Cert.ReferenceIdeal.Read.val_main_c_7, Cert.ReferenceIdeal.Read.val_main_c_8, Cert.ReferenceIdeal.Read.val_main_c_9, Cert.ReferenceIdeal.Read.val_main_call0_cst, Cert.ReferenceIdeal.Read.val_main_call0_v0, Cert.ReferenceIdeal.Read.val_main_cst, Cert.ReferenceIdeal.Read.val_main_cst_0, Cert.ReferenceIdeal.Read.val_main_cst_1, Cert.ReferenceIdeal.Read.val_main_cst_11, Cert.ReferenceIdeal.Read.val_main_cst_12, Cert.ReferenceIdeal.Read.val_main_cst_16, Cert.ReferenceIdeal.Read.val_main_cst_17, Cert.ReferenceIdeal.Read.val_main_cst_5, Cert.ReferenceIdeal.Read.val_main_cst_6, Cert.ReferenceIdeal.Read.val_main_v106, Cert.ReferenceIdeal.Read.val_main_v105, Cert.ReferenceIdeal.Read.val_main_v104, Cert.ReferenceIdeal.Read.val_main_v103, Cert.ReferenceIdeal.Read.val_main_v102, Cert.ReferenceIdeal.Read.val_main_v90, Cert.ReferenceIdeal.Read.val_main_v89, Cert.ReferenceIdeal.Read.val_main_v88, Cert.ReferenceIdeal.Read.val_main_v87, Cert.ReferenceIdeal.Read.val_main_v86, Cert.ReferenceIdeal.Read.val_main_v85, Cert.ReferenceIdeal.Read.val_main_v84, Cert.ReferenceIdeal.Read.val_main_v83, Cert.ReferenceIdeal.Read.val_main_v82, Cert.ReferenceIdeal.Read.val_main_v81, Cert.ReferenceIdeal.Read.val_main_v80, Cert.ReferenceIdeal.Read.val_main_v79, Cert.ReferenceIdeal.Read.val_main_v78, Cert.ReferenceIdeal.Read.val_main_v77, Cert.ReferenceIdeal.Read.val_main_v76, Cert.ReferenceIdeal.Read.val_main_v75, Cert.ReferenceIdeal.Read.val_main_v74, Cert.ReferenceIdeal.Read.val_main_v73, Cert.ReferenceIdeal.Read.val_main_v72, Cert.ReferenceIdeal.Read.val_main_v71, Cert.ReferenceIdeal.Read.val_main_v70, Cert.ReferenceIdeal.Read.val_main_v69, Cert.ReferenceIdeal.Read.val_main_v68, Cert.ReferenceIdeal.Read.val_main_v67, Cert.ReferenceIdeal.Read.val_main_v66, Cert.ReferenceIdeal.Read.val_main_v65, Cert.ReferenceIdeal.Read.val_main_v64, Cert.ReferenceIdeal.Read.val_main_v63, Cert.ReferenceIdeal.Read.val_main_v62, Cert.ReferenceIdeal.Read.val_main_v61, Cert.ReferenceIdeal.Read.val_main_v60, Cert.ReferenceIdeal.Read.val_main_v59, Cert.ReferenceIdeal.Read.val_main_v58, Cert.ReferenceIdeal.Read.val_main_v57, Cert.ReferenceIdeal.Read.val_main_v56, Cert.ReferenceIdeal.Read.val_main_v55, Cert.ReferenceIdeal.Read.val_main_v54, Cert.ReferenceIdeal.Read.val_main_v53, Cert.ReferenceIdeal.Read.val_main_v52, Cert.ReferenceIdeal.Read.val_main_v51, Cert.ReferenceIdeal.Read.val_main_v50, Cert.ReferenceIdeal.Read.val_main_v49, Cert.ReferenceIdeal.Read.val_main_v48, Cert.ReferenceIdeal.Read.val_main_v47, Cert.ReferenceIdeal.Read.val_main_v46, Cert.ReferenceIdeal.Read.val_main_v45, Cert.ReferenceIdeal.Read.val_main_v44, Cert.ReferenceIdeal.Read.val_main_v43, Cert.ReferenceIdeal.Read.val_main_v42, Cert.ReferenceIdeal.Read.val_main_v41, Cert.ReferenceIdeal.Read.val_main_v40, Cert.ReferenceIdeal.Read.val_main_v39, Cert.ReferenceIdeal.Read.val_main_v38, Cert.ReferenceIdeal.Read.val_main_v37, Cert.ReferenceIdeal.Read.val_main_v36, Cert.ReferenceIdeal.Read.val_main_v35, Cert.ReferenceIdeal.Read.val_main_v34, Cert.ReferenceIdeal.Read.val_main_v33, Cert.ReferenceIdeal.Read.val_main_v32, Cert.ReferenceIdeal.Read.val_main_v31, Cert.ReferenceIdeal.Read.val_main_v30, Cert.ReferenceIdeal.Read.val_main_v29, Cert.ReferenceIdeal.Read.val_main_v28, Cert.ReferenceIdeal.Read.val_main_v27, Cert.ReferenceIdeal.Read.val_main_v26, Cert.ReferenceIdeal.Read.val_main_v25, Cert.ReferenceIdeal.Read.val_main_v24, Cert.ReferenceIdeal.Read.val_main_v23, Cert.ReferenceIdeal.Read.val_main_v22, Cert.ReferenceIdeal.Read.val_main_v21, Cert.ReferenceIdeal.Read.val_main_v20, Cert.ReferenceIdeal.Read.val_main_v19, Cert.ReferenceIdeal.Read.val_main_v18, Cert.ReferenceIdeal.Read.val_main_v17, Cert.ReferenceIdeal.Read.val_main_v16, Cert.ReferenceIdeal.Read.val_main_v15, Cert.ReferenceIdeal.Read.val_main_v14, Cert.ReferenceIdeal.Read.val_main_v13, Cert.ReferenceIdeal.Read.val_main_v12, Cert.ReferenceIdeal.Read.val_main_v11, Cert.ReferenceIdeal.Read.val_main_v10, Cert.ReferenceIdeal.Read.val_main_v9, Cert.ReferenceIdeal.Read.val_main_v8]
  exact h1

end Cert.Bridge

end
-- ==== Proof.PreDom.lean ====
/-
  The domain of the certificate, from the predicate.

  The certificate is stated for launch memories whose argument arrays satisfy one predicate on every core.  The value proof
  works on a domain stated entry by entry: every real argument holds real numbers, every source and destination index word
  lies in `[-50000, 50000)`, and the guarded divisor of the node update is nowhere zero.  This module derives the second
  from the first.
-/
import proofs.«412482_j67259187855861_1_alg».proof.Defs
import proofs.«412482_j67259187855861_1_alg».proof.Proof.Gen.Pre_finite_inputs
import proofs.«412482_j67259187855861_1_alg».proof.Proof.Args
import proofs.«412482_j67259187855861_1_alg».proof.Proof.PreDomAux2
import proofs.«412482_j67259187855861_1_alg».proof.Proof.PreDomAux3
import Idealize.ShloMosaic.Lib.ValueIdx

noncomputable section

namespace Cert.Bridge

open Idealize.ShloMosaic Idealize.ShloMosaic.TcCoe Idealize.SL.Sem Cert.KernelIdeal

/-- The domain of the certificate holds on every core whose argument arrays satisfy the predicate: the predicate at a core is
    one word, the conjunction of twenty-seven tests; its first twenty-six give the real fields and the two index ranges, its
    last the divisor. -/
theorem dom_of_pre (m : (ℓ : Loc Cert.KernelIdeal.nD Cert.KernelIdeal.τ Cert.KernelIdeal.sig) → Buf (Elt Ideal) ℓ)
    [Cert.Pre_finite_inputs.Facts] (h : Cert.Pre_KernelIdeal m) : ∀ c, Dom m c := by
  intro c
  have h0 := congrFun (h c) ValueIdx.ix0
  have hf := pre_fields (h := h0)
  exact {
    real0 := hf.real0
    real1 := hf.real1
    real4 := hf.real4
    real5 := hf.real5
    real6 := hf.real6
    real7 := hf.real7
    real8 := hf.real8
    real9 := hf.real9
    real10 := hf.real10
    real11 := hf.real11
    real12 := hf.real12
    real13 := hf.real13
    real14 := hf.real14
    real15 := hf.real15
    real16 := hf.real16
    real17 := hf.real17
    real18 := hf.real18
    real19 := hf.real19
    real20 := hf.real20
    real21 := hf.real21
    real22 := hf.real22
    real23 := hf.real23
    real24 := hf.real24
    real25 := hf.real25
    src := hf.src
    dst := hf.dst
    den := pre_den (h := h0) }

end Cert.Bridge

end
-- ==== Proof.lean ====
/-
  The certificate's claim, assembled.

  The kernel program computes a gated graph-convolution layer in six TensorCore regions with host operations between
  them; the reference computes the same layer as one chain of array operations.  Five statements are proved.

  * Each of the three programs (the kernel as printed, the kernel over the extended reals, the reference over the
    extended reals) runs to termination without fault from any memory with zero counters and leaves its 26 argument
    arrays as launched.  For the two kernel programs this is the generated frame theorem; for the reference it is the
    generated run theorem with its three result equations dropped.
  * The kernel over the extended reals is the printed kernel's text read at exact arithmetic: no operation was
    rewritten, so there is nothing to preserve.
  * Over the extended reals, from memories that agree on the 26 arguments and satisfy the precondition, both programs
    end with the same three results: h + relu(BN(h')), e + relu(BN(e')) and the row softmax S_h, each the reference's own
    stage function of the arguments.  On the kernel's side the final state holds, at the three result buffers, the last
    term W15 of the fold of buffer contents over the fifteen segments, and on the precondition's domain (finite floats,
    index words in [-50000, 50000), a nowhere-zero divisor) that term is the reference's stage.  On the reference's side
    the run's result term is the stage function at the reference's own arguments, which are the kernel's by agreement.
-/
import proofs.«412482_j67259187855861_1_alg».proof.Defs
import proofs.«412482_j67259187855861_1_alg».proof.Proof.Gen.Kernel
import proofs.«412482_j67259187855861_1_alg».proof.Proof.Gen.Kernel.Skeleton
import proofs.«412482_j67259187855861_1_alg».proof.Proof.Gen.Kernel.Launch
import proofs.«412482_j67259187855861_1_alg».proof.Proof.Gen.Kernel.Points
import proofs.«412482_j67259187855861_1_alg».proof.Proof.Gen.Kernel.Frame
import proofs.«412482_j67259187855861_1_alg».proof.Proof.Gen.KernelIdeal
import proofs.«412482_j67259187855861_1_alg».proof.Proof.Gen.KernelIdeal.Skeleton
import proofs.«412482_j67259187855861_1_alg».proof.Proof.Gen.KernelIdeal.Launch
import proofs.«412482_j67259187855861_1_alg».proof.Proof.Gen.KernelIdeal.Points
import proofs.«412482_j67259187855861_1_alg».proof.Proof.Gen.KernelIdeal.Frame
import proofs.«412482_j67259187855861_1_alg».proof.Proof.Gen.ReferenceIdeal
import proofs.«412482_j67259187855861_1_alg».proof.Proof.Gen.Pre_finite_inputs
import proofs.«412482_j67259187855861_1_alg».proof.Proof.Gen.ReferenceIdeal.Run
import proofs.«412482_j67259187855861_1_alg».proof.Proof.Gen.ReferenceIdeal.Read
import proofs.«412482_j67259187855861_1_alg».proof.Proof.Args
import proofs.«412482_j67259187855861_1_alg».proof.Proof.KernelRun
import proofs.«412482_j67259187855861_1_alg».proof.Proof.Chain
import proofs.«412482_j67259187855861_1_alg».proof.Proof.PreDom

noncomputable section

namespace Cert.Proof

open Idealize.ShloMosaic Idealize.SL.Sem

/-- The printed kernel terminates without fault and leaves its arguments as launched: the generated frame. -/
theorem frame_k : Cert.frame_Kernel := fun m ρ _ => Cert.Kernel.Gen.frame m ρ

/-- The same for the kernel read over the extended reals. -/
theorem frame_ki : Cert.frame_KernelIdeal := fun m ρ _ => Cert.KernelIdeal.Gen.frame m ρ

/-- The reference terminates without fault and leaves its arguments as launched: its run theorem names the three
    results as well, and a post may be weakened. -/
theorem frame_ri : Cert.frame_ReferenceIdeal := fun m ρ _ =>
  (θ_run Cert.ReferenceIdeal.defs _ _).mono (fun _ h c => (h c).2.2.2) (Cert.ReferenceIdeal.Value.run (F := Ideal) m ρ)

/-- Both programs end at the reference's stages of the kernel's arguments.
    Kernel: the final state holds `W15` at the three result buffers, and on the domain that the precondition gives
    `W15` there is `rHout`, `rEout`, `rSh`.
    Reference: the run's result terms are the stage functions `val_main_v161`, `val_main_v162`, `val_main_v39` of the
    reference's own arguments; each argument equals the kernel's, and the stage functions of the kernel's arguments are
    `rHout`, `rEout`, `rSh` by definition. -/
theorem algebraic : Cert.algebraic_KernelIdeal_ReferenceIdeal := by
  intro m ρ m' ρ' hpre hagree
  refine ⟨fun c => Cert.Bridge.rHout m c, fun c => Cert.Bridge.rEout m c, fun c => Cert.Bridge.rSh m c, ?_, ?_⟩
  · refine (θ_run Cert.KernelIdeal.defs _ _).mono (fun r h c => ?_) (Cert.Bridge.run_vals (F := Ideal) m ρ)
    obtain ⟨eH, eE, eS⟩ := Cert.Bridge.chain m ρ c (Cert.Bridge.dom_of_pre m hpre c)
    exact ⟨(h c).1.trans eH, (h c).2.1.trans eE, (h c).2.2.1.trans eS, (h c).2.2.2⟩
  · refine (θ_run Cert.ReferenceIdeal.defs _ _).mono (fun r h c => ?_) (Cert.ReferenceIdeal.Value.run (F := Ideal) m' ρ')
    obtain ⟨h0, h1, h2, h3, h4, h5, h6, h7, h8, h9, h10, h11, h12, h13, h14, h15, h16, h17, h18, h19, h20, h21, h22, h23, h24, h25⟩ := hagree c
    refine ⟨(h c).1.trans ?_, (h c).2.1.trans ?_, (h c).2.2.1.trans ?_, (h c).2.2.2⟩
    · rw [Cert.ReferenceIdeal.Read.val_main_v161_eq, h0, h1, h2, h3, h4, h5, h6, h7, h8, h9, h10, h11, h12, h13, h14, h15, h16, h17, h18, h19, h20, h21, h22, h23]; rfl
    · rw [Cert.ReferenceIdeal.Read.val_main_v162_eq, h0, h1, h2, h3, h8, h9, h10, h11, h12, h13, h24, h25]; rfl
    · rw [Cert.ReferenceIdeal.Read.val_main_v39_eq, h0, h14, h15, h16, h17]; rfl

theorem claim : Cert.Claim := ⟨Cert.Kernel.Gen.facts, Cert.KernelIdeal.Gen.facts, Cert.ReferenceIdeal.Gen.facts, Cert.Pre_finite_inputs.Gen.facts, frame_k, frame_ki, frame_ri, trivial, algebraic⟩

end Cert.Proof

end
